-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S1024x128x128 : Shape := ⟨3, ![1024, 128, 128]⟩
abbrev S4096x5120 : Shape := ⟨2, ![4096, 5120]⟩
abbrev S3072 : Shape := ⟨1, ![3072]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S1024x128x128 : S_.BroadcastsInDim S1024x128x128 (![] : Fin 0 → Fin S1024x128x128.rank)
  reducesTo_S1024x128x128_S_d0_1_2 : S1024x128x128.ReducesTo [0, 1, 2] S_
  bcast_S_S4096x5120 : S_.BroadcastsInDim S4096x5120 (![] : Fin 0 → Fin S4096x5120.rank)
  reducesTo_S4096x5120_S_d0_1 : S4096x5120.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : IVec S3072 32) (main_v13 : IVec S_ 1) (main_v16 : IVec S4096x5120 1) : IVec S_ 1 :=
  let main_c_5 : IVec S_ 1 := constantI S_ 1 1#1
  let main_v17 : IVec S_ 1 := (fun x v => Host.reduce IntOp.andi x v reducesTo_S4096x5120_S_d0_1 h_S_) main_v16 main_c_5
  let main_v18 : IVec S_ 1 := andi main_v13 main_v17
  let main_c_6 : IVec S_ 32 := constantI S_ 32 0#32
  let main_v19 : IVec S3072 32 := broadcastInDim S3072 ![] bcast_S_S3072 main_c_6
  let main_v20 : IVec S3072 1 := cmpi .sge main_arg4 main_v19
  let main_c_7 : IVec S_ 1 := constantI S_ 1 1#1
  let main_v21 : IVec S_ 1 := (fun x v => Host.reduce IntOp.andi x v reducesTo_S3072_S_d0 h_S_) main_v20 main_c_7
  let main_v22 : IVec S_ 1 := andi main_v18 main_v21
  main_v22

def fn {F : FTy → Type} [FloatOps F] (main_arg0 : FVec F S128x128 .f32) (main_arg1 : FVec F S1024x128x128 .f32) (main_arg2 : FVec F S1024x128x128 .f32) (main_arg3 : FVec F S4096x5120 .f32) (main_arg4 : IVec S3072 32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S1024x128x128 .f32 := Host.absf main_arg1
  let main_cst_0 : FVec F S_ .f32 := constant S_ .f32 0x7F800000#32
  let main_v5 : FVec F S1024x128x128 .f32 := broadcastInDim S1024x128x128 ![] bcast_S_S1024x128x128 main_cst_0
  let main_v6 : IVec S1024x128x128 1 := cmpf .olt main_v4 main_v5
  let main_c_1 : IVec S_ 1 := constantI S_ 1 1#1
  let main_v7 : IVec S_ 1 := (fun x v => Host.reduce IntOp.andi x v reducesTo_S1024x128x128_S_d0_1_2 h_S_) main_v6 main_c_1
  let main_v8 : IVec S_ 1 := andi main_v3 main_v7
  let main_v9 : FVec F S1024x128x128 .f32 := Host.absf main_arg2
  let main_cst_2 : FVec F S_ .f32 := constant S_ .f32 0x7F800000#32
  let main_v10 : FVec F S1024x128x128 .f32 := broadcastInDim S1024x128x128 ![] bcast_S_S1024x128x128 main_cst_2
  let main_v11 : IVec S1024x128x128 1 := cmpf .olt main_v9 main_v10
  let main_c_3 : IVec S_ 1 := constantI S_ 1 1#1
  let main_v12 : IVec S_ 1 := (fun x v => Host.reduce IntOp.andi x v reducesTo_S1024x128x128_S_d0_1_2 h_S_) main_v11 main_c_3
  let main_v13 : IVec S_ 1 := andi main_v8 main_v12
  let main_v14 : FVec F S4096x5120 .f32 := Host.absf main_arg3
  let main_cst_4 : FVec F S_ .f32 := constant S_ .f32 0x7F800000#32
  let main_v15 : FVec F S4096x5120 .f32 := broadcastInDim S4096x5120 ![] bcast_S_S4096x5120 main_cst_4
  let main_v16 : IVec S4096x5120 1 := cmpf .olt main_v14 main_v15
  fn_part1 (F := F) main_arg4 main_v13 main_v16
-- ==== Kernel.lean ====
abbrev S128x128 : Shape := ⟨2, ![128, 128]⟩
abbrev S1024x128x128 : Shape := ⟨3, ![1024, 128, 128]⟩
abbrev S4096x5120 : Shape := ⟨2, ![4096, 5120]⟩
abbrev S3072 : Shape := ⟨1, ![3072]⟩
abbrev S_ : Shape := ⟨0, ![]⟩
abbrev S2048x128x128 : Shape := ⟨3, ![2048, 128, 128]⟩
abbrev S64x128x128 : Shape := ⟨3, ![64, 128, 128]⟩
abbrev S1x128x128 : Shape := ⟨3, ![1, 128, 128]⟩
abbrev S2048x16384 : Shape := ⟨2, ![2048, 16384]⟩
abbrev S2048 : Shape := ⟨1, ![2048]⟩
abbrev S5120 : Shape := ⟨1, ![5120]⟩
abbrev S5120x16384 : Shape := ⟨2, ![5120, 16384]⟩
abbrev S128 : Shape := ⟨1, ![128]⟩
abbrev S1 : Shape := ⟨1, ![1]⟩
abbrev S1x16384 : Shape := ⟨2, ![1, 16384]⟩
abbrev S16384 : Shape := ⟨1, ![16384]⟩
abbrev S4096x2048 : Shape := ⟨2, ![4096, 2048]⟩
abbrev S4096x3072 : Shape := ⟨2, ![4096, 3072]⟩
abbrev S3072x4096 : Shape := ⟨2, ![3072, 4096]⟩
abbrev S2048x4096 : Shape := ⟨2, ![2048, 4096]⟩
abbrev S3072x1 : Shape := ⟨2, ![3072, 1]⟩
abbrev S4096x16384 : Shape := ⟨2, ![4096, 16384]⟩
abbrev S2048x256 : Shape := ⟨2, ![2048, 256]⟩
abbrev S4096x256 : Shape := ⟨2, ![4096, 256]⟩

abbrev nBuf : Space → Nat
  | .hbm => 30
  | .vmem => 14
  | .smem => 1
  | _ => 0

abbrev bufTy : (tb : Table) → Fin (tcTables nBuf tb) → BufTy
  | .hbm, ⟨0, _⟩ => ⟨S128x128, .f32⟩
  | .hbm, ⟨1, _⟩ => ⟨S1024x128x128, .f32⟩
  | .hbm, ⟨2, _⟩ => ⟨S1024x128x128, .f32⟩
  | .hbm, ⟨3, _⟩ => ⟨S4096x5120, .f32⟩
  | .hbm, ⟨4, _⟩ => ⟨S3072, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S3072, .i32⟩
  | .hbm, ⟨9, _⟩ => ⟨S3072, .i32⟩
  | .hbm, ⟨10, _⟩ => ⟨S_, .i32⟩
  | .hbm, ⟨11, _⟩ => ⟨S3072, .i32⟩
  | .hbm, ⟨12, _⟩ => ⟨S3072, .i32⟩
  | .hbm, ⟨13, _⟩ => ⟨S2048x128x128, .f32⟩
  | .hbm, ⟨14, _⟩ => ⟨S2048x128x128, .bf16⟩
  | .hbm, ⟨15, _⟩ => ⟨S2048x16384, .f32⟩
  | .hbm, ⟨16, _⟩ => ⟨S2048x16384, .bf16⟩
  | .hbm, ⟨17, _⟩ => ⟨S2048, .i32⟩
  | .hbm, ⟨18, _⟩ => ⟨S5120x16384, .f32⟩
  | .hbm, ⟨19, _⟩ => ⟨S4096x2048, .f32⟩
  | .hbm, ⟨20, _⟩ => ⟨S4096x3072, .f32⟩
  | .hbm, ⟨21, _⟩ => ⟨S3072x4096, .f32⟩
  | .hbm, ⟨22, _⟩ => ⟨S_, .f32⟩
  | .hbm, ⟨23, _⟩ => ⟨S2048x4096, .f32⟩
  | .hbm, ⟨24, _⟩ => ⟨S3072x1, .i32⟩
  | .hbm, ⟨25, _⟩ => ⟨S2048x4096, .f32⟩
  | .hbm, ⟨26, _⟩ => ⟨S4096x2048, .f32⟩
  | .hbm, ⟨27, _⟩ => ⟨S4096x2048, .f32⟩
  | .hbm, ⟨28, _⟩ => ⟨S4096x2048, .bf16⟩
  | .hbm, ⟨29, _⟩ => ⟨S4096x16384, .f32⟩
  | .local _ .vmem, ⟨0, _⟩ => ⟨S128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | .local _ .vmem, ⟨4, _⟩ => ⟨S64x128x128, .f32⟩
  | .local _ .vmem, ⟨5, _⟩ => ⟨S64x128x128, .f32⟩
  | .local _ .vmem, ⟨6, _⟩ => ⟨S64x128x128, .f32⟩
  | .local _ .vmem, ⟨7, _⟩ => ⟨S64x128x128, .bf16⟩
  | .local _ .vmem, ⟨8, _⟩ => ⟨S64x128x128, .bf16⟩
  | .local _ .vmem, ⟨9, _⟩ => ⟨S4096x2048, .bf16⟩
  | .local _ .vmem, ⟨10, _⟩ => ⟨S2048x256, .bf16⟩
  | .local _ .vmem, ⟨11, _⟩ => ⟨S2048x256, .bf16⟩
  | .local _ .vmem, ⟨12, _⟩ => ⟨S4096x256, .f32⟩
  | .local _ .vmem, ⟨13, _⟩ => ⟨S4096x256, .f32⟩
  | .local _ .smem, ⟨0, _⟩ => ⟨S5120, .i32⟩
  | _, _ => ⟨S128x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 142 → Bool
  | ⟨i, _⟩ => dmaSemScopedAt i

abbrev sig : RefSig :=
  ofTc nBuf bufTy 0 142 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc2_sem0_0 : DmaSem sig := 137
abbrev cc2_sem1_0 : DmaSem sig := 138
abbrev cc2_sem1_1 : DmaSem sig := 139
abbrev cc2_sem2_0 : DmaSem sig := 140
abbrev cc2_sem2_1 : DmaSem sig := 141

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![40], ![false]⟩

abbrev pre1 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k1_off2 (i : grid1.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v4 : BitVec 32 := Scalar.addi v0 c0_i32
  let c0_i32_0 : BitVec 32 := 0#32
  ![v4.toNat, 0]
def k1_off3 (v3 : BitVec 32) : Fin 2 → Nat :=
  let c0_i32_1 : BitVec 32 := 0#32
  ![v3.toNat, 0]

def k1_chk1 (v3 : BitVec 32) : Prop :=
  (∀ a, (k1_off3 v3) a + S1x16384.size a ≤ S2048x16384.size a)
instance k1_chk1.dec : ∀ (v3 : BitVec 32), Decidable (k1_chk1 v3) := fun v3 => decidable_of_iff' _ (Iff.of_eq (k1_chk1.eq_1 v3))
theorem k1_off3_inb : ∀ (v3 : BitVec 32) (k1_hw1 : k1_chk1 v3), ∀ a, (k1_off3 v3) a + S1x16384.size a ≤ S2048x16384.size a := fun v3 k1_hw1 => k1_hw1

def k1_off4 (i : grid1.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v11 : BitVec 32 := Scalar.addi v0 c1_i32
  let v12 : Index := Scalar.indexCast v11
  ![v12.toNat]
def k1_off5 (i : grid1.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v14 : BitVec 32 := Scalar.addi v0 c1_i32
  let c0_i32_2 : BitVec 32 := 0#32
  ![v14.toNat, 0]
def k1_off6 (v13 : BitVec 32) : Fin 2 → Nat :=
  let c0_i32_3 : BitVec 32 := 0#32
  ![v13.toNat, 0]

def k1_chk2 (v13 : BitVec 32) : Prop :=
  (∀ a, (k1_off6 v13) a + S1x16384.size a ≤ S2048x16384.size a)
instance k1_chk2.dec : ∀ (v13 : BitVec 32), Decidable (k1_chk2 v13) := fun v13 => decidable_of_iff' _ (Iff.of_eq (k1_chk2.eq_1 v13))
theorem k1_off6_inb : ∀ (v13 : BitVec 32) (k1_hw2 : k1_chk2 v13), ∀ a, (k1_off6 v13) a + S1x16384.size a ≤ S2048x16384.size a := fun v13 k1_hw2 => k1_hw2

def k1_off7 (i : grid1.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v21 : BitVec 32 := Scalar.addi v0 c2_i32
  let v22 : Index := Scalar.indexCast v21
  ![v22.toNat]
def k1_off8 (i : grid1.Coords) : Fin 2 → Nat :=
  let arg0 : BitVec 32 := BitVec.ofNat 32 (i 0).val
  let c128_i32 : BitVec 32 := 128#32
  let v0 : BitVec 32 := Scalar.muli arg0 c128_i32
  let c2_i32 : BitVec 32 := 2#32
  let v24 : BitVec 32 := Scalar.addi v0 c2_i32
  let c0_i32_4 : BitVec 32 := 0#32
  ![v24.toNat, 0]
def k1_off9 (v23 : BitVec 32) : Fin 2 → Nat :=
  let c0_i32_5 : BitVec 32 := 0#32
  ![v23.toNat, 0]

def k1_chk3 (v23 : BitVec 32) : Prop :=
  (∀ a, (k1_off9 v23) a + S1x16384.size a ≤ S2048x16384.size a)
instance k1_chk3.dec : ∀ (v23 : BitVec 32), Decidable (k1_chk3 v23) := fun v23 => decidable_of_iff' _ (Iff.of_eq (k1_chk3.eq_1 v23))
theorem k1_off9_inb : ∀ (v23 : BitVec 32) (k1_hw3 : k1_chk3 v23), ∀ a, (k1_off9 v23) a + S1x16384.size a ≤ S2048x16384.size a := fun v23 k1_hw3 => k1_hw3

def k1_off10 (i : grid1.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v31 : BitVec 32 := Scalar.addi v0 c3_i32
  let v32 : Index := Scalar.indexCast v31
  ![v32.toNat]
def k1_off11 (i : grid1.Coords) : Fin 2 → Nat :=
  let arg0 : BitVec 32 := BitVec.ofNat 32 (i 0).val
  let c128_i32 : BitVec 32 := 128#32
  let v0 : BitVec 32 := Scalar.muli arg0 c128_i32
  let c3_i32 : BitVec 32 := 3#32
  let v34 : BitVec 32 := Scalar.addi v0 c3_i32
  let c0_i32_6 : BitVec 32 := 0#32
  ![v34.toNat, 0]
def k1_off12 (v33 : BitVec 32) : Fin 2 → Nat :=
  let c0_i32_7 : BitVec 32 := 0#32
  ![v33.toNat, 0]

def k1_chk4 (v33 : BitVec 32) : Prop :=
  (∀ a, (k1_off12 v33) a + S1x16384.size a ≤ S2048x16384.size a)
instance k1_chk4.dec : ∀ (v33 : BitVec 32), Decidable (k1_chk4 v33) := fun v33 => decidable_of_iff' _ (Iff.of_eq (k1_chk4.eq_1 v33))
theorem k1_off12_inb : ∀ (v33 : BitVec 32) (k1_hw4 : k1_chk4 v33), ∀ a, (k1_off12 v33) a + S1x16384.size a ≤ S2048x16384.size a := fun v33 k1_hw4 => k1_hw4

def k1_off13 (i : grid1.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v41 : BitVec 32 := Scalar.addi v0 c4_i32
  let v42 : Index := Scalar.indexCast v41
  ![v42.toNat]
def k1_off14 (i : grid1.Coords) : Fin 2 → Nat :=
  let arg0 : BitVec 32 := BitVec.ofNat 32 (i 0).val
  let c128_i32 : BitVec 32 := 128#32
  let v0 : BitVec 32 := Scalar.muli arg0 c128_i32
  let c4_i32 : BitVec 32 := 4#32
  let v44 : BitVec 32 := Scalar.addi v0 c4_i32
  let c0_i32_8 : BitVec 32 := 0#32
  ![v44.toNat, 0]
def k1_off15 (v43 : BitVec 32) : Fin 2 → Nat :=
  let c0_i32_9 : BitVec 32 := 0#32
  ![v43.toNat, 0]

def k1_chk5 (v43 : BitVec 32) : Prop :=
  (∀ a, (k1_off15 v43) a + S1x16384.size a ≤ S2048x16384.size a)
instance k1_chk5.dec : ∀ (v43 : BitVec 32), Decidable (k1_chk5 v43) := fun v43 => decidable_of_iff' _ (Iff.of_eq (k1_chk5.eq_1 v43))
theorem k1_off15_inb : ∀ (v43 : BitVec 32) (k1_hw5 : k1_chk5 v43), ∀ a, (k1_off15 v43) a + S1x16384.size a ≤ S2048x16384.size a := fun v43 k1_hw5 => k1_hw5

def k1_off16 (i : grid1.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v51 : BitVec 32 := Scalar.addi v0 c5_i32
  let v52 : Index := Scalar.indexCast v51
  ![v52.toNat]
def k1_off17 (i : grid1.Coords) : Fin 2 → Nat :=
  let arg0 : BitVec 32 := BitVec.ofNat 32 (i 0).val
  let c128_i32 : BitVec 32 := 128#32
  let v0 : BitVec 32 := Scalar.muli arg0 c128_i32
  let c5_i32 : BitVec 32 := 5#32
  let v54 : BitVec 32 := Scalar.addi v0 c5_i32
  let c0_i32_10 : BitVec 32 := 0#32
  ![v54.toNat, 0]
def k1_off18 (v53 : BitVec 32) : Fin 2 → Nat :=
  let c0_i32_11 : BitVec 32 := 0#32
  ![v53.toNat, 0]

def k1_chk6 (v53 : BitVec 32) : Prop :=
  (∀ a, (k1_off18 v53) a + S1x16384.size a ≤ S2048x16384.size a)
instance k1_chk6.dec : ∀ (v53 : BitVec 32), Decidable (k1_chk6 v53) := fun v53 => decidable_of_iff' _ (Iff.of_eq (k1_chk6.eq_1 v53))
theorem k1_off18_inb : ∀ (v53 : BitVec 32) (k1_hw6 : k1_chk6 v53), ∀ a, (k1_off18 v53) a + S1x16384.size a ≤ S2048x16384.size a := fun v53 k1_hw6 => k1_hw6

def k1_off19 (i : grid1.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v61 : BitVec 32 := Scalar.addi v0 c6_i32
  let v62 : Index := Scalar.indexCast v61
  ![v62.toNat]
def k1_off20 (i : grid1.Coords) : Fin 2 → Nat :=
  let arg0 : BitVec 32 := BitVec.ofNat 32 (i 0).val
  let c128_i32 : BitVec 32 := 128#32
  let v0 : BitVec 32 := Scalar.muli arg0 c128_i32
  let c6_i32 : BitVec 32 := 6#32
  let v64 : BitVec 32 := Scalar.addi v0 c6_i32
  let c0_i32_12 : BitVec 32 := 0#32
  ![v64.toNat, 0]
def k1_off21 (v63 : BitVec 32) : Fin 2 → Nat :=
  let c0_i32_13 : BitVec 32 := 0#32
  ![v63.toNat, 0]

def k1_chk7 (v63 : BitVec 32) : Prop :=
  (∀ a, (k1_off21 v63) a + S1x16384.size a ≤ S2048x16384.size a)
instance k1_chk7.dec : ∀ (v63 : BitVec 32), Decidable (k1_chk7 v63) := fun v63 => decidable_of_iff' _ (Iff.of_eq (k1_chk7.eq_1 v63))
theorem k1_off21_inb : ∀ (v63 : BitVec 32) (k1_hw7 : k1_chk7 v63), ∀ a, (k1_off21 v63) a + S1x16384.size a ≤ S2048x16384.size a := fun v63 k1_hw7 => k1_hw7

def k1_off22 (i : grid1.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v71 : BitVec 32 := Scalar.addi v0 c7_i32
  let v72 : Index := Scalar.indexCast v71
  ![v72.toNat]
def k1_off23 (i : grid1.Coords) : Fin 2 → Nat :=
  let arg0 : BitVec 32 := BitVec.ofNat 32 (i 0).val
  let c128_i32 : BitVec 32 := 128#32
  let v0 : BitVec 32 := Scalar.muli arg0 c128_i32
  let c7_i32 : BitVec 32 := 7#32
  let v74 : BitVec 32 := Scalar.addi v0 c7_i32
  let c0_i32_14 : BitVec 32 := 0#32
  ![v74.toNat, 0]
def k1_off24 (v73 : BitVec 32) : Fin 2 → Nat :=
  let c0_i32_15 : BitVec 32 := 0#32
  ![v73.toNat, 0]

def k1_chk8 (v73 : BitVec 32) : Prop :=
  (∀ a, (k1_off24 v73) a + S1x16384.size a ≤ S2048x16384.size a)
instance k1_chk8.dec : ∀ (v73 : BitVec 32), Decidable (k1_chk8 v73) := fun v73 => decidable_of_iff' _ (Iff.of_eq (k1_chk8.eq_1 v73))
theorem k1_off24_inb : ∀ (v73 : BitVec 32) (k1_hw8 : k1_chk8 v73), ∀ a, (k1_off24 v73) a + S1x16384.size a ≤ S2048x16384.size a := fun v73 k1_hw8 => k1_hw8

def k1_off25 (i : grid1.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v81 : BitVec 32 := Scalar.addi v0 c8_i32
  let v82 : Index := Scalar.indexCast v81
  ![v82.toNat]
def k1_off26 (i : grid1.Coords) : Fin 2 → Nat :=
  let arg0 : BitVec 32 := BitVec.ofNat 32 (i 0).val
  let c128_i32 : BitVec 32 := 128#32
  let v0 : BitVec 32 := Scalar.muli arg0 c128_i32
  let c8_i32 : BitVec 32 := 8#32
  let v84 : BitVec 32 := Scalar.addi v0 c8_i32
  let c0_i32_16 : BitVec 32 := 0#32
  ![v84.toNat, 0]
def k1_off27 (v83 : BitVec 32) : Fin 2 → Nat :=
  let c0_i32_17 : BitVec 32 := 0#32
  ![v83.toNat, 0]

def k1_chk9 (v83 : BitVec 32) : Prop :=
  (∀ a, (k1_off27 v83) a + S1x16384.size a ≤ S2048x16384.size a)
instance k1_chk9.dec : ∀ (v83 : BitVec 32), Decidable (k1_chk9 v83) := fun v83 => decidable_of_iff' _ (Iff.of_eq (k1_chk9.eq_1 v83))
theorem k1_off27_inb : ∀ (v83 : BitVec 32) (k1_hw9 : k1_chk9 v83), ∀ a, (k1_off27 v83) a + S1x16384.size a ≤ S2048x16384.size a := fun v83 k1_hw9 => k1_hw9

def k1_off28 (i : grid1.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v91 : BitVec 32 := Scalar.addi v0 c9_i32
  let v92 : Index := Scalar.indexCast v91
  ![v92.toNat]
def k1_off29 (i : grid1.Coords) : Fin 2 → Nat :=
  let arg0 : BitVec 32 := BitVec.ofNat 32 (i 0).val
  let c128_i32 : BitVec 32 := 128#32
  let v0 : BitVec 32 := Scalar.muli arg0 c128_i32
  let c9_i32 : BitVec 32 := 9#32
  let v94 : BitVec 32 := Scalar.addi v0 c9_i32
  let c0_i32_18 : BitVec 32 := 0#32
  ![v94.toNat, 0]
def k1_off30 (v93 : BitVec 32) : Fin 2 → Nat :=
  let c0_i32_19 : BitVec 32 := 0#32
  ![v93.toNat, 0]

def k1_chk10 (v93 : BitVec 32) : Prop :=
  (∀ a, (k1_off30 v93) a + S1x16384.size a ≤ S2048x16384.size a)
instance k1_chk10.dec : ∀ (v93 : BitVec 32), Decidable (k1_chk10 v93) := fun v93 => decidable_of_iff' _ (Iff.of_eq (k1_chk10.eq_1 v93))
theorem k1_off30_inb : ∀ (v93 : BitVec 32) (k1_hw10 : k1_chk10 v93), ∀ a, (k1_off30 v93) a + S1x16384.size a ≤ S2048x16384.size a := fun v93 k1_hw10 => k1_hw10

def k1_off31 (i : grid1.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v101 : BitVec 32 := Scalar.addi v0 c10_i32
  let v102 : Index := Scalar.indexCast v101
  ![v102.toNat]
def k1_off32 (i : grid1.Coords) : Fin 2 → Nat :=
  let arg0 : BitVec 32 := BitVec.ofNat 32 (i 0).val
  let c128_i32 : BitVec 32 := 128#32
  let v0 : BitVec 32 := Scalar.muli arg0 c128_i32
  let c10_i32 : BitVec 32 := 10#32
  let v104 : BitVec 32 := Scalar.addi v0 c10_i32
  let c0_i32_20 : BitVec 32 := 0#32
  ![v104.toNat, 0]
def k1_off33 (v103 : BitVec 32) : Fin 2 → Nat :=
  let c0_i32_21 : BitVec 32 := 0#32
  ![v103.toNat, 0]

def k1_chk11 (v103 : BitVec 32) : Prop :=
  (∀ a, (k1_off33 v103) a + S1x16384.size a ≤ S2048x16384.size a)
instance k1_chk11.dec : ∀ (v103 : BitVec 32), Decidable (k1_chk11 v103) := fun v103 => decidable_of_iff' _ (Iff.of_eq (k1_chk11.eq_1 v103))
theorem k1_off33_inb : ∀ (v103 : BitVec 32) (k1_hw11 : k1_chk11 v103), ∀ a, (k1_off33 v103) a + S1x16384.size a ≤ S2048x16384.size a := fun v103 k1_hw11 => k1_hw11

def k1_off34 (i : grid1.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v111 : BitVec 32 := Scalar.addi v0 c11_i32
  let v112 : Index := Scalar.indexCast v111
  ![v112.toNat]
def k1_off35 (i : grid1.Coords) : Fin 2 → Nat :=
  let arg0 : BitVec 32 := BitVec.ofNat 32 (i 0).val
  let c128_i32 : BitVec 32 := 128#32
  let v0 : BitVec 32 := Scalar.muli arg0 c128_i32
  let c11_i32 : BitVec 32 := 11#32
  let v114 : BitVec 32 := Scalar.addi v0 c11_i32
  let c0_i32_22 : BitVec 32 := 0#32
  ![v114.toNat, 0]
def k1_off36 (v113 : BitVec 32) : Fin 2 → Nat :=
  let c0_i32_23 : BitVec 32 := 0#32
  ![v113.toNat, 0]

def k1_chk12 (v113 : BitVec 32) : Prop :=
  (∀ a, (k1_off36 v113) a + S1x16384.size a ≤ S2048x16384.size a)
instance k1_chk12.dec : ∀ (v113 : BitVec 32), Decidable (k1_chk12 v113) := fun v113 => decidable_of_iff' _ (Iff.of_eq (k1_chk12.eq_1 v113))
theorem k1_off36_inb : ∀ (v113 : BitVec 32) (k1_hw12 : k1_chk12 v113), ∀ a, (k1_off36 v113) a + S1x16384.size a ≤ S2048x16384.size a := fun v113 k1_hw12 => k1_hw12

def k1_off37 (i : grid1.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v121 : BitVec 32 := Scalar.addi v0 c12_i32
  let v122 : Index := Scalar.indexCast v121
  ![v122.toNat]
def k1_off38 (i : grid1.Coords) : Fin 2 → Nat :=
  let arg0 : BitVec 32 := BitVec.ofNat 32 (i 0).val
  let c128_i32 : BitVec 32 := 128#32
  let v0 : BitVec 32 := Scalar.muli arg0 c128_i32
  let c12_i32 : BitVec 32 := 12#32
  let v124 : BitVec 32 := Scalar.addi v0 c12_i32
  let c0_i32_24 : BitVec 32 := 0#32
  ![v124.toNat, 0]
def k1_off39 (v123 : BitVec 32) : Fin 2 → Nat :=
  let c0_i32_25 : BitVec 32 := 0#32
  ![v123.toNat, 0]

def k1_chk13 (v123 : BitVec 32) : Prop :=
  (∀ a, (k1_off39 v123) a + S1x16384.size a ≤ S2048x16384.size a)
instance k1_chk13.dec : ∀ (v123 : BitVec 32), Decidable (k1_chk13 v123) := fun v123 => decidable_of_iff' _ (Iff.of_eq (k1_chk13.eq_1 v123))
theorem k1_off39_inb : ∀ (v123 : BitVec 32) (k1_hw13 : k1_chk13 v123), ∀ a, (k1_off39 v123) a + S1x16384.size a ≤ S2048x16384.size a := fun v123 k1_hw13 => k1_hw13

def k1_off40 (i : grid1.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v131 : BitVec 32 := Scalar.addi v0 c13_i32
  let v132 : Index := Scalar.indexCast v131
  ![v132.toNat]
def k1_off41 (i : grid1.Coords) : Fin 2 → Nat :=
  let arg0 : BitVec 32 := BitVec.ofNat 32 (i 0).val
  let c128_i32 : BitVec 32 := 128#32
  let v0 : BitVec 32 := Scalar.muli arg0 c128_i32
  let c13_i32 : BitVec 32 := 13#32
  let v134 : BitVec 32 := Scalar.addi v0 c13_i32
  let c0_i32_26 : BitVec 32 := 0#32
  ![v134.toNat, 0]
def k1_off42 (v133 : BitVec 32) : Fin 2 → Nat :=
  let c0_i32_27 : BitVec 32 := 0#32
  ![v133.toNat, 0]

def k1_chk14 (v133 : BitVec 32) : Prop :=
  (∀ a, (k1_off42 v133) a + S1x16384.size a ≤ S2048x16384.size a)
instance k1_chk14.dec : ∀ (v133 : BitVec 32), Decidable (k1_chk14 v133) := fun v133 => decidable_of_iff' _ (Iff.of_eq (k1_chk14.eq_1 v133))
theorem k1_off42_inb : ∀ (v133 : BitVec 32) (k1_hw14 : k1_chk14 v133), ∀ a, (k1_off42 v133) a + S1x16384.size a ≤ S2048x16384.size a := fun v133 k1_hw14 => k1_hw14

def k1_off43 (i : grid1.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v141 : BitVec 32 := Scalar.addi v0 c14_i32
  let v142 : Index := Scalar.indexCast v141
  ![v142.toNat]
def k1_off44 (i : grid1.Coords) : Fin 2 → Nat :=
  let arg0 : BitVec 32 := BitVec.ofNat 32 (i 0).val
  let c128_i32 : BitVec 32 := 128#32
  let v0 : BitVec 32 := Scalar.muli arg0 c128_i32
  let c14_i32 : BitVec 32 := 14#32
  let v144 : BitVec 32 := Scalar.addi v0 c14_i32
  let c0_i32_28 : BitVec 32 := 0#32
  ![v144.toNat, 0]
def k1_off45 (v143 : BitVec 32) : Fin 2 → Nat :=
  let c0_i32_29 : BitVec 32 := 0#32
  ![v143.toNat, 0]

def k1_chk15 (v143 : BitVec 32) : Prop :=
  (∀ a, (k1_off45 v143) a + S1x16384.size a ≤ S2048x16384.size a)
instance k1_chk15.dec : ∀ (v143 : BitVec 32), Decidable (k1_chk15 v143) := fun v143 => decidable_of_iff' _ (Iff.of_eq (k1_chk15.eq_1 v143))
theorem k1_off45_inb : ∀ (v143 : BitVec 32) (k1_hw15 : k1_chk15 v143), ∀ a, (k1_off45 v143) a + S1x16384.size a ≤ S2048x16384.size a := fun v143 k1_hw15 => k1_hw15

def k1_off46 (i : grid1.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v151 : BitVec 32 := Scalar.addi v0 c15_i32
  let v152 : Index := Scalar.indexCast v151
  ![v152.toNat]
def k1_off47 (i : grid1.Coords) : Fin 2 → Nat :=
  let arg0 : BitVec 32 := BitVec.ofNat 32 (i 0).val
  let c128_i32 : BitVec 32 := 128#32
  let v0 : BitVec 32 := Scalar.muli arg0 c128_i32
  let c15_i32 : BitVec 32 := 15#32
  let v154 : BitVec 32 := Scalar.addi v0 c15_i32
  let c0_i32_30 : BitVec 32 := 0#32
  ![v154.toNat, 0]
def k1_off48 (v153 : BitVec 32) : Fin 2 → Nat :=
  let c0_i32_31 : BitVec 32 := 0#32
  ![v153.toNat, 0]

def k1_chk16 (v153 : BitVec 32) : Prop :=
  (∀ a, (k1_off48 v153) a + S1x16384.size a ≤ S2048x16384.size a)
instance k1_chk16.dec : ∀ (v153 : BitVec 32), Decidable (k1_chk16 v153) := fun v153 => decidable_of_iff' _ (Iff.of_eq (k1_chk16.eq_1 v153))
theorem k1_off48_inb : ∀ (v153 : BitVec 32) (k1_hw16 : k1_chk16 v153), ∀ a, (k1_off48 v153) a + S1x16384.size a ≤ S2048x16384.size a := fun v153 k1_hw16 => k1_hw16

def k1_off49 (i : grid1.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v161 : BitVec 32 := Scalar.addi v0 c16_i32
  let v162 : Index := Scalar.indexCast v161
  ![v162.toNat]
def k1_off50 (i : grid1.Coords) : Fin 2 → Nat :=
  let arg0 : BitVec 32 := BitVec.ofNat 32 (i 0).val
  let c128_i32 : BitVec 32 := 128#32
  let v0 : BitVec 32 := Scalar.muli arg0 c128_i32
  let c16_i32 : BitVec 32 := 16#32
  let v164 : BitVec 32 := Scalar.addi v0 c16_i32
  let c0_i32_32 : BitVec 32 := 0#32
  ![v164.toNat, 0]
def k1_off51 (v163 : BitVec 32) : Fin 2 → Nat :=
  let c0_i32_33 : BitVec 32 := 0#32
  ![v163.toNat, 0]

def k1_chk17 (v163 : BitVec 32) : Prop :=
  (∀ a, (k1_off51 v163) a + S1x16384.size a ≤ S2048x16384.size a)
instance k1_chk17.dec : ∀ (v163 : BitVec 32), Decidable (k1_chk17 v163) := fun v163 => decidable_of_iff' _ (Iff.of_eq (k1_chk17.eq_1 v163))
theorem k1_off51_inb : ∀ (v163 : BitVec 32) (k1_hw17 : k1_chk17 v163), ∀ a, (k1_off51 v163) a + S1x16384.size a ≤ S2048x16384.size a := fun v163 k1_hw17 => k1_hw17

def k1_off52 (i : grid1.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v171 : BitVec 32 := Scalar.addi v0 c17_i32
  let v172 : Index := Scalar.indexCast v171
  ![v172.toNat]
def k1_off53 (i : grid1.Coords) : Fin 2 → Nat :=
  let arg0 : BitVec 32 := BitVec.ofNat 32 (i 0).val
  let c128_i32 : BitVec 32 := 128#32
  let v0 : BitVec 32 := Scalar.muli arg0 c128_i32
  let c17_i32 : BitVec 32 := 17#32
  let v174 : BitVec 32 := Scalar.addi v0 c17_i32
  let c0_i32_34 : BitVec 32 := 0#32
  ![v174.toNat, 0]
def k1_off54 (v173 : BitVec 32) : Fin 2 → Nat :=
  let c0_i32_35 : BitVec 32 := 0#32
  ![v173.toNat, 0]

def k1_chk18 (v173 : BitVec 32) : Prop :=
  (∀ a, (k1_off54 v173) a + S1x16384.size a ≤ S2048x16384.size a)
instance k1_chk18.dec : ∀ (v173 : BitVec 32), Decidable (k1_chk18 v173) := fun v173 => decidable_of_iff' _ (Iff.of_eq (k1_chk18.eq_1 v173))
theorem k1_off54_inb : ∀ (v173 : BitVec 32) (k1_hw18 : k1_chk18 v173), ∀ a, (k1_off54 v173) a + S1x16384.size a ≤ S2048x16384.size a := fun v173 k1_hw18 => k1_hw18

def k1_off55 (i : grid1.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v181 : BitVec 32 := Scalar.addi v0 c18_i32
  let v182 : Index := Scalar.indexCast v181
  ![v182.toNat]
def k1_off56 (i : grid1.Coords) : Fin 2 → Nat :=
  let arg0 : BitVec 32 := BitVec.ofNat 32 (i 0).val
  let c128_i32 : BitVec 32 := 128#32
  let v0 : BitVec 32 := Scalar.muli arg0 c128_i32
  let c18_i32 : BitVec 32 := 18#32
  let v184 : BitVec 32 := Scalar.addi v0 c18_i32
  let c0_i32_36 : BitVec 32 := 0#32
  ![v184.toNat, 0]
def k1_off57 (v183 : BitVec 32) : Fin 2 → Nat :=
  let c0_i32_37 : BitVec 32 := 0#32
  ![v183.toNat, 0]

def k1_chk19 (v183 : BitVec 32) : Prop :=
  (∀ a, (k1_off57 v183) a + S1x16384.size a ≤ S2048x16384.size a)
instance k1_chk19.dec : ∀ (v183 : BitVec 32), Decidable (k1_chk19 v183) := fun v183 => decidable_of_iff' _ (Iff.of_eq (k1_chk19.eq_1 v183))
theorem k1_off57_inb : ∀ (v183 : BitVec 32) (k1_hw19 : k1_chk19 v183), ∀ a, (k1_off57 v183) a + S1x16384.size a ≤ S2048x16384.size a := fun v183 k1_hw19 => k1_hw19

def k1_off58 (i : grid1.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v191 : BitVec 32 := Scalar.addi v0 c19_i32
  let v192 : Index := Scalar.indexCast v191
  ![v192.toNat]
def k1_off59 (i : grid1.Coords) : Fin 2 → Nat :=
  let arg0 : BitVec 32 := BitVec.ofNat 32 (i 0).val
  let c128_i32 : BitVec 32 := 128#32
  let v0 : BitVec 32 := Scalar.muli arg0 c128_i32
  let c19_i32 : BitVec 32 := 19#32
  let v194 : BitVec 32 := Scalar.addi v0 c19_i32
  let c0_i32_38 : BitVec 32 := 0#32
  ![v194.toNat, 0]
def k1_off60 (v193 : BitVec 32) : Fin 2 → Nat :=
  let c0_i32_39 : BitVec 32 := 0#32
  ![v193.toNat, 0]

def k1_chk20 (v193 : BitVec 32) : Prop :=
  (∀ a, (k1_off60 v193) a + S1x16384.size a ≤ S2048x16384.size a)
instance k1_chk20.dec : ∀ (v193 : BitVec 32), Decidable (k1_chk20 v193) := fun v193 => decidable_of_iff' _ (Iff.of_eq (k1_chk20.eq_1 v193))
theorem k1_off60_inb : ∀ (v193 : BitVec 32) (k1_hw20 : k1_chk20 v193), ∀ a, (k1_off60 v193) a + S1x16384.size a ≤ S2048x16384.size a := fun v193 k1_hw20 => k1_hw20

def k1_off61 (i : grid1.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v201 : BitVec 32 := Scalar.addi v0 c20_i32
  let v202 : Index := Scalar.indexCast v201
  ![v202.toNat]
def k1_off62 (i : grid1.Coords) : Fin 2 → Nat :=
  let arg0 : BitVec 32 := BitVec.ofNat 32 (i 0).val
  let c128_i32 : BitVec 32 := 128#32
  let v0 : BitVec 32 := Scalar.muli arg0 c128_i32
  let c20_i32 : BitVec 32 := 20#32
  let v204 : BitVec 32 := Scalar.addi v0 c20_i32
  let c0_i32_40 : BitVec 32 := 0#32
  ![v204.toNat, 0]
def k1_off63 (v203 : BitVec 32) : Fin 2 → Nat :=
  let c0_i32_41 : BitVec 32 := 0#32
  ![v203.toNat, 0]

def k1_chk21 (v203 : BitVec 32) : Prop :=
  (∀ a, (k1_off63 v203) a + S1x16384.size a ≤ S2048x16384.size a)
instance k1_chk21.dec : ∀ (v203 : BitVec 32), Decidable (k1_chk21 v203) := fun v203 => decidable_of_iff' _ (Iff.of_eq (k1_chk21.eq_1 v203))
theorem k1_off63_inb : ∀ (v203 : BitVec 32) (k1_hw21 : k1_chk21 v203), ∀ a, (k1_off63 v203) a + S1x16384.size a ≤ S2048x16384.size a := fun v203 k1_hw21 => k1_hw21

def k1_off64 (i : grid1.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v211 : BitVec 32 := Scalar.addi v0 c21_i32
  let v212 : Index := Scalar.indexCast v211
  ![v212.toNat]
def k1_off65 (i : grid1.Coords) : Fin 2 → Nat :=
  let arg0 : BitVec 32 := BitVec.ofNat 32 (i 0).val
  let c128_i32 : BitVec 32 := 128#32
  let v0 : BitVec 32 := Scalar.muli arg0 c128_i32
  let c21_i32 : BitVec 32 := 21#32
  let v214 : BitVec 32 := Scalar.addi v0 c21_i32
  let c0_i32_42 : BitVec 32 := 0#32
  ![v214.toNat, 0]
def k1_off66 (v213 : BitVec 32) : Fin 2 → Nat :=
  let c0_i32_43 : BitVec 32 := 0#32
  ![v213.toNat, 0]

def k1_chk22 (v213 : BitVec 32) : Prop :=
  (∀ a, (k1_off66 v213) a + S1x16384.size a ≤ S2048x16384.size a)
instance k1_chk22.dec : ∀ (v213 : BitVec 32), Decidable (k1_chk22 v213) := fun v213 => decidable_of_iff' _ (Iff.of_eq (k1_chk22.eq_1 v213))
theorem k1_off66_inb : ∀ (v213 : BitVec 32) (k1_hw22 : k1_chk22 v213), ∀ a, (k1_off66 v213) a + S1x16384.size a ≤ S2048x16384.size a := fun v213 k1_hw22 => k1_hw22

def k1_off67 (i : grid1.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v221 : BitVec 32 := Scalar.addi v0 c22_i32
  let v222 : Index := Scalar.indexCast v221
  ![v222.toNat]
def k1_off68 (i : grid1.Coords) : Fin 2 → Nat :=
  let arg0 : BitVec 32 := BitVec.ofNat 32 (i 0).val
  let c128_i32 : BitVec 32 := 128#32
  let v0 : BitVec 32 := Scalar.muli arg0 c128_i32
  let c22_i32 : BitVec 32 := 22#32
  let v224 : BitVec 32 := Scalar.addi v0 c22_i32
  let c0_i32_44 : BitVec 32 := 0#32
  ![v224.toNat, 0]
def k1_off69 (v223 : BitVec 32) : Fin 2 → Nat :=
  let c0_i32_45 : BitVec 32 := 0#32
  ![v223.toNat, 0]

def k1_chk23 (v223 : BitVec 32) : Prop :=
  (∀ a, (k1_off69 v223) a + S1x16384.size a ≤ S2048x16384.size a)
instance k1_chk23.dec : ∀ (v223 : BitVec 32), Decidable (k1_chk23 v223) := fun v223 => decidable_of_iff' _ (Iff.of_eq (k1_chk23.eq_1 v223))
theorem k1_off69_inb : ∀ (v223 : BitVec 32) (k1_hw23 : k1_chk23 v223), ∀ a, (k1_off69 v223) a + S1x16384.size a ≤ S2048x16384.size a := fun v223 k1_hw23 => k1_hw23

def k1_off70 (i : grid1.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v231 : BitVec 32 := Scalar.addi v0 c23_i32
  let v232 : Index := Scalar.indexCast v231
  ![v232.toNat]
def k1_off71 (i : grid1.Coords) : Fin 2 → Nat :=
  let arg0 : BitVec 32 := BitVec.ofNat 32 (i 0).val
  let c128_i32 : BitVec 32 := 128#32
  let v0 : BitVec 32 := Scalar.muli arg0 c128_i32
  let c23_i32 : BitVec 32 := 23#32
  let v234 : BitVec 32 := Scalar.addi v0 c23_i32
  let c0_i32_46 : BitVec 32 := 0#32
  ![v234.toNat, 0]
def k1_off72 (v233 : BitVec 32) : Fin 2 → Nat :=
  let c0_i32_47 : BitVec 32 := 0#32
  ![v233.toNat, 0]

def k1_chk24 (v233 : BitVec 32) : Prop :=
  (∀ a, (k1_off72 v233) a + S1x16384.size a ≤ S2048x16384.size a)
instance k1_chk24.dec : ∀ (v233 : BitVec 32), Decidable (k1_chk24 v233) := fun v233 => decidable_of_iff' _ (Iff.of_eq (k1_chk24.eq_1 v233))
theorem k1_off72_inb : ∀ (v233 : BitVec 32) (k1_hw24 : k1_chk24 v233), ∀ a, (k1_off72 v233) a + S1x16384.size a ≤ S2048x16384.size a := fun v233 k1_hw24 => k1_hw24

def k1_off73 (i : grid1.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v241 : BitVec 32 := Scalar.addi v0 c24_i32
  let v242 : Index := Scalar.indexCast v241
  ![v242.toNat]
def k1_off74 (i : grid1.Coords) : Fin 2 → Nat :=
  let arg0 : BitVec 32 := BitVec.ofNat 32 (i 0).val
  let c128_i32 : BitVec 32 := 128#32
  let v0 : BitVec 32 := Scalar.muli arg0 c128_i32
  let c24_i32 : BitVec 32 := 24#32
  let v244 : BitVec 32 := Scalar.addi v0 c24_i32
  let c0_i32_48 : BitVec 32 := 0#32
  ![v244.toNat, 0]
def k1_off75 (v243 : BitVec 32) : Fin 2 → Nat :=
  let c0_i32_49 : BitVec 32 := 0#32
  ![v243.toNat, 0]

def k1_chk25 (v243 : BitVec 32) : Prop :=
  (∀ a, (k1_off75 v243) a + S1x16384.size a ≤ S2048x16384.size a)
instance k1_chk25.dec : ∀ (v243 : BitVec 32), Decidable (k1_chk25 v243) := fun v243 => decidable_of_iff' _ (Iff.of_eq (k1_chk25.eq_1 v243))
theorem k1_off75_inb : ∀ (v243 : BitVec 32) (k1_hw25 : k1_chk25 v243), ∀ a, (k1_off75 v243) a + S1x16384.size a ≤ S2048x16384.size a := fun v243 k1_hw25 => k1_hw25

def k1_off76 (i : grid1.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v251 : BitVec 32 := Scalar.addi v0 c25_i32
  let v252 : Index := Scalar.indexCast v251
  ![v252.toNat]
def k1_off77 (i : grid1.Coords) : Fin 2 → Nat :=
  let arg0 : BitVec 32 := BitVec.ofNat 32 (i 0).val
  let c128_i32 : BitVec 32 := 128#32
  let v0 : BitVec 32 := Scalar.muli arg0 c128_i32
  let c25_i32 : BitVec 32 := 25#32
  let v254 : BitVec 32 := Scalar.addi v0 c25_i32
  let c0_i32_50 : BitVec 32 := 0#32
  ![v254.toNat, 0]
def k1_off78 (v253 : BitVec 32) : Fin 2 → Nat :=
  let c0_i32_51 : BitVec 32 := 0#32
  ![v253.toNat, 0]

def k1_chk26 (v253 : BitVec 32) : Prop :=
  (∀ a, (k1_off78 v253) a + S1x16384.size a ≤ S2048x16384.size a)
instance k1_chk26.dec : ∀ (v253 : BitVec 32), Decidable (k1_chk26 v253) := fun v253 => decidable_of_iff' _ (Iff.of_eq (k1_chk26.eq_1 v253))
theorem k1_off78_inb : ∀ (v253 : BitVec 32) (k1_hw26 : k1_chk26 v253), ∀ a, (k1_off78 v253) a + S1x16384.size a ≤ S2048x16384.size a := fun v253 k1_hw26 => k1_hw26

def k1_off79 (i : grid1.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v261 : BitVec 32 := Scalar.addi v0 c26_i32
  let v262 : Index := Scalar.indexCast v261
  ![v262.toNat]
def k1_off80 (i : grid1.Coords) : Fin 2 → Nat :=
  let arg0 : BitVec 32 := BitVec.ofNat 32 (i 0).val
  let c128_i32 : BitVec 32 := 128#32
  let v0 : BitVec 32 := Scalar.muli arg0 c128_i32
  let c26_i32 : BitVec 32 := 26#32
  let v264 : BitVec 32 := Scalar.addi v0 c26_i32
  let c0_i32_52 : BitVec 32 := 0#32
  ![v264.toNat, 0]
def k1_off81 (v263 : BitVec 32) : Fin 2 → Nat :=
  let c0_i32_53 : BitVec 32 := 0#32
  ![v263.toNat, 0]

def k1_chk27 (v263 : BitVec 32) : Prop :=
  (∀ a, (k1_off81 v263) a + S1x16384.size a ≤ S2048x16384.size a)
instance k1_chk27.dec : ∀ (v263 : BitVec 32), Decidable (k1_chk27 v263) := fun v263 => decidable_of_iff' _ (Iff.of_eq (k1_chk27.eq_1 v263))
theorem k1_off81_inb : ∀ (v263 : BitVec 32) (k1_hw27 : k1_chk27 v263), ∀ a, (k1_off81 v263) a + S1x16384.size a ≤ S2048x16384.size a := fun v263 k1_hw27 => k1_hw27

def k1_off82 (i : grid1.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v271 : BitVec 32 := Scalar.addi v0 c27_i32
  let v272 : Index := Scalar.indexCast v271
  ![v272.toNat]
def k1_off83 (i : grid1.Coords) : Fin 2 → Nat :=
  let arg0 : BitVec 32 := BitVec.ofNat 32 (i 0).val
  let c128_i32 : BitVec 32 := 128#32
  let v0 : BitVec 32 := Scalar.muli arg0 c128_i32
  let c27_i32 : BitVec 32 := 27#32
  let v274 : BitVec 32 := Scalar.addi v0 c27_i32
  let c0_i32_54 : BitVec 32 := 0#32
  ![v274.toNat, 0]
def k1_off84 (v273 : BitVec 32) : Fin 2 → Nat :=
  let c0_i32_55 : BitVec 32 := 0#32
  ![v273.toNat, 0]

def k1_chk28 (v273 : BitVec 32) : Prop :=
  (∀ a, (k1_off84 v273) a + S1x16384.size a ≤ S2048x16384.size a)
instance k1_chk28.dec : ∀ (v273 : BitVec 32), Decidable (k1_chk28 v273) := fun v273 => decidable_of_iff' _ (Iff.of_eq (k1_chk28.eq_1 v273))
theorem k1_off84_inb : ∀ (v273 : BitVec 32) (k1_hw28 : k1_chk28 v273), ∀ a, (k1_off84 v273) a + S1x16384.size a ≤ S2048x16384.size a := fun v273 k1_hw28 => k1_hw28

def k1_off85 (i : grid1.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v281 : BitVec 32 := Scalar.addi v0 c28_i32
  let v282 : Index := Scalar.indexCast v281
  ![v282.toNat]
def k1_off86 (i : grid1.Coords) : Fin 2 → Nat :=
  let arg0 : BitVec 32 := BitVec.ofNat 32 (i 0).val
  let c128_i32 : BitVec 32 := 128#32
  let v0 : BitVec 32 := Scalar.muli arg0 c128_i32
  let c28_i32 : BitVec 32 := 28#32
  let v284 : BitVec 32 := Scalar.addi v0 c28_i32
  let c0_i32_56 : BitVec 32 := 0#32
  ![v284.toNat, 0]
def k1_off87 (v283 : BitVec 32) : Fin 2 → Nat :=
  let c0_i32_57 : BitVec 32 := 0#32
  ![v283.toNat, 0]

def k1_chk29 (v283 : BitVec 32) : Prop :=
  (∀ a, (k1_off87 v283) a + S1x16384.size a ≤ S2048x16384.size a)
instance k1_chk29.dec : ∀ (v283 : BitVec 32), Decidable (k1_chk29 v283) := fun v283 => decidable_of_iff' _ (Iff.of_eq (k1_chk29.eq_1 v283))
theorem k1_off87_inb : ∀ (v283 : BitVec 32) (k1_hw29 : k1_chk29 v283), ∀ a, (k1_off87 v283) a + S1x16384.size a ≤ S2048x16384.size a := fun v283 k1_hw29 => k1_hw29

def k1_off88 (i : grid1.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v291 : BitVec 32 := Scalar.addi v0 c29_i32
  let v292 : Index := Scalar.indexCast v291
  ![v292.toNat]
def k1_off89 (i : grid1.Coords) : Fin 2 → Nat :=
  let arg0 : BitVec 32 := BitVec.ofNat 32 (i 0).val
  let c128_i32 : BitVec 32 := 128#32
  let v0 : BitVec 32 := Scalar.muli arg0 c128_i32
  let c29_i32 : BitVec 32 := 29#32
  let v294 : BitVec 32 := Scalar.addi v0 c29_i32
  let c0_i32_58 : BitVec 32 := 0#32
  ![v294.toNat, 0]
def k1_off90 (v293 : BitVec 32) : Fin 2 → Nat :=
  let c0_i32_59 : BitVec 32 := 0#32
  ![v293.toNat, 0]

def k1_chk30 (v293 : BitVec 32) : Prop :=
  (∀ a, (k1_off90 v293) a + S1x16384.size a ≤ S2048x16384.size a)
instance k1_chk30.dec : ∀ (v293 : BitVec 32), Decidable (k1_chk30 v293) := fun v293 => decidable_of_iff' _ (Iff.of_eq (k1_chk30.eq_1 v293))
theorem k1_off90_inb : ∀ (v293 : BitVec 32) (k1_hw30 : k1_chk30 v293), ∀ a, (k1_off90 v293) a + S1x16384.size a ≤ S2048x16384.size a := fun v293 k1_hw30 => k1_hw30

def k1_off91 (i : grid1.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v301 : BitVec 32 := Scalar.addi v0 c30_i32
  let v302 : Index := Scalar.indexCast v301
  ![v302.toNat]
def k1_off92 (i : grid1.Coords) : Fin 2 → Nat :=
  let arg0 : BitVec 32 := BitVec.ofNat 32 (i 0).val
  let c128_i32 : BitVec 32 := 128#32
  let v0 : BitVec 32 := Scalar.muli arg0 c128_i32
  let c30_i32 : BitVec 32 := 30#32
  let v304 : BitVec 32 := Scalar.addi v0 c30_i32
  let c0_i32_60 : BitVec 32 := 0#32
  ![v304.toNat, 0]
def k1_off93 (v303 : BitVec 32) : Fin 2 → Nat :=
  let c0_i32_61 : BitVec 32 := 0#32
  ![v303.toNat, 0]

def k1_chk31 (v303 : BitVec 32) : Prop :=
  (∀ a, (k1_off93 v303) a + S1x16384.size a ≤ S2048x16384.size a)
instance k1_chk31.dec : ∀ (v303 : BitVec 32), Decidable (k1_chk31 v303) := fun v303 => decidable_of_iff' _ (Iff.of_eq (k1_chk31.eq_1 v303))
theorem k1_off93_inb : ∀ (v303 : BitVec 32) (k1_hw31 : k1_chk31 v303), ∀ a, (k1_off93 v303) a + S1x16384.size a ≤ S2048x16384.size a := fun v303 k1_hw31 => k1_hw31

def k1_off94 (i : grid1.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v311 : BitVec 32 := Scalar.addi v0 c31_i32
  let v312 : Index := Scalar.indexCast v311
  ![v312.toNat]
def k1_off95 (i : grid1.Coords) : Fin 2 → Nat :=
  let arg0 : BitVec 32 := BitVec.ofNat 32 (i 0).val
  let c128_i32 : BitVec 32 := 128#32
  let v0 : BitVec 32 := Scalar.muli arg0 c128_i32
  let c31_i32 : BitVec 32 := 31#32
  let v314 : BitVec 32 := Scalar.addi v0 c31_i32
  let c0_i32_62 : BitVec 32 := 0#32
  ![v314.toNat, 0]
def k1_off96 (v313 : BitVec 32) : Fin 2 → Nat :=
  let c0_i32_63 : BitVec 32 := 0#32
  ![v313.toNat, 0]

def k1_chk32 (v313 : BitVec 32) : Prop :=
  (∀ a, (k1_off96 v313) a + S1x16384.size a ≤ S2048x16384.size a)
instance k1_chk32.dec : ∀ (v313 : BitVec 32), Decidable (k1_chk32 v313) := fun v313 => decidable_of_iff' _ (Iff.of_eq (k1_chk32.eq_1 v313))
theorem k1_off96_inb : ∀ (v313 : BitVec 32) (k1_hw32 : k1_chk32 v313), ∀ a, (k1_off96 v313) a + S1x16384.size a ≤ S2048x16384.size a := fun v313 k1_hw32 => k1_hw32

def k1_off97 (i : grid1.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v321 : BitVec 32 := Scalar.addi v0 c32_i32
  let v322 : Index := Scalar.indexCast v321
  ![v322.toNat]
def k1_off98 (i : grid1.Coords) : Fin 2 → Nat :=
  let arg0 : BitVec 32 := BitVec.ofNat 32 (i 0).val
  let c128_i32 : BitVec 32 := 128#32
  let v0 : BitVec 32 := Scalar.muli arg0 c128_i32
  let c32_i32 : BitVec 32 := 32#32
  let v324 : BitVec 32 := Scalar.addi v0 c32_i32
  let c0_i32_64 : BitVec 32 := 0#32
  ![v324.toNat, 0]
def k1_off99 (v323 : BitVec 32) : Fin 2 → Nat :=
  let c0_i32_65 : BitVec 32 := 0#32
  ![v323.toNat, 0]

def k1_chk33 (v323 : BitVec 32) : Prop :=
  (∀ a, (k1_off99 v323) a + S1x16384.size a ≤ S2048x16384.size a)
instance k1_chk33.dec : ∀ (v323 : BitVec 32), Decidable (k1_chk33 v323) := fun v323 => decidable_of_iff' _ (Iff.of_eq (k1_chk33.eq_1 v323))
theorem k1_off99_inb : ∀ (v323 : BitVec 32) (k1_hw33 : k1_chk33 v323), ∀ a, (k1_off99 v323) a + S1x16384.size a ≤ S2048x16384.size a := fun v323 k1_hw33 => k1_hw33

def k1_off100 (i : grid1.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v331 : BitVec 32 := Scalar.addi v0 c33_i32
  let v332 : Index := Scalar.indexCast v331
  ![v332.toNat]
def k1_off101 (i : grid1.Coords) : Fin 2 → Nat :=
  let arg0 : BitVec 32 := BitVec.ofNat 32 (i 0).val
  let c128_i32 : BitVec 32 := 128#32
  let v0 : BitVec 32 := Scalar.muli arg0 c128_i32
  let c33_i32 : BitVec 32 := 33#32
  let v334 : BitVec 32 := Scalar.addi v0 c33_i32
  let c0_i32_66 : BitVec 32 := 0#32
  ![v334.toNat, 0]
def k1_off102 (v333 : BitVec 32) : Fin 2 → Nat :=
  let c0_i32_67 : BitVec 32 := 0#32
  ![v333.toNat, 0]

def k1_chk34 (v333 : BitVec 32) : Prop :=
  (∀ a, (k1_off102 v333) a + S1x16384.size a ≤ S2048x16384.size a)
instance k1_chk34.dec : ∀ (v333 : BitVec 32), Decidable (k1_chk34 v333) := fun v333 => decidable_of_iff' _ (Iff.of_eq (k1_chk34.eq_1 v333))
theorem k1_off102_inb : ∀ (v333 : BitVec 32) (k1_hw34 : k1_chk34 v333), ∀ a, (k1_off102 v333) a + S1x16384.size a ≤ S2048x16384.size a := fun v333 k1_hw34 => k1_hw34

def k1_off103 (i : grid1.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v341 : BitVec 32 := Scalar.addi v0 c34_i32
  let v342 : Index := Scalar.indexCast v341
  ![v342.toNat]
def k1_off104 (i : grid1.Coords) : Fin 2 → Nat :=
  let arg0 : BitVec 32 := BitVec.ofNat 32 (i 0).val
  let c128_i32 : BitVec 32 := 128#32
  let v0 : BitVec 32 := Scalar.muli arg0 c128_i32
  let c34_i32 : BitVec 32 := 34#32
  let v344 : BitVec 32 := Scalar.addi v0 c34_i32
  let c0_i32_68 : BitVec 32 := 0#32
  ![v344.toNat, 0]
def k1_off105 (v343 : BitVec 32) : Fin 2 → Nat :=
  let c0_i32_69 : BitVec 32 := 0#32
  ![v343.toNat, 0]

def k1_chk35 (v343 : BitVec 32) : Prop :=
  (∀ a, (k1_off105 v343) a + S1x16384.size a ≤ S2048x16384.size a)
instance k1_chk35.dec : ∀ (v343 : BitVec 32), Decidable (k1_chk35 v343) := fun v343 => decidable_of_iff' _ (Iff.of_eq (k1_chk35.eq_1 v343))
theorem k1_off105_inb : ∀ (v343 : BitVec 32) (k1_hw35 : k1_chk35 v343), ∀ a, (k1_off105 v343) a + S1x16384.size a ≤ S2048x16384.size a := fun v343 k1_hw35 => k1_hw35

def k1_off106 (i : grid1.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v351 : BitVec 32 := Scalar.addi v0 c35_i32
  let v352 : Index := Scalar.indexCast v351
  ![v352.toNat]
def k1_off107 (i : grid1.Coords) : Fin 2 → Nat :=
  let arg0 : BitVec 32 := BitVec.ofNat 32 (i 0).val
  let c128_i32 : BitVec 32 := 128#32
  let v0 : BitVec 32 := Scalar.muli arg0 c128_i32
  let c35_i32 : BitVec 32 := 35#32
  let v354 : BitVec 32 := Scalar.addi v0 c35_i32
  let c0_i32_70 : BitVec 32 := 0#32
  ![v354.toNat, 0]
def k1_off108 (v353 : BitVec 32) : Fin 2 → Nat :=
  let c0_i32_71 : BitVec 32 := 0#32
  ![v353.toNat, 0]

def k1_chk36 (v353 : BitVec 32) : Prop :=
  (∀ a, (k1_off108 v353) a + S1x16384.size a ≤ S2048x16384.size a)
instance k1_chk36.dec : ∀ (v353 : BitVec 32), Decidable (k1_chk36 v353) := fun v353 => decidable_of_iff' _ (Iff.of_eq (k1_chk36.eq_1 v353))
theorem k1_off108_inb : ∀ (v353 : BitVec 32) (k1_hw36 : k1_chk36 v353), ∀ a, (k1_off108 v353) a + S1x16384.size a ≤ S2048x16384.size a := fun v353 k1_hw36 => k1_hw36

def k1_off109 (i : grid1.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v361 : BitVec 32 := Scalar.addi v0 c36_i32
  let v362 : Index := Scalar.indexCast v361
  ![v362.toNat]
def k1_off110 (i : grid1.Coords) : Fin 2 → Nat :=
  let arg0 : BitVec 32 := BitVec.ofNat 32 (i 0).val
  let c128_i32 : BitVec 32 := 128#32
  let v0 : BitVec 32 := Scalar.muli arg0 c128_i32
  let c36_i32 : BitVec 32 := 36#32
  let v364 : BitVec 32 := Scalar.addi v0 c36_i32
  let c0_i32_72 : BitVec 32 := 0#32
  ![v364.toNat, 0]
def k1_off111 (v363 : BitVec 32) : Fin 2 → Nat :=
  let c0_i32_73 : BitVec 32 := 0#32
  ![v363.toNat, 0]

def k1_chk37 (v363 : BitVec 32) : Prop :=
  (∀ a, (k1_off111 v363) a + S1x16384.size a ≤ S2048x16384.size a)
instance k1_chk37.dec : ∀ (v363 : BitVec 32), Decidable (k1_chk37 v363) := fun v363 => decidable_of_iff' _ (Iff.of_eq (k1_chk37.eq_1 v363))
theorem k1_off111_inb : ∀ (v363 : BitVec 32) (k1_hw37 : k1_chk37 v363), ∀ a, (k1_off111 v363) a + S1x16384.size a ≤ S2048x16384.size a := fun v363 k1_hw37 => k1_hw37

def k1_off112 (i : grid1.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v371 : BitVec 32 := Scalar.addi v0 c37_i32
  let v372 : Index := Scalar.indexCast v371
  ![v372.toNat]
def k1_off113 (i : grid1.Coords) : Fin 2 → Nat :=
  let arg0 : BitVec 32 := BitVec.ofNat 32 (i 0).val
  let c128_i32 : BitVec 32 := 128#32
  let v0 : BitVec 32 := Scalar.muli arg0 c128_i32
  let c37_i32 : BitVec 32 := 37#32
  let v374 : BitVec 32 := Scalar.addi v0 c37_i32
  let c0_i32_74 : BitVec 32 := 0#32
  ![v374.toNat, 0]
def k1_off114 (v373 : BitVec 32) : Fin 2 → Nat :=
  let c0_i32_75 : BitVec 32 := 0#32
  ![v373.toNat, 0]

def k1_chk38 (v373 : BitVec 32) : Prop :=
  (∀ a, (k1_off114 v373) a + S1x16384.size a ≤ S2048x16384.size a)
instance k1_chk38.dec : ∀ (v373 : BitVec 32), Decidable (k1_chk38 v373) := fun v373 => decidable_of_iff' _ (Iff.of_eq (k1_chk38.eq_1 v373))
theorem k1_off114_inb : ∀ (v373 : BitVec 32) (k1_hw38 : k1_chk38 v373), ∀ a, (k1_off114 v373) a + S1x16384.size a ≤ S2048x16384.size a := fun v373 k1_hw38 => k1_hw38

def k1_off115 (i : grid1.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v381 : BitVec 32 := Scalar.addi v0 c38_i32
  let v382 : Index := Scalar.indexCast v381
  ![v382.toNat]
def k1_off116 (i : grid1.Coords) : Fin 2 → Nat :=
  let arg0 : BitVec 32 := BitVec.ofNat 32 (i 0).val
  let c128_i32 : BitVec 32 := 128#32
  let v0 : BitVec 32 := Scalar.muli arg0 c128_i32
  let c38_i32 : BitVec 32 := 38#32
  let v384 : BitVec 32 := Scalar.addi v0 c38_i32
  let c0_i32_76 : BitVec 32 := 0#32
  ![v384.toNat, 0]
def k1_off117 (v383 : BitVec 32) : Fin 2 → Nat :=
  let c0_i32_77 : BitVec 32 := 0#32
  ![v383.toNat, 0]

def k1_chk39 (v383 : BitVec 32) : Prop :=
  (∀ a, (k1_off117 v383) a + S1x16384.size a ≤ S2048x16384.size a)
instance k1_chk39.dec : ∀ (v383 : BitVec 32), Decidable (k1_chk39 v383) := fun v383 => decidable_of_iff' _ (Iff.of_eq (k1_chk39.eq_1 v383))
theorem k1_off117_inb : ∀ (v383 : BitVec 32) (k1_hw39 : k1_chk39 v383), ∀ a, (k1_off117 v383) a + S1x16384.size a ≤ S2048x16384.size a := fun v383 k1_hw39 => k1_hw39

def k1_off118 (i : grid1.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v391 : BitVec 32 := Scalar.addi v0 c39_i32
  let v392 : Index := Scalar.indexCast v391
  ![v392.toNat]
def k1_off119 (i : grid1.Coords) : Fin 2 → Nat :=
  let arg0 : BitVec 32 := BitVec.ofNat 32 (i 0).val
  let c128_i32 : BitVec 32 := 128#32
  let v0 : BitVec 32 := Scalar.muli arg0 c128_i32
  let c39_i32 : BitVec 32 := 39#32
  let v394 : BitVec 32 := Scalar.addi v0 c39_i32
  let c0_i32_78 : BitVec 32 := 0#32
  ![v394.toNat, 0]
def k1_off120 (v393 : BitVec 32) : Fin 2 → Nat :=
  let c0_i32_79 : BitVec 32 := 0#32
  ![v393.toNat, 0]

def k1_chk40 (v393 : BitVec 32) : Prop :=
  (∀ a, (k1_off120 v393) a + S1x16384.size a ≤ S2048x16384.size a)
instance k1_chk40.dec : ∀ (v393 : BitVec 32), Decidable (k1_chk40 v393) := fun v393 => decidable_of_iff' _ (Iff.of_eq (k1_chk40.eq_1 v393))
theorem k1_off120_inb : ∀ (v393 : BitVec 32) (k1_hw40 : k1_chk40 v393), ∀ a, (k1_off120 v393) a + S1x16384.size a ≤ S2048x16384.size a := fun v393 k1_hw40 => k1_hw40

def k1_off121 (i : grid1.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v401 : BitVec 32 := Scalar.addi v0 c40_i32
  let v402 : Index := Scalar.indexCast v401
  ![v402.toNat]
def k1_off122 (i : grid1.Coords) : Fin 2 → Nat :=
  let arg0 : BitVec 32 := BitVec.ofNat 32 (i 0).val
  let c128_i32 : BitVec 32 := 128#32
  let v0 : BitVec 32 := Scalar.muli arg0 c128_i32
  let c40_i32 : BitVec 32 := 40#32
  let v404 : BitVec 32 := Scalar.addi v0 c40_i32
  let c0_i32_80 : BitVec 32 := 0#32
  ![v404.toNat, 0]
def k1_off123 (v403 : BitVec 32) : Fin 2 → Nat :=
  let c0_i32_81 : BitVec 32 := 0#32
  ![v403.toNat, 0]

def k1_chk41 (v403 : BitVec 32) : Prop :=
  (∀ a, (k1_off123 v403) a + S1x16384.size a ≤ S2048x16384.size a)
instance k1_chk41.dec : ∀ (v403 : BitVec 32), Decidable (k1_chk41 v403) := fun v403 => decidable_of_iff' _ (Iff.of_eq (k1_chk41.eq_1 v403))
theorem k1_off123_inb : ∀ (v403 : BitVec 32) (k1_hw41 : k1_chk41 v403), ∀ a, (k1_off123 v403) a + S1x16384.size a ≤ S2048x16384.size a := fun v403 k1_hw41 => k1_hw41

def k1_off124 (i : grid1.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v411 : BitVec 32 := Scalar.addi v0 c41_i32
  let v412 : Index := Scalar.indexCast v411
  ![v412.toNat]
def k1_off125 (i : grid1.Coords) : Fin 2 → Nat :=
  let arg0 : BitVec 32 := BitVec.ofNat 32 (i 0).val
  let c128_i32 : BitVec 32 := 128#32
  let v0 : BitVec 32 := Scalar.muli arg0 c128_i32
  let c41_i32 : BitVec 32 := 41#32
  let v414 : BitVec 32 := Scalar.addi v0 c41_i32
  let c0_i32_82 : BitVec 32 := 0#32
  ![v414.toNat, 0]
def k1_off126 (v413 : BitVec 32) : Fin 2 → Nat :=
  let c0_i32_83 : BitVec 32 := 0#32
  ![v413.toNat, 0]

def k1_chk42 (v413 : BitVec 32) : Prop :=
  (∀ a, (k1_off126 v413) a + S1x16384.size a ≤ S2048x16384.size a)
instance k1_chk42.dec : ∀ (v413 : BitVec 32), Decidable (k1_chk42 v413) := fun v413 => decidable_of_iff' _ (Iff.of_eq (k1_chk42.eq_1 v413))
theorem k1_off126_inb : ∀ (v413 : BitVec 32) (k1_hw42 : k1_chk42 v413), ∀ a, (k1_off126 v413) a + S1x16384.size a ≤ S2048x16384.size a := fun v413 k1_hw42 => k1_hw42

def k1_off127 (i : grid1.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v421 : BitVec 32 := Scalar.addi v0 c42_i32
  let v422 : Index := Scalar.indexCast v421
  ![v422.toNat]
def k1_off128 (i : grid1.Coords) : Fin 2 → Nat :=
  let arg0 : BitVec 32 := BitVec.ofNat 32 (i 0).val
  let c128_i32 : BitVec 32 := 128#32
  let v0 : BitVec 32 := Scalar.muli arg0 c128_i32
  let c42_i32 : BitVec 32 := 42#32
  let v424 : BitVec 32 := Scalar.addi v0 c42_i32
  let c0_i32_84 : BitVec 32 := 0#32
  ![v424.toNat, 0]
def k1_off129 (v423 : BitVec 32) : Fin 2 → Nat :=
  let c0_i32_85 : BitVec 32 := 0#32
  ![v423.toNat, 0]

def k1_chk43 (v423 : BitVec 32) : Prop :=
  (∀ a, (k1_off129 v423) a + S1x16384.size a ≤ S2048x16384.size a)
instance k1_chk43.dec : ∀ (v423 : BitVec 32), Decidable (k1_chk43 v423) := fun v423 => decidable_of_iff' _ (Iff.of_eq (k1_chk43.eq_1 v423))
theorem k1_off129_inb : ∀ (v423 : BitVec 32) (k1_hw43 : k1_chk43 v423), ∀ a, (k1_off129 v423) a + S1x16384.size a ≤ S2048x16384.size a := fun v423 k1_hw43 => k1_hw43

def k1_off130 (i : grid1.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v431 : BitVec 32 := Scalar.addi v0 c43_i32
  let v432 : Index := Scalar.indexCast v431
  ![v432.toNat]
def k1_off131 (i : grid1.Coords) : Fin 2 → Nat :=
  let arg0 : BitVec 32 := BitVec.ofNat 32 (i 0).val
  let c128_i32 : BitVec 32 := 128#32
  let v0 : BitVec 32 := Scalar.muli arg0 c128_i32
  let c43_i32 : BitVec 32 := 43#32
  let v434 : BitVec 32 := Scalar.addi v0 c43_i32
  let c0_i32_86 : BitVec 32 := 0#32
  ![v434.toNat, 0]
def k1_off132 (v433 : BitVec 32) : Fin 2 → Nat :=
  let c0_i32_87 : BitVec 32 := 0#32
  ![v433.toNat, 0]

def k1_chk44 (v433 : BitVec 32) : Prop :=
  (∀ a, (k1_off132 v433) a + S1x16384.size a ≤ S2048x16384.size a)
instance k1_chk44.dec : ∀ (v433 : BitVec 32), Decidable (k1_chk44 v433) := fun v433 => decidable_of_iff' _ (Iff.of_eq (k1_chk44.eq_1 v433))
theorem k1_off132_inb : ∀ (v433 : BitVec 32) (k1_hw44 : k1_chk44 v433), ∀ a, (k1_off132 v433) a + S1x16384.size a ≤ S2048x16384.size a := fun v433 k1_hw44 => k1_hw44

def k1_off133 (i : grid1.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v441 : BitVec 32 := Scalar.addi v0 c44_i32
  let v442 : Index := Scalar.indexCast v441
  ![v442.toNat]
def k1_off134 (i : grid1.Coords) : Fin 2 → Nat :=
  let arg0 : BitVec 32 := BitVec.ofNat 32 (i 0).val
  let c128_i32 : BitVec 32 := 128#32
  let v0 : BitVec 32 := Scalar.muli arg0 c128_i32
  let c44_i32 : BitVec 32 := 44#32
  let v444 : BitVec 32 := Scalar.addi v0 c44_i32
  let c0_i32_88 : BitVec 32 := 0#32
  ![v444.toNat, 0]
def k1_off135 (v443 : BitVec 32) : Fin 2 → Nat :=
  let c0_i32_89 : BitVec 32 := 0#32
  ![v443.toNat, 0]

def k1_chk45 (v443 : BitVec 32) : Prop :=
  (∀ a, (k1_off135 v443) a + S1x16384.size a ≤ S2048x16384.size a)
instance k1_chk45.dec : ∀ (v443 : BitVec 32), Decidable (k1_chk45 v443) := fun v443 => decidable_of_iff' _ (Iff.of_eq (k1_chk45.eq_1 v443))
theorem k1_off135_inb : ∀ (v443 : BitVec 32) (k1_hw45 : k1_chk45 v443), ∀ a, (k1_off135 v443) a + S1x16384.size a ≤ S2048x16384.size a := fun v443 k1_hw45 => k1_hw45

def k1_off136 (i : grid1.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v451 : BitVec 32 := Scalar.addi v0 c45_i32
  let v452 : Index := Scalar.indexCast v451
  ![v452.toNat]
def k1_off137 (i : grid1.Coords) : Fin 2 → Nat :=
  let arg0 : BitVec 32 := BitVec.ofNat 32 (i 0).val
  let c128_i32 : BitVec 32 := 128#32
  let v0 : BitVec 32 := Scalar.muli arg0 c128_i32
  let c45_i32 : BitVec 32 := 45#32
  let v454 : BitVec 32 := Scalar.addi v0 c45_i32
  let c0_i32_90 : BitVec 32 := 0#32
  ![v454.toNat, 0]
def k1_off138 (v453 : BitVec 32) : Fin 2 → Nat :=
  let c0_i32_91 : BitVec 32 := 0#32
  ![v453.toNat, 0]

def k1_chk46 (v453 : BitVec 32) : Prop :=
  (∀ a, (k1_off138 v453) a + S1x16384.size a ≤ S2048x16384.size a)
instance k1_chk46.dec : ∀ (v453 : BitVec 32), Decidable (k1_chk46 v453) := fun v453 => decidable_of_iff' _ (Iff.of_eq (k1_chk46.eq_1 v453))
theorem k1_off138_inb : ∀ (v453 : BitVec 32) (k1_hw46 : k1_chk46 v453), ∀ a, (k1_off138 v453) a + S1x16384.size a ≤ S2048x16384.size a := fun v453 k1_hw46 => k1_hw46

def k1_off139 (i : grid1.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v461 : BitVec 32 := Scalar.addi v0 c46_i32
  let v462 : Index := Scalar.indexCast v461
  ![v462.toNat]
def k1_off140 (i : grid1.Coords) : Fin 2 → Nat :=
  let arg0 : BitVec 32 := BitVec.ofNat 32 (i 0).val
  let c128_i32 : BitVec 32 := 128#32
  let v0 : BitVec 32 := Scalar.muli arg0 c128_i32
  let c46_i32 : BitVec 32 := 46#32
  let v464 : BitVec 32 := Scalar.addi v0 c46_i32
  let c0_i32_92 : BitVec 32 := 0#32
  ![v464.toNat, 0]
def k1_off141 (v463 : BitVec 32) : Fin 2 → Nat :=
  let c0_i32_93 : BitVec 32 := 0#32
  ![v463.toNat, 0]

def k1_chk47 (v463 : BitVec 32) : Prop :=
  (∀ a, (k1_off141 v463) a + S1x16384.size a ≤ S2048x16384.size a)
instance k1_chk47.dec : ∀ (v463 : BitVec 32), Decidable (k1_chk47 v463) := fun v463 => decidable_of_iff' _ (Iff.of_eq (k1_chk47.eq_1 v463))
theorem k1_off141_inb : ∀ (v463 : BitVec 32) (k1_hw47 : k1_chk47 v463), ∀ a, (k1_off141 v463) a + S1x16384.size a ≤ S2048x16384.size a := fun v463 k1_hw47 => k1_hw47

def k1_off142 (i : grid1.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v471 : BitVec 32 := Scalar.addi v0 c47_i32
  let v472 : Index := Scalar.indexCast v471
  ![v472.toNat]
def k1_off143 (i : grid1.Coords) : Fin 2 → Nat :=
  let arg0 : BitVec 32 := BitVec.ofNat 32 (i 0).val
  let c128_i32 : BitVec 32 := 128#32
  let v0 : BitVec 32 := Scalar.muli arg0 c128_i32
  let c47_i32 : BitVec 32 := 47#32
  let v474 : BitVec 32 := Scalar.addi v0 c47_i32
  let c0_i32_94 : BitVec 32 := 0#32
  ![v474.toNat, 0]
def k1_off144 (v473 : BitVec 32) : Fin 2 → Nat :=
  let c0_i32_95 : BitVec 32 := 0#32
  ![v473.toNat, 0]

def k1_chk48 (v473 : BitVec 32) : Prop :=
  (∀ a, (k1_off144 v473) a + S1x16384.size a ≤ S2048x16384.size a)
instance k1_chk48.dec : ∀ (v473 : BitVec 32), Decidable (k1_chk48 v473) := fun v473 => decidable_of_iff' _ (Iff.of_eq (k1_chk48.eq_1 v473))
theorem k1_off144_inb : ∀ (v473 : BitVec 32) (k1_hw48 : k1_chk48 v473), ∀ a, (k1_off144 v473) a + S1x16384.size a ≤ S2048x16384.size a := fun v473 k1_hw48 => k1_hw48

def k1_off145 (i : grid1.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v481 : BitVec 32 := Scalar.addi v0 c48_i32
  let v482 : Index := Scalar.indexCast v481
  ![v482.toNat]
def k1_off146 (i : grid1.Coords) : Fin 2 → Nat :=
  let arg0 : BitVec 32 := BitVec.ofNat 32 (i 0).val
  let c128_i32 : BitVec 32 := 128#32
  let v0 : BitVec 32 := Scalar.muli arg0 c128_i32
  let c48_i32 : BitVec 32 := 48#32
  let v484 : BitVec 32 := Scalar.addi v0 c48_i32
  let c0_i32_96 : BitVec 32 := 0#32
  ![v484.toNat, 0]
def k1_off147 (v483 : BitVec 32) : Fin 2 → Nat :=
  let c0_i32_97 : BitVec 32 := 0#32
  ![v483.toNat, 0]

def k1_chk49 (v483 : BitVec 32) : Prop :=
  (∀ a, (k1_off147 v483) a + S1x16384.size a ≤ S2048x16384.size a)
instance k1_chk49.dec : ∀ (v483 : BitVec 32), Decidable (k1_chk49 v483) := fun v483 => decidable_of_iff' _ (Iff.of_eq (k1_chk49.eq_1 v483))
theorem k1_off147_inb : ∀ (v483 : BitVec 32) (k1_hw49 : k1_chk49 v483), ∀ a, (k1_off147 v483) a + S1x16384.size a ≤ S2048x16384.size a := fun v483 k1_hw49 => k1_hw49

def k1_off148 (i : grid1.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v491 : BitVec 32 := Scalar.addi v0 c49_i32
  let v492 : Index := Scalar.indexCast v491
  ![v492.toNat]
def k1_off149 (i : grid1.Coords) : Fin 2 → Nat :=
  let arg0 : BitVec 32 := BitVec.ofNat 32 (i 0).val
  let c128_i32 : BitVec 32 := 128#32
  let v0 : BitVec 32 := Scalar.muli arg0 c128_i32
  let c49_i32 : BitVec 32 := 49#32
  let v494 : BitVec 32 := Scalar.addi v0 c49_i32
  let c0_i32_98 : BitVec 32 := 0#32
  ![v494.toNat, 0]
def k1_off150 (v493 : BitVec 32) : Fin 2 → Nat :=
  let c0_i32_99 : BitVec 32 := 0#32
  ![v493.toNat, 0]

def k1_chk50 (v493 : BitVec 32) : Prop :=
  (∀ a, (k1_off150 v493) a + S1x16384.size a ≤ S2048x16384.size a)
instance k1_chk50.dec : ∀ (v493 : BitVec 32), Decidable (k1_chk50 v493) := fun v493 => decidable_of_iff' _ (Iff.of_eq (k1_chk50.eq_1 v493))
theorem k1_off150_inb : ∀ (v493 : BitVec 32) (k1_hw50 : k1_chk50 v493), ∀ a, (k1_off150 v493) a + S1x16384.size a ≤ S2048x16384.size a := fun v493 k1_hw50 => k1_hw50

def k1_off151 (i : grid1.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v501 : BitVec 32 := Scalar.addi v0 c50_i32
  let v502 : Index := Scalar.indexCast v501
  ![v502.toNat]
def k1_off152 (i : grid1.Coords) : Fin 2 → Nat :=
  let arg0 : BitVec 32 := BitVec.ofNat 32 (i 0).val
  let c128_i32 : BitVec 32 := 128#32
  let v0 : BitVec 32 := Scalar.muli arg0 c128_i32
  let c50_i32 : BitVec 32 := 50#32
  let v504 : BitVec 32 := Scalar.addi v0 c50_i32
  let c0_i32_100 : BitVec 32 := 0#32
  ![v504.toNat, 0]
def k1_off153 (v503 : BitVec 32) : Fin 2 → Nat :=
  let c0_i32_101 : BitVec 32 := 0#32
  ![v503.toNat, 0]

def k1_chk51 (v503 : BitVec 32) : Prop :=
  (∀ a, (k1_off153 v503) a + S1x16384.size a ≤ S2048x16384.size a)
instance k1_chk51.dec : ∀ (v503 : BitVec 32), Decidable (k1_chk51 v503) := fun v503 => decidable_of_iff' _ (Iff.of_eq (k1_chk51.eq_1 v503))
theorem k1_off153_inb : ∀ (v503 : BitVec 32) (k1_hw51 : k1_chk51 v503), ∀ a, (k1_off153 v503) a + S1x16384.size a ≤ S2048x16384.size a := fun v503 k1_hw51 => k1_hw51

def k1_off154 (i : grid1.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v511 : BitVec 32 := Scalar.addi v0 c51_i32
  let v512 : Index := Scalar.indexCast v511
  ![v512.toNat]
def k1_off155 (i : grid1.Coords) : Fin 2 → Nat :=
  let arg0 : BitVec 32 := BitVec.ofNat 32 (i 0).val
  let c128_i32 : BitVec 32 := 128#32
  let v0 : BitVec 32 := Scalar.muli arg0 c128_i32
  let c51_i32 : BitVec 32 := 51#32
  let v514 : BitVec 32 := Scalar.addi v0 c51_i32
  let c0_i32_102 : BitVec 32 := 0#32
  ![v514.toNat, 0]
def k1_off156 (v513 : BitVec 32) : Fin 2 → Nat :=
  let c0_i32_103 : BitVec 32 := 0#32
  ![v513.toNat, 0]

def k1_chk52 (v513 : BitVec 32) : Prop :=
  (∀ a, (k1_off156 v513) a + S1x16384.size a ≤ S2048x16384.size a)
instance k1_chk52.dec : ∀ (v513 : BitVec 32), Decidable (k1_chk52 v513) := fun v513 => decidable_of_iff' _ (Iff.of_eq (k1_chk52.eq_1 v513))
theorem k1_off156_inb : ∀ (v513 : BitVec 32) (k1_hw52 : k1_chk52 v513), ∀ a, (k1_off156 v513) a + S1x16384.size a ≤ S2048x16384.size a := fun v513 k1_hw52 => k1_hw52

def k1_off157 (i : grid1.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v521 : BitVec 32 := Scalar.addi v0 c52_i32
  let v522 : Index := Scalar.indexCast v521
  ![v522.toNat]
def k1_off158 (i : grid1.Coords) : Fin 2 → Nat :=
  let arg0 : BitVec 32 := BitVec.ofNat 32 (i 0).val
  let c128_i32 : BitVec 32 := 128#32
  let v0 : BitVec 32 := Scalar.muli arg0 c128_i32
  let c52_i32 : BitVec 32 := 52#32
  let v524 : BitVec 32 := Scalar.addi v0 c52_i32
  let c0_i32_104 : BitVec 32 := 0#32
  ![v524.toNat, 0]
def k1_off159 (v523 : BitVec 32) : Fin 2 → Nat :=
  let c0_i32_105 : BitVec 32 := 0#32
  ![v523.toNat, 0]

def k1_chk53 (v523 : BitVec 32) : Prop :=
  (∀ a, (k1_off159 v523) a + S1x16384.size a ≤ S2048x16384.size a)
instance k1_chk53.dec : ∀ (v523 : BitVec 32), Decidable (k1_chk53 v523) := fun v523 => decidable_of_iff' _ (Iff.of_eq (k1_chk53.eq_1 v523))
theorem k1_off159_inb : ∀ (v523 : BitVec 32) (k1_hw53 : k1_chk53 v523), ∀ a, (k1_off159 v523) a + S1x16384.size a ≤ S2048x16384.size a := fun v523 k1_hw53 => k1_hw53

def k1_off160 (i : grid1.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v531 : BitVec 32 := Scalar.addi v0 c53_i32
  let v532 : Index := Scalar.indexCast v531
  ![v532.toNat]
def k1_off161 (i : grid1.Coords) : Fin 2 → Nat :=
  let arg0 : BitVec 32 := BitVec.ofNat 32 (i 0).val
  let c128_i32 : BitVec 32 := 128#32
  let v0 : BitVec 32 := Scalar.muli arg0 c128_i32
  let c53_i32 : BitVec 32 := 53#32
  let v534 : BitVec 32 := Scalar.addi v0 c53_i32
  let c0_i32_106 : BitVec 32 := 0#32
  ![v534.toNat, 0]
def k1_off162 (v533 : BitVec 32) : Fin 2 → Nat :=
  let c0_i32_107 : BitVec 32 := 0#32
  ![v533.toNat, 0]

def k1_chk54 (v533 : BitVec 32) : Prop :=
  (∀ a, (k1_off162 v533) a + S1x16384.size a ≤ S2048x16384.size a)
instance k1_chk54.dec : ∀ (v533 : BitVec 32), Decidable (k1_chk54 v533) := fun v533 => decidable_of_iff' _ (Iff.of_eq (k1_chk54.eq_1 v533))
theorem k1_off162_inb : ∀ (v533 : BitVec 32) (k1_hw54 : k1_chk54 v533), ∀ a, (k1_off162 v533) a + S1x16384.size a ≤ S2048x16384.size a := fun v533 k1_hw54 => k1_hw54

def k1_off163 (i : grid1.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v541 : BitVec 32 := Scalar.addi v0 c54_i32
  let v542 : Index := Scalar.indexCast v541
  ![v542.toNat]
def k1_off164 (i : grid1.Coords) : Fin 2 → Nat :=
  let arg0 : BitVec 32 := BitVec.ofNat 32 (i 0).val
  let c128_i32 : BitVec 32 := 128#32
  let v0 : BitVec 32 := Scalar.muli arg0 c128_i32
  let c54_i32 : BitVec 32 := 54#32
  let v544 : BitVec 32 := Scalar.addi v0 c54_i32
  let c0_i32_108 : BitVec 32 := 0#32
  ![v544.toNat, 0]
def k1_off165 (v543 : BitVec 32) : Fin 2 → Nat :=
  let c0_i32_109 : BitVec 32 := 0#32
  ![v543.toNat, 0]

def k1_chk55 (v543 : BitVec 32) : Prop :=
  (∀ a, (k1_off165 v543) a + S1x16384.size a ≤ S2048x16384.size a)
instance k1_chk55.dec : ∀ (v543 : BitVec 32), Decidable (k1_chk55 v543) := fun v543 => decidable_of_iff' _ (Iff.of_eq (k1_chk55.eq_1 v543))
theorem k1_off165_inb : ∀ (v543 : BitVec 32) (k1_hw55 : k1_chk55 v543), ∀ a, (k1_off165 v543) a + S1x16384.size a ≤ S2048x16384.size a := fun v543 k1_hw55 => k1_hw55

def k1_off166 (i : grid1.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v551 : BitVec 32 := Scalar.addi v0 c55_i32
  let v552 : Index := Scalar.indexCast v551
  ![v552.toNat]
def k1_off167 (i : grid1.Coords) : Fin 2 → Nat :=
  let arg0 : BitVec 32 := BitVec.ofNat 32 (i 0).val
  let c128_i32 : BitVec 32 := 128#32
  let v0 : BitVec 32 := Scalar.muli arg0 c128_i32
  let c55_i32 : BitVec 32 := 55#32
  let v554 : BitVec 32 := Scalar.addi v0 c55_i32
  let c0_i32_110 : BitVec 32 := 0#32
  ![v554.toNat, 0]
def k1_off168 (v553 : BitVec 32) : Fin 2 → Nat :=
  let c0_i32_111 : BitVec 32 := 0#32
  ![v553.toNat, 0]

def k1_chk56 (v553 : BitVec 32) : Prop :=
  (∀ a, (k1_off168 v553) a + S1x16384.size a ≤ S2048x16384.size a)
instance k1_chk56.dec : ∀ (v553 : BitVec 32), Decidable (k1_chk56 v553) := fun v553 => decidable_of_iff' _ (Iff.of_eq (k1_chk56.eq_1 v553))
theorem k1_off168_inb : ∀ (v553 : BitVec 32) (k1_hw56 : k1_chk56 v553), ∀ a, (k1_off168 v553) a + S1x16384.size a ≤ S2048x16384.size a := fun v553 k1_hw56 => k1_hw56

def k1_off169 (i : grid1.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v561 : BitVec 32 := Scalar.addi v0 c56_i32
  let v562 : Index := Scalar.indexCast v561
  ![v562.toNat]
def k1_off170 (i : grid1.Coords) : Fin 2 → Nat :=
  let arg0 : BitVec 32 := BitVec.ofNat 32 (i 0).val
  let c128_i32 : BitVec 32 := 128#32
  let v0 : BitVec 32 := Scalar.muli arg0 c128_i32
  let c56_i32 : BitVec 32 := 56#32
  let v564 : BitVec 32 := Scalar.addi v0 c56_i32
  let c0_i32_112 : BitVec 32 := 0#32
  ![v564.toNat, 0]
def k1_off171 (v563 : BitVec 32) : Fin 2 → Nat :=
  let c0_i32_113 : BitVec 32 := 0#32
  ![v563.toNat, 0]

def k1_chk57 (v563 : BitVec 32) : Prop :=
  (∀ a, (k1_off171 v563) a + S1x16384.size a ≤ S2048x16384.size a)
instance k1_chk57.dec : ∀ (v563 : BitVec 32), Decidable (k1_chk57 v563) := fun v563 => decidable_of_iff' _ (Iff.of_eq (k1_chk57.eq_1 v563))
theorem k1_off171_inb : ∀ (v563 : BitVec 32) (k1_hw57 : k1_chk57 v563), ∀ a, (k1_off171 v563) a + S1x16384.size a ≤ S2048x16384.size a := fun v563 k1_hw57 => k1_hw57

def k1_off172 (i : grid1.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v571 : BitVec 32 := Scalar.addi v0 c57_i32
  let v572 : Index := Scalar.indexCast v571
  ![v572.toNat]
def k1_off173 (i : grid1.Coords) : Fin 2 → Nat :=
  let arg0 : BitVec 32 := BitVec.ofNat 32 (i 0).val
  let c128_i32 : BitVec 32 := 128#32
  let v0 : BitVec 32 := Scalar.muli arg0 c128_i32
  let c57_i32 : BitVec 32 := 57#32
  let v574 : BitVec 32 := Scalar.addi v0 c57_i32
  let c0_i32_114 : BitVec 32 := 0#32
  ![v574.toNat, 0]
def k1_off174 (v573 : BitVec 32) : Fin 2 → Nat :=
  let c0_i32_115 : BitVec 32 := 0#32
  ![v573.toNat, 0]

def k1_chk58 (v573 : BitVec 32) : Prop :=
  (∀ a, (k1_off174 v573) a + S1x16384.size a ≤ S2048x16384.size a)
instance k1_chk58.dec : ∀ (v573 : BitVec 32), Decidable (k1_chk58 v573) := fun v573 => decidable_of_iff' _ (Iff.of_eq (k1_chk58.eq_1 v573))
theorem k1_off174_inb : ∀ (v573 : BitVec 32) (k1_hw58 : k1_chk58 v573), ∀ a, (k1_off174 v573) a + S1x16384.size a ≤ S2048x16384.size a := fun v573 k1_hw58 => k1_hw58

def k1_off175 (i : grid1.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v581 : BitVec 32 := Scalar.addi v0 c58_i32
  let v582 : Index := Scalar.indexCast v581
  ![v582.toNat]
def k1_off176 (i : grid1.Coords) : Fin 2 → Nat :=
  let arg0 : BitVec 32 := BitVec.ofNat 32 (i 0).val
  let c128_i32 : BitVec 32 := 128#32
  let v0 : BitVec 32 := Scalar.muli arg0 c128_i32
  let c58_i32 : BitVec 32 := 58#32
  let v584 : BitVec 32 := Scalar.addi v0 c58_i32
  let c0_i32_116 : BitVec 32 := 0#32
  ![v584.toNat, 0]
def k1_off177 (v583 : BitVec 32) : Fin 2 → Nat :=
  let c0_i32_117 : BitVec 32 := 0#32
  ![v583.toNat, 0]

def k1_chk59 (v583 : BitVec 32) : Prop :=
  (∀ a, (k1_off177 v583) a + S1x16384.size a ≤ S2048x16384.size a)
instance k1_chk59.dec : ∀ (v583 : BitVec 32), Decidable (k1_chk59 v583) := fun v583 => decidable_of_iff' _ (Iff.of_eq (k1_chk59.eq_1 v583))
theorem k1_off177_inb : ∀ (v583 : BitVec 32) (k1_hw59 : k1_chk59 v583), ∀ a, (k1_off177 v583) a + S1x16384.size a ≤ S2048x16384.size a := fun v583 k1_hw59 => k1_hw59

def k1_off178 (i : grid1.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v591 : BitVec 32 := Scalar.addi v0 c59_i32
  let v592 : Index := Scalar.indexCast v591
  ![v592.toNat]
def k1_off179 (i : grid1.Coords) : Fin 2 → Nat :=
  let arg0 : BitVec 32 := BitVec.ofNat 32 (i 0).val
  let c128_i32 : BitVec 32 := 128#32
  let v0 : BitVec 32 := Scalar.muli arg0 c128_i32
  let c59_i32 : BitVec 32 := 59#32
  let v594 : BitVec 32 := Scalar.addi v0 c59_i32
  let c0_i32_118 : BitVec 32 := 0#32
  ![v594.toNat, 0]
def k1_off180 (v593 : BitVec 32) : Fin 2 → Nat :=
  let c0_i32_119 : BitVec 32 := 0#32
  ![v593.toNat, 0]

def k1_chk60 (v593 : BitVec 32) : Prop :=
  (∀ a, (k1_off180 v593) a + S1x16384.size a ≤ S2048x16384.size a)
instance k1_chk60.dec : ∀ (v593 : BitVec 32), Decidable (k1_chk60 v593) := fun v593 => decidable_of_iff' _ (Iff.of_eq (k1_chk60.eq_1 v593))
theorem k1_off180_inb : ∀ (v593 : BitVec 32) (k1_hw60 : k1_chk60 v593), ∀ a, (k1_off180 v593) a + S1x16384.size a ≤ S2048x16384.size a := fun v593 k1_hw60 => k1_hw60

def k1_off181 (i : grid1.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v601 : BitVec 32 := Scalar.addi v0 c60_i32
  let v602 : Index := Scalar.indexCast v601
  ![v602.toNat]
def k1_off182 (i : grid1.Coords) : Fin 2 → Nat :=
  let arg0 : BitVec 32 := BitVec.ofNat 32 (i 0).val
  let c128_i32 : BitVec 32 := 128#32
  let v0 : BitVec 32 := Scalar.muli arg0 c128_i32
  let c60_i32 : BitVec 32 := 60#32
  let v604 : BitVec 32 := Scalar.addi v0 c60_i32
  let c0_i32_120 : BitVec 32 := 0#32
  ![v604.toNat, 0]
def k1_off183 (v603 : BitVec 32) : Fin 2 → Nat :=
  let c0_i32_121 : BitVec 32 := 0#32
  ![v603.toNat, 0]

def k1_chk61 (v603 : BitVec 32) : Prop :=
  (∀ a, (k1_off183 v603) a + S1x16384.size a ≤ S2048x16384.size a)
instance k1_chk61.dec : ∀ (v603 : BitVec 32), Decidable (k1_chk61 v603) := fun v603 => decidable_of_iff' _ (Iff.of_eq (k1_chk61.eq_1 v603))
theorem k1_off183_inb : ∀ (v603 : BitVec 32) (k1_hw61 : k1_chk61 v603), ∀ a, (k1_off183 v603) a + S1x16384.size a ≤ S2048x16384.size a := fun v603 k1_hw61 => k1_hw61

def k1_off184 (i : grid1.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v611 : BitVec 32 := Scalar.addi v0 c61_i32
  let v612 : Index := Scalar.indexCast v611
  ![v612.toNat]
def k1_off185 (i : grid1.Coords) : Fin 2 → Nat :=
  let arg0 : BitVec 32 := BitVec.ofNat 32 (i 0).val
  let c128_i32 : BitVec 32 := 128#32
  let v0 : BitVec 32 := Scalar.muli arg0 c128_i32
  let c61_i32 : BitVec 32 := 61#32
  let v614 : BitVec 32 := Scalar.addi v0 c61_i32
  let c0_i32_122 : BitVec 32 := 0#32
  ![v614.toNat, 0]
def k1_off186 (v613 : BitVec 32) : Fin 2 → Nat :=
  let c0_i32_123 : BitVec 32 := 0#32
  ![v613.toNat, 0]

def k1_chk62 (v613 : BitVec 32) : Prop :=
  (∀ a, (k1_off186 v613) a + S1x16384.size a ≤ S2048x16384.size a)
instance k1_chk62.dec : ∀ (v613 : BitVec 32), Decidable (k1_chk62 v613) := fun v613 => decidable_of_iff' _ (Iff.of_eq (k1_chk62.eq_1 v613))
theorem k1_off186_inb : ∀ (v613 : BitVec 32) (k1_hw62 : k1_chk62 v613), ∀ a, (k1_off186 v613) a + S1x16384.size a ≤ S2048x16384.size a := fun v613 k1_hw62 => k1_hw62

def k1_off187 (i : grid1.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v621 : BitVec 32 := Scalar.addi v0 c62_i32
  let v622 : Index := Scalar.indexCast v621
  ![v622.toNat]
def k1_off188 (i : grid1.Coords) : Fin 2 → Nat :=
  let arg0 : BitVec 32 := BitVec.ofNat 32 (i 0).val
  let c128_i32 : BitVec 32 := 128#32
  let v0 : BitVec 32 := Scalar.muli arg0 c128_i32
  let c62_i32 : BitVec 32 := 62#32
  let v624 : BitVec 32 := Scalar.addi v0 c62_i32
  let c0_i32_124 : BitVec 32 := 0#32
  ![v624.toNat, 0]
def k1_off189 (v623 : BitVec 32) : Fin 2 → Nat :=
  let c0_i32_125 : BitVec 32 := 0#32
  ![v623.toNat, 0]

def k1_chk63 (v623 : BitVec 32) : Prop :=
  (∀ a, (k1_off189 v623) a + S1x16384.size a ≤ S2048x16384.size a)
instance k1_chk63.dec : ∀ (v623 : BitVec 32), Decidable (k1_chk63 v623) := fun v623 => decidable_of_iff' _ (Iff.of_eq (k1_chk63.eq_1 v623))
theorem k1_off189_inb : ∀ (v623 : BitVec 32) (k1_hw63 : k1_chk63 v623), ∀ a, (k1_off189 v623) a + S1x16384.size a ≤ S2048x16384.size a := fun v623 k1_hw63 => k1_hw63

def k1_off190 (i : grid1.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v631 : BitVec 32 := Scalar.addi v0 c63_i32
  let v632 : Index := Scalar.indexCast v631
  ![v632.toNat]
def k1_off191 (i : grid1.Coords) : Fin 2 → Nat :=
  let arg0 : BitVec 32 := BitVec.ofNat 32 (i 0).val
  let c128_i32 : BitVec 32 := 128#32
  let v0 : BitVec 32 := Scalar.muli arg0 c128_i32
  let c63_i32 : BitVec 32 := 63#32
  let v634 : BitVec 32 := Scalar.addi v0 c63_i32
  let c0_i32_126 : BitVec 32 := 0#32
  ![v634.toNat, 0]
def k1_off192 (v633 : BitVec 32) : Fin 2 → Nat :=
  let c0_i32_127 : BitVec 32 := 0#32
  ![v633.toNat, 0]

def k1_chk64 (v633 : BitVec 32) : Prop :=
  (∀ a, (k1_off192 v633) a + S1x16384.size a ≤ S2048x16384.size a)
instance k1_chk64.dec : ∀ (v633 : BitVec 32), Decidable (k1_chk64 v633) := fun v633 => decidable_of_iff' _ (Iff.of_eq (k1_chk64.eq_1 v633))
theorem k1_off192_inb : ∀ (v633 : BitVec 32) (k1_hw64 : k1_chk64 v633), ∀ a, (k1_off192 v633) a + S1x16384.size a ≤ S2048x16384.size a := fun v633 k1_hw64 => k1_hw64

def k1_off193 (i : grid1.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v641 : BitVec 32 := Scalar.addi v0 c64_i32
  let v642 : Index := Scalar.indexCast v641
  ![v642.toNat]
def k1_off194 (i : grid1.Coords) : Fin 2 → Nat :=
  let arg0 : BitVec 32 := BitVec.ofNat 32 (i 0).val
  let c128_i32 : BitVec 32 := 128#32
  let v0 : BitVec 32 := Scalar.muli arg0 c128_i32
  let c64_i32 : BitVec 32 := 64#32
  let v644 : BitVec 32 := Scalar.addi v0 c64_i32
  let c0_i32_128 : BitVec 32 := 0#32
  ![v644.toNat, 0]
def k1_off195 (v643 : BitVec 32) : Fin 2 → Nat :=
  let c0_i32_129 : BitVec 32 := 0#32
  ![v643.toNat, 0]

def k1_chk65 (v643 : BitVec 32) : Prop :=
  (∀ a, (k1_off195 v643) a + S1x16384.size a ≤ S2048x16384.size a)
instance k1_chk65.dec : ∀ (v643 : BitVec 32), Decidable (k1_chk65 v643) := fun v643 => decidable_of_iff' _ (Iff.of_eq (k1_chk65.eq_1 v643))
theorem k1_off195_inb : ∀ (v643 : BitVec 32) (k1_hw65 : k1_chk65 v643), ∀ a, (k1_off195 v643) a + S1x16384.size a ≤ S2048x16384.size a := fun v643 k1_hw65 => k1_hw65

def k1_off196 (i : grid1.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v651 : BitVec 32 := Scalar.addi v0 c65_i32
  let v652 : Index := Scalar.indexCast v651
  ![v652.toNat]
def k1_off197 (i : grid1.Coords) : Fin 2 → Nat :=
  let arg0 : BitVec 32 := BitVec.ofNat 32 (i 0).val
  let c128_i32 : BitVec 32 := 128#32
  let v0 : BitVec 32 := Scalar.muli arg0 c128_i32
  let c65_i32 : BitVec 32 := 65#32
  let v654 : BitVec 32 := Scalar.addi v0 c65_i32
  let c0_i32_130 : BitVec 32 := 0#32
  ![v654.toNat, 0]
def k1_off198 (v653 : BitVec 32) : Fin 2 → Nat :=
  let c0_i32_131 : BitVec 32 := 0#32
  ![v653.toNat, 0]

def k1_chk66 (v653 : BitVec 32) : Prop :=
  (∀ a, (k1_off198 v653) a + S1x16384.size a ≤ S2048x16384.size a)
instance k1_chk66.dec : ∀ (v653 : BitVec 32), Decidable (k1_chk66 v653) := fun v653 => decidable_of_iff' _ (Iff.of_eq (k1_chk66.eq_1 v653))
theorem k1_off198_inb : ∀ (v653 : BitVec 32) (k1_hw66 : k1_chk66 v653), ∀ a, (k1_off198 v653) a + S1x16384.size a ≤ S2048x16384.size a := fun v653 k1_hw66 => k1_hw66

def k1_off199 (i : grid1.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v661 : BitVec 32 := Scalar.addi v0 c66_i32
  let v662 : Index := Scalar.indexCast v661
  ![v662.toNat]
def k1_off200 (i : grid1.Coords) : Fin 2 → Nat :=
  let arg0 : BitVec 32 := BitVec.ofNat 32 (i 0).val
  let c128_i32 : BitVec 32 := 128#32
  let v0 : BitVec 32 := Scalar.muli arg0 c128_i32
  let c66_i32 : BitVec 32 := 66#32
  let v664 : BitVec 32 := Scalar.addi v0 c66_i32
  let c0_i32_132 : BitVec 32 := 0#32
  ![v664.toNat, 0]
def k1_off201 (v663 : BitVec 32) : Fin 2 → Nat :=
  let c0_i32_133 : BitVec 32 := 0#32
  ![v663.toNat, 0]

def k1_chk67 (v663 : BitVec 32) : Prop :=
  (∀ a, (k1_off201 v663) a + S1x16384.size a ≤ S2048x16384.size a)
instance k1_chk67.dec : ∀ (v663 : BitVec 32), Decidable (k1_chk67 v663) := fun v663 => decidable_of_iff' _ (Iff.of_eq (k1_chk67.eq_1 v663))
theorem k1_off201_inb : ∀ (v663 : BitVec 32) (k1_hw67 : k1_chk67 v663), ∀ a, (k1_off201 v663) a + S1x16384.size a ≤ S2048x16384.size a := fun v663 k1_hw67 => k1_hw67

def k1_off202 (i : grid1.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v671 : BitVec 32 := Scalar.addi v0 c67_i32
  let v672 : Index := Scalar.indexCast v671
  ![v672.toNat]
def k1_off203 (i : grid1.Coords) : Fin 2 → Nat :=
  let arg0 : BitVec 32 := BitVec.ofNat 32 (i 0).val
  let c128_i32 : BitVec 32 := 128#32
  let v0 : BitVec 32 := Scalar.muli arg0 c128_i32
  let c67_i32 : BitVec 32 := 67#32
  let v674 : BitVec 32 := Scalar.addi v0 c67_i32
  let c0_i32_134 : BitVec 32 := 0#32
  ![v674.toNat, 0]
def k1_off204 (v673 : BitVec 32) : Fin 2 → Nat :=
  let c0_i32_135 : BitVec 32 := 0#32
  ![v673.toNat, 0]

def k1_chk68 (v673 : BitVec 32) : Prop :=
  (∀ a, (k1_off204 v673) a + S1x16384.size a ≤ S2048x16384.size a)
instance k1_chk68.dec : ∀ (v673 : BitVec 32), Decidable (k1_chk68 v673) := fun v673 => decidable_of_iff' _ (Iff.of_eq (k1_chk68.eq_1 v673))
theorem k1_off204_inb : ∀ (v673 : BitVec 32) (k1_hw68 : k1_chk68 v673), ∀ a, (k1_off204 v673) a + S1x16384.size a ≤ S2048x16384.size a := fun v673 k1_hw68 => k1_hw68

def k1_off205 (i : grid1.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v681 : BitVec 32 := Scalar.addi v0 c68_i32
  let v682 : Index := Scalar.indexCast v681
  ![v682.toNat]
def k1_off206 (i : grid1.Coords) : Fin 2 → Nat :=
  let arg0 : BitVec 32 := BitVec.ofNat 32 (i 0).val
  let c128_i32 : BitVec 32 := 128#32
  let v0 : BitVec 32 := Scalar.muli arg0 c128_i32
  let c68_i32 : BitVec 32 := 68#32
  let v684 : BitVec 32 := Scalar.addi v0 c68_i32
  let c0_i32_136 : BitVec 32 := 0#32
  ![v684.toNat, 0]
def k1_off207 (v683 : BitVec 32) : Fin 2 → Nat :=
  let c0_i32_137 : BitVec 32 := 0#32
  ![v683.toNat, 0]

def k1_chk69 (v683 : BitVec 32) : Prop :=
  (∀ a, (k1_off207 v683) a + S1x16384.size a ≤ S2048x16384.size a)
instance k1_chk69.dec : ∀ (v683 : BitVec 32), Decidable (k1_chk69 v683) := fun v683 => decidable_of_iff' _ (Iff.of_eq (k1_chk69.eq_1 v683))
theorem k1_off207_inb : ∀ (v683 : BitVec 32) (k1_hw69 : k1_chk69 v683), ∀ a, (k1_off207 v683) a + S1x16384.size a ≤ S2048x16384.size a := fun v683 k1_hw69 => k1_hw69

def k1_off208 (i : grid1.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v691 : BitVec 32 := Scalar.addi v0 c69_i32
  let v692 : Index := Scalar.indexCast v691
  ![v692.toNat]
def k1_off209 (i : grid1.Coords) : Fin 2 → Nat :=
  let arg0 : BitVec 32 := BitVec.ofNat 32 (i 0).val
  let c128_i32 : BitVec 32 := 128#32
  let v0 : BitVec 32 := Scalar.muli arg0 c128_i32
  let c69_i32 : BitVec 32 := 69#32
  let v694 : BitVec 32 := Scalar.addi v0 c69_i32
  let c0_i32_138 : BitVec 32 := 0#32
  ![v694.toNat, 0]
def k1_off210 (v693 : BitVec 32) : Fin 2 → Nat :=
  let c0_i32_139 : BitVec 32 := 0#32
  ![v693.toNat, 0]

def k1_chk70 (v693 : BitVec 32) : Prop :=
  (∀ a, (k1_off210 v693) a + S1x16384.size a ≤ S2048x16384.size a)
instance k1_chk70.dec : ∀ (v693 : BitVec 32), Decidable (k1_chk70 v693) := fun v693 => decidable_of_iff' _ (Iff.of_eq (k1_chk70.eq_1 v693))
theorem k1_off210_inb : ∀ (v693 : BitVec 32) (k1_hw70 : k1_chk70 v693), ∀ a, (k1_off210 v693) a + S1x16384.size a ≤ S2048x16384.size a := fun v693 k1_hw70 => k1_hw70

def k1_off211 (i : grid1.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v701 : BitVec 32 := Scalar.addi v0 c70_i32
  let v702 : Index := Scalar.indexCast v701
  ![v702.toNat]
def k1_off212 (i : grid1.Coords) : Fin 2 → Nat :=
  let arg0 : BitVec 32 := BitVec.ofNat 32 (i 0).val
  let c128_i32 : BitVec 32 := 128#32
  let v0 : BitVec 32 := Scalar.muli arg0 c128_i32
  let c70_i32 : BitVec 32 := 70#32
  let v704 : BitVec 32 := Scalar.addi v0 c70_i32
  let c0_i32_140 : BitVec 32 := 0#32
  ![v704.toNat, 0]
def k1_off213 (v703 : BitVec 32) : Fin 2 → Nat :=
  let c0_i32_141 : BitVec 32 := 0#32
  ![v703.toNat, 0]

def k1_chk71 (v703 : BitVec 32) : Prop :=
  (∀ a, (k1_off213 v703) a + S1x16384.size a ≤ S2048x16384.size a)
instance k1_chk71.dec : ∀ (v703 : BitVec 32), Decidable (k1_chk71 v703) := fun v703 => decidable_of_iff' _ (Iff.of_eq (k1_chk71.eq_1 v703))
theorem k1_off213_inb : ∀ (v703 : BitVec 32) (k1_hw71 : k1_chk71 v703), ∀ a, (k1_off213 v703) a + S1x16384.size a ≤ S2048x16384.size a := fun v703 k1_hw71 => k1_hw71

def k1_off214 (i : grid1.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v711 : BitVec 32 := Scalar.addi v0 c71_i32
  let v712 : Index := Scalar.indexCast v711
  ![v712.toNat]
def k1_off215 (i : grid1.Coords) : Fin 2 → Nat :=
  let arg0 : BitVec 32 := BitVec.ofNat 32 (i 0).val
  let c128_i32 : BitVec 32 := 128#32
  let v0 : BitVec 32 := Scalar.muli arg0 c128_i32
  let c71_i32 : BitVec 32 := 71#32
  let v714 : BitVec 32 := Scalar.addi v0 c71_i32
  let c0_i32_142 : BitVec 32 := 0#32
  ![v714.toNat, 0]
def k1_off216 (v713 : BitVec 32) : Fin 2 → Nat :=
  let c0_i32_143 : BitVec 32 := 0#32
  ![v713.toNat, 0]

def k1_chk72 (v713 : BitVec 32) : Prop :=
  (∀ a, (k1_off216 v713) a + S1x16384.size a ≤ S2048x16384.size a)
instance k1_chk72.dec : ∀ (v713 : BitVec 32), Decidable (k1_chk72 v713) := fun v713 => decidable_of_iff' _ (Iff.of_eq (k1_chk72.eq_1 v713))
theorem k1_off216_inb : ∀ (v713 : BitVec 32) (k1_hw72 : k1_chk72 v713), ∀ a, (k1_off216 v713) a + S1x16384.size a ≤ S2048x16384.size a := fun v713 k1_hw72 => k1_hw72

def k1_off217 (i : grid1.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v721 : BitVec 32 := Scalar.addi v0 c72_i32
  let v722 : Index := Scalar.indexCast v721
  ![v722.toNat]
def k1_off218 (i : grid1.Coords) : Fin 2 → Nat :=
  let arg0 : BitVec 32 := BitVec.ofNat 32 (i 0).val
  let c128_i32 : BitVec 32 := 128#32
  let v0 : BitVec 32 := Scalar.muli arg0 c128_i32
  let c72_i32 : BitVec 32 := 72#32
  let v724 : BitVec 32 := Scalar.addi v0 c72_i32
  let c0_i32_144 : BitVec 32 := 0#32
  ![v724.toNat, 0]
def k1_off219 (v723 : BitVec 32) : Fin 2 → Nat :=
  let c0_i32_145 : BitVec 32 := 0#32
  ![v723.toNat, 0]

def k1_chk73 (v723 : BitVec 32) : Prop :=
  (∀ a, (k1_off219 v723) a + S1x16384.size a ≤ S2048x16384.size a)
instance k1_chk73.dec : ∀ (v723 : BitVec 32), Decidable (k1_chk73 v723) := fun v723 => decidable_of_iff' _ (Iff.of_eq (k1_chk73.eq_1 v723))
theorem k1_off219_inb : ∀ (v723 : BitVec 32) (k1_hw73 : k1_chk73 v723), ∀ a, (k1_off219 v723) a + S1x16384.size a ≤ S2048x16384.size a := fun v723 k1_hw73 => k1_hw73

def k1_off220 (i : grid1.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v731 : BitVec 32 := Scalar.addi v0 c73_i32
  let v732 : Index := Scalar.indexCast v731
  ![v732.toNat]
def k1_off221 (i : grid1.Coords) : Fin 2 → Nat :=
  let arg0 : BitVec 32 := BitVec.ofNat 32 (i 0).val
  let c128_i32 : BitVec 32 := 128#32
  let v0 : BitVec 32 := Scalar.muli arg0 c128_i32
  let c73_i32 : BitVec 32 := 73#32
  let v734 : BitVec 32 := Scalar.addi v0 c73_i32
  let c0_i32_146 : BitVec 32 := 0#32
  ![v734.toNat, 0]
def k1_off222 (v733 : BitVec 32) : Fin 2 → Nat :=
  let c0_i32_147 : BitVec 32 := 0#32
  ![v733.toNat, 0]

def k1_chk74 (v733 : BitVec 32) : Prop :=
  (∀ a, (k1_off222 v733) a + S1x16384.size a ≤ S2048x16384.size a)
instance k1_chk74.dec : ∀ (v733 : BitVec 32), Decidable (k1_chk74 v733) := fun v733 => decidable_of_iff' _ (Iff.of_eq (k1_chk74.eq_1 v733))
theorem k1_off222_inb : ∀ (v733 : BitVec 32) (k1_hw74 : k1_chk74 v733), ∀ a, (k1_off222 v733) a + S1x16384.size a ≤ S2048x16384.size a := fun v733 k1_hw74 => k1_hw74

def k1_off223 (i : grid1.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v741 : BitVec 32 := Scalar.addi v0 c74_i32
  let v742 : Index := Scalar.indexCast v741
  ![v742.toNat]
def k1_off224 (i : grid1.Coords) : Fin 2 → Nat :=
  let arg0 : BitVec 32 := BitVec.ofNat 32 (i 0).val
  let c128_i32 : BitVec 32 := 128#32
  let v0 : BitVec 32 := Scalar.muli arg0 c128_i32
  let c74_i32 : BitVec 32 := 74#32
  let v744 : BitVec 32 := Scalar.addi v0 c74_i32
  let c0_i32_148 : BitVec 32 := 0#32
  ![v744.toNat, 0]
def k1_off225 (v743 : BitVec 32) : Fin 2 → Nat :=
  let c0_i32_149 : BitVec 32 := 0#32
  ![v743.toNat, 0]

def k1_chk75 (v743 : BitVec 32) : Prop :=
  (∀ a, (k1_off225 v743) a + S1x16384.size a ≤ S2048x16384.size a)
instance k1_chk75.dec : ∀ (v743 : BitVec 32), Decidable (k1_chk75 v743) := fun v743 => decidable_of_iff' _ (Iff.of_eq (k1_chk75.eq_1 v743))
theorem k1_off225_inb : ∀ (v743 : BitVec 32) (k1_hw75 : k1_chk75 v743), ∀ a, (k1_off225 v743) a + S1x16384.size a ≤ S2048x16384.size a := fun v743 k1_hw75 => k1_hw75

def k1_off226 (i : grid1.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v751 : BitVec 32 := Scalar.addi v0 c75_i32
  let v752 : Index := Scalar.indexCast v751
  ![v752.toNat]
def k1_off227 (i : grid1.Coords) : Fin 2 → Nat :=
  let arg0 : BitVec 32 := BitVec.ofNat 32 (i 0).val
  let c128_i32 : BitVec 32 := 128#32
  let v0 : BitVec 32 := Scalar.muli arg0 c128_i32
  let c75_i32 : BitVec 32 := 75#32
  let v754 : BitVec 32 := Scalar.addi v0 c75_i32
  let c0_i32_150 : BitVec 32 := 0#32
  ![v754.toNat, 0]
def k1_off228 (v753 : BitVec 32) : Fin 2 → Nat :=
  let c0_i32_151 : BitVec 32 := 0#32
  ![v753.toNat, 0]

def k1_chk76 (v753 : BitVec 32) : Prop :=
  (∀ a, (k1_off228 v753) a + S1x16384.size a ≤ S2048x16384.size a)
instance k1_chk76.dec : ∀ (v753 : BitVec 32), Decidable (k1_chk76 v753) := fun v753 => decidable_of_iff' _ (Iff.of_eq (k1_chk76.eq_1 v753))
theorem k1_off228_inb : ∀ (v753 : BitVec 32) (k1_hw76 : k1_chk76 v753), ∀ a, (k1_off228 v753) a + S1x16384.size a ≤ S2048x16384.size a := fun v753 k1_hw76 => k1_hw76

def k1_off229 (i : grid1.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v761 : BitVec 32 := Scalar.addi v0 c76_i32
  let v762 : Index := Scalar.indexCast v761
  ![v762.toNat]
def k1_off230 (i : grid1.Coords) : Fin 2 → Nat :=
  let arg0 : BitVec 32 := BitVec.ofNat 32 (i 0).val
  let c128_i32 : BitVec 32 := 128#32
  let v0 : BitVec 32 := Scalar.muli arg0 c128_i32
  let c76_i32 : BitVec 32 := 76#32
  let v764 : BitVec 32 := Scalar.addi v0 c76_i32
  let c0_i32_152 : BitVec 32 := 0#32
  ![v764.toNat, 0]
def k1_off231 (v763 : BitVec 32) : Fin 2 → Nat :=
  let c0_i32_153 : BitVec 32 := 0#32
  ![v763.toNat, 0]

def k1_chk77 (v763 : BitVec 32) : Prop :=
  (∀ a, (k1_off231 v763) a + S1x16384.size a ≤ S2048x16384.size a)
instance k1_chk77.dec : ∀ (v763 : BitVec 32), Decidable (k1_chk77 v763) := fun v763 => decidable_of_iff' _ (Iff.of_eq (k1_chk77.eq_1 v763))
theorem k1_off231_inb : ∀ (v763 : BitVec 32) (k1_hw77 : k1_chk77 v763), ∀ a, (k1_off231 v763) a + S1x16384.size a ≤ S2048x16384.size a := fun v763 k1_hw77 => k1_hw77

def k1_off232 (i : grid1.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v771 : BitVec 32 := Scalar.addi v0 c77_i32
  let v772 : Index := Scalar.indexCast v771
  ![v772.toNat]
def k1_off233 (i : grid1.Coords) : Fin 2 → Nat :=
  let arg0 : BitVec 32 := BitVec.ofNat 32 (i 0).val
  let c128_i32 : BitVec 32 := 128#32
  let v0 : BitVec 32 := Scalar.muli arg0 c128_i32
  let c77_i32 : BitVec 32 := 77#32
  let v774 : BitVec 32 := Scalar.addi v0 c77_i32
  let c0_i32_154 : BitVec 32 := 0#32
  ![v774.toNat, 0]
def k1_off234 (v773 : BitVec 32) : Fin 2 → Nat :=
  let c0_i32_155 : BitVec 32 := 0#32
  ![v773.toNat, 0]

def k1_chk78 (v773 : BitVec 32) : Prop :=
  (∀ a, (k1_off234 v773) a + S1x16384.size a ≤ S2048x16384.size a)
instance k1_chk78.dec : ∀ (v773 : BitVec 32), Decidable (k1_chk78 v773) := fun v773 => decidable_of_iff' _ (Iff.of_eq (k1_chk78.eq_1 v773))
theorem k1_off234_inb : ∀ (v773 : BitVec 32) (k1_hw78 : k1_chk78 v773), ∀ a, (k1_off234 v773) a + S1x16384.size a ≤ S2048x16384.size a := fun v773 k1_hw78 => k1_hw78

def k1_off235 (i : grid1.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v781 : BitVec 32 := Scalar.addi v0 c78_i32
  let v782 : Index := Scalar.indexCast v781
  ![v782.toNat]
def k1_off236 (i : grid1.Coords) : Fin 2 → Nat :=
  let arg0 : BitVec 32 := BitVec.ofNat 32 (i 0).val
  let c128_i32 : BitVec 32 := 128#32
  let v0 : BitVec 32 := Scalar.muli arg0 c128_i32
  let c78_i32 : BitVec 32 := 78#32
  let v784 : BitVec 32 := Scalar.addi v0 c78_i32
  let c0_i32_156 : BitVec 32 := 0#32
  ![v784.toNat, 0]
def k1_off237 (v783 : BitVec 32) : Fin 2 → Nat :=
  let c0_i32_157 : BitVec 32 := 0#32
  ![v783.toNat, 0]

def k1_chk79 (v783 : BitVec 32) : Prop :=
  (∀ a, (k1_off237 v783) a + S1x16384.size a ≤ S2048x16384.size a)
instance k1_chk79.dec : ∀ (v783 : BitVec 32), Decidable (k1_chk79 v783) := fun v783 => decidable_of_iff' _ (Iff.of_eq (k1_chk79.eq_1 v783))
theorem k1_off237_inb : ∀ (v783 : BitVec 32) (k1_hw79 : k1_chk79 v783), ∀ a, (k1_off237 v783) a + S1x16384.size a ≤ S2048x16384.size a := fun v783 k1_hw79 => k1_hw79

def k1_off238 (i : grid1.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v791 : BitVec 32 := Scalar.addi v0 c79_i32
  let v792 : Index := Scalar.indexCast v791
  ![v792.toNat]
def k1_off239 (i : grid1.Coords) : Fin 2 → Nat :=
  let arg0 : BitVec 32 := BitVec.ofNat 32 (i 0).val
  let c128_i32 : BitVec 32 := 128#32
  let v0 : BitVec 32 := Scalar.muli arg0 c128_i32
  let c79_i32 : BitVec 32 := 79#32
  let v794 : BitVec 32 := Scalar.addi v0 c79_i32
  let c0_i32_158 : BitVec 32 := 0#32
  ![v794.toNat, 0]
def k1_off240 (v793 : BitVec 32) : Fin 2 → Nat :=
  let c0_i32_159 : BitVec 32 := 0#32
  ![v793.toNat, 0]

def k1_chk80 (v793 : BitVec 32) : Prop :=
  (∀ a, (k1_off240 v793) a + S1x16384.size a ≤ S2048x16384.size a)
instance k1_chk80.dec : ∀ (v793 : BitVec 32), Decidable (k1_chk80 v793) := fun v793 => decidable_of_iff' _ (Iff.of_eq (k1_chk80.eq_1 v793))
theorem k1_off240_inb : ∀ (v793 : BitVec 32) (k1_hw80 : k1_chk80 v793), ∀ a, (k1_off240 v793) a + S1x16384.size a ≤ S2048x16384.size a := fun v793 k1_hw80 => k1_hw80

def k1_off241 (i : grid1.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v801 : BitVec 32 := Scalar.addi v0 c80_i32
  let v802 : Index := Scalar.indexCast v801
  ![v802.toNat]
def k1_off242 (i : grid1.Coords) : Fin 2 → Nat :=
  let arg0 : BitVec 32 := BitVec.ofNat 32 (i 0).val
  let c128_i32 : BitVec 32 := 128#32
  let v0 : BitVec 32 := Scalar.muli arg0 c128_i32
  let c80_i32 : BitVec 32 := 80#32
  let v804 : BitVec 32 := Scalar.addi v0 c80_i32
  let c0_i32_160 : BitVec 32 := 0#32
  ![v804.toNat, 0]
def k1_off243 (v803 : BitVec 32) : Fin 2 → Nat :=
  let c0_i32_161 : BitVec 32 := 0#32
  ![v803.toNat, 0]

def k1_chk81 (v803 : BitVec 32) : Prop :=
  (∀ a, (k1_off243 v803) a + S1x16384.size a ≤ S2048x16384.size a)
instance k1_chk81.dec : ∀ (v803 : BitVec 32), Decidable (k1_chk81 v803) := fun v803 => decidable_of_iff' _ (Iff.of_eq (k1_chk81.eq_1 v803))
theorem k1_off243_inb : ∀ (v803 : BitVec 32) (k1_hw81 : k1_chk81 v803), ∀ a, (k1_off243 v803) a + S1x16384.size a ≤ S2048x16384.size a := fun v803 k1_hw81 => k1_hw81

def k1_off244 (i : grid1.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v811 : BitVec 32 := Scalar.addi v0 c81_i32
  let v812 : Index := Scalar.indexCast v811
  ![v812.toNat]
def k1_off245 (i : grid1.Coords) : Fin 2 → Nat :=
  let arg0 : BitVec 32 := BitVec.ofNat 32 (i 0).val
  let c128_i32 : BitVec 32 := 128#32
  let v0 : BitVec 32 := Scalar.muli arg0 c128_i32
  let c81_i32 : BitVec 32 := 81#32
  let v814 : BitVec 32 := Scalar.addi v0 c81_i32
  let c0_i32_162 : BitVec 32 := 0#32
  ![v814.toNat, 0]
def k1_off246 (v813 : BitVec 32) : Fin 2 → Nat :=
  let c0_i32_163 : BitVec 32 := 0#32
  ![v813.toNat, 0]

def k1_chk82 (v813 : BitVec 32) : Prop :=
  (∀ a, (k1_off246 v813) a + S1x16384.size a ≤ S2048x16384.size a)
instance k1_chk82.dec : ∀ (v813 : BitVec 32), Decidable (k1_chk82 v813) := fun v813 => decidable_of_iff' _ (Iff.of_eq (k1_chk82.eq_1 v813))
theorem k1_off246_inb : ∀ (v813 : BitVec 32) (k1_hw82 : k1_chk82 v813), ∀ a, (k1_off246 v813) a + S1x16384.size a ≤ S2048x16384.size a := fun v813 k1_hw82 => k1_hw82

def k1_off247 (i : grid1.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v821 : BitVec 32 := Scalar.addi v0 c82_i32
  let v822 : Index := Scalar.indexCast v821
  ![v822.toNat]
def k1_off248 (i : grid1.Coords) : Fin 2 → Nat :=
  let arg0 : BitVec 32 := BitVec.ofNat 32 (i 0).val
  let c128_i32 : BitVec 32 := 128#32
  let v0 : BitVec 32 := Scalar.muli arg0 c128_i32
  let c82_i32 : BitVec 32 := 82#32
  let v824 : BitVec 32 := Scalar.addi v0 c82_i32
  let c0_i32_164 : BitVec 32 := 0#32
  ![v824.toNat, 0]
def k1_off249 (v823 : BitVec 32) : Fin 2 → Nat :=
  let c0_i32_165 : BitVec 32 := 0#32
  ![v823.toNat, 0]

def k1_chk83 (v823 : BitVec 32) : Prop :=
  (∀ a, (k1_off249 v823) a + S1x16384.size a ≤ S2048x16384.size a)
instance k1_chk83.dec : ∀ (v823 : BitVec 32), Decidable (k1_chk83 v823) := fun v823 => decidable_of_iff' _ (Iff.of_eq (k1_chk83.eq_1 v823))
theorem k1_off249_inb : ∀ (v823 : BitVec 32) (k1_hw83 : k1_chk83 v823), ∀ a, (k1_off249 v823) a + S1x16384.size a ≤ S2048x16384.size a := fun v823 k1_hw83 => k1_hw83

def k1_off250 (i : grid1.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v831 : BitVec 32 := Scalar.addi v0 c83_i32
  let v832 : Index := Scalar.indexCast v831
  ![v832.toNat]
def k1_off251 (i : grid1.Coords) : Fin 2 → Nat :=
  let arg0 : BitVec 32 := BitVec.ofNat 32 (i 0).val
  let c128_i32 : BitVec 32 := 128#32
  let v0 : BitVec 32 := Scalar.muli arg0 c128_i32
  let c83_i32 : BitVec 32 := 83#32
  let v834 : BitVec 32 := Scalar.addi v0 c83_i32
  let c0_i32_166 : BitVec 32 := 0#32
  ![v834.toNat, 0]
def k1_off252 (v833 : BitVec 32) : Fin 2 → Nat :=
  let c0_i32_167 : BitVec 32 := 0#32
  ![v833.toNat, 0]

def k1_chk84 (v833 : BitVec 32) : Prop :=
  (∀ a, (k1_off252 v833) a + S1x16384.size a ≤ S2048x16384.size a)
instance k1_chk84.dec : ∀ (v833 : BitVec 32), Decidable (k1_chk84 v833) := fun v833 => decidable_of_iff' _ (Iff.of_eq (k1_chk84.eq_1 v833))
theorem k1_off252_inb : ∀ (v833 : BitVec 32) (k1_hw84 : k1_chk84 v833), ∀ a, (k1_off252 v833) a + S1x16384.size a ≤ S2048x16384.size a := fun v833 k1_hw84 => k1_hw84

def k1_off253 (i : grid1.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v841 : BitVec 32 := Scalar.addi v0 c84_i32
  let v842 : Index := Scalar.indexCast v841
  ![v842.toNat]
def k1_off254 (i : grid1.Coords) : Fin 2 → Nat :=
  let arg0 : BitVec 32 := BitVec.ofNat 32 (i 0).val
  let c128_i32 : BitVec 32 := 128#32
  let v0 : BitVec 32 := Scalar.muli arg0 c128_i32
  let c84_i32 : BitVec 32 := 84#32
  let v844 : BitVec 32 := Scalar.addi v0 c84_i32
  let c0_i32_168 : BitVec 32 := 0#32
  ![v844.toNat, 0]
def k1_off255 (v843 : BitVec 32) : Fin 2 → Nat :=
  let c0_i32_169 : BitVec 32 := 0#32
  ![v843.toNat, 0]

def k1_chk85 (v843 : BitVec 32) : Prop :=
  (∀ a, (k1_off255 v843) a + S1x16384.size a ≤ S2048x16384.size a)
instance k1_chk85.dec : ∀ (v843 : BitVec 32), Decidable (k1_chk85 v843) := fun v843 => decidable_of_iff' _ (Iff.of_eq (k1_chk85.eq_1 v843))
theorem k1_off255_inb : ∀ (v843 : BitVec 32) (k1_hw85 : k1_chk85 v843), ∀ a, (k1_off255 v843) a + S1x16384.size a ≤ S2048x16384.size a := fun v843 k1_hw85 => k1_hw85

def k1_off256 (i : grid1.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v851 : BitVec 32 := Scalar.addi v0 c85_i32
  let v852 : Index := Scalar.indexCast v851
  ![v852.toNat]
def k1_off257 (i : grid1.Coords) : Fin 2 → Nat :=
  let arg0 : BitVec 32 := BitVec.ofNat 32 (i 0).val
  let c128_i32 : BitVec 32 := 128#32
  let v0 : BitVec 32 := Scalar.muli arg0 c128_i32
  let c85_i32 : BitVec 32 := 85#32
  let v854 : BitVec 32 := Scalar.addi v0 c85_i32
  let c0_i32_170 : BitVec 32 := 0#32
  ![v854.toNat, 0]
def k1_off258 (v853 : BitVec 32) : Fin 2 → Nat :=
  let c0_i32_171 : BitVec 32 := 0#32
  ![v853.toNat, 0]

def k1_chk86 (v853 : BitVec 32) : Prop :=
  (∀ a, (k1_off258 v853) a + S1x16384.size a ≤ S2048x16384.size a)
instance k1_chk86.dec : ∀ (v853 : BitVec 32), Decidable (k1_chk86 v853) := fun v853 => decidable_of_iff' _ (Iff.of_eq (k1_chk86.eq_1 v853))
theorem k1_off258_inb : ∀ (v853 : BitVec 32) (k1_hw86 : k1_chk86 v853), ∀ a, (k1_off258 v853) a + S1x16384.size a ≤ S2048x16384.size a := fun v853 k1_hw86 => k1_hw86

def k1_off259 (i : grid1.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v861 : BitVec 32 := Scalar.addi v0 c86_i32
  let v862 : Index := Scalar.indexCast v861
  ![v862.toNat]
def k1_off260 (i : grid1.Coords) : Fin 2 → Nat :=
  let arg0 : BitVec 32 := BitVec.ofNat 32 (i 0).val
  let c128_i32 : BitVec 32 := 128#32
  let v0 : BitVec 32 := Scalar.muli arg0 c128_i32
  let c86_i32 : BitVec 32 := 86#32
  let v864 : BitVec 32 := Scalar.addi v0 c86_i32
  let c0_i32_172 : BitVec 32 := 0#32
  ![v864.toNat, 0]
def k1_off261 (v863 : BitVec 32) : Fin 2 → Nat :=
  let c0_i32_173 : BitVec 32 := 0#32
  ![v863.toNat, 0]

def k1_chk87 (v863 : BitVec 32) : Prop :=
  (∀ a, (k1_off261 v863) a + S1x16384.size a ≤ S2048x16384.size a)
instance k1_chk87.dec : ∀ (v863 : BitVec 32), Decidable (k1_chk87 v863) := fun v863 => decidable_of_iff' _ (Iff.of_eq (k1_chk87.eq_1 v863))
theorem k1_off261_inb : ∀ (v863 : BitVec 32) (k1_hw87 : k1_chk87 v863), ∀ a, (k1_off261 v863) a + S1x16384.size a ≤ S2048x16384.size a := fun v863 k1_hw87 => k1_hw87

def k1_off262 (i : grid1.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v871 : BitVec 32 := Scalar.addi v0 c87_i32
  let v872 : Index := Scalar.indexCast v871
  ![v872.toNat]
def k1_off263 (i : grid1.Coords) : Fin 2 → Nat :=
  let arg0 : BitVec 32 := BitVec.ofNat 32 (i 0).val
  let c128_i32 : BitVec 32 := 128#32
  let v0 : BitVec 32 := Scalar.muli arg0 c128_i32
  let c87_i32 : BitVec 32 := 87#32
  let v874 : BitVec 32 := Scalar.addi v0 c87_i32
  let c0_i32_174 : BitVec 32 := 0#32
  ![v874.toNat, 0]
def k1_off264 (v873 : BitVec 32) : Fin 2 → Nat :=
  let c0_i32_175 : BitVec 32 := 0#32
  ![v873.toNat, 0]

def k1_chk88 (v873 : BitVec 32) : Prop :=
  (∀ a, (k1_off264 v873) a + S1x16384.size a ≤ S2048x16384.size a)
instance k1_chk88.dec : ∀ (v873 : BitVec 32), Decidable (k1_chk88 v873) := fun v873 => decidable_of_iff' _ (Iff.of_eq (k1_chk88.eq_1 v873))
theorem k1_off264_inb : ∀ (v873 : BitVec 32) (k1_hw88 : k1_chk88 v873), ∀ a, (k1_off264 v873) a + S1x16384.size a ≤ S2048x16384.size a := fun v873 k1_hw88 => k1_hw88

def k1_off265 (i : grid1.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v881 : BitVec 32 := Scalar.addi v0 c88_i32
  let v882 : Index := Scalar.indexCast v881
  ![v882.toNat]
def k1_off266 (i : grid1.Coords) : Fin 2 → Nat :=
  let arg0 : BitVec 32 := BitVec.ofNat 32 (i 0).val
  let c128_i32 : BitVec 32 := 128#32
  let v0 : BitVec 32 := Scalar.muli arg0 c128_i32
  let c88_i32 : BitVec 32 := 88#32
  let v884 : BitVec 32 := Scalar.addi v0 c88_i32
  let c0_i32_176 : BitVec 32 := 0#32
  ![v884.toNat, 0]
def k1_off267 (v883 : BitVec 32) : Fin 2 → Nat :=
  let c0_i32_177 : BitVec 32 := 0#32
  ![v883.toNat, 0]

def k1_chk89 (v883 : BitVec 32) : Prop :=
  (∀ a, (k1_off267 v883) a + S1x16384.size a ≤ S2048x16384.size a)
instance k1_chk89.dec : ∀ (v883 : BitVec 32), Decidable (k1_chk89 v883) := fun v883 => decidable_of_iff' _ (Iff.of_eq (k1_chk89.eq_1 v883))
theorem k1_off267_inb : ∀ (v883 : BitVec 32) (k1_hw89 : k1_chk89 v883), ∀ a, (k1_off267 v883) a + S1x16384.size a ≤ S2048x16384.size a := fun v883 k1_hw89 => k1_hw89

def k1_off268 (i : grid1.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v891 : BitVec 32 := Scalar.addi v0 c89_i32
  let v892 : Index := Scalar.indexCast v891
  ![v892.toNat]
def k1_off269 (i : grid1.Coords) : Fin 2 → Nat :=
  let arg0 : BitVec 32 := BitVec.ofNat 32 (i 0).val
  let c128_i32 : BitVec 32 := 128#32
  let v0 : BitVec 32 := Scalar.muli arg0 c128_i32
  let c89_i32 : BitVec 32 := 89#32
  let v894 : BitVec 32 := Scalar.addi v0 c89_i32
  let c0_i32_178 : BitVec 32 := 0#32
  ![v894.toNat, 0]
def k1_off270 (v893 : BitVec 32) : Fin 2 → Nat :=
  let c0_i32_179 : BitVec 32 := 0#32
  ![v893.toNat, 0]

def k1_chk90 (v893 : BitVec 32) : Prop :=
  (∀ a, (k1_off270 v893) a + S1x16384.size a ≤ S2048x16384.size a)
instance k1_chk90.dec : ∀ (v893 : BitVec 32), Decidable (k1_chk90 v893) := fun v893 => decidable_of_iff' _ (Iff.of_eq (k1_chk90.eq_1 v893))
theorem k1_off270_inb : ∀ (v893 : BitVec 32) (k1_hw90 : k1_chk90 v893), ∀ a, (k1_off270 v893) a + S1x16384.size a ≤ S2048x16384.size a := fun v893 k1_hw90 => k1_hw90

def k1_off271 (i : grid1.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v901 : BitVec 32 := Scalar.addi v0 c90_i32
  let v902 : Index := Scalar.indexCast v901
  ![v902.toNat]
def k1_off272 (i : grid1.Coords) : Fin 2 → Nat :=
  let arg0 : BitVec 32 := BitVec.ofNat 32 (i 0).val
  let c128_i32 : BitVec 32 := 128#32
  let v0 : BitVec 32 := Scalar.muli arg0 c128_i32
  let c90_i32 : BitVec 32 := 90#32
  let v904 : BitVec 32 := Scalar.addi v0 c90_i32
  let c0_i32_180 : BitVec 32 := 0#32
  ![v904.toNat, 0]
def k1_off273 (v903 : BitVec 32) : Fin 2 → Nat :=
  let c0_i32_181 : BitVec 32 := 0#32
  ![v903.toNat, 0]

def k1_chk91 (v903 : BitVec 32) : Prop :=
  (∀ a, (k1_off273 v903) a + S1x16384.size a ≤ S2048x16384.size a)
instance k1_chk91.dec : ∀ (v903 : BitVec 32), Decidable (k1_chk91 v903) := fun v903 => decidable_of_iff' _ (Iff.of_eq (k1_chk91.eq_1 v903))
theorem k1_off273_inb : ∀ (v903 : BitVec 32) (k1_hw91 : k1_chk91 v903), ∀ a, (k1_off273 v903) a + S1x16384.size a ≤ S2048x16384.size a := fun v903 k1_hw91 => k1_hw91

def k1_off274 (i : grid1.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v911 : BitVec 32 := Scalar.addi v0 c91_i32
  let v912 : Index := Scalar.indexCast v911
  ![v912.toNat]
def k1_off275 (i : grid1.Coords) : Fin 2 → Nat :=
  let arg0 : BitVec 32 := BitVec.ofNat 32 (i 0).val
  let c128_i32 : BitVec 32 := 128#32
  let v0 : BitVec 32 := Scalar.muli arg0 c128_i32
  let c91_i32 : BitVec 32 := 91#32
  let v914 : BitVec 32 := Scalar.addi v0 c91_i32
  let c0_i32_182 : BitVec 32 := 0#32
  ![v914.toNat, 0]
def k1_off276 (v913 : BitVec 32) : Fin 2 → Nat :=
  let c0_i32_183 : BitVec 32 := 0#32
  ![v913.toNat, 0]

def k1_chk92 (v913 : BitVec 32) : Prop :=
  (∀ a, (k1_off276 v913) a + S1x16384.size a ≤ S2048x16384.size a)
instance k1_chk92.dec : ∀ (v913 : BitVec 32), Decidable (k1_chk92 v913) := fun v913 => decidable_of_iff' _ (Iff.of_eq (k1_chk92.eq_1 v913))
theorem k1_off276_inb : ∀ (v913 : BitVec 32) (k1_hw92 : k1_chk92 v913), ∀ a, (k1_off276 v913) a + S1x16384.size a ≤ S2048x16384.size a := fun v913 k1_hw92 => k1_hw92

def k1_off277 (i : grid1.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v921 : BitVec 32 := Scalar.addi v0 c92_i32
  let v922 : Index := Scalar.indexCast v921
  ![v922.toNat]
def k1_off278 (i : grid1.Coords) : Fin 2 → Nat :=
  let arg0 : BitVec 32 := BitVec.ofNat 32 (i 0).val
  let c128_i32 : BitVec 32 := 128#32
  let v0 : BitVec 32 := Scalar.muli arg0 c128_i32
  let c92_i32 : BitVec 32 := 92#32
  let v924 : BitVec 32 := Scalar.addi v0 c92_i32
  let c0_i32_184 : BitVec 32 := 0#32
  ![v924.toNat, 0]
def k1_off279 (v923 : BitVec 32) : Fin 2 → Nat :=
  let c0_i32_185 : BitVec 32 := 0#32
  ![v923.toNat, 0]

def k1_chk93 (v923 : BitVec 32) : Prop :=
  (∀ a, (k1_off279 v923) a + S1x16384.size a ≤ S2048x16384.size a)
instance k1_chk93.dec : ∀ (v923 : BitVec 32), Decidable (k1_chk93 v923) := fun v923 => decidable_of_iff' _ (Iff.of_eq (k1_chk93.eq_1 v923))
theorem k1_off279_inb : ∀ (v923 : BitVec 32) (k1_hw93 : k1_chk93 v923), ∀ a, (k1_off279 v923) a + S1x16384.size a ≤ S2048x16384.size a := fun v923 k1_hw93 => k1_hw93

def k1_off280 (i : grid1.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v931 : BitVec 32 := Scalar.addi v0 c93_i32
  let v932 : Index := Scalar.indexCast v931
  ![v932.toNat]
def k1_off281 (i : grid1.Coords) : Fin 2 → Nat :=
  let arg0 : BitVec 32 := BitVec.ofNat 32 (i 0).val
  let c128_i32 : BitVec 32 := 128#32
  let v0 : BitVec 32 := Scalar.muli arg0 c128_i32
  let c93_i32 : BitVec 32 := 93#32
  let v934 : BitVec 32 := Scalar.addi v0 c93_i32
  let c0_i32_186 : BitVec 32 := 0#32
  ![v934.toNat, 0]
def k1_off282 (v933 : BitVec 32) : Fin 2 → Nat :=
  let c0_i32_187 : BitVec 32 := 0#32
  ![v933.toNat, 0]

def k1_chk94 (v933 : BitVec 32) : Prop :=
  (∀ a, (k1_off282 v933) a + S1x16384.size a ≤ S2048x16384.size a)
instance k1_chk94.dec : ∀ (v933 : BitVec 32), Decidable (k1_chk94 v933) := fun v933 => decidable_of_iff' _ (Iff.of_eq (k1_chk94.eq_1 v933))
theorem k1_off282_inb : ∀ (v933 : BitVec 32) (k1_hw94 : k1_chk94 v933), ∀ a, (k1_off282 v933) a + S1x16384.size a ≤ S2048x16384.size a := fun v933 k1_hw94 => k1_hw94

def k1_off283 (i : grid1.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v941 : BitVec 32 := Scalar.addi v0 c94_i32
  let v942 : Index := Scalar.indexCast v941
  ![v942.toNat]
def k1_off284 (i : grid1.Coords) : Fin 2 → Nat :=
  let arg0 : BitVec 32 := BitVec.ofNat 32 (i 0).val
  let c128_i32 : BitVec 32 := 128#32
  let v0 : BitVec 32 := Scalar.muli arg0 c128_i32
  let c94_i32 : BitVec 32 := 94#32
  let v944 : BitVec 32 := Scalar.addi v0 c94_i32
  let c0_i32_188 : BitVec 32 := 0#32
  ![v944.toNat, 0]
def k1_off285 (v943 : BitVec 32) : Fin 2 → Nat :=
  let c0_i32_189 : BitVec 32 := 0#32
  ![v943.toNat, 0]

def k1_chk95 (v943 : BitVec 32) : Prop :=
  (∀ a, (k1_off285 v943) a + S1x16384.size a ≤ S2048x16384.size a)
instance k1_chk95.dec : ∀ (v943 : BitVec 32), Decidable (k1_chk95 v943) := fun v943 => decidable_of_iff' _ (Iff.of_eq (k1_chk95.eq_1 v943))
theorem k1_off285_inb : ∀ (v943 : BitVec 32) (k1_hw95 : k1_chk95 v943), ∀ a, (k1_off285 v943) a + S1x16384.size a ≤ S2048x16384.size a := fun v943 k1_hw95 => k1_hw95

def k1_off286 (i : grid1.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v951 : BitVec 32 := Scalar.addi v0 c95_i32
  let v952 : Index := Scalar.indexCast v951
  ![v952.toNat]
def k1_off287 (i : grid1.Coords) : Fin 2 → Nat :=
  let arg0 : BitVec 32 := BitVec.ofNat 32 (i 0).val
  let c128_i32 : BitVec 32 := 128#32
  let v0 : BitVec 32 := Scalar.muli arg0 c128_i32
  let c95_i32 : BitVec 32 := 95#32
  let v954 : BitVec 32 := Scalar.addi v0 c95_i32
  let c0_i32_190 : BitVec 32 := 0#32
  ![v954.toNat, 0]
def k1_off288 (v953 : BitVec 32) : Fin 2 → Nat :=
  let c0_i32_191 : BitVec 32 := 0#32
  ![v953.toNat, 0]

def k1_chk96 (v953 : BitVec 32) : Prop :=
  (∀ a, (k1_off288 v953) a + S1x16384.size a ≤ S2048x16384.size a)
instance k1_chk96.dec : ∀ (v953 : BitVec 32), Decidable (k1_chk96 v953) := fun v953 => decidable_of_iff' _ (Iff.of_eq (k1_chk96.eq_1 v953))
theorem k1_off288_inb : ∀ (v953 : BitVec 32) (k1_hw96 : k1_chk96 v953), ∀ a, (k1_off288 v953) a + S1x16384.size a ≤ S2048x16384.size a := fun v953 k1_hw96 => k1_hw96

def k1_off289 (i : grid1.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v961 : BitVec 32 := Scalar.addi v0 c96_i32
  let v962 : Index := Scalar.indexCast v961
  ![v962.toNat]
def k1_off290 (i : grid1.Coords) : Fin 2 → Nat :=
  let arg0 : BitVec 32 := BitVec.ofNat 32 (i 0).val
  let c128_i32 : BitVec 32 := 128#32
  let v0 : BitVec 32 := Scalar.muli arg0 c128_i32
  let c96_i32 : BitVec 32 := 96#32
  let v964 : BitVec 32 := Scalar.addi v0 c96_i32
  let c0_i32_192 : BitVec 32 := 0#32
  ![v964.toNat, 0]
def k1_off291 (v963 : BitVec 32) : Fin 2 → Nat :=
  let c0_i32_193 : BitVec 32 := 0#32
  ![v963.toNat, 0]

def k1_chk97 (v963 : BitVec 32) : Prop :=
  (∀ a, (k1_off291 v963) a + S1x16384.size a ≤ S2048x16384.size a)
instance k1_chk97.dec : ∀ (v963 : BitVec 32), Decidable (k1_chk97 v963) := fun v963 => decidable_of_iff' _ (Iff.of_eq (k1_chk97.eq_1 v963))
theorem k1_off291_inb : ∀ (v963 : BitVec 32) (k1_hw97 : k1_chk97 v963), ∀ a, (k1_off291 v963) a + S1x16384.size a ≤ S2048x16384.size a := fun v963 k1_hw97 => k1_hw97

def k1_off292 (i : grid1.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v971 : BitVec 32 := Scalar.addi v0 c97_i32
  let v972 : Index := Scalar.indexCast v971
  ![v972.toNat]
def k1_off293 (i : grid1.Coords) : Fin 2 → Nat :=
  let arg0 : BitVec 32 := BitVec.ofNat 32 (i 0).val
  let c128_i32 : BitVec 32 := 128#32
  let v0 : BitVec 32 := Scalar.muli arg0 c128_i32
  let c97_i32 : BitVec 32 := 97#32
  let v974 : BitVec 32 := Scalar.addi v0 c97_i32
  let c0_i32_194 : BitVec 32 := 0#32
  ![v974.toNat, 0]
def k1_off294 (v973 : BitVec 32) : Fin 2 → Nat :=
  let c0_i32_195 : BitVec 32 := 0#32
  ![v973.toNat, 0]

def k1_chk98 (v973 : BitVec 32) : Prop :=
  (∀ a, (k1_off294 v973) a + S1x16384.size a ≤ S2048x16384.size a)
instance k1_chk98.dec : ∀ (v973 : BitVec 32), Decidable (k1_chk98 v973) := fun v973 => decidable_of_iff' _ (Iff.of_eq (k1_chk98.eq_1 v973))
theorem k1_off294_inb : ∀ (v973 : BitVec 32) (k1_hw98 : k1_chk98 v973), ∀ a, (k1_off294 v973) a + S1x16384.size a ≤ S2048x16384.size a := fun v973 k1_hw98 => k1_hw98

def k1_off295 (i : grid1.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v981 : BitVec 32 := Scalar.addi v0 c98_i32
  let v982 : Index := Scalar.indexCast v981
  ![v982.toNat]
def k1_off296 (i : grid1.Coords) : Fin 2 → Nat :=
  let arg0 : BitVec 32 := BitVec.ofNat 32 (i 0).val
  let c128_i32 : BitVec 32 := 128#32
  let v0 : BitVec 32 := Scalar.muli arg0 c128_i32
  let c98_i32 : BitVec 32 := 98#32
  let v984 : BitVec 32 := Scalar.addi v0 c98_i32
  let c0_i32_196 : BitVec 32 := 0#32
  ![v984.toNat, 0]
def k1_off297 (v983 : BitVec 32) : Fin 2 → Nat :=
  let c0_i32_197 : BitVec 32 := 0#32
  ![v983.toNat, 0]

def k1_chk99 (v983 : BitVec 32) : Prop :=
  (∀ a, (k1_off297 v983) a + S1x16384.size a ≤ S2048x16384.size a)
instance k1_chk99.dec : ∀ (v983 : BitVec 32), Decidable (k1_chk99 v983) := fun v983 => decidable_of_iff' _ (Iff.of_eq (k1_chk99.eq_1 v983))
theorem k1_off297_inb : ∀ (v983 : BitVec 32) (k1_hw99 : k1_chk99 v983), ∀ a, (k1_off297 v983) a + S1x16384.size a ≤ S2048x16384.size a := fun v983 k1_hw99 => k1_hw99

def k1_off298 (i : grid1.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v991 : BitVec 32 := Scalar.addi v0 c99_i32
  let v992 : Index := Scalar.indexCast v991
  ![v992.toNat]
def k1_off299 (i : grid1.Coords) : Fin 2 → Nat :=
  let arg0 : BitVec 32 := BitVec.ofNat 32 (i 0).val
  let c128_i32 : BitVec 32 := 128#32
  let v0 : BitVec 32 := Scalar.muli arg0 c128_i32
  let c99_i32 : BitVec 32 := 99#32
  let v994 : BitVec 32 := Scalar.addi v0 c99_i32
  let c0_i32_198 : BitVec 32 := 0#32
  ![v994.toNat, 0]
def k1_off300 (v993 : BitVec 32) : Fin 2 → Nat :=
  let c0_i32_199 : BitVec 32 := 0#32
  ![v993.toNat, 0]

def k1_chk100 (v993 : BitVec 32) : Prop :=
  (∀ a, (k1_off300 v993) a + S1x16384.size a ≤ S2048x16384.size a)
instance k1_chk100.dec : ∀ (v993 : BitVec 32), Decidable (k1_chk100 v993) := fun v993 => decidable_of_iff' _ (Iff.of_eq (k1_chk100.eq_1 v993))
theorem k1_off300_inb : ∀ (v993 : BitVec 32) (k1_hw100 : k1_chk100 v993), ∀ a, (k1_off300 v993) a + S1x16384.size a ≤ S2048x16384.size a := fun v993 k1_hw100 => k1_hw100

def k1_off301 (i : grid1.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1001 : BitVec 32 := Scalar.addi v0 c100_i32
  let v1002 : Index := Scalar.indexCast v1001
  ![v1002.toNat]
def k1_off302 (i : grid1.Coords) : Fin 2 → Nat :=
  let arg0 : BitVec 32 := BitVec.ofNat 32 (i 0).val
  let c128_i32 : BitVec 32 := 128#32
  let v0 : BitVec 32 := Scalar.muli arg0 c128_i32
  let c100_i32 : BitVec 32 := 100#32
  let v1004 : BitVec 32 := Scalar.addi v0 c100_i32
  let c0_i32_200 : BitVec 32 := 0#32
  ![v1004.toNat, 0]
def k1_off303 (v1003 : BitVec 32) : Fin 2 → Nat :=
  let c0_i32_201 : BitVec 32 := 0#32
  ![v1003.toNat, 0]

def k1_chk101 (v1003 : BitVec 32) : Prop :=
  (∀ a, (k1_off303 v1003) a + S1x16384.size a ≤ S2048x16384.size a)
instance k1_chk101.dec : ∀ (v1003 : BitVec 32), Decidable (k1_chk101 v1003) := fun v1003 => decidable_of_iff' _ (Iff.of_eq (k1_chk101.eq_1 v1003))
theorem k1_off303_inb : ∀ (v1003 : BitVec 32) (k1_hw101 : k1_chk101 v1003), ∀ a, (k1_off303 v1003) a + S1x16384.size a ≤ S2048x16384.size a := fun v1003 k1_hw101 => k1_hw101

def k1_off304 (i : grid1.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1011 : BitVec 32 := Scalar.addi v0 c101_i32
  let v1012 : Index := Scalar.indexCast v1011
  ![v1012.toNat]
def k1_off305 (i : grid1.Coords) : Fin 2 → Nat :=
  let arg0 : BitVec 32 := BitVec.ofNat 32 (i 0).val
  let c128_i32 : BitVec 32 := 128#32
  let v0 : BitVec 32 := Scalar.muli arg0 c128_i32
  let c101_i32 : BitVec 32 := 101#32
  let v1014 : BitVec 32 := Scalar.addi v0 c101_i32
  let c0_i32_202 : BitVec 32 := 0#32
  ![v1014.toNat, 0]
def k1_off306 (v1013 : BitVec 32) : Fin 2 → Nat :=
  let c0_i32_203 : BitVec 32 := 0#32
  ![v1013.toNat, 0]

def k1_chk102 (v1013 : BitVec 32) : Prop :=
  (∀ a, (k1_off306 v1013) a + S1x16384.size a ≤ S2048x16384.size a)
instance k1_chk102.dec : ∀ (v1013 : BitVec 32), Decidable (k1_chk102 v1013) := fun v1013 => decidable_of_iff' _ (Iff.of_eq (k1_chk102.eq_1 v1013))
theorem k1_off306_inb : ∀ (v1013 : BitVec 32) (k1_hw102 : k1_chk102 v1013), ∀ a, (k1_off306 v1013) a + S1x16384.size a ≤ S2048x16384.size a := fun v1013 k1_hw102 => k1_hw102

def k1_off307 (i : grid1.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1021 : BitVec 32 := Scalar.addi v0 c102_i32
  let v1022 : Index := Scalar.indexCast v1021
  ![v1022.toNat]
def k1_off308 (i : grid1.Coords) : Fin 2 → Nat :=
  let arg0 : BitVec 32 := BitVec.ofNat 32 (i 0).val
  let c128_i32 : BitVec 32 := 128#32
  let v0 : BitVec 32 := Scalar.muli arg0 c128_i32
  let c102_i32 : BitVec 32 := 102#32
  let v1024 : BitVec 32 := Scalar.addi v0 c102_i32
  let c0_i32_204 : BitVec 32 := 0#32
  ![v1024.toNat, 0]
def k1_off309 (v1023 : BitVec 32) : Fin 2 → Nat :=
  let c0_i32_205 : BitVec 32 := 0#32
  ![v1023.toNat, 0]

def k1_chk103 (v1023 : BitVec 32) : Prop :=
  (∀ a, (k1_off309 v1023) a + S1x16384.size a ≤ S2048x16384.size a)
instance k1_chk103.dec : ∀ (v1023 : BitVec 32), Decidable (k1_chk103 v1023) := fun v1023 => decidable_of_iff' _ (Iff.of_eq (k1_chk103.eq_1 v1023))
theorem k1_off309_inb : ∀ (v1023 : BitVec 32) (k1_hw103 : k1_chk103 v1023), ∀ a, (k1_off309 v1023) a + S1x16384.size a ≤ S2048x16384.size a := fun v1023 k1_hw103 => k1_hw103

def k1_off310 (i : grid1.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1031 : BitVec 32 := Scalar.addi v0 c103_i32
  let v1032 : Index := Scalar.indexCast v1031
  ![v1032.toNat]
def k1_off311 (i : grid1.Coords) : Fin 2 → Nat :=
  let arg0 : BitVec 32 := BitVec.ofNat 32 (i 0).val
  let c128_i32 : BitVec 32 := 128#32
  let v0 : BitVec 32 := Scalar.muli arg0 c128_i32
  let c103_i32 : BitVec 32 := 103#32
  let v1034 : BitVec 32 := Scalar.addi v0 c103_i32
  let c0_i32_206 : BitVec 32 := 0#32
  ![v1034.toNat, 0]
def k1_off312 (v1033 : BitVec 32) : Fin 2 → Nat :=
  let c0_i32_207 : BitVec 32 := 0#32
  ![v1033.toNat, 0]

def k1_chk104 (v1033 : BitVec 32) : Prop :=
  (∀ a, (k1_off312 v1033) a + S1x16384.size a ≤ S2048x16384.size a)
instance k1_chk104.dec : ∀ (v1033 : BitVec 32), Decidable (k1_chk104 v1033) := fun v1033 => decidable_of_iff' _ (Iff.of_eq (k1_chk104.eq_1 v1033))
theorem k1_off312_inb : ∀ (v1033 : BitVec 32) (k1_hw104 : k1_chk104 v1033), ∀ a, (k1_off312 v1033) a + S1x16384.size a ≤ S2048x16384.size a := fun v1033 k1_hw104 => k1_hw104

def k1_off313 (i : grid1.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1041 : BitVec 32 := Scalar.addi v0 c104_i32
  let v1042 : Index := Scalar.indexCast v1041
  ![v1042.toNat]
def k1_off314 (i : grid1.Coords) : Fin 2 → Nat :=
  let arg0 : BitVec 32 := BitVec.ofNat 32 (i 0).val
  let c128_i32 : BitVec 32 := 128#32
  let v0 : BitVec 32 := Scalar.muli arg0 c128_i32
  let c104_i32 : BitVec 32 := 104#32
  let v1044 : BitVec 32 := Scalar.addi v0 c104_i32
  let c0_i32_208 : BitVec 32 := 0#32
  ![v1044.toNat, 0]
def k1_off315 (v1043 : BitVec 32) : Fin 2 → Nat :=
  let c0_i32_209 : BitVec 32 := 0#32
  ![v1043.toNat, 0]

def k1_chk105 (v1043 : BitVec 32) : Prop :=
  (∀ a, (k1_off315 v1043) a + S1x16384.size a ≤ S2048x16384.size a)
instance k1_chk105.dec : ∀ (v1043 : BitVec 32), Decidable (k1_chk105 v1043) := fun v1043 => decidable_of_iff' _ (Iff.of_eq (k1_chk105.eq_1 v1043))
theorem k1_off315_inb : ∀ (v1043 : BitVec 32) (k1_hw105 : k1_chk105 v1043), ∀ a, (k1_off315 v1043) a + S1x16384.size a ≤ S2048x16384.size a := fun v1043 k1_hw105 => k1_hw105

def k1_off316 (i : grid1.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1051 : BitVec 32 := Scalar.addi v0 c105_i32
  let v1052 : Index := Scalar.indexCast v1051
  ![v1052.toNat]
def k1_off317 (i : grid1.Coords) : Fin 2 → Nat :=
  let arg0 : BitVec 32 := BitVec.ofNat 32 (i 0).val
  let c128_i32 : BitVec 32 := 128#32
  let v0 : BitVec 32 := Scalar.muli arg0 c128_i32
  let c105_i32 : BitVec 32 := 105#32
  let v1054 : BitVec 32 := Scalar.addi v0 c105_i32
  let c0_i32_210 : BitVec 32 := 0#32
  ![v1054.toNat, 0]
def k1_off318 (v1053 : BitVec 32) : Fin 2 → Nat :=
  let c0_i32_211 : BitVec 32 := 0#32
  ![v1053.toNat, 0]

def k1_chk106 (v1053 : BitVec 32) : Prop :=
  (∀ a, (k1_off318 v1053) a + S1x16384.size a ≤ S2048x16384.size a)
instance k1_chk106.dec : ∀ (v1053 : BitVec 32), Decidable (k1_chk106 v1053) := fun v1053 => decidable_of_iff' _ (Iff.of_eq (k1_chk106.eq_1 v1053))
theorem k1_off318_inb : ∀ (v1053 : BitVec 32) (k1_hw106 : k1_chk106 v1053), ∀ a, (k1_off318 v1053) a + S1x16384.size a ≤ S2048x16384.size a := fun v1053 k1_hw106 => k1_hw106

def k1_off319 (i : grid1.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1061 : BitVec 32 := Scalar.addi v0 c106_i32
  let v1062 : Index := Scalar.indexCast v1061
  ![v1062.toNat]
def k1_off320 (i : grid1.Coords) : Fin 2 → Nat :=
  let arg0 : BitVec 32 := BitVec.ofNat 32 (i 0).val
  let c128_i32 : BitVec 32 := 128#32
  let v0 : BitVec 32 := Scalar.muli arg0 c128_i32
  let c106_i32 : BitVec 32 := 106#32
  let v1064 : BitVec 32 := Scalar.addi v0 c106_i32
  let c0_i32_212 : BitVec 32 := 0#32
  ![v1064.toNat, 0]
def k1_off321 (v1063 : BitVec 32) : Fin 2 → Nat :=
  let c0_i32_213 : BitVec 32 := 0#32
  ![v1063.toNat, 0]

def k1_chk107 (v1063 : BitVec 32) : Prop :=
  (∀ a, (k1_off321 v1063) a + S1x16384.size a ≤ S2048x16384.size a)
instance k1_chk107.dec : ∀ (v1063 : BitVec 32), Decidable (k1_chk107 v1063) := fun v1063 => decidable_of_iff' _ (Iff.of_eq (k1_chk107.eq_1 v1063))
theorem k1_off321_inb : ∀ (v1063 : BitVec 32) (k1_hw107 : k1_chk107 v1063), ∀ a, (k1_off321 v1063) a + S1x16384.size a ≤ S2048x16384.size a := fun v1063 k1_hw107 => k1_hw107

def k1_off322 (i : grid1.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1071 : BitVec 32 := Scalar.addi v0 c107_i32
  let v1072 : Index := Scalar.indexCast v1071
  ![v1072.toNat]
def k1_off323 (i : grid1.Coords) : Fin 2 → Nat :=
  let arg0 : BitVec 32 := BitVec.ofNat 32 (i 0).val
  let c128_i32 : BitVec 32 := 128#32
  let v0 : BitVec 32 := Scalar.muli arg0 c128_i32
  let c107_i32 : BitVec 32 := 107#32
  let v1074 : BitVec 32 := Scalar.addi v0 c107_i32
  let c0_i32_214 : BitVec 32 := 0#32
  ![v1074.toNat, 0]
def k1_off324 (v1073 : BitVec 32) : Fin 2 → Nat :=
  let c0_i32_215 : BitVec 32 := 0#32
  ![v1073.toNat, 0]

def k1_chk108 (v1073 : BitVec 32) : Prop :=
  (∀ a, (k1_off324 v1073) a + S1x16384.size a ≤ S2048x16384.size a)
instance k1_chk108.dec : ∀ (v1073 : BitVec 32), Decidable (k1_chk108 v1073) := fun v1073 => decidable_of_iff' _ (Iff.of_eq (k1_chk108.eq_1 v1073))
theorem k1_off324_inb : ∀ (v1073 : BitVec 32) (k1_hw108 : k1_chk108 v1073), ∀ a, (k1_off324 v1073) a + S1x16384.size a ≤ S2048x16384.size a := fun v1073 k1_hw108 => k1_hw108

def k1_off325 (i : grid1.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1081 : BitVec 32 := Scalar.addi v0 c108_i32
  let v1082 : Index := Scalar.indexCast v1081
  ![v1082.toNat]
def k1_off326 (i : grid1.Coords) : Fin 2 → Nat :=
  let arg0 : BitVec 32 := BitVec.ofNat 32 (i 0).val
  let c128_i32 : BitVec 32 := 128#32
  let v0 : BitVec 32 := Scalar.muli arg0 c128_i32
  let c108_i32 : BitVec 32 := 108#32
  let v1084 : BitVec 32 := Scalar.addi v0 c108_i32
  let c0_i32_216 : BitVec 32 := 0#32
  ![v1084.toNat, 0]
def k1_off327 (v1083 : BitVec 32) : Fin 2 → Nat :=
  let c0_i32_217 : BitVec 32 := 0#32
  ![v1083.toNat, 0]

def k1_chk109 (v1083 : BitVec 32) : Prop :=
  (∀ a, (k1_off327 v1083) a + S1x16384.size a ≤ S2048x16384.size a)
instance k1_chk109.dec : ∀ (v1083 : BitVec 32), Decidable (k1_chk109 v1083) := fun v1083 => decidable_of_iff' _ (Iff.of_eq (k1_chk109.eq_1 v1083))
theorem k1_off327_inb : ∀ (v1083 : BitVec 32) (k1_hw109 : k1_chk109 v1083), ∀ a, (k1_off327 v1083) a + S1x16384.size a ≤ S2048x16384.size a := fun v1083 k1_hw109 => k1_hw109

def k1_off328 (i : grid1.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1091 : BitVec 32 := Scalar.addi v0 c109_i32
  let v1092 : Index := Scalar.indexCast v1091
  ![v1092.toNat]
def k1_off329 (i : grid1.Coords) : Fin 2 → Nat :=
  let arg0 : BitVec 32 := BitVec.ofNat 32 (i 0).val
  let c128_i32 : BitVec 32 := 128#32
  let v0 : BitVec 32 := Scalar.muli arg0 c128_i32
  let c109_i32 : BitVec 32 := 109#32
  let v1094 : BitVec 32 := Scalar.addi v0 c109_i32
  let c0_i32_218 : BitVec 32 := 0#32
  ![v1094.toNat, 0]
def k1_off330 (v1093 : BitVec 32) : Fin 2 → Nat :=
  let c0_i32_219 : BitVec 32 := 0#32
  ![v1093.toNat, 0]

def k1_chk110 (v1093 : BitVec 32) : Prop :=
  (∀ a, (k1_off330 v1093) a + S1x16384.size a ≤ S2048x16384.size a)
instance k1_chk110.dec : ∀ (v1093 : BitVec 32), Decidable (k1_chk110 v1093) := fun v1093 => decidable_of_iff' _ (Iff.of_eq (k1_chk110.eq_1 v1093))
theorem k1_off330_inb : ∀ (v1093 : BitVec 32) (k1_hw110 : k1_chk110 v1093), ∀ a, (k1_off330 v1093) a + S1x16384.size a ≤ S2048x16384.size a := fun v1093 k1_hw110 => k1_hw110

def k1_off331 (i : grid1.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1101 : BitVec 32 := Scalar.addi v0 c110_i32
  let v1102 : Index := Scalar.indexCast v1101
  ![v1102.toNat]
def k1_off332 (i : grid1.Coords) : Fin 2 → Nat :=
  let arg0 : BitVec 32 := BitVec.ofNat 32 (i 0).val
  let c128_i32 : BitVec 32 := 128#32
  let v0 : BitVec 32 := Scalar.muli arg0 c128_i32
  let c110_i32 : BitVec 32 := 110#32
  let v1104 : BitVec 32 := Scalar.addi v0 c110_i32
  let c0_i32_220 : BitVec 32 := 0#32
  ![v1104.toNat, 0]
def k1_off333 (v1103 : BitVec 32) : Fin 2 → Nat :=
  let c0_i32_221 : BitVec 32 := 0#32
  ![v1103.toNat, 0]

def k1_chk111 (v1103 : BitVec 32) : Prop :=
  (∀ a, (k1_off333 v1103) a + S1x16384.size a ≤ S2048x16384.size a)
instance k1_chk111.dec : ∀ (v1103 : BitVec 32), Decidable (k1_chk111 v1103) := fun v1103 => decidable_of_iff' _ (Iff.of_eq (k1_chk111.eq_1 v1103))
theorem k1_off333_inb : ∀ (v1103 : BitVec 32) (k1_hw111 : k1_chk111 v1103), ∀ a, (k1_off333 v1103) a + S1x16384.size a ≤ S2048x16384.size a := fun v1103 k1_hw111 => k1_hw111

def k1_off334 (i : grid1.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1111 : BitVec 32 := Scalar.addi v0 c111_i32
  let v1112 : Index := Scalar.indexCast v1111
  ![v1112.toNat]
def k1_off335 (i : grid1.Coords) : Fin 2 → Nat :=
  let arg0 : BitVec 32 := BitVec.ofNat 32 (i 0).val
  let c128_i32 : BitVec 32 := 128#32
  let v0 : BitVec 32 := Scalar.muli arg0 c128_i32
  let c111_i32 : BitVec 32 := 111#32
  let v1114 : BitVec 32 := Scalar.addi v0 c111_i32
  let c0_i32_222 : BitVec 32 := 0#32
  ![v1114.toNat, 0]
def k1_off336 (v1113 : BitVec 32) : Fin 2 → Nat :=
  let c0_i32_223 : BitVec 32 := 0#32
  ![v1113.toNat, 0]

def k1_chk112 (v1113 : BitVec 32) : Prop :=
  (∀ a, (k1_off336 v1113) a + S1x16384.size a ≤ S2048x16384.size a)
instance k1_chk112.dec : ∀ (v1113 : BitVec 32), Decidable (k1_chk112 v1113) := fun v1113 => decidable_of_iff' _ (Iff.of_eq (k1_chk112.eq_1 v1113))
theorem k1_off336_inb : ∀ (v1113 : BitVec 32) (k1_hw112 : k1_chk112 v1113), ∀ a, (k1_off336 v1113) a + S1x16384.size a ≤ S2048x16384.size a := fun v1113 k1_hw112 => k1_hw112

def k1_off337 (i : grid1.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1121 : BitVec 32 := Scalar.addi v0 c112_i32
  let v1122 : Index := Scalar.indexCast v1121
  ![v1122.toNat]
def k1_off338 (i : grid1.Coords) : Fin 2 → Nat :=
  let arg0 : BitVec 32 := BitVec.ofNat 32 (i 0).val
  let c128_i32 : BitVec 32 := 128#32
  let v0 : BitVec 32 := Scalar.muli arg0 c128_i32
  let c112_i32 : BitVec 32 := 112#32
  let v1124 : BitVec 32 := Scalar.addi v0 c112_i32
  let c0_i32_224 : BitVec 32 := 0#32
  ![v1124.toNat, 0]
def k1_off339 (v1123 : BitVec 32) : Fin 2 → Nat :=
  let c0_i32_225 : BitVec 32 := 0#32
  ![v1123.toNat, 0]

def k1_chk113 (v1123 : BitVec 32) : Prop :=
  (∀ a, (k1_off339 v1123) a + S1x16384.size a ≤ S2048x16384.size a)
instance k1_chk113.dec : ∀ (v1123 : BitVec 32), Decidable (k1_chk113 v1123) := fun v1123 => decidable_of_iff' _ (Iff.of_eq (k1_chk113.eq_1 v1123))
theorem k1_off339_inb : ∀ (v1123 : BitVec 32) (k1_hw113 : k1_chk113 v1123), ∀ a, (k1_off339 v1123) a + S1x16384.size a ≤ S2048x16384.size a := fun v1123 k1_hw113 => k1_hw113

def k1_off340 (i : grid1.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1131 : BitVec 32 := Scalar.addi v0 c113_i32
  let v1132 : Index := Scalar.indexCast v1131
  ![v1132.toNat]
def k1_off341 (i : grid1.Coords) : Fin 2 → Nat :=
  let arg0 : BitVec 32 := BitVec.ofNat 32 (i 0).val
  let c128_i32 : BitVec 32 := 128#32
  let v0 : BitVec 32 := Scalar.muli arg0 c128_i32
  let c113_i32 : BitVec 32 := 113#32
  let v1134 : BitVec 32 := Scalar.addi v0 c113_i32
  let c0_i32_226 : BitVec 32 := 0#32
  ![v1134.toNat, 0]
def k1_off342 (v1133 : BitVec 32) : Fin 2 → Nat :=
  let c0_i32_227 : BitVec 32 := 0#32
  ![v1133.toNat, 0]

def k1_chk114 (v1133 : BitVec 32) : Prop :=
  (∀ a, (k1_off342 v1133) a + S1x16384.size a ≤ S2048x16384.size a)
instance k1_chk114.dec : ∀ (v1133 : BitVec 32), Decidable (k1_chk114 v1133) := fun v1133 => decidable_of_iff' _ (Iff.of_eq (k1_chk114.eq_1 v1133))
theorem k1_off342_inb : ∀ (v1133 : BitVec 32) (k1_hw114 : k1_chk114 v1133), ∀ a, (k1_off342 v1133) a + S1x16384.size a ≤ S2048x16384.size a := fun v1133 k1_hw114 => k1_hw114

def k1_off343 (i : grid1.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1141 : BitVec 32 := Scalar.addi v0 c114_i32
  let v1142 : Index := Scalar.indexCast v1141
  ![v1142.toNat]
def k1_off344 (i : grid1.Coords) : Fin 2 → Nat :=
  let arg0 : BitVec 32 := BitVec.ofNat 32 (i 0).val
  let c128_i32 : BitVec 32 := 128#32
  let v0 : BitVec 32 := Scalar.muli arg0 c128_i32
  let c114_i32 : BitVec 32 := 114#32
  let v1144 : BitVec 32 := Scalar.addi v0 c114_i32
  let c0_i32_228 : BitVec 32 := 0#32
  ![v1144.toNat, 0]
def k1_off345 (v1143 : BitVec 32) : Fin 2 → Nat :=
  let c0_i32_229 : BitVec 32 := 0#32
  ![v1143.toNat, 0]

def k1_chk115 (v1143 : BitVec 32) : Prop :=
  (∀ a, (k1_off345 v1143) a + S1x16384.size a ≤ S2048x16384.size a)
instance k1_chk115.dec : ∀ (v1143 : BitVec 32), Decidable (k1_chk115 v1143) := fun v1143 => decidable_of_iff' _ (Iff.of_eq (k1_chk115.eq_1 v1143))
theorem k1_off345_inb : ∀ (v1143 : BitVec 32) (k1_hw115 : k1_chk115 v1143), ∀ a, (k1_off345 v1143) a + S1x16384.size a ≤ S2048x16384.size a := fun v1143 k1_hw115 => k1_hw115

def k1_off346 (i : grid1.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1151 : BitVec 32 := Scalar.addi v0 c115_i32
  let v1152 : Index := Scalar.indexCast v1151
  ![v1152.toNat]
def k1_off347 (i : grid1.Coords) : Fin 2 → Nat :=
  let arg0 : BitVec 32 := BitVec.ofNat 32 (i 0).val
  let c128_i32 : BitVec 32 := 128#32
  let v0 : BitVec 32 := Scalar.muli arg0 c128_i32
  let c115_i32 : BitVec 32 := 115#32
  let v1154 : BitVec 32 := Scalar.addi v0 c115_i32
  let c0_i32_230 : BitVec 32 := 0#32
  ![v1154.toNat, 0]
def k1_off348 (v1153 : BitVec 32) : Fin 2 → Nat :=
  let c0_i32_231 : BitVec 32 := 0#32
  ![v1153.toNat, 0]

def k1_chk116 (v1153 : BitVec 32) : Prop :=
  (∀ a, (k1_off348 v1153) a + S1x16384.size a ≤ S2048x16384.size a)
instance k1_chk116.dec : ∀ (v1153 : BitVec 32), Decidable (k1_chk116 v1153) := fun v1153 => decidable_of_iff' _ (Iff.of_eq (k1_chk116.eq_1 v1153))
theorem k1_off348_inb : ∀ (v1153 : BitVec 32) (k1_hw116 : k1_chk116 v1153), ∀ a, (k1_off348 v1153) a + S1x16384.size a ≤ S2048x16384.size a := fun v1153 k1_hw116 => k1_hw116

def k1_off349 (i : grid1.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1161 : BitVec 32 := Scalar.addi v0 c116_i32
  let v1162 : Index := Scalar.indexCast v1161
  ![v1162.toNat]
def k1_off350 (i : grid1.Coords) : Fin 2 → Nat :=
  let arg0 : BitVec 32 := BitVec.ofNat 32 (i 0).val
  let c128_i32 : BitVec 32 := 128#32
  let v0 : BitVec 32 := Scalar.muli arg0 c128_i32
  let c116_i32 : BitVec 32 := 116#32
  let v1164 : BitVec 32 := Scalar.addi v0 c116_i32
  let c0_i32_232 : BitVec 32 := 0#32
  ![v1164.toNat, 0]
def k1_off351 (v1163 : BitVec 32) : Fin 2 → Nat :=
  let c0_i32_233 : BitVec 32 := 0#32
  ![v1163.toNat, 0]

def k1_chk117 (v1163 : BitVec 32) : Prop :=
  (∀ a, (k1_off351 v1163) a + S1x16384.size a ≤ S2048x16384.size a)
instance k1_chk117.dec : ∀ (v1163 : BitVec 32), Decidable (k1_chk117 v1163) := fun v1163 => decidable_of_iff' _ (Iff.of_eq (k1_chk117.eq_1 v1163))
theorem k1_off351_inb : ∀ (v1163 : BitVec 32) (k1_hw117 : k1_chk117 v1163), ∀ a, (k1_off351 v1163) a + S1x16384.size a ≤ S2048x16384.size a := fun v1163 k1_hw117 => k1_hw117

def k1_off352 (i : grid1.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1171 : BitVec 32 := Scalar.addi v0 c117_i32
  let v1172 : Index := Scalar.indexCast v1171
  ![v1172.toNat]
def k1_off353 (i : grid1.Coords) : Fin 2 → Nat :=
  let arg0 : BitVec 32 := BitVec.ofNat 32 (i 0).val
  let c128_i32 : BitVec 32 := 128#32
  let v0 : BitVec 32 := Scalar.muli arg0 c128_i32
  let c117_i32 : BitVec 32 := 117#32
  let v1174 : BitVec 32 := Scalar.addi v0 c117_i32
  let c0_i32_234 : BitVec 32 := 0#32
  ![v1174.toNat, 0]
def k1_off354 (v1173 : BitVec 32) : Fin 2 → Nat :=
  let c0_i32_235 : BitVec 32 := 0#32
  ![v1173.toNat, 0]

def k1_chk118 (v1173 : BitVec 32) : Prop :=
  (∀ a, (k1_off354 v1173) a + S1x16384.size a ≤ S2048x16384.size a)
instance k1_chk118.dec : ∀ (v1173 : BitVec 32), Decidable (k1_chk118 v1173) := fun v1173 => decidable_of_iff' _ (Iff.of_eq (k1_chk118.eq_1 v1173))
theorem k1_off354_inb : ∀ (v1173 : BitVec 32) (k1_hw118 : k1_chk118 v1173), ∀ a, (k1_off354 v1173) a + S1x16384.size a ≤ S2048x16384.size a := fun v1173 k1_hw118 => k1_hw118

def k1_off355 (i : grid1.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1181 : BitVec 32 := Scalar.addi v0 c118_i32
  let v1182 : Index := Scalar.indexCast v1181
  ![v1182.toNat]
def k1_off356 (i : grid1.Coords) : Fin 2 → Nat :=
  let arg0 : BitVec 32 := BitVec.ofNat 32 (i 0).val
  let c128_i32 : BitVec 32 := 128#32
  let v0 : BitVec 32 := Scalar.muli arg0 c128_i32
  let c118_i32 : BitVec 32 := 118#32
  let v1184 : BitVec 32 := Scalar.addi v0 c118_i32
  let c0_i32_236 : BitVec 32 := 0#32
  ![v1184.toNat, 0]
def k1_off357 (v1183 : BitVec 32) : Fin 2 → Nat :=
  let c0_i32_237 : BitVec 32 := 0#32
  ![v1183.toNat, 0]

def k1_chk119 (v1183 : BitVec 32) : Prop :=
  (∀ a, (k1_off357 v1183) a + S1x16384.size a ≤ S2048x16384.size a)
instance k1_chk119.dec : ∀ (v1183 : BitVec 32), Decidable (k1_chk119 v1183) := fun v1183 => decidable_of_iff' _ (Iff.of_eq (k1_chk119.eq_1 v1183))
theorem k1_off357_inb : ∀ (v1183 : BitVec 32) (k1_hw119 : k1_chk119 v1183), ∀ a, (k1_off357 v1183) a + S1x16384.size a ≤ S2048x16384.size a := fun v1183 k1_hw119 => k1_hw119

def k1_off358 (i : grid1.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1191 : BitVec 32 := Scalar.addi v0 c119_i32
  let v1192 : Index := Scalar.indexCast v1191
  ![v1192.toNat]
def k1_off359 (i : grid1.Coords) : Fin 2 → Nat :=
  let arg0 : BitVec 32 := BitVec.ofNat 32 (i 0).val
  let c128_i32 : BitVec 32 := 128#32
  let v0 : BitVec 32 := Scalar.muli arg0 c128_i32
  let c119_i32 : BitVec 32 := 119#32
  let v1194 : BitVec 32 := Scalar.addi v0 c119_i32
  let c0_i32_238 : BitVec 32 := 0#32
  ![v1194.toNat, 0]
def k1_off360 (v1193 : BitVec 32) : Fin 2 → Nat :=
  let c0_i32_239 : BitVec 32 := 0#32
  ![v1193.toNat, 0]

def k1_chk120 (v1193 : BitVec 32) : Prop :=
  (∀ a, (k1_off360 v1193) a + S1x16384.size a ≤ S2048x16384.size a)
instance k1_chk120.dec : ∀ (v1193 : BitVec 32), Decidable (k1_chk120 v1193) := fun v1193 => decidable_of_iff' _ (Iff.of_eq (k1_chk120.eq_1 v1193))
theorem k1_off360_inb : ∀ (v1193 : BitVec 32) (k1_hw120 : k1_chk120 v1193), ∀ a, (k1_off360 v1193) a + S1x16384.size a ≤ S2048x16384.size a := fun v1193 k1_hw120 => k1_hw120

def k1_off361 (i : grid1.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1201 : BitVec 32 := Scalar.addi v0 c120_i32
  let v1202 : Index := Scalar.indexCast v1201
  ![v1202.toNat]
def k1_off362 (i : grid1.Coords) : Fin 2 → Nat :=
  let arg0 : BitVec 32 := BitVec.ofNat 32 (i 0).val
  let c128_i32 : BitVec 32 := 128#32
  let v0 : BitVec 32 := Scalar.muli arg0 c128_i32
  let c120_i32 : BitVec 32 := 120#32
  let v1204 : BitVec 32 := Scalar.addi v0 c120_i32
  let c0_i32_240 : BitVec 32 := 0#32
  ![v1204.toNat, 0]
def k1_off363 (v1203 : BitVec 32) : Fin 2 → Nat :=
  let c0_i32_241 : BitVec 32 := 0#32
  ![v1203.toNat, 0]

def k1_chk121 (v1203 : BitVec 32) : Prop :=
  (∀ a, (k1_off363 v1203) a + S1x16384.size a ≤ S2048x16384.size a)
instance k1_chk121.dec : ∀ (v1203 : BitVec 32), Decidable (k1_chk121 v1203) := fun v1203 => decidable_of_iff' _ (Iff.of_eq (k1_chk121.eq_1 v1203))
theorem k1_off363_inb : ∀ (v1203 : BitVec 32) (k1_hw121 : k1_chk121 v1203), ∀ a, (k1_off363 v1203) a + S1x16384.size a ≤ S2048x16384.size a := fun v1203 k1_hw121 => k1_hw121

def k1_off364 (i : grid1.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1211 : BitVec 32 := Scalar.addi v0 c121_i32
  let v1212 : Index := Scalar.indexCast v1211
  ![v1212.toNat]
def k1_off365 (i : grid1.Coords) : Fin 2 → Nat :=
  let arg0 : BitVec 32 := BitVec.ofNat 32 (i 0).val
  let c128_i32 : BitVec 32 := 128#32
  let v0 : BitVec 32 := Scalar.muli arg0 c128_i32
  let c121_i32 : BitVec 32 := 121#32
  let v1214 : BitVec 32 := Scalar.addi v0 c121_i32
  let c0_i32_242 : BitVec 32 := 0#32
  ![v1214.toNat, 0]
def k1_off366 (v1213 : BitVec 32) : Fin 2 → Nat :=
  let c0_i32_243 : BitVec 32 := 0#32
  ![v1213.toNat, 0]

def k1_chk122 (v1213 : BitVec 32) : Prop :=
  (∀ a, (k1_off366 v1213) a + S1x16384.size a ≤ S2048x16384.size a)
instance k1_chk122.dec : ∀ (v1213 : BitVec 32), Decidable (k1_chk122 v1213) := fun v1213 => decidable_of_iff' _ (Iff.of_eq (k1_chk122.eq_1 v1213))
theorem k1_off366_inb : ∀ (v1213 : BitVec 32) (k1_hw122 : k1_chk122 v1213), ∀ a, (k1_off366 v1213) a + S1x16384.size a ≤ S2048x16384.size a := fun v1213 k1_hw122 => k1_hw122

def k1_off367 (i : grid1.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1221 : BitVec 32 := Scalar.addi v0 c122_i32
  let v1222 : Index := Scalar.indexCast v1221
  ![v1222.toNat]
def k1_off368 (i : grid1.Coords) : Fin 2 → Nat :=
  let arg0 : BitVec 32 := BitVec.ofNat 32 (i 0).val
  let c128_i32 : BitVec 32 := 128#32
  let v0 : BitVec 32 := Scalar.muli arg0 c128_i32
  let c122_i32 : BitVec 32 := 122#32
  let v1224 : BitVec 32 := Scalar.addi v0 c122_i32
  let c0_i32_244 : BitVec 32 := 0#32
  ![v1224.toNat, 0]
def k1_off369 (v1223 : BitVec 32) : Fin 2 → Nat :=
  let c0_i32_245 : BitVec 32 := 0#32
  ![v1223.toNat, 0]

def k1_chk123 (v1223 : BitVec 32) : Prop :=
  (∀ a, (k1_off369 v1223) a + S1x16384.size a ≤ S2048x16384.size a)
instance k1_chk123.dec : ∀ (v1223 : BitVec 32), Decidable (k1_chk123 v1223) := fun v1223 => decidable_of_iff' _ (Iff.of_eq (k1_chk123.eq_1 v1223))
theorem k1_off369_inb : ∀ (v1223 : BitVec 32) (k1_hw123 : k1_chk123 v1223), ∀ a, (k1_off369 v1223) a + S1x16384.size a ≤ S2048x16384.size a := fun v1223 k1_hw123 => k1_hw123

def k1_off370 (i : grid1.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1231 : BitVec 32 := Scalar.addi v0 c123_i32
  let v1232 : Index := Scalar.indexCast v1231
  ![v1232.toNat]
def k1_off371 (i : grid1.Coords) : Fin 2 → Nat :=
  let arg0 : BitVec 32 := BitVec.ofNat 32 (i 0).val
  let c128_i32 : BitVec 32 := 128#32
  let v0 : BitVec 32 := Scalar.muli arg0 c128_i32
  let c123_i32 : BitVec 32 := 123#32
  let v1234 : BitVec 32 := Scalar.addi v0 c123_i32
  let c0_i32_246 : BitVec 32 := 0#32
  ![v1234.toNat, 0]
def k1_off372 (v1233 : BitVec 32) : Fin 2 → Nat :=
  let c0_i32_247 : BitVec 32 := 0#32
  ![v1233.toNat, 0]

def k1_chk124 (v1233 : BitVec 32) : Prop :=
  (∀ a, (k1_off372 v1233) a + S1x16384.size a ≤ S2048x16384.size a)
instance k1_chk124.dec : ∀ (v1233 : BitVec 32), Decidable (k1_chk124 v1233) := fun v1233 => decidable_of_iff' _ (Iff.of_eq (k1_chk124.eq_1 v1233))
theorem k1_off372_inb : ∀ (v1233 : BitVec 32) (k1_hw124 : k1_chk124 v1233), ∀ a, (k1_off372 v1233) a + S1x16384.size a ≤ S2048x16384.size a := fun v1233 k1_hw124 => k1_hw124

def k1_off373 (i : grid1.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1241 : BitVec 32 := Scalar.addi v0 c124_i32
  let v1242 : Index := Scalar.indexCast v1241
  ![v1242.toNat]
def k1_off374 (i : grid1.Coords) : Fin 2 → Nat :=
  let arg0 : BitVec 32 := BitVec.ofNat 32 (i 0).val
  let c128_i32 : BitVec 32 := 128#32
  let v0 : BitVec 32 := Scalar.muli arg0 c128_i32
  let c124_i32 : BitVec 32 := 124#32
  let v1244 : BitVec 32 := Scalar.addi v0 c124_i32
  let c0_i32_248 : BitVec 32 := 0#32
  ![v1244.toNat, 0]
def k1_off375 (v1243 : BitVec 32) : Fin 2 → Nat :=
  let c0_i32_249 : BitVec 32 := 0#32
  ![v1243.toNat, 0]

def k1_chk125 (v1243 : BitVec 32) : Prop :=
  (∀ a, (k1_off375 v1243) a + S1x16384.size a ≤ S2048x16384.size a)
instance k1_chk125.dec : ∀ (v1243 : BitVec 32), Decidable (k1_chk125 v1243) := fun v1243 => decidable_of_iff' _ (Iff.of_eq (k1_chk125.eq_1 v1243))
theorem k1_off375_inb : ∀ (v1243 : BitVec 32) (k1_hw125 : k1_chk125 v1243), ∀ a, (k1_off375 v1243) a + S1x16384.size a ≤ S2048x16384.size a := fun v1243 k1_hw125 => k1_hw125

def k1_off376 (i : grid1.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1251 : BitVec 32 := Scalar.addi v0 c125_i32
  let v1252 : Index := Scalar.indexCast v1251
  ![v1252.toNat]
def k1_off377 (i : grid1.Coords) : Fin 2 → Nat :=
  let arg0 : BitVec 32 := BitVec.ofNat 32 (i 0).val
  let c128_i32 : BitVec 32 := 128#32
  let v0 : BitVec 32 := Scalar.muli arg0 c128_i32
  let c125_i32 : BitVec 32 := 125#32
  let v1254 : BitVec 32 := Scalar.addi v0 c125_i32
  let c0_i32_250 : BitVec 32 := 0#32
  ![v1254.toNat, 0]
def k1_off378 (v1253 : BitVec 32) : Fin 2 → Nat :=
  let c0_i32_251 : BitVec 32 := 0#32
  ![v1253.toNat, 0]

def k1_chk126 (v1253 : BitVec 32) : Prop :=
  (∀ a, (k1_off378 v1253) a + S1x16384.size a ≤ S2048x16384.size a)
instance k1_chk126.dec : ∀ (v1253 : BitVec 32), Decidable (k1_chk126 v1253) := fun v1253 => decidable_of_iff' _ (Iff.of_eq (k1_chk126.eq_1 v1253))
theorem k1_off378_inb : ∀ (v1253 : BitVec 32) (k1_hw126 : k1_chk126 v1253), ∀ a, (k1_off378 v1253) a + S1x16384.size a ≤ S2048x16384.size a := fun v1253 k1_hw126 => k1_hw126

def k1_off379 (i : grid1.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1261 : BitVec 32 := Scalar.addi v0 c126_i32
  let v1262 : Index := Scalar.indexCast v1261
  ![v1262.toNat]
def k1_off380 (i : grid1.Coords) : Fin 2 → Nat :=
  let arg0 : BitVec 32 := BitVec.ofNat 32 (i 0).val
  let c128_i32 : BitVec 32 := 128#32
  let v0 : BitVec 32 := Scalar.muli arg0 c128_i32
  let c126_i32 : BitVec 32 := 126#32
  let v1264 : BitVec 32 := Scalar.addi v0 c126_i32
  let c0_i32_252 : BitVec 32 := 0#32
  ![v1264.toNat, 0]
def k1_off381 (v1263 : BitVec 32) : Fin 2 → Nat :=
  let c0_i32_253 : BitVec 32 := 0#32
  ![v1263.toNat, 0]

def k1_chk127 (v1263 : BitVec 32) : Prop :=
  (∀ a, (k1_off381 v1263) a + S1x16384.size a ≤ S2048x16384.size a)
instance k1_chk127.dec : ∀ (v1263 : BitVec 32), Decidable (k1_chk127 v1263) := fun v1263 => decidable_of_iff' _ (Iff.of_eq (k1_chk127.eq_1 v1263))
theorem k1_off381_inb : ∀ (v1263 : BitVec 32) (k1_hw127 : k1_chk127 v1263), ∀ a, (k1_off381 v1263) a + S1x16384.size a ≤ S2048x16384.size a := fun v1263 k1_hw127 => k1_hw127

def k1_off382 (i : grid1.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1271 : BitVec 32 := Scalar.addi v0 c127_i32
  let v1272 : Index := Scalar.indexCast v1271
  ![v1272.toNat]
def k1_off383 (i : grid1.Coords) : Fin 2 → Nat :=
  let arg0 : BitVec 32 := BitVec.ofNat 32 (i 0).val
  let c128_i32 : BitVec 32 := 128#32
  let v0 : BitVec 32 := Scalar.muli arg0 c128_i32
  let c127_i32 : BitVec 32 := 127#32
  let v1274 : BitVec 32 := Scalar.addi v0 c127_i32
  let c0_i32_254 : BitVec 32 := 0#32
  ![v1274.toNat, 0]
def k1_off384 (v1273 : BitVec 32) : Fin 2 → Nat :=
  let c0_i32_255 : BitVec 32 := 0#32
  ![v1273.toNat, 0]

def k1_chk128 (v1273 : BitVec 32) : Prop :=
  (∀ a, (k1_off384 v1273) a + S1x16384.size a ≤ S2048x16384.size a)
instance k1_chk128.dec : ∀ (v1273 : BitVec 32), Decidable (k1_chk128 v1273) := fun v1273 => decidable_of_iff' _ (Iff.of_eq (k1_chk128.eq_1 v1273))
theorem k1_off384_inb : ∀ (v1273 : BitVec 32) (k1_hw128 : k1_chk128 v1273), ∀ a, (k1_off384 v1273) a + S1x16384.size a ≤ S2048x16384.size a := fun v1273 k1_hw128 => k1_hw128

def k1_off385 (i : grid1.Coords) (c0_i32_257 : BitVec 32) : Fin 2 → Nat :=
  let arg0 : BitVec 32 := BitVec.ofNat 32 (i 0).val
  let c128_i32 : BitVec 32 := 128#32
  let v0 : BitVec 32 := Scalar.muli arg0 c128_i32
  let v1281 : BitVec 32 := Scalar.addi v0 c0_i32_257
  let c0_i32_259 : BitVec 32 := 0#32
  ![v1281.toNat, 0]
abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S3072 : S_.BroadcastsInDim S3072 (![] : Fin 0 → Fin S3072.rank)
  inb_S128x128_S128x128_0_0 : ∀ a, (![0, 0] : Fin 2 → Nat) a + S128x128.size a ≤ S128x128.size a
  h_S128x128 : 0 < S128x128.numel
  shapeCasts_S128x128_S1x128x128 : S128x128.ShapeCasts S1x128x128
  shapeCasts_S1x128x128_S1x128x128 : S1x128x128.ShapeCasts S1x128x128
  broadcasts_S1x128x128_S64x128x128 : S1x128x128.Broadcasts S64x128x128
  inb_S64x128x128_S64x128x128_0_0_0 : ∀ a, (![0, 0, 0] : Fin 3 → Nat) a + S64x128x128.size a ≤ S64x128x128.size a
  h_S64x128x128 : 0 < S64x128x128.numel
  bitsLt_bf16_f32 : FTy.bits .bf16 < FTy.bits .f32
  packedbf16_S64x128x128_S64x128x128_0_0_0 : (Rect.unit (s := S64x128x128) ![0, 0, 0] S64x128x128.size inb_S64x128x128_S64x128x128_0_0_0).PackedRows (EltTy.packing .bf16)
  shapeCasts_S2048x128x128_S2048x16384 : S2048x128x128.ShapeCasts S2048x16384
  concatenates_S2048_S3072_S5120_d0 : Shape.Concatenates [S2048, S3072] S5120 0
  numel1_S1 : S1.numel = 1
  inb_S128_S1_0 : ∀ a, (![0] : Fin 1 → Nat) a + S1.size a ≤ S128.size a
  squeezes_S1_S_ : S1.Squeezes S_
  squeezes_S1x16384_S16384 : S1x16384.Squeezes S16384
  inb_S128_S1_1 : ∀ a, (![1] : Fin 1 → Nat) a + S1.size a ≤ S128.size a
  inb_S128_S1_2 : ∀ a, (![2] : Fin 1 → Nat) a + S1.size a ≤ S128.size a
  inb_S128_S1_3 : ∀ a, (![3] : Fin 1 → Nat) a + S1.size a ≤ S128.size a
  inb_S128_S1_4 : ∀ a, (![4] : Fin 1 → Nat) a + S1.size a ≤ S128.size a
  inb_S128_S1_5 : ∀ a, (![5] : Fin 1 → Nat) a + S1.size a ≤ S128.size a
  inb_S128_S1_6 : ∀ a, (![6] : Fin 1 → Nat) a + S1.size a ≤ S128.size a
  inb_S128_S1_7 : ∀ a, (![7] : Fin 1 → Nat) a + S1.size a ≤ S128.size a
  inb_S128_S1_8 : ∀ a, (![8] : Fin 1 → Nat) a + S1.size a ≤ S128.size a
  inb_S128_S1_9 : ∀ a, (![9] : Fin 1 → Nat) a + S1.size a ≤ S128.size a
  inb_S128_S1_10 : ∀ a, (![10] : Fin 1 → Nat) a + S1.size a ≤ S128.size a
  inb_S128_S1_11 : ∀ a, (![11] : Fin 1 → Nat) a + S1.size a ≤ S128.size a
  inb_S128_S1_12 : ∀ a, (![12] : Fin 1 → Nat) a + S1.size a ≤ S128.size a
  inb_S128_S1_13 : ∀ a, (![13] : Fin 1 → Nat) a + S1.size a ≤ S128.size a
  inb_S128_S1_14 : ∀ a, (![14] : Fin 1 → Nat) a + S1.size a ≤ S128.size a
  inb_S128_S1_15 : ∀ a, (![15] : Fin 1 → Nat) a + S1.size a ≤ S128.size a
  inb_S128_S1_16 : ∀ a, (![16] : Fin 1 → Nat) a + S1.size a ≤ S128.size a
  inb_S128_S1_17 : ∀ a, (![17] : Fin 1 → Nat) a + S1.size a ≤ S128.size a
  inb_S128_S1_18 : ∀ a, (![18] : Fin 1 → Nat) a + S1.size a ≤ S128.size a
  inb_S128_S1_19 : ∀ a, (![19] : Fin 1 → Nat) a + S1.size a ≤ S128.size a
  inb_S128_S1_20 : ∀ a, (![20] : Fin 1 → Nat) a + S1.size a ≤ S128.size a
  inb_S128_S1_21 : ∀ a, (![21] : Fin 1 → Nat) a + S1.size a ≤ S128.size a
  inb_S128_S1_22 : ∀ a, (![22] : Fin 1 → Nat) a + S1.size a ≤ S128.size a
  inb_S128_S1_23 : ∀ a, (![23] : Fin 1 → Nat) a + S1.size a ≤ S128.size a
  inb_S128_S1_24 : ∀ a, (![24] : Fin 1 → Nat) a + S1.size a ≤ S128.size a
  inb_S128_S1_25 : ∀ a, (![25] : Fin 1 → Nat) a + S1.size a ≤ S128.size a
  inb_S128_S1_26 : ∀ a, (![26] : Fin 1 → Nat) a + S1.size a ≤ S128.size a
  inb_S128_S1_27 : ∀ a, (![27] : Fin 1 → Nat) a + S1.size a ≤ S128.size a
  inb_S128_S1_28 : ∀ a, (![28] : Fin 1 → Nat) a + S1.size a ≤ S128.size a
  inb_S128_S1_29 : ∀ a, (![29] : Fin 1 → Nat) a + S1.size a ≤ S128.size a
  inb_S128_S1_30 : ∀ a, (![30] : Fin 1 → Nat) a + S1.size a ≤ S128.size a
  inb_S128_S1_31 : ∀ a, (![31] : Fin 1 → Nat) a + S1.size a ≤ S128.size a
  inb_S128_S1_32 : ∀ a, (![32] : Fin 1 → Nat) a + S1.size a ≤ S128.size a
  inb_S128_S1_33 : ∀ a, (![33] : Fin 1 → Nat) a + S1.size a ≤ S128.size a
  inb_S128_S1_34 : ∀ a, (![34] : Fin 1 → Nat) a + S1.size a ≤ S128.size a
  inb_S128_S1_35 : ∀ a, (![35] : Fin 1 → Nat) a + S1.size a ≤ S128.size a
  inb_S128_S1_36 : ∀ a, (![36] : Fin 1 → Nat) a + S1.size a ≤ S128.size a
  inb_S128_S1_37 : ∀ a, (![37] : Fin 1 → Nat) a + S1.size a ≤ S128.size a
  inb_S128_S1_38 : ∀ a, (![38] : Fin 1 → Nat) a + S1.size a ≤ S128.size a
  inb_S128_S1_39 : ∀ a, (![39] : Fin 1 → Nat) a + S1.size a ≤ S128.size a
  inb_S128_S1_40 : ∀ a, (![40] : Fin 1 → Nat) a + S1.size a ≤ S128.size a
  inb_S128_S1_41 : ∀ a, (![41] : Fin 1 → Nat) a + S1.size a ≤ S128.size a
  inb_S128_S1_42 : ∀ a, (![42] : Fin 1 → Nat) a + S1.size a ≤ S128.size a
  inb_S128_S1_43 : ∀ a, (![43] : Fin 1 → Nat) a + S1.size a ≤ S128.size a
  inb_S128_S1_44 : ∀ a, (![44] : Fin 1 → Nat) a + S1.size a ≤ S128.size a
  inb_S128_S1_45 : ∀ a, (![45] : Fin 1 → Nat) a + S1.size a ≤ S128.size a
  inb_S128_S1_46 : ∀ a, (![46] : Fin 1 → Nat) a + S1.size a ≤ S128.size a
  inb_S128_S1_47 : ∀ a, (![47] : Fin 1 → Nat) a + S1.size a ≤ S128.size a
  inb_S128_S1_48 : ∀ a, (![48] : Fin 1 → Nat) a + S1.size a ≤ S128.size a
  inb_S128_S1_49 : ∀ a, (![49] : Fin 1 → Nat) a + S1.size a ≤ S128.size a
  inb_S128_S1_50 : ∀ a, (![50] : Fin 1 → Nat) a + S1.size a ≤ S128.size a
  inb_S128_S1_51 : ∀ a, (![51] : Fin 1 → Nat) a + S1.size a ≤ S128.size a
  inb_S128_S1_52 : ∀ a, (![52] : Fin 1 → Nat) a + S1.size a ≤ S128.size a
  inb_S128_S1_53 : ∀ a, (![53] : Fin 1 → Nat) a + S1.size a ≤ S128.size a
  inb_S128_S1_54 : ∀ a, (![54] : Fin 1 → Nat) a + S1.size a ≤ S128.size a
  inb_S128_S1_55 : ∀ a, (![55] : Fin 1 → Nat) a + S1.size a ≤ S128.size a
  inb_S128_S1_56 : ∀ a, (![56] : Fin 1 → Nat) a + S1.size a ≤ S128.size a
  inb_S128_S1_57 : ∀ a, (![57] : Fin 1 → Nat) a + S1.size a ≤ S128.size a
  inb_S128_S1_58 : ∀ a, (![58] : Fin 1 → Nat) a + S1.size a ≤ S128.size a
  inb_S128_S1_59 : ∀ a, (![59] : Fin 1 → Nat) a + S1.size a ≤ S128.size a
  inb_S128_S1_60 : ∀ a, (![60] : Fin 1 → Nat) a + S1.size a ≤ S128.size a
  inb_S128_S1_61 : ∀ a, (![61] : Fin 1 → Nat) a + S1.size a ≤ S128.size a
  inb_S128_S1_62 : ∀ a, (![62] : Fin 1 → Nat) a + S1.size a ≤ S128.size a
  inb_S128_S1_63 : ∀ a, (![63] : Fin 1 → Nat) a + S1.size a ≤ S128.size a
  inb_S128_S1_64 : ∀ a, (![64] : Fin 1 → Nat) a + S1.size a ≤ S128.size a
  inb_S128_S1_65 : ∀ a, (![65] : Fin 1 → Nat) a + S1.size a ≤ S128.size a
  inb_S128_S1_66 : ∀ a, (![66] : Fin 1 → Nat) a + S1.size a ≤ S128.size a
  inb_S128_S1_67 : ∀ a, (![67] : Fin 1 → Nat) a + S1.size a ≤ S128.size a
  inb_S128_S1_68 : ∀ a, (![68] : Fin 1 → Nat) a + S1.size a ≤ S128.size a
  inb_S128_S1_69 : ∀ a, (![69] : Fin 1 → Nat) a + S1.size a ≤ S128.size a
  inb_S128_S1_70 : ∀ a, (![70] : Fin 1 → Nat) a + S1.size a ≤ S128.size a
  inb_S128_S1_71 : ∀ a, (![71] : Fin 1 → Nat) a + S1.size a ≤ S128.size a
  inb_S128_S1_72 : ∀ a, (![72] : Fin 1 → Nat) a + S1.size a ≤ S128.size a
  inb_S128_S1_73 : ∀ a, (![73] : Fin 1 → Nat) a + S1.size a ≤ S128.size a
  inb_S128_S1_74 : ∀ a, (![74] : Fin 1 → Nat) a + S1.size a ≤ S128.size a
  inb_S128_S1_75 : ∀ a, (![75] : Fin 1 → Nat) a + S1.size a ≤ S128.size a
  inb_S128_S1_76 : ∀ a, (![76] : Fin 1 → Nat) a + S1.size a ≤ S128.size a
  inb_S128_S1_77 : ∀ a, (![77] : Fin 1 → Nat) a + S1.size a ≤ S128.size a
  inb_S128_S1_78 : ∀ a, (![78] : Fin 1 → Nat) a + S1.size a ≤ S128.size a
  inb_S128_S1_79 : ∀ a, (![79] : Fin 1 → Nat) a + S1.size a ≤ S128.size a
  inb_S128_S1_80 : ∀ a, (![80] : Fin 1 → Nat) a + S1.size a ≤ S128.size a
  inb_S128_S1_81 : ∀ a, (![81] : Fin 1 → Nat) a + S1.size a ≤ S128.size a
  inb_S128_S1_82 : ∀ a, (![82] : Fin 1 → Nat) a + S1.size a ≤ S128.size a
  inb_S128_S1_83 : ∀ a, (![83] : Fin 1 → Nat) a + S1.size a ≤ S128.size a
  inb_S128_S1_84 : ∀ a, (![84] : Fin 1 → Nat) a + S1.size a ≤ S128.size a
  inb_S128_S1_85 : ∀ a, (![85] : Fin 1 → Nat) a + S1.size a ≤ S128.size a
  inb_S128_S1_86 : ∀ a, (![86] : Fin 1 → Nat) a + S1.size a ≤ S128.size a
  inb_S128_S1_87 : ∀ a, (![87] : Fin 1 → Nat) a + S1.size a ≤ S128.size a
  inb_S128_S1_88 : ∀ a, (![88] : Fin 1 → Nat) a + S1.size a ≤ S128.size a
  inb_S128_S1_89 : ∀ a, (![89] : Fin 1 → Nat) a + S1.size a ≤ S128.size a
  inb_S128_S1_90 : ∀ a, (![90] : Fin 1 → Nat) a + S1.size a ≤ S128.size a
  inb_S128_S1_91 : ∀ a, (![91] : Fin 1 → Nat) a + S1.size a ≤ S128.size a
  inb_S128_S1_92 : ∀ a, (![92] : Fin 1 → Nat) a + S1.size a ≤ S128.size a
  inb_S128_S1_93 : ∀ a, (![93] : Fin 1 → Nat) a + S1.size a ≤ S128.size a
  inb_S128_S1_94 : ∀ a, (![94] : Fin 1 → Nat) a + S1.size a ≤ S128.size a
  inb_S128_S1_95 : ∀ a, (![95] : Fin 1 → Nat) a + S1.size a ≤ S128.size a
  inb_S128_S1_96 : ∀ a, (![96] : Fin 1 → Nat) a + S1.size a ≤ S128.size a
  inb_S128_S1_97 : ∀ a, (![97] : Fin 1 → Nat) a + S1.size a ≤ S128.size a
  inb_S128_S1_98 : ∀ a, (![98] : Fin 1 → Nat) a + S1.size a ≤ S128.size a
  inb_S128_S1_99 : ∀ a, (![99] : Fin 1 → Nat) a + S1.size a ≤ S128.size a
  inb_S128_S1_100 : ∀ a, (![100] : Fin 1 → Nat) a + S1.size a ≤ S128.size a
  inb_S128_S1_101 : ∀ a, (![101] : Fin 1 → Nat) a + S1.size a ≤ S128.size a
  inb_S128_S1_102 : ∀ a, (![102] : Fin 1 → Nat) a + S1.size a ≤ S128.size a
  inb_S128_S1_103 : ∀ a, (![103] : Fin 1 → Nat) a + S1.size a ≤ S128.size a
  inb_S128_S1_104 : ∀ a, (![104] : Fin 1 → Nat) a + S1.size a ≤ S128.size a
  inb_S128_S1_105 : ∀ a, (![105] : Fin 1 → Nat) a + S1.size a ≤ S128.size a
  inb_S128_S1_106 : ∀ a, (![106] : Fin 1 → Nat) a + S1.size a ≤ S128.size a
  inb_S128_S1_107 : ∀ a, (![107] : Fin 1 → Nat) a + S1.size a ≤ S128.size a
  inb_S128_S1_108 : ∀ a, (![108] : Fin 1 → Nat) a + S1.size a ≤ S128.size a
  inb_S128_S1_109 : ∀ a, (![109] : Fin 1 → Nat) a + S1.size a ≤ S128.size a
  inb_S128_S1_110 : ∀ a, (![110] : Fin 1 → Nat) a + S1.size a ≤ S128.size a
  inb_S128_S1_111 : ∀ a, (![111] : Fin 1 → Nat) a + S1.size a ≤ S128.size a
  inb_S128_S1_112 : ∀ a, (![112] : Fin 1 → Nat) a + S1.size a ≤ S128.size a
  inb_S128_S1_113 : ∀ a, (![113] : Fin 1 → Nat) a + S1.size a ≤ S128.size a
  inb_S128_S1_114 : ∀ a, (![114] : Fin 1 → Nat) a + S1.size a ≤ S128.size a
  inb_S128_S1_115 : ∀ a, (![115] : Fin 1 → Nat) a + S1.size a ≤ S128.size a
  inb_S128_S1_116 : ∀ a, (![116] : Fin 1 → Nat) a + S1.size a ≤ S128.size a
  inb_S128_S1_117 : ∀ a, (![117] : Fin 1 → Nat) a + S1.size a ≤ S128.size a
  inb_S128_S1_118 : ∀ a, (![118] : Fin 1 → Nat) a + S1.size a ≤ S128.size a
  inb_S128_S1_119 : ∀ a, (![119] : Fin 1 → Nat) a + S1.size a ≤ S128.size a
  inb_S128_S1_120 : ∀ a, (![120] : Fin 1 → Nat) a + S1.size a ≤ S128.size a
  inb_S128_S1_121 : ∀ a, (![121] : Fin 1 → Nat) a + S1.size a ≤ S128.size a
  inb_S128_S1_122 : ∀ a, (![122] : Fin 1 → Nat) a + S1.size a ≤ S128.size a
  inb_S128_S1_123 : ∀ a, (![123] : Fin 1 → Nat) a + S1.size a ≤ S128.size a
  inb_S128_S1_124 : ∀ a, (![124] : Fin 1 → Nat) a + S1.size a ≤ S128.size a
  inb_S128_S1_125 : ∀ a, (![125] : Fin 1 → Nat) a + S1.size a ≤ S128.size a
  inb_S128_S1_126 : ∀ a, (![126] : Fin 1 → Nat) a + S1.size a ≤ S128.size a
  inb_S128_S1_127 : ∀ a, (![127] : Fin 1 → Nat) a + S1.size a ≤ S128.size a
  inb_S2048x16384_S1x16384_0_0 : ∀ a, (![0, 0] : Fin 2 → Nat) a + S1x16384.size a ≤ S2048x16384.size a
  slices_S4096x5120_S4096x2048_0_0 : S4096x5120.Slices ![0, 0] S4096x2048
  slices_S4096x5120_S4096x3072_0_2048 : S4096x5120.Slices ![0, 2048] S4096x3072
  transposes_S4096x3072_S3072x4096_1_0 : S4096x3072.Transposes [1, 0] S3072x4096
  bcast_S_S2048x4096 : S_.BroadcastsInDim S2048x4096 (![] : Fin 0 → Fin S2048x4096.rank)
  bcast_S3072_S3072x1_0 : S3072.BroadcastsInDim S3072x1 (![0] : Fin 1 → Fin S3072x1.rank)
  transposes_S2048x4096_S4096x2048_1_0 : S2048x4096.Transposes [1, 0] S4096x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S4096x256_S4096x256_0_0 : ∀ a, (![0, 0] : Fin 2 → Nat) a + S4096x256.size a ≤ S4096x256.size a
  h_S4096x256 : 0 < S4096x256.numel
  scatter_S2048x4096_S3072x1_S3072x4096_1_0_0_1_wf : ScatterDims.WF S2048x4096 S3072x1 S3072x4096 [1] [0] [0] 1
  dot_S4096x2048_S2048x256_S4096x256_1_0_0_1_n_n_wf : DotDims.WF S4096x2048 S2048x256 S4096x256 [1] [0] [0] [1] [] []
  hcc1_scratch0 : 9 + S128.numel ≤ 142
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S1024x128x128.size a
  hwx0_1 : ∀ i : grid0.Coords, EltTy.bits .f32 = 32 ∨ (Rect.block (s := S1024x128x128) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x128.size a ≤ S1024x128x128.size a
  hwx0_2 : ∀ i : grid0.Coords, EltTy.bits .f32 = 32 ∨ (Rect.block (s := S1024x128x128) S64x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S2048x128x128.size a
  hwx0_3 : ∀ i : grid0.Coords, EltTy.bits .f32 = 32 ∨ (Rect.block (s := S2048x128x128) S64x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x128.size a ≤ S2048x128x128.size a
  hwx0_4 : ∀ i : grid0.Coords, EltTy.bits .bf16 = 32 ∨ (Rect.block (s := S2048x128x128) S64x128x128.size (cc0_transform_4 i) (hinb0_4 i)).WholeWords (EltTy.packing .bf16)
  hrank1 : 0 < grid1.rank
  k1_off1_inb : ∀ i : grid1.Coords, ∀ a, (k1_off1 i) a + S1.size a ≤ S5120.size a
  k1_off2_inb : ∀ i : grid1.Coords, ∀ a, (k1_off2 i) a + S1x16384.size a ≤ S5120x16384.size a
  k1_off4_inb : ∀ i : grid1.Coords, ∀ a, (k1_off4 i) a + S1.size a ≤ S5120.size a
  k1_off5_inb : ∀ i : grid1.Coords, ∀ a, (k1_off5 i) a + S1x16384.size a ≤ S5120x16384.size a
  k1_off7_inb : ∀ i : grid1.Coords, ∀ a, (k1_off7 i) a + S1.size a ≤ S5120.size a
  k1_off8_inb : ∀ i : grid1.Coords, ∀ a, (k1_off8 i) a + S1x16384.size a ≤ S5120x16384.size a
  k1_off10_inb : ∀ i : grid1.Coords, ∀ a, (k1_off10 i) a + S1.size a ≤ S5120.size a
  k1_off11_inb : ∀ i : grid1.Coords, ∀ a, (k1_off11 i) a + S1x16384.size a ≤ S5120x16384.size a
  k1_off13_inb : ∀ i : grid1.Coords, ∀ a, (k1_off13 i) a + S1.size a ≤ S5120.size a
  k1_off14_inb : ∀ i : grid1.Coords, ∀ a, (k1_off14 i) a + S1x16384.size a ≤ S5120x16384.size a
  k1_off16_inb : ∀ i : grid1.Coords, ∀ a, (k1_off16 i) a + S1.size a ≤ S5120.size a
  k1_off17_inb : ∀ i : grid1.Coords, ∀ a, (k1_off17 i) a + S1x16384.size a ≤ S5120x16384.size a
  k1_off19_inb : ∀ i : grid1.Coords, ∀ a, (k1_off19 i) a + S1.size a ≤ S5120.size a
  k1_off20_inb : ∀ i : grid1.Coords, ∀ a, (k1_off20 i) a + S1x16384.size a ≤ S5120x16384.size a
  k1_off22_inb : ∀ i : grid1.Coords, ∀ a, (k1_off22 i) a + S1.size a ≤ S5120.size a
  k1_off23_inb : ∀ i : grid1.Coords, ∀ a, (k1_off23 i) a + S1x16384.size a ≤ S5120x16384.size a
  k1_off25_inb : ∀ i : grid1.Coords, ∀ a, (k1_off25 i) a + S1.size a ≤ S5120.size a
  k1_off26_inb : ∀ i : grid1.Coords, ∀ a, (k1_off26 i) a + S1x16384.size a ≤ S5120x16384.size a
  k1_off28_inb : ∀ i : grid1.Coords, ∀ a, (k1_off28 i) a + S1.size a ≤ S5120.size a
  k1_off29_inb : ∀ i : grid1.Coords, ∀ a, (k1_off29 i) a + S1x16384.size a ≤ S5120x16384.size a
  k1_off31_inb : ∀ i : grid1.Coords, ∀ a, (k1_off31 i) a + S1.size a ≤ S5120.size a
  k1_off32_inb : ∀ i : grid1.Coords, ∀ a, (k1_off32 i) a + S1x16384.size a ≤ S5120x16384.size a
  k1_off34_inb : ∀ i : grid1.Coords, ∀ a, (k1_off34 i) a + S1.size a ≤ S5120.size a
  k1_off35_inb : ∀ i : grid1.Coords, ∀ a, (k1_off35 i) a + S1x16384.size a ≤ S5120x16384.size a
  k1_off37_inb : ∀ i : grid1.Coords, ∀ a, (k1_off37 i) a + S1.size a ≤ S5120.size a
  k1_off38_inb : ∀ i : grid1.Coords, ∀ a, (k1_off38 i) a + S1x16384.size a ≤ S5120x16384.size a
  k1_off40_inb : ∀ i : grid1.Coords, ∀ a, (k1_off40 i) a + S1.size a ≤ S5120.size a
  k1_off41_inb : ∀ i : grid1.Coords, ∀ a, (k1_off41 i) a + S1x16384.size a ≤ S5120x16384.size a
  k1_off43_inb : ∀ i : grid1.Coords, ∀ a, (k1_off43 i) a + S1.size a ≤ S5120.size a
  k1_off44_inb : ∀ i : grid1.Coords, ∀ a, (k1_off44 i) a + S1x16384.size a ≤ S5120x16384.size a
  k1_off46_inb : ∀ i : grid1.Coords, ∀ a, (k1_off46 i) a + S1.size a ≤ S5120.size a
  k1_off47_inb : ∀ i : grid1.Coords, ∀ a, (k1_off47 i) a + S1x16384.size a ≤ S5120x16384.size a
  k1_off49_inb : ∀ i : grid1.Coords, ∀ a, (k1_off49 i) a + S1.size a ≤ S5120.size a
  k1_off50_inb : ∀ i : grid1.Coords, ∀ a, (k1_off50 i) a + S1x16384.size a ≤ S5120x16384.size a
  k1_off52_inb : ∀ i : grid1.Coords, ∀ a, (k1_off52 i) a + S1.size a ≤ S5120.size a
  k1_off53_inb : ∀ i : grid1.Coords, ∀ a, (k1_off53 i) a + S1x16384.size a ≤ S5120x16384.size a
  k1_off55_inb : ∀ i : grid1.Coords, ∀ a, (k1_off55 i) a + S1.size a ≤ S5120.size a
  k1_off56_inb : ∀ i : grid1.Coords, ∀ a, (k1_off56 i) a + S1x16384.size a ≤ S5120x16384.size a
  k1_off58_inb : ∀ i : grid1.Coords, ∀ a, (k1_off58 i) a + S1.size a ≤ S5120.size a
  k1_off59_inb : ∀ i : grid1.Coords, ∀ a, (k1_off59 i) a + S1x16384.size a ≤ S5120x16384.size a
  k1_off61_inb : ∀ i : grid1.Coords, ∀ a, (k1_off61 i) a + S1.size a ≤ S5120.size a
  k1_off62_inb : ∀ i : grid1.Coords, ∀ a, (k1_off62 i) a + S1x16384.size a ≤ S5120x16384.size a
  k1_off64_inb : ∀ i : grid1.Coords, ∀ a, (k1_off64 i) a + S1.size a ≤ S5120.size a
  k1_off65_inb : ∀ i : grid1.Coords, ∀ a, (k1_off65 i) a + S1x16384.size a ≤ S5120x16384.size a
  k1_off67_inb : ∀ i : grid1.Coords, ∀ a, (k1_off67 i) a + S1.size a ≤ S5120.size a
  k1_off68_inb : ∀ i : grid1.Coords, ∀ a, (k1_off68 i) a + S1x16384.size a ≤ S5120x16384.size a
  k1_off70_inb : ∀ i : grid1.Coords, ∀ a, (k1_off70 i) a + S1.size a ≤ S5120.size a
  k1_off71_inb : ∀ i : grid1.Coords, ∀ a, (k1_off71 i) a + S1x16384.size a ≤ S5120x16384.size a
  k1_off73_inb : ∀ i : grid1.Coords, ∀ a, (k1_off73 i) a + S1.size a ≤ S5120.size a
  k1_off74_inb : ∀ i : grid1.Coords, ∀ a, (k1_off74 i) a + S1x16384.size a ≤ S5120x16384.size a
  k1_off76_inb : ∀ i : grid1.Coords, ∀ a, (k1_off76 i) a + S1.size a ≤ S5120.size a
  k1_off77_inb : ∀ i : grid1.Coords, ∀ a, (k1_off77 i) a + S1x16384.size a ≤ S5120x16384.size a
  k1_off79_inb : ∀ i : grid1.Coords, ∀ a, (k1_off79 i) a + S1.size a ≤ S5120.size a
  k1_off80_inb : ∀ i : grid1.Coords, ∀ a, (k1_off80 i) a + S1x16384.size a ≤ S5120x16384.size a
  k1_off82_inb : ∀ i : grid1.Coords, ∀ a, (k1_off82 i) a + S1.size a ≤ S5120.size a
  k1_off83_inb : ∀ i : grid1.Coords, ∀ a, (k1_off83 i) a + S1x16384.size a ≤ S5120x16384.size a
  k1_off85_inb : ∀ i : grid1.Coords, ∀ a, (k1_off85 i) a + S1.size a ≤ S5120.size a
  k1_off86_inb : ∀ i : grid1.Coords, ∀ a, (k1_off86 i) a + S1x16384.size a ≤ S5120x16384.size a
  k1_off88_inb : ∀ i : grid1.Coords, ∀ a, (k1_off88 i) a + S1.size a ≤ S5120.size a
  k1_off89_inb : ∀ i : grid1.Coords, ∀ a, (k1_off89 i) a + S1x16384.size a ≤ S5120x16384.size a
  k1_off91_inb : ∀ i : grid1.Coords, ∀ a, (k1_off91 i) a + S1.size a ≤ S5120.size a
  k1_off92_inb : ∀ i : grid1.Coords, ∀ a, (k1_off92 i) a + S1x16384.size a ≤ S5120x16384.size a
  k1_off94_inb : ∀ i : grid1.Coords, ∀ a, (k1_off94 i) a + S1.size a ≤ S5120.size a
  k1_off95_inb : ∀ i : grid1.Coords, ∀ a, (k1_off95 i) a + S1x16384.size a ≤ S5120x16384.size a
  k1_off97_inb : ∀ i : grid1.Coords, ∀ a, (k1_off97 i) a + S1.size a ≤ S5120.size a
  k1_off98_inb : ∀ i : grid1.Coords, ∀ a, (k1_off98 i) a + S1x16384.size a ≤ S5120x16384.size a
  k1_off100_inb : ∀ i : grid1.Coords, ∀ a, (k1_off100 i) a + S1.size a ≤ S5120.size a
  k1_off101_inb : ∀ i : grid1.Coords, ∀ a, (k1_off101 i) a + S1x16384.size a ≤ S5120x16384.size a
  k1_off103_inb : ∀ i : grid1.Coords, ∀ a, (k1_off103 i) a + S1.size a ≤ S5120.size a
  k1_off104_inb : ∀ i : grid1.Coords, ∀ a, (k1_off104 i) a + S1x16384.size a ≤ S5120x16384.size a
  k1_off106_inb : ∀ i : grid1.Coords, ∀ a, (k1_off106 i) a + S1.size a ≤ S5120.size a
  k1_off107_inb : ∀ i : grid1.Coords, ∀ a, (k1_off107 i) a + S1x16384.size a ≤ S5120x16384.size a
  k1_off109_inb : ∀ i : grid1.Coords, ∀ a, (k1_off109 i) a + S1.size a ≤ S5120.size a
  k1_off110_inb : ∀ i : grid1.Coords, ∀ a, (k1_off110 i) a + S1x16384.size a ≤ S5120x16384.size a
  k1_off112_inb : ∀ i : grid1.Coords, ∀ a, (k1_off112 i) a + S1.size a ≤ S5120.size a
  k1_off113_inb : ∀ i : grid1.Coords, ∀ a, (k1_off113 i) a + S1x16384.size a ≤ S5120x16384.size a
  k1_off115_inb : ∀ i : grid1.Coords, ∀ a, (k1_off115 i) a + S1.size a ≤ S5120.size a
  k1_off116_inb : ∀ i : grid1.Coords, ∀ a, (k1_off116 i) a + S1x16384.size a ≤ S5120x16384.size a
  k1_off118_inb : ∀ i : grid1.Coords, ∀ a, (k1_off118 i) a + S1.size a ≤ S5120.size a
  k1_off119_inb : ∀ i : grid1.Coords, ∀ a, (k1_off119 i) a + S1x16384.size a ≤ S5120x16384.size a
  k1_off121_inb : ∀ i : grid1.Coords, ∀ a, (k1_off121 i) a + S1.size a ≤ S5120.size a
  k1_off122_inb : ∀ i : grid1.Coords, ∀ a, (k1_off122 i) a + S1x16384.size a ≤ S5120x16384.size a
  k1_off124_inb : ∀ i : grid1.Coords, ∀ a, (k1_off124 i) a + S1.size a ≤ S5120.size a
  k1_off125_inb : ∀ i : grid1.Coords, ∀ a, (k1_off125 i) a + S1x16384.size a ≤ S5120x16384.size a
  k1_off127_inb : ∀ i : grid1.Coords, ∀ a, (k1_off127 i) a + S1.size a ≤ S5120.size a
  k1_off128_inb : ∀ i : grid1.Coords, ∀ a, (k1_off128 i) a + S1x16384.size a ≤ S5120x16384.size a
  k1_off130_inb : ∀ i : grid1.Coords, ∀ a, (k1_off130 i) a + S1.size a ≤ S5120.size a
  k1_off131_inb : ∀ i : grid1.Coords, ∀ a, (k1_off131 i) a + S1x16384.size a ≤ S5120x16384.size a
  k1_off133_inb : ∀ i : grid1.Coords, ∀ a, (k1_off133 i) a + S1.size a ≤ S5120.size a
  k1_off134_inb : ∀ i : grid1.Coords, ∀ a, (k1_off134 i) a + S1x16384.size a ≤ S5120x16384.size a
  k1_off136_inb : ∀ i : grid1.Coords, ∀ a, (k1_off136 i) a + S1.size a ≤ S5120.size a
  k1_off137_inb : ∀ i : grid1.Coords, ∀ a, (k1_off137 i) a + S1x16384.size a ≤ S5120x16384.size a
  k1_off139_inb : ∀ i : grid1.Coords, ∀ a, (k1_off139 i) a + S1.size a ≤ S5120.size a
  k1_off140_inb : ∀ i : grid1.Coords, ∀ a, (k1_off140 i) a + S1x16384.size a ≤ S5120x16384.size a
  k1_off142_inb : ∀ i : grid1.Coords, ∀ a, (k1_off142 i) a + S1.size a ≤ S5120.size a
  k1_off143_inb : ∀ i : grid1.Coords, ∀ a, (k1_off143 i) a + S1x16384.size a ≤ S5120x16384.size a
  k1_off145_inb : ∀ i : grid1.Coords, ∀ a, (k1_off145 i) a + S1.size a ≤ S5120.size a
  k1_off146_inb : ∀ i : grid1.Coords, ∀ a, (k1_off146 i) a + S1x16384.size a ≤ S5120x16384.size a
  k1_off148_inb : ∀ i : grid1.Coords, ∀ a, (k1_off148 i) a + S1.size a ≤ S5120.size a
  k1_off149_inb : ∀ i : grid1.Coords, ∀ a, (k1_off149 i) a + S1x16384.size a ≤ S5120x16384.size a
  k1_off151_inb : ∀ i : grid1.Coords, ∀ a, (k1_off151 i) a + S1.size a ≤ S5120.size a
  k1_off152_inb : ∀ i : grid1.Coords, ∀ a, (k1_off152 i) a + S1x16384.size a ≤ S5120x16384.size a
  k1_off154_inb : ∀ i : grid1.Coords, ∀ a, (k1_off154 i) a + S1.size a ≤ S5120.size a
  k1_off155_inb : ∀ i : grid1.Coords, ∀ a, (k1_off155 i) a + S1x16384.size a ≤ S5120x16384.size a
  k1_off157_inb : ∀ i : grid1.Coords, ∀ a, (k1_off157 i) a + S1.size a ≤ S5120.size a
  k1_off158_inb : ∀ i : grid1.Coords, ∀ a, (k1_off158 i) a + S1x16384.size a ≤ S5120x16384.size a
  k1_off160_inb : ∀ i : grid1.Coords, ∀ a, (k1_off160 i) a + S1.size a ≤ S5120.size a
  k1_off161_inb : ∀ i : grid1.Coords, ∀ a, (k1_off161 i) a + S1x16384.size a ≤ S5120x16384.size a
  k1_off163_inb : ∀ i : grid1.Coords, ∀ a, (k1_off163 i) a + S1.size a ≤ S5120.size a
  k1_off164_inb : ∀ i : grid1.Coords, ∀ a, (k1_off164 i) a + S1x16384.size a ≤ S5120x16384.size a
  k1_off166_inb : ∀ i : grid1.Coords, ∀ a, (k1_off166 i) a + S1.size a ≤ S5120.size a
  k1_off167_inb : ∀ i : grid1.Coords, ∀ a, (k1_off167 i) a + S1x16384.size a ≤ S5120x16384.size a
  k1_off169_inb : ∀ i : grid1.Coords, ∀ a, (k1_off169 i) a + S1.size a ≤ S5120.size a
  k1_off170_inb : ∀ i : grid1.Coords, ∀ a, (k1_off170 i) a + S1x16384.size a ≤ S5120x16384.size a
  k1_off172_inb : ∀ i : grid1.Coords, ∀ a, (k1_off172 i) a + S1.size a ≤ S5120.size a
  k1_off173_inb : ∀ i : grid1.Coords, ∀ a, (k1_off173 i) a + S1x16384.size a ≤ S5120x16384.size a
  k1_off175_inb : ∀ i : grid1.Coords, ∀ a, (k1_off175 i) a + S1.size a ≤ S5120.size a
  k1_off176_inb : ∀ i : grid1.Coords, ∀ a, (k1_off176 i) a + S1x16384.size a ≤ S5120x16384.size a
  k1_off178_inb : ∀ i : grid1.Coords, ∀ a, (k1_off178 i) a + S1.size a ≤ S5120.size a
  k1_off179_inb : ∀ i : grid1.Coords, ∀ a, (k1_off179 i) a + S1x16384.size a ≤ S5120x16384.size a
  k1_off181_inb : ∀ i : grid1.Coords, ∀ a, (k1_off181 i) a + S1.size a ≤ S5120.size a
  k1_off182_inb : ∀ i : grid1.Coords, ∀ a, (k1_off182 i) a + S1x16384.size a ≤ S5120x16384.size a
  k1_off184_inb : ∀ i : grid1.Coords, ∀ a, (k1_off184 i) a + S1.size a ≤ S5120.size a
  k1_off185_inb : ∀ i : grid1.Coords, ∀ a, (k1_off185 i) a + S1x16384.size a ≤ S5120x16384.size a
  k1_off187_inb : ∀ i : grid1.Coords, ∀ a, (k1_off187 i) a + S1.size a ≤ S5120.size a
  k1_off188_inb : ∀ i : grid1.Coords, ∀ a, (k1_off188 i) a + S1x16384.size a ≤ S5120x16384.size a
  k1_off190_inb : ∀ i : grid1.Coords, ∀ a, (k1_off190 i) a + S1.size a ≤ S5120.size a
  k1_off191_inb : ∀ i : grid1.Coords, ∀ a, (k1_off191 i) a + S1x16384.size a ≤ S5120x16384.size a
  k1_off193_inb : ∀ i : grid1.Coords, ∀ a, (k1_off193 i) a + S1.size a ≤ S5120.size a
  k1_off194_inb : ∀ i : grid1.Coords, ∀ a, (k1_off194 i) a + S1x16384.size a ≤ S5120x16384.size a
  k1_off196_inb : ∀ i : grid1.Coords, ∀ a, (k1_off196 i) a + S1.size a ≤ S5120.size a
  k1_off197_inb : ∀ i : grid1.Coords, ∀ a, (k1_off197 i) a + S1x16384.size a ≤ S5120x16384.size a
  k1_off199_inb : ∀ i : grid1.Coords, ∀ a, (k1_off199 i) a + S1.size a ≤ S5120.size a
  k1_off200_inb : ∀ i : grid1.Coords, ∀ a, (k1_off200 i) a + S1x16384.size a ≤ S5120x16384.size a
  k1_off202_inb : ∀ i : grid1.Coords, ∀ a, (k1_off202 i) a + S1.size a ≤ S5120.size a
  k1_off203_inb : ∀ i : grid1.Coords, ∀ a, (k1_off203 i) a + S1x16384.size a ≤ S5120x16384.size a
  k1_off205_inb : ∀ i : grid1.Coords, ∀ a, (k1_off205 i) a + S1.size a ≤ S5120.size a
  k1_off206_inb : ∀ i : grid1.Coords, ∀ a, (k1_off206 i) a + S1x16384.size a ≤ S5120x16384.size a
  k1_off208_inb : ∀ i : grid1.Coords, ∀ a, (k1_off208 i) a + S1.size a ≤ S5120.size a
  k1_off209_inb : ∀ i : grid1.Coords, ∀ a, (k1_off209 i) a + S1x16384.size a ≤ S5120x16384.size a
  k1_off211_inb : ∀ i : grid1.Coords, ∀ a, (k1_off211 i) a + S1.size a ≤ S5120.size a
  k1_off212_inb : ∀ i : grid1.Coords, ∀ a, (k1_off212 i) a + S1x16384.size a ≤ S5120x16384.size a
  k1_off214_inb : ∀ i : grid1.Coords, ∀ a, (k1_off214 i) a + S1.size a ≤ S5120.size a
  k1_off215_inb : ∀ i : grid1.Coords, ∀ a, (k1_off215 i) a + S1x16384.size a ≤ S5120x16384.size a
  k1_off217_inb : ∀ i : grid1.Coords, ∀ a, (k1_off217 i) a + S1.size a ≤ S5120.size a
  k1_off218_inb : ∀ i : grid1.Coords, ∀ a, (k1_off218 i) a + S1x16384.size a ≤ S5120x16384.size a
  k1_off220_inb : ∀ i : grid1.Coords, ∀ a, (k1_off220 i) a + S1.size a ≤ S5120.size a
  k1_off221_inb : ∀ i : grid1.Coords, ∀ a, (k1_off221 i) a + S1x16384.size a ≤ S5120x16384.size a
  k1_off223_inb : ∀ i : grid1.Coords, ∀ a, (k1_off223 i) a + S1.size a ≤ S5120.size a
  k1_off224_inb : ∀ i : grid1.Coords, ∀ a, (k1_off224 i) a + S1x16384.size a ≤ S5120x16384.size a
  k1_off226_inb : ∀ i : grid1.Coords, ∀ a, (k1_off226 i) a + S1.size a ≤ S5120.size a
  k1_off227_inb : ∀ i : grid1.Coords, ∀ a, (k1_off227 i) a + S1x16384.size a ≤ S5120x16384.size a
  k1_off229_inb : ∀ i : grid1.Coords, ∀ a, (k1_off229 i) a + S1.size a ≤ S5120.size a
  k1_off230_inb : ∀ i : grid1.Coords, ∀ a, (k1_off230 i) a + S1x16384.size a ≤ S5120x16384.size a
  k1_off232_inb : ∀ i : grid1.Coords, ∀ a, (k1_off232 i) a + S1.size a ≤ S5120.size a
  k1_off233_inb : ∀ i : grid1.Coords, ∀ a, (k1_off233 i) a + S1x16384.size a ≤ S5120x16384.size a
  k1_off235_inb : ∀ i : grid1.Coords, ∀ a, (k1_off235 i) a + S1.size a ≤ S5120.size a
  k1_off236_inb : ∀ i : grid1.Coords, ∀ a, (k1_off236 i) a + S1x16384.size a ≤ S5120x16384.size a
  k1_off238_inb : ∀ i : grid1.Coords, ∀ a, (k1_off238 i) a + S1.size a ≤ S5120.size a
  k1_off239_inb : ∀ i : grid1.Coords, ∀ a, (k1_off239 i) a + S1x16384.size a ≤ S5120x16384.size a
  k1_off241_inb : ∀ i : grid1.Coords, ∀ a, (k1_off241 i) a + S1.size a ≤ S5120.size a
  k1_off242_inb : ∀ i : grid1.Coords, ∀ a, (k1_off242 i) a + S1x16384.size a ≤ S5120x16384.size a
  k1_off244_inb : ∀ i : grid1.Coords, ∀ a, (k1_off244 i) a + S1.size a ≤ S5120.size a
  k1_off245_inb : ∀ i : grid1.Coords, ∀ a, (k1_off245 i) a + S1x16384.size a ≤ S5120x16384.size a
  k1_off247_inb : ∀ i : grid1.Coords, ∀ a, (k1_off247 i) a + S1.size a ≤ S5120.size a
  k1_off248_inb : ∀ i : grid1.Coords, ∀ a, (k1_off248 i) a + S1x16384.size a ≤ S5120x16384.size a
  k1_off250_inb : ∀ i : grid1.Coords, ∀ a, (k1_off250 i) a + S1.size a ≤ S5120.size a
  k1_off251_inb : ∀ i : grid1.Coords, ∀ a, (k1_off251 i) a + S1x16384.size a ≤ S5120x16384.size a
  k1_off253_inb : ∀ i : grid1.Coords, ∀ a, (k1_off253 i) a + S1.size a ≤ S5120.size a
  k1_off254_inb : ∀ i : grid1.Coords, ∀ a, (k1_off254 i) a + S1x16384.size a ≤ S5120x16384.size a
  k1_off256_inb : ∀ i : grid1.Coords, ∀ a, (k1_off256 i) a + S1.size a ≤ S5120.size a
  k1_off257_inb : ∀ i : grid1.Coords, ∀ a, (k1_off257 i) a + S1x16384.size a ≤ S5120x16384.size a
  k1_off259_inb : ∀ i : grid1.Coords, ∀ a, (k1_off259 i) a + S1.size a ≤ S5120.size a
  k1_off260_inb : ∀ i : grid1.Coords, ∀ a, (k1_off260 i) a + S1x16384.size a ≤ S5120x16384.size a
  k1_off262_inb : ∀ i : grid1.Coords, ∀ a, (k1_off262 i) a + S1.size a ≤ S5120.size a
  k1_off263_inb : ∀ i : grid1.Coords, ∀ a, (k1_off263 i) a + S1x16384.size a ≤ S5120x16384.size a
  k1_off265_inb : ∀ i : grid1.Coords, ∀ a, (k1_off265 i) a + S1.size a ≤ S5120.size a
  k1_off266_inb : ∀ i : grid1.Coords, ∀ a, (k1_off266 i) a + S1x16384.size a ≤ S5120x16384.size a
  k1_off268_inb : ∀ i : grid1.Coords, ∀ a, (k1_off268 i) a + S1.size a ≤ S5120.size a
  k1_off269_inb : ∀ i : grid1.Coords, ∀ a, (k1_off269 i) a + S1x16384.size a ≤ S5120x16384.size a
  k1_off271_inb : ∀ i : grid1.Coords, ∀ a, (k1_off271 i) a + S1.size a ≤ S5120.size a
  k1_off272_inb : ∀ i : grid1.Coords, ∀ a, (k1_off272 i) a + S1x16384.size a ≤ S5120x16384.size a
  k1_off274_inb : ∀ i : grid1.Coords, ∀ a, (k1_off274 i) a + S1.size a ≤ S5120.size a
  k1_off275_inb : ∀ i : grid1.Coords, ∀ a, (k1_off275 i) a + S1x16384.size a ≤ S5120x16384.size a
  k1_off277_inb : ∀ i : grid1.Coords, ∀ a, (k1_off277 i) a + S1.size a ≤ S5120.size a
  k1_off278_inb : ∀ i : grid1.Coords, ∀ a, (k1_off278 i) a + S1x16384.size a ≤ S5120x16384.size a
  k1_off280_inb : ∀ i : grid1.Coords, ∀ a, (k1_off280 i) a + S1.size a ≤ S5120.size a
  k1_off281_inb : ∀ i : grid1.Coords, ∀ a, (k1_off281 i) a + S1x16384.size a ≤ S5120x16384.size a
  k1_off283_inb : ∀ i : grid1.Coords, ∀ a, (k1_off283 i) a + S1.size a ≤ S5120.size a
  k1_off284_inb : ∀ i : grid1.Coords, ∀ a, (k1_off284 i) a + S1x16384.size a ≤ S5120x16384.size a
  k1_off286_inb : ∀ i : grid1.Coords, ∀ a, (k1_off286 i) a + S1.size a ≤ S5120.size a
  k1_off287_inb : ∀ i : grid1.Coords, ∀ a, (k1_off287 i) a + S1x16384.size a ≤ S5120x16384.size a
  k1_off289_inb : ∀ i : grid1.Coords, ∀ a, (k1_off289 i) a + S1.size a ≤ S5120.size a
  k1_off290_inb : ∀ i : grid1.Coords, ∀ a, (k1_off290 i) a + S1x16384.size a ≤ S5120x16384.size a
  k1_off292_inb : ∀ i : grid1.Coords, ∀ a, (k1_off292 i) a + S1.size a ≤ S5120.size a
  k1_off293_inb : ∀ i : grid1.Coords, ∀ a, (k1_off293 i) a + S1x16384.size a ≤ S5120x16384.size a
  k1_off295_inb : ∀ i : grid1.Coords, ∀ a, (k1_off295 i) a + S1.size a ≤ S5120.size a
  k1_off296_inb : ∀ i : grid1.Coords, ∀ a, (k1_off296 i) a + S1x16384.size a ≤ S5120x16384.size a
  k1_off298_inb : ∀ i : grid1.Coords, ∀ a, (k1_off298 i) a + S1.size a ≤ S5120.size a
  k1_off299_inb : ∀ i : grid1.Coords, ∀ a, (k1_off299 i) a + S1x16384.size a ≤ S5120x16384.size a
  k1_off301_inb : ∀ i : grid1.Coords, ∀ a, (k1_off301 i) a + S1.size a ≤ S5120.size a
  k1_off302_inb : ∀ i : grid1.Coords, ∀ a, (k1_off302 i) a + S1x16384.size a ≤ S5120x16384.size a
  k1_off304_inb : ∀ i : grid1.Coords, ∀ a, (k1_off304 i) a + S1.size a ≤ S5120.size a
  k1_off305_inb : ∀ i : grid1.Coords, ∀ a, (k1_off305 i) a + S1x16384.size a ≤ S5120x16384.size a
  k1_off307_inb : ∀ i : grid1.Coords, ∀ a, (k1_off307 i) a + S1.size a ≤ S5120.size a
  k1_off308_inb : ∀ i : grid1.Coords, ∀ a, (k1_off308 i) a + S1x16384.size a ≤ S5120x16384.size a
  k1_off310_inb : ∀ i : grid1.Coords, ∀ a, (k1_off310 i) a + S1.size a ≤ S5120.size a
  k1_off311_inb : ∀ i : grid1.Coords, ∀ a, (k1_off311 i) a + S1x16384.size a ≤ S5120x16384.size a
  k1_off313_inb : ∀ i : grid1.Coords, ∀ a, (k1_off313 i) a + S1.size a ≤ S5120.size a
  k1_off314_inb : ∀ i : grid1.Coords, ∀ a, (k1_off314 i) a + S1x16384.size a ≤ S5120x16384.size a
  k1_off316_inb : ∀ i : grid1.Coords, ∀ a, (k1_off316 i) a + S1.size a ≤ S5120.size a
  k1_off317_inb : ∀ i : grid1.Coords, ∀ a, (k1_off317 i) a + S1x16384.size a ≤ S5120x16384.size a
  k1_off319_inb : ∀ i : grid1.Coords, ∀ a, (k1_off319 i) a + S1.size a ≤ S5120.size a
  k1_off320_inb : ∀ i : grid1.Coords, ∀ a, (k1_off320 i) a + S1x16384.size a ≤ S5120x16384.size a
  k1_off322_inb : ∀ i : grid1.Coords, ∀ a, (k1_off322 i) a + S1.size a ≤ S5120.size a
  k1_off323_inb : ∀ i : grid1.Coords, ∀ a, (k1_off323 i) a + S1x16384.size a ≤ S5120x16384.size a
  k1_off325_inb : ∀ i : grid1.Coords, ∀ a, (k1_off325 i) a + S1.size a ≤ S5120.size a
  k1_off326_inb : ∀ i : grid1.Coords, ∀ a, (k1_off326 i) a + S1x16384.size a ≤ S5120x16384.size a
  k1_off328_inb : ∀ i : grid1.Coords, ∀ a, (k1_off328 i) a + S1.size a ≤ S5120.size a
  k1_off329_inb : ∀ i : grid1.Coords, ∀ a, (k1_off329 i) a + S1x16384.size a ≤ S5120x16384.size a
  k1_off331_inb : ∀ i : grid1.Coords, ∀ a, (k1_off331 i) a + S1.size a ≤ S5120.size a
  k1_off332_inb : ∀ i : grid1.Coords, ∀ a, (k1_off332 i) a + S1x16384.size a ≤ S5120x16384.size a
  k1_off334_inb : ∀ i : grid1.Coords, ∀ a, (k1_off334 i) a + S1.size a ≤ S5120.size a
  k1_off335_inb : ∀ i : grid1.Coords, ∀ a, (k1_off335 i) a + S1x16384.size a ≤ S5120x16384.size a
  k1_off337_inb : ∀ i : grid1.Coords, ∀ a, (k1_off337 i) a + S1.size a ≤ S5120.size a
  k1_off338_inb : ∀ i : grid1.Coords, ∀ a, (k1_off338 i) a + S1x16384.size a ≤ S5120x16384.size a
  k1_off340_inb : ∀ i : grid1.Coords, ∀ a, (k1_off340 i) a + S1.size a ≤ S5120.size a
  k1_off341_inb : ∀ i : grid1.Coords, ∀ a, (k1_off341 i) a + S1x16384.size a ≤ S5120x16384.size a
  k1_off343_inb : ∀ i : grid1.Coords, ∀ a, (k1_off343 i) a + S1.size a ≤ S5120.size a
  k1_off344_inb : ∀ i : grid1.Coords, ∀ a, (k1_off344 i) a + S1x16384.size a ≤ S5120x16384.size a
  k1_off346_inb : ∀ i : grid1.Coords, ∀ a, (k1_off346 i) a + S1.size a ≤ S5120.size a
  k1_off347_inb : ∀ i : grid1.Coords, ∀ a, (k1_off347 i) a + S1x16384.size a ≤ S5120x16384.size a
  k1_off349_inb : ∀ i : grid1.Coords, ∀ a, (k1_off349 i) a + S1.size a ≤ S5120.size a
  k1_off350_inb : ∀ i : grid1.Coords, ∀ a, (k1_off350 i) a + S1x16384.size a ≤ S5120x16384.size a
  k1_off352_inb : ∀ i : grid1.Coords, ∀ a, (k1_off352 i) a + S1.size a ≤ S5120.size a
  k1_off353_inb : ∀ i : grid1.Coords, ∀ a, (k1_off353 i) a + S1x16384.size a ≤ S5120x16384.size a
  k1_off355_inb : ∀ i : grid1.Coords, ∀ a, (k1_off355 i) a + S1.size a ≤ S5120.size a
  k1_off356_inb : ∀ i : grid1.Coords, ∀ a, (k1_off356 i) a + S1x16384.size a ≤ S5120x16384.size a
  k1_off358_inb : ∀ i : grid1.Coords, ∀ a, (k1_off358 i) a + S1.size a ≤ S5120.size a
  k1_off359_inb : ∀ i : grid1.Coords, ∀ a, (k1_off359 i) a + S1x16384.size a ≤ S5120x16384.size a
  k1_off361_inb : ∀ i : grid1.Coords, ∀ a, (k1_off361 i) a + S1.size a ≤ S5120.size a
  k1_off362_inb : ∀ i : grid1.Coords, ∀ a, (k1_off362 i) a + S1x16384.size a ≤ S5120x16384.size a
  k1_off364_inb : ∀ i : grid1.Coords, ∀ a, (k1_off364 i) a + S1.size a ≤ S5120.size a
  k1_off365_inb : ∀ i : grid1.Coords, ∀ a, (k1_off365 i) a + S1x16384.size a ≤ S5120x16384.size a
  k1_off367_inb : ∀ i : grid1.Coords, ∀ a, (k1_off367 i) a + S1.size a ≤ S5120.size a
  k1_off368_inb : ∀ i : grid1.Coords, ∀ a, (k1_off368 i) a + S1x16384.size a ≤ S5120x16384.size a
  k1_off370_inb : ∀ i : grid1.Coords, ∀ a, (k1_off370 i) a + S1.size a ≤ S5120.size a
  k1_off371_inb : ∀ i : grid1.Coords, ∀ a, (k1_off371 i) a + S1x16384.size a ≤ S5120x16384.size a
  k1_off373_inb : ∀ i : grid1.Coords, ∀ a, (k1_off373 i) a + S1.size a ≤ S5120.size a
  k1_off374_inb : ∀ i : grid1.Coords, ∀ a, (k1_off374 i) a + S1x16384.size a ≤ S5120x16384.size a
  k1_off376_inb : ∀ i : grid1.Coords, ∀ a, (k1_off376 i) a + S1.size a ≤ S5120.size a
  k1_off377_inb : ∀ i : grid1.Coords, ∀ a, (k1_off377 i) a + S1x16384.size a ≤ S5120x16384.size a
  k1_off379_inb : ∀ i : grid1.Coords, ∀ a, (k1_off379 i) a + S1.size a ≤ S5120.size a
  k1_off380_inb : ∀ i : grid1.Coords, ∀ a, (k1_off380 i) a + S1x16384.size a ≤ S5120x16384.size a
  k1_off382_inb : ∀ i : grid1.Coords, ∀ a, (k1_off382 i) a + S1.size a ≤ S5120.size a
  k1_off383_inb : ∀ i : grid1.Coords, ∀ a, (k1_off383 i) a + S1x16384.size a ≤ S5120x16384.size a
  k1_off385_inb : ∀ i : grid1.Coords, ∀ (r : Fin 128), ∀ a, (k1_off385 i (BitVec.ofNat 32 r.val)) a + S1x16384.size a ≤ S5120x16384.size a
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x2048.size a ≤ S4096x2048.size a
  hwx2_0 : ∀ i : grid2.Coords, EltTy.bits .bf16 = 32 ∨ (Rect.block (s := S4096x2048) S4096x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x16384.size a
  hwx2_1 : ∀ i : grid2.Coords, EltTy.bits .bf16 = 32 ∨ (Rect.block (s := S2048x16384) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x16384.size a
  hwx2_2 : ∀ i : grid2.Coords, EltTy.bits .f32 = 32 ∨ (Rect.block (s := S4096x16384) S4096x256.size (cc2_transform_2 i) (hinb2_2 i)).WholeWords (EltTy.packing .f32)

variable [Facts₀]

abbrev cc1_scratch0 : DmaSems sig S128 := SemArray.consecutive 9 S128 hcc1_scratch0
def scatter_S2048x4096_S3072x1_S3072x4096_1_0_0_1 : ScatterDims S2048x4096 S3072x1 S3072x4096 where
  updateWindowDims := [1]
  insertedWindowDims := [0]
  scatterDimsToOperandDims := [0]
  indexVectorDim := 1
  wf := scatter_S2048x4096_S3072x1_S3072x4096_1_0_0_1_wf
def dot_S4096x2048_S2048x256_S4096x256_1_0_0_1_n_n : DotDims S4096x2048 S2048x256 S4096x256 where
  lhsContracting := [1]
  rhsContracting := [0]
  lhsNonContracting := [0]
  rhsNonContracting := [1]
  lhsBatch := []
  rhsBatch := []
  wf := dot_S4096x2048_S2048x256_S4096x256_1_0_0_1_n_n_wf

abbrev win0_0 : Pipeline.Window sig grid0 :=
  Pipeline.Window.ofSpec (Memref.whole main_arg0) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x128x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) && !(k0_cond2 i == 1#1) | 4 => fun i => !(k0_cond1 i == 1#1) && !(k0_cond2 i == 1#1) | ⟨_ + 5, h⟩ => absurd h (Nat.not_lt.2 (Nat.le_add_left _ _))

abbrev spec1 : Fin 0 → Pipeline.WinSpec sig grid1.rank := fun  | ⟨_, h⟩ => absurd h (Nat.not_lt_zero _)
theorem hcount1 : ∀ w, grid1.bufCount (spec1 w).reads (spec1 w).sync = (spec1 w).nbuf := fun  | ⟨_, h⟩ => absurd h (Nat.not_lt_zero _)
abbrev ix1 (pf : pre1.Contents (Elt F)) : (w : Fin 0) → grid1.Coords → Fin (spec1 w).shape.rank → Nat := fun  | ⟨_, h⟩ => absurd h (Nat.not_lt_zero _)
theorem hreads1 : ∀ (pf : pre1.Contents (Elt F)) w (i i' : grid1.Coords), (∀ a, (spec1 w).reads a = true → i a = i' a) → ix1 pf w i = ix1 pf w i' := fun pf => fun  | ⟨_, h⟩ => absurd h (Nat.not_lt_zero _)
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun  | ⟨_, h⟩ => absurd h (Nat.not_lt_zero _)
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun  | ⟨_, h⟩ => absurd h (Nat.not_lt_zero _)
abbrev win2_0 : Pipeline.Window sig grid2 :=
  Pipeline.Window.ofSpec (Memref.whole main_v15) S4096x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4096x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr1 : ∀ w, (spec1 w).arr.IsWhole

variable [Facts]
-- ==== ReferenceIdeal.lean ====
abbrev S128x128 : Shape := ⟨2, ![128, 128]⟩
abbrev S1024x128x128 : Shape := ⟨3, ![1024, 128, 128]⟩
abbrev S4096x5120 : Shape := ⟨2, ![4096, 5120]⟩
abbrev S3072 : Shape := ⟨1, ![3072]⟩
abbrev S1x128x128 : Shape := ⟨3, ![1, 128, 128]⟩
abbrev S_ : Shape := ⟨0, ![]⟩
abbrev S2048x128x128 : Shape := ⟨3, ![2048, 128, 128]⟩
abbrev S2048x16384 : Shape := ⟨2, ![2048, 16384]⟩
abbrev S3072x1 : Shape := ⟨2, ![3072, 1]⟩
abbrev S3072x16384 : Shape := ⟨2, ![3072, 16384]⟩
abbrev S5120x16384 : Shape := ⟨2, ![5120, 16384]⟩
abbrev S4096x16384 : Shape := ⟨2, ![4096, 16384]⟩

abbrev nBuf : Space → Nat
  | .hbm => 27
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S1024x128x128, .f32⟩
  | .hbm, ⟨2, _⟩ => ⟨S1024x128x128, .f32⟩
  | .hbm, ⟨3, _⟩ => ⟨S4096x5120, .f32⟩
  | .hbm, ⟨4, _⟩ => ⟨S3072, .i32⟩
  | .hbm, ⟨5, _⟩ => ⟨S1x128x128, .f32⟩
  | .hbm, ⟨6, _⟩ => ⟨S1024x128x128, .f32⟩
  | .hbm, ⟨7, _⟩ => ⟨S1024x128x128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S1x128x128, .f32⟩
  | .hbm, ⟨12, _⟩ => ⟨S1024x128x128, .f32⟩
  | .hbm, ⟨13, _⟩ => ⟨S1024x128x128, .f32⟩
  | .hbm, ⟨14, _⟩ => ⟨S2048x128x128, .f32⟩
  | .hbm, ⟨15, _⟩ => ⟨S2048x16384, .f32⟩
  | .hbm, ⟨16, _⟩ => ⟨S_, .i32⟩
  | .hbm, ⟨17, _⟩ => ⟨S3072, .i32⟩
  | .hbm, ⟨18, _⟩ => ⟨S3072, .i1⟩
  | .hbm, ⟨19, _⟩ => ⟨S_, .i32⟩
  | .hbm, ⟨20, _⟩ => ⟨S3072, .i32⟩
  | .hbm, ⟨21, _⟩ => ⟨S3072, .i32⟩
  | .hbm, ⟨22, _⟩ => ⟨S3072, .i32⟩
  | .hbm, ⟨23, _⟩ => ⟨S3072x1, .i32⟩
  | .hbm, ⟨24, _⟩ => ⟨S3072x16384, .f32⟩
  | .hbm, ⟨25, _⟩ => ⟨S5120x16384, .f32⟩
  | .hbm, ⟨26, _⟩ => ⟨S4096x16384, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S128x128_S1x128x128_1_2 : S128x128.BroadcastsInDim S1x128x128 (![1, 2] : Fin 2 → Fin S1x128x128.rank)
  bcast_S1x128x128_S1024x128x128_0_1_2 : S1x128x128.BroadcastsInDim S1024x128x128 (![0, 1, 2] : Fin 3 → Fin S1024x128x128.rank)
  bcast_S_S128x128 : S_.BroadcastsInDim S128x128 (![] : Fin 0 → Fin S128x128.rank)
  concatenates_S1024x128x128_S1024x128x128_S2048x128x128_d0 : Shape.Concatenates [S1024x128x128, S1024x128x128] S2048x128x128 0
  shapeCasts_S2048x128x128_S2048x16384 : S2048x128x128.ShapeCasts S2048x16384
  bcast_S_S3072 : S_.BroadcastsInDim S3072 (![] : Fin 0 → Fin S3072.rank)
  bcast_S3072_S3072x1_0 : S3072.BroadcastsInDim S3072x1 (![0] : Fin 1 → Fin S3072x1.rank)
  concatenates_S2048x16384_S3072x16384_S5120x16384_d0 : Shape.Concatenates [S2048x16384, S3072x16384] S5120x16384 0
  gather_S2048x16384_S3072x1_S3072x16384_1_0_n_n_0_1_116384_wf : GatherDims.WF S2048x16384 S3072x1 S3072x16384 [1] [0] [] [0] [] 1 ![1, 16384]
  dot_S4096x5120_S5120x16384_S4096x16384_1_0_0_1_n_n_wf : DotDims.WF S4096x5120 S5120x16384 S4096x16384 [1] [0] [0] [1] [] []

variable [Facts₀]

def gather_S2048x16384_S3072x1_S3072x16384_1_0_n_n_0_1_116384 : GatherDims S2048x16384 S3072x1 S3072x16384 where
  offsetDims := [1]
  collapsedSliceDims := [0]
  operandBatchingDims := []
  startIndicesBatchingDims := []
  startIndexMap := [0]
  indexVectorDim := 1
  sliceSizes := ![1, 16384]
  wf := gather_S2048x16384_S3072x1_S3072x16384_1_0_n_n_0_1_116384_wf
def dot_S4096x5120_S5120x16384_S4096x16384_1_0_0_1_n_n : DotDims S4096x5120 S5120x16384 S4096x16384 where
  lhsContracting := [1]
  rhsContracting := [0]
  lhsNonContracting := [0]
  rhsNonContracting := [1]
  lhsBatch := []
  rhsBatch := []
  wf := dot_S4096x5120_S5120x16384_S4096x16384_1_0_0_1_n_n_wf

class Facts : Prop extends Facts₀ where

variable [Facts]
-- ==== Proof.KiBase.lean ====
/-
  Common vocabulary of the three kernel regions' proofs: the resource algebra (the pipeline library's, beside the
  counters a body's own transfers take their tokens from), and a buffer held whole at given contents.
-/
import proofs.«402079_j32023276159552_3_alg».proof.Proof.Gen.KernelIdeal.Skeleton
import proofs.«402079_j32023276159552_3_alg».proof.Proof.Gen.KernelIdeal.Points
import proofs.«402079_j32023276159552_3_alg».proof.Proof.KiRegions
import Idealize.ShloMosaic.Lib.Tactic
import Idealize.ShloMosaic.Lib.Transfers
import Idealize.ShloMosaic.Lib.Pipeline.Kit
import Idealize.ShloMosaic.Lib.Pipeline.Frame
import Idealize.ShloMosaic.Lib.Pipeline.FrameBody
import Idealize.ShloMosaic.Lib.Pipeline.FrameSuffix
import Idealize.ShloMosaic.Lib.Pipeline.Regions

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The resource algebra of the whole program: the pipeline library's copy beside the transfers' counters. -/
abbrev UU : Type := Pipeline.UD sig nD τ

/-- The separation logic's model at that algebra. -/
abbrev MM (F : FTy → Type) [FloatOps F] : Type := MT nD τ sig Unit (Elt F) ℕ UU ℕ

/-- The pipeline library's algebra is the left component. -/
abbrev EP : Emb (UR sig nD τ) (MM F) := embL

/-- Memref `M`'s buffer on core `c`: its contents type, -/
abbrev Bf (c : Dev nD) {sp : Space} {S : Shape} {e : EltTy} (M : Memref sig .tc sp S e) : Type :=
  Buf (Elt F) (M.view.loc (c : Thread nD τ))
/-- and the buffer held whole, outright, at `f`. -/
abbrev pt (c : Dev nD) {sp : Space} {S : Shape} {e : EltTy} (M : Memref sig .tc sp S e) (f : Bf (F := F) c M) : sProp (MM F) :=
  M.view.loc (c : Thread nD τ) ↦{fullShare} f

/-- The TensorCore's buffer contents when a region is entered: what every region's proof data are stated at. -/
abbrev Contents (F : FTy → Type) [FloatOps F] : Type :=
  (c : Dev nD) → (b : Ref sig .tc) → Buf (Elt F) ((c : Thread nD τ).loc b)

end Cert.KernelIdeal.Hand

end
-- ==== Proof.KiR1Defs.lean ====
/-
  The gather region (the second kernel): each of its 40 grid points copies 128 rows of r into 128 consecutive rows of l,
  row 128·t + b of l from the row of r that word 128·t + b of the index table names. This module fixes the vocabulary:
  the kernel's own 128 transfer semaphores, a table word read as a row of r, what one grid point does to l
  (`gatherStep`), and l after the first n points in closed form (`gathered`).
-/
import proofs.«402079_j32023276159552_3_alg».proof.Proof.KiBase
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The gather kernel's own semaphores: transfer b of a grid point completes on semaphore b of its scratch array,
    which is the program's DMA semaphore 9 + b. -/
abbrev osem1 : Fin 128 → SemLoc sig := fun b => .dma ⟨9 + b.val, by have := b.isLt; change 9 + b.val < 142; omega⟩

/-- Word q of the table as a row of r (the clamp never binds on a table whose words are below 2048). -/
def tblRow (T : IVec S5120 32) (q : Fin 5120) : Fin 2048 := ⟨min (T (ValueIdx.ix1 q)).toNat 2047, by omega⟩

/-- Row q of l taken from r through the table. -/
def rowFrom (T : IVec S5120 32) (r : FVec F S2048x16384 .f32) (y : S5120x16384.Idx) : F .f32 :=
  r (ValueIdx.ix2 (tblRow T ⟨(y 0).val, ValueIdx.idx2_lt0 y⟩) (⟨(y 1).val, ValueIdx.idx2_lt1 y⟩ : Fin 16384))

/-- What grid point t leaves in l: rows 128·t … 128·t + 127 taken from r through the table, every other row as it was. -/
def gatherStep (t : ℕ) (T : IVec S5120 32) (r : FVec F S2048x16384 .f32) (l : FVec F S5120x16384 .f32) :
    FVec F S5120x16384 .f32 :=
  fun y => if 128 * t ≤ (y 0).val ∧ (y 0).val < 128 * t + 128 then rowFrom T r y else l y

/-- l after the first n grid points, from its contents l₀ at the region's entry: the rows below 128·n taken from r. -/
def gathered (n : ℕ) (T : IVec S5120 32) (r : FVec F S2048x16384 .f32) (l₀ : FVec F S5120x16384 .f32) :
    FVec F S5120x16384 .f32 :=
  fun y => if (y 0).val < 128 * n then rowFrom T r y else l₀ y

/-- The gather region's invariant before grid point n (and after point n − 1), at the region-entry contents V: the scoped
    buffers no window stages at some contents, the generator register at some state, the kernel's 128 semaphores at zero,
    and the three buffers the body touches held whole — the table and r as entered, l with its first 128·n rows gathered. -/
def Φ1 (V : Contents F) (c : Dev nD) (n : ℕ) : sProp (MM F) :=
  iprop(Pipeline.scopedRest (Ix := Unit) (Name := ℕ) (U := UU) (Lvl := ℕ) (Val := Elt F) spec1 c
    ∗ (∃ g, prngReg c g)
    ∗ Pipeline.ownSems0 (Ix := Unit) (Name := ℕ) (U := UU) (Lvl := ℕ) (Val := Elt F) (τ := τ) osem1 c
    ∗ pt c (Memref.whole main_v5) (V c main_v5)
    ∗ pt c (Memref.whole main_v2) (V c main_v2)
    ∗ pt c (Memref.whole main_v6) (gathered (F := F) n (V c main_v5) (V c main_v2) (V c main_v6)))

end Cert.KernelIdeal.Hand

end
-- ==== Proof.KiRunCond.lean ====
/-
  The kernel program's run over its seven items (four host stretches, three kernel regions), conditional on a segment
  record per region: the same launch as the argument-frame of this program, with the final memory read at EVERY buffer
  no kernel scopes, so that the results can be read off the last valuation as well as the arguments.
-/
import proofs.«402079_j32023276159552_3_alg».proof.Proof.KiRegions

noncomputable section

namespace Cert.KernelIdeal.GenP

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE RUN, GIVEN THE REGIONS' RECORDS. For any user algebra, level assignment, launch dues and ghost resources, any rest
    states `E` the launch makes on every core at once (`hE0`) and that end owing nothing (`hE3`), any contents the regions
    leave (`outs`) and any proof data: given, per region, a segment record entered from the thread state before it and left
    at the one after it, every weakly fair execution of @main from memory `m` with zero counters terminates and every final
    memory holds, at every buffer no kernel scopes, what the last valuation `V7 m outs` computes. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, hpre0 c, hpost0 c, hpre1 c, hpost1 c, hpre2 c, (hpost2 c).trans (sep_mono .rfl (hE3 c))⟩)
    (hinit := ?_) (QY := fun c s => ∀ b ∈ Pipeline.ucRefs τ sig, s.mem ((c : Thread nD τ).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

end Cert.KernelIdeal.GenP

end
-- ==== Proof.KiVals.lean ====
/-
  The kernel program's buffers between its seven items (four host stretches, three kernel regions), as valuations: what
  each region is entered at and what it leaves, in three stages (each region's entry contents read only the results of the
  regions before it), the index table's contents as the gather region's admissible table, and the proof data family of the
  three pipelines — all over each region's proof data, taken as given.
-/
import proofs.«402079_j32023276159552_3_alg».proof.Proof.KiBase
import proofs.«402079_j32023276159552_3_alg».proof.Proof.KiR1Defs
import proofs.«402079_j32023276159552_3_alg».proof.Proof.KiRunCond

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

section Run

variable (m : (ℓ : Loc nD τ sig) → Buf (Elt F) ℓ) (ρ : Dev nD → PrngReg)

/-! ## The regions' proof data, as given -/

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (body0 : ∀ (V : Contents F) (c : Dev nD), BodyObligation (dat0 V c) (defs₀ (F := F)) Variants.none () Set.univ)

/-! ## The buffers' contents at the boundaries -/

/-- The contents region 0 is entered at. -/
abbrev C2 : Contents F := fun c b => V2 m c b

/-- What region 0 leaves: its arrays at what the pipeline computes, every other buffer as entered. -/
def U3 (c : Dev nD) : Valuation τ sig (Elt F) :=
  Pipeline.withArrays spec0 c (V2 m c) fun w => (dat0 (C2 m) c).arrAt w cfg0.N

/-- The regions' results, first stage: region 0's only. -/
def outsA : Outs (F := F) := fun _ r c => U3 m dat0 c (Proc.devRef .tc r)

/-! ## The other two regions' proof data, as given -/

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (body2 : ∀ (V : Contents F) (c : Dev nD), BodyObligation (dat2 V c) (defs₀ (F := F)) Variants.none () Set.univ)

/-- The contents region 1 is entered at (they read region 0's results only). -/
abbrev C4 : Contents F := fun c b => V4 m (outsA m dat0) c b

/-- What region 1 leaves: l with all its 5120 rows gathered, every other buffer as entered. -/
def U5 (c : Dev nD) : Valuation τ sig (Elt F) :=
  Function.update (V4 m (outsA m dat0) c) (Proc.devRef .tc main_v6)
    (gathered (F := F) 40 (C4 m dat0 c main_v5) (C4 m dat0 c main_v2) (C4 m dat0 c main_v6))

/-- The regions' results, second stage: regions 0 and 1. -/
def outsB : Outs (F := F) := fun J r c => if J = 3 then U3 m dat0 c (Proc.devRef .tc r) else U5 m dat0 c (Proc.devRef .tc r)

/-- The contents region 2 is entered at. -/
abbrev C6 : Contents F := fun c b => V6 m (outsB m dat0) c b

/-- What region 2 leaves: its arrays at what the pipeline computes, every other buffer as entered. -/
def U7 (c : Dev nD) : Valuation τ sig (Elt F) :=
  Pipeline.withArrays spec2 c (V6 m (outsB m dat0) c) fun w => (dat2 (C6 m dat0) c).arrAt w cfg2.N

/-- The regions' results. -/
def outsC : Outs (F := F) := fun J r c =>
  if J = 3 then U3 m dat0 c (Proc.devRef .tc r) else if J = 5 then U5 m dat0 c (Proc.devRef .tc r) else U7 m dat0 dat2 c (Proc.devRef .tc r)

theorem V4_outsC (c : Dev nD) : V4 m (outsC m dat0 dat2) c = V4 m (outsA m dat0) c := rfl
theorem V6_outsC (c : Dev nD) : V6 m (outsC m dat0 dat2) c = V6 m (outsB m dat0) c := rfl

/-! ## The tables' admissible contents and the proof data family -/

/-- The prefetched tables' admissible contents: regions 0 and 2 have no table; region 1's is the index table as the host
    stretch before it leaves it (the program runs on one core). -/
def adm : (p : Fin 3) → (pcfgs (F := F) p).Adm
  | ⟨0, _⟩ => cfg0.toPCfg_adm
  | ⟨1, _⟩ => ⟨fun k => C4 m dat0 (0 : Dev nD) (pre1.ref k), trivial⟩
  | ⟨2, _⟩ => cfg2.toPCfg_adm
  | ⟨_ + 3, h⟩ => absurd h (Nat.not_lt.2 (Nat.le_add_left _ _))

/-- Every pipeline's proof data, each at its region's entry contents — a literal match. -/
def pdats : (p : Fin 3) → (c : Dev nD) → Dat τ (Elt F) Unit ℕ UU ℕ (Pipeline.pin (pcfgs (F := F)) (adm m dat0) p) c
  | ⟨0, _⟩ => fun c => dat0 (C2 m) c
  | ⟨1, _⟩ => fun c => dat1 (C4 m dat0) (adm m dat0 1) c
  | ⟨2, _⟩ => fun c => dat2 (C6 m dat0) c
  | ⟨_ + 3, h⟩ => absurd h (Nat.not_lt.2 (Nat.le_add_left _ _))

end Run

end Cert.KernelIdeal.Hand

end
-- ==== Proof.KiLaunchMain.lean ====
/-
  The launch around the conditional run: at the program's resource algebra (the pipeline library's copy beside the
  transfers' counters) the launch element is split, its left half handed to the pipeline library; no core owes another
  anything; beside the buffers every segment carries the core's generator register at some state and its dues at zero.
  What is left are the three kernel regions' segment records.
-/
import proofs.«402079_j32023276159552_3_alg».proof.Proof.KiRunCond
import proofs.«402079_j32023276159552_3_alg».proof.Proof.KiBase

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.SL.BI.Laws Idealize.SL.ProofMode
open Idealize.ShloMosaic.Pipeline (Dat Seg HostSeg RegionSeg)

variable {F : FTy → Type} [FloatOps F]

/-- No kernel body is entered under a variant. -/
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state, and its dues
    at zero. -/
abbrev R (c : Dev nD) : sProp (MM F) := iprop((∃ r, prngReg c r) ∗ ∃ W, owes (c : Thread nD τ) (0 : CellTallies nD τ sig Unit) W)

-- the conditional run's implicit arguments are found by unifying its conclusion with this one, which takes unfolding
-- plain definitions in a metavariable's type
set_option backward.isDefEq.respectTransparency.types false in
/-- THE RUN, GIVEN THE REGIONS' RECORDS: from any memory with zero counters every weakly fair execution of @main
    terminates, and every final memory holds, at every buffer no kernel scopes, what the last valuation computes —
    given, per kernel region, a segment record entered from the buffers at the valuation before it beside `R` and left
    at the valuation after it beside `R`. -/
theorem run_of_regions (m : (ℓ : Loc nD τ sig) → Buf (Elt F) ℓ) (ρ : Dev nD → PrngReg) (outs : Outs (F := F))
    (a : (p : Fin 3) → (pcfgs (F := F) p).Adm)
    (pdats : (p : Fin 3) → (c : Dev nD) → Dat τ (Elt F) Unit ℕ UU ℕ (Pipeline.pin (pcfgs (F := F)) a p) c)
    (R0 : RegionSeg (pcfgs (F := F)) a pdats () defs₀ 𝒱₀ L lv 0)
    (hpre0 : ∀ c : Dev nD, iprop(StableHlo.held (c : Thread nD τ) (Pipeline.ucRefs τ sig) (V2 m c) ∗ R c) ⊢ R0.pre c)
    (hpost0 : ∀ c : Dev nD, R0.post c ⊢ iprop(StableHlo.held (c : Thread nD τ) (Pipeline.ucRefs τ sig) (V3 m outs c) ∗ R c))
    (R1 : RegionSeg (pcfgs (F := F)) a pdats () defs₀ 𝒱₀ L lv 1)
    (hpre1 : ∀ c : Dev nD, iprop(StableHlo.held (c : Thread nD τ) (Pipeline.ucRefs τ sig) (V4 m outs c) ∗ R c) ⊢ R1.pre c)
    (hpost1 : ∀ c : Dev nD, R1.post c ⊢ iprop(StableHlo.held (c : Thread nD τ) (Pipeline.ucRefs τ sig) (V5 m outs c) ∗ R c))
    (R2 : RegionSeg (pcfgs (F := F)) a pdats () defs₀ 𝒱₀ L lv 2)
    (hpre2 : ∀ c : Dev nD, iprop(StableHlo.held (c : Thread nD τ) (Pipeline.ucRefs τ sig) (V6 m outs c) ∗ R c) ⊢ R2.pre c)
    (hpost2 : ∀ c : Dev nD, R2.post c ⊢ iprop(StableHlo.held (c : Thread nD τ) (Pipeline.ucRefs τ sig) (V7 m outs c) ∗ R c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) :=
  run_cond m EP () 𝒱₀ L lv (fun _ _ => rfl) ρ outs a pdats (O₀ := 0) (G := fun _ => iprop(emp))
    (u₀ := (initOf (Pipeline.cells (Pipeline.pin (pcfgs (F := F)) a) (cellOf_inj a)) (Pipeline.launchToks (Pipeline.pin (pcfgs (F := F)) a) (cellOf_inj a)), 1))
    (hu₀ := by
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by
      iintro ⟨-, HO⟩
      iexact HO)
    R0 hpre0 hpost0 R1 hpre1 hpost1 R2 hpre2 hpost2

end Cert.KernelIdeal.Hand

end
-- ==== Proof.KiRun.lean ====
/-
  The kernel program's run, region by region. @main is: two short host stretches (two constants; the clip of the index
  input), the retinal kernel, a host stretch (two reshapes, an iota, the index table), the gather kernel, a host stretch
  (the effective connectivity matrix), the matrix-product kernel. Given each kernel region's proof data — what its body
  leaves at every grid point, and that it does — each region is a segment between two thread states (every buffer no
  kernel scopes held at the boundary's valuation, beside the generator register and the core owing nothing), and the
  launch over the seven segments gives: every weakly fair execution terminates and the final memory holds, at every such
  buffer, what the last valuation computes.
-/
import proofs.«402079_j32023276159552_3_alg».proof.Proof.KiVals
import proofs.«402079_j32023276159552_3_alg».proof.Proof.KiLaunchMain
import Idealize.ShloMosaic.Lib.Pipeline.RegionsLoop

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

section Run

variable (m : (ℓ : Loc nD τ sig) → Buf (Elt F) ℓ) (ρ : Dev nD → PrngReg)

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (rec_eq0 : ∀ (V : Contents F) (c : Dev nD) (t : Fin (cfg0.N + 1)), (dat0 V c).recorded t = Set.univ)
  (body0 : ∀ (V : Contents F) (c : Dev nD), BodyObligation (dat0 V c) (defs₀ (F := F)) Variants.none () Set.univ)

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (rec_eq1 : ∀ (V : Contents F) (a : (pcfg1 (F := F)).Adm) (c : Dev nD) (t : Fin ((cfg1 a).N + 1)), (dat1 V a c).recorded t = Set.univ)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (rec_eq2 : ∀ (V : Contents F) (c : Dev nD) (t : Fin (cfg2.N + 1)), (dat2 V c).recorded t = Set.univ)
  (body2 : ∀ (V : Contents F) (c : Dev nD), BodyObligation (dat2 V c) (defs₀ (F := F)) Variants.none () Set.univ)

local notation "OUT" => outsC m dat0 dat2
local notation "ADM" => adm m dat0
local notation "PD" => pdats m dat0 dat1 dat2

/-! ## Region 0: what it leaves is the next valuation -/

include A_eq0 in
theorem hF0 (c : Dev nD) (w : Fin cfg0.W) : (dat0 (C2 m) c).arrAt w cfg0.N = V3 m OUT c (Pipeline.arrRef spec0 w) := by
  have hin : ∀ (w : Fin cfg0.W), (cfg0.win w).isOut = false →
      Pipeline.arrRef spec0 w ∉ ([main_v1_0, main_v1_1] : List (Ref sig .tc)) → (dat0 (C2 m) c).arrAt w cfg0.N = V3 m OUT c (Pipeline.arrRef spec0 w) := by
    intro w hw hn
    rw [(dat0 (C2 m) c).arrAt_in w hw _, A_eq0]
    exact (V3_of m OUT c _ hn).symm
  match w with
  | ⟨0, _⟩ => exact hin 0 rfl (by decide)
  | ⟨1, _⟩ => exact hin 1 rfl (by decide)
  | ⟨2, _⟩ => exact hin 2 rfl (by decide)
  | ⟨3, _⟩ =>
    have h1 : V3 m OUT c main_v1_0 = U3 m dat0 c (Proc.devRef .tc main_v1_0) := by
      show Function.update (Function.update (V2 m c) (Proc.devRef .tc main_v1_0) (OUT 3 main_v1_0 c))
        (Proc.devRef .tc main_v1_1) (OUT 3 main_v1_1 c) (Proc.devRef .tc main_v1_0) = _
      rw [Function.update_of_ne (StableHlo.devRef_ne_of_ne (by decide : main_v1_0 ≠ main_v1_1)), Function.update_self]
      rfl
    exact ((Pipeline.withArrays_arr spec0 (launch0 (F := F)).win.arr_inj c _ _ 3).symm.trans h1.symm)
  | ⟨4, _⟩ =>
    have h1 : V3 m OUT c main_v1_1 = U3 m dat0 c (Proc.devRef .tc main_v1_1) := by
      show Function.update (Function.update (V2 m c) (Proc.devRef .tc main_v1_0) (OUT 3 main_v1_0 c))
        (Proc.devRef .tc main_v1_1) (OUT 3 main_v1_1 c) (Proc.devRef .tc main_v1_1) = _
      rw [Function.update_self]
      rfl
    exact ((Pipeline.withArrays_arr spec0 (launch0 (F := F)).win.arr_inj c _ _ 4).symm.trans h1.symm)

theorem hrest0 (c : Dev nD) : ∀ b : Ref sig .tc, b ∉ Finset.univ.image (Pipeline.arrRef spec0) → V3 m OUT c b = V2 m c b := by
  intro b hb
  refine V3_of m OUT c b ?_
  intro hmem
  rcases List.mem_cons.mp hmem with rfl | hmem
  · exact hb (Finset.mem_image.mpr ⟨3, Finset.mem_univ _, rfl⟩)
  · rcases List.mem_cons.mp hmem with rfl | hmem
    · exact hb (Finset.mem_image.mpr ⟨4, Finset.mem_univ _, rfl⟩)
    · exact absurd hmem (List.not_mem_nil)

/-! ## The regions as segments -/

-- a library lemma stated over the pinned configuration unifies with the printed one only when unification may unfold
-- plain definitions in a metavariable's type
set_option backward.isDefEq.respectTransparency.types false in
/-- REGION 0 (the retinal kernel) over the thread state: entered from every unscoped buffer at `V2`, left at `V3`. Its
    arrays are split out of the unscoped buffers and put back at what the pipeline leaves; the generator register goes
    into the region's invariant and comes back; nothing is owed; the kernel has no semaphore of its own. -/
def reg0 : RegionSeg (pcfgs (F := F)) ADM PD () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body0 (C2 m) c).loose
  hwaits := Pipeline.hwaits_of_owed_zero _ _ _ _ L lv 0 fun c t => owed_eq0 (C2 m) c t
  pre c := iprop(StableHlo.held (c : Thread nD τ) (Pipeline.ucRefs τ sig) (V2 m c) ∗ R c)
  post c := iprop(StableHlo.held (c : Thread nD τ) (Pipeline.ucRefs τ sig) (V3 m OUT c) ∗ R c)
  X c := iprop(∃ r, prngReg c r)
  Y c := iprop(∃ r, prngReg c r)
  Z c := Pipeline.unscopedRest (Ix := Unit) (Name := ℕ) (U := UU) (Lvl := ℕ) spec0 c (C2 m c)
  hentry c := by
    rw [Pipeline.ownSems0_none]
    have hsplit := Pipeline.arrays_of_unscopedBufs (p := 0) (pcfgs (F := F)) ADM PD (launch0 (F := F)).win (launch0 (F := F)).arr_whole c
      ((PD 0 c).share_full fun w => q_eq0 (C2 m) c w) (C2 m c) fun w => A_eq0 (C2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((rec_eq0 (C2 m) c 0).symm ▸ Set.mem_univ _)
      rw [show (PD 0 c).owed 0 = 0 from owed_eq0 (C2 m) c 0]
      iexact HO
    isplitl [Hp]; · iexact Hp
    iexact Hrest
  hin c := by
    rw [show (PD 0 c).Φ 0 = (Pipeline.ΦA spec0 c : sProp 𝕄) from Φ_eq0 (C2 m) c 0]; unfold Pipeline.ΦA
    iintro ⟨Hp, -, Hr⟩
    isplitl [Hr]; · iexact Hr
    iexact Hp
  hout c := by
    rw [Pipeline.ownSems0_none, show (PD 0 c).Φ (Fin.last _) = (Pipeline.ΦA spec0 c : sProp 𝕄) from Φ_eq0 (C2 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) ADM (Ix := Unit) (Name := ℕ) (U := UU) (Lvl := ℕ)
      (launch0 (F := F)).win (launch0 (F := F)).arr_whole c PD ((PD 0 c).share_full fun w => q_eq0 (C2 m) c w)
      (C2 m c) (fun b => V3 m OUT c b) ((PD 0 c).arrAt · cfg0.N) (hF0 m dat0 A_eq0 dat2 c) (hrest0 m dat0 dat2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (PD 0 c).owed (Fin.last _) = 0 from owed_eq0 (C2 m) c _]
    iexact HO

end Run

end Cert.KernelIdeal.Hand

end
-- ==== Proof.KiReg1.lean ====
/-
  The gather region as a segment of @main: entered from every buffer no kernel scopes held at the valuation before it,
  left with them held at the valuation after it. The region stages nothing through windows: the index table enters as
  the prefetched table, the retinal matrix and the duplicated stage enter the region's invariant beside the kernel's own
  128 transfer semaphores, and after the 40 grid points they come back, the duplicated stage with all its rows gathered —
  which is what the next valuation holds for it; every other buffer bypasses the region untouched.
-/
import proofs.«402079_j32023276159552_3_alg».proof.Proof.KiRun

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

/-! ## The three buffers the body touches -/

/-- The index table, the retinal matrix and the duplicated stage, as device buffers. -/
abbrev T1 : Finset (DevRef τ sig) := {Proc.devRef .tc main_v5, Proc.devRef .tc main_v2, Proc.devRef .tc main_v6}

/-- No kernel scopes them. -/
theorem T1_sub : T1 ⊆ Pipeline.ucRefs τ sig := by
  intro b hb
  rcases Finset.mem_insert.mp hb with rfl | hb
  · exact Finset.mem_filter.mpr ⟨StableHlo.devRef_mem_tcRefs main_v5, by decide⟩
  rcases Finset.mem_insert.mp hb with rfl | hb
  · exact Finset.mem_filter.mpr ⟨StableHlo.devRef_mem_tcRefs main_v2, by decide⟩
  · rw [Finset.mem_singleton.mp hb]
    exact Finset.mem_filter.mpr ⟨StableHlo.devRef_mem_tcRefs main_v6, by decide⟩

/-- The three held at a valuation are each held whole at its contents there. -/
theorem held_T1 (c : Dev nD) (V : Valuation τ sig (Elt F)) :
    (StableHlo.held (c : Thread nD τ) T1 V : sProp 𝕄)
      = iprop(pt c (Memref.whole main_v5) (V main_v5) ∗ pt c (Memref.whole main_v2) (V main_v2) ∗ pt c (Memref.whole main_v6) (V main_v6)) := by
  unfold StableHlo.held T1
  rw [bigSep_insert (by decide), bigSep_insert (by decide), bigSep_singleton]
  rfl

/-- The kernel's 128 semaphores are scoped, distinct, and none is a staging semaphore (the region has no window). -/
theorem ownSemFacts1 : Pipeline.OwnSemFacts (pcfgs (F := F) 1).spec osem1 :=
  ⟨(by decide +kernel : ∀ k : Fin 128, (osem1 k).isScoped .tc = true),
   (by decide +kernel : Function.Injective osem1),
   fun k w => w.elim0⟩

/-- Before the first grid point no row is gathered. -/
theorem gathered_zero (T : IVec S5120 32) (r : FVec F S2048x16384 .f32) (l₀ : FVec F S5120x16384 .f32) :
    gathered 0 T r l₀ = l₀ := by
  funext y
  unfold gathered
  rw [if_neg (by omega)]

/-- A conjunction over no window is empty; over the one table it is the table's conjunct. -/
theorem bigSep_Fin0 {M : Type} [URA M] (Φ : Fin 0 → sProp M) : bigSep Finset.univ Φ = (BI.emp : sProp M) := by
  rw [show (Finset.univ : Finset (Fin 0)) = ∅ from rfl, BI.bigSep_empty]
theorem bigSep_Fin1 {M : Type} [URA M] (Φ : Fin 1 → sProp M) : bigSep Finset.univ Φ = Φ 0 := by
  rw [show (Finset.univ : Finset (Fin 1)) = {0} from rfl, bigSep_singleton]

section Run

variable (m : (ℓ : Loc nD τ sig) → Buf (Elt F) ℓ) (ρ : Dev nD → PrngReg)

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (rec_eq0 : ∀ (V : Contents F) (c : Dev nD) (t : Fin (cfg0.N + 1)), (dat0 V c).recorded t = Set.univ)
  (body0 : ∀ (V : Contents F) (c : Dev nD), BodyObligation (dat0 V c) (defs₀ (F := F)) Variants.none () Set.univ)

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (rec_eq1 : ∀ (V : Contents F) (a : (pcfg1 (F := F)).Adm) (c : Dev nD) (t : Fin ((cfg1 a).N + 1)), (dat1 V a c).recorded t = Set.univ)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (rec_eq2 : ∀ (V : Contents F) (c : Dev nD) (t : Fin (cfg2.N + 1)), (dat2 V c).recorded t = Set.univ)
  (body2 : ∀ (V : Contents F) (c : Dev nD), BodyObligation (dat2 V c) (defs₀ (F := F)) Variants.none () Set.univ)

variable (hT : ∀ (c : Dev nD) (q : Fin 5120), ((C4 m dat0 c main_v5 : IVec S5120 32) (ValueIdx.ix1 q)).toNat < 2048)

local notation "OUT" => outsC m dat0 dat2
local notation "ADM" => adm m dat0
local notation "PD" => pdats m dat0 dat1 dat2

/-! ## What the next valuation holds -/

/-- The table is untouched by the region; -/
theorem V5_at_v5 (c : Dev nD) : V5 m OUT c main_v5 = C4 m dat0 c main_v5 :=
  V5_of m OUT c main_v5 (by decide)

/-- the retinal matrix is given back as it was; -/
theorem V5_at_v2 (c : Dev nD) : V5 m OUT c main_v2 = C4 m dat0 c main_v2 := by
  show Function.update (Function.update (V4 m OUT c) (Proc.devRef .tc main_v2) (OUT 5 main_v2 c))
    (Proc.devRef .tc main_v6) (OUT 5 main_v6 c) (Proc.devRef .tc main_v2) = _
  rw [Function.update_of_ne (StableHlo.devRef_ne_of_ne (by decide : main_v2 ≠ main_v6)), Function.update_self]
  show (if (5 : ℕ) = 3 then U3 m dat0 c (Proc.devRef .tc main_v2) else if (5 : ℕ) = 5 then U5 m dat0 c (Proc.devRef .tc main_v2) else U7 m dat0 dat2 c (Proc.devRef .tc main_v2)) = _
  rw [if_neg (by decide), if_pos rfl]
  unfold U5
  rw [Function.update_of_ne (StableHlo.devRef_ne_of_ne (by decide : main_v2 ≠ main_v6))]

/-- the duplicated stage has all its rows gathered. -/
theorem V5_at_v6 (c : Dev nD) :
    V5 m OUT c main_v6 = gathered (F := F) 40 (C4 m dat0 c main_v5) (C4 m dat0 c main_v2) (C4 m dat0 c main_v6) := by
  show Function.update (Function.update (V4 m OUT c) (Proc.devRef .tc main_v2) (OUT 5 main_v2 c))
    (Proc.devRef .tc main_v6) (OUT 5 main_v6 c) (Proc.devRef .tc main_v6) = _
  rw [Function.update_self]
  show (if (5 : ℕ) = 3 then U3 m dat0 c (Proc.devRef .tc main_v6) else if (5 : ℕ) = 5 then U5 m dat0 c (Proc.devRef .tc main_v6) else U7 m dat0 dat2 c (Proc.devRef .tc main_v6)) = _
  rw [if_neg (by decide), if_pos rfl]
  unfold U5
  rw [Function.update_self]

/-- Off the three buffers the next valuation is the entry valuation. -/
theorem V5_off (c : Dev nD) (b : DevRef τ sig) (hb : b ∈ Pipeline.ucRefs τ sig \ T1) : V5 m OUT c b = V4 m OUT c b := by
  have hb' := (Finset.mem_sdiff.mp hb).2
  have h2 : b ≠ Proc.devRef .tc main_v2 := fun e => hb' (e ▸ Finset.mem_insert_of_mem (Finset.mem_insert_self _ _))
  have h6 : b ≠ Proc.devRef .tc main_v6 := fun e => hb' (e ▸ Finset.mem_insert_of_mem (Finset.mem_insert_of_mem (Finset.mem_singleton_self _)))
  show Function.update (Function.update (V4 m OUT c) (Proc.devRef .tc main_v2) (OUT 5 main_v2 c))
    (Proc.devRef .tc main_v6) (OUT 5 main_v6 c) b = _
  rw [Function.update_of_ne h6, Function.update_of_ne h2]

/-- Every buffer no kernel scopes, held at the next valuation: the three at what the region gives back, the rest as
    entered. -/
theorem held_V5 (c : Dev nD) :
    (StableHlo.held (c : Thread nD τ) (Pipeline.ucRefs τ sig) (V5 m OUT c) : sProp 𝕄)
      = iprop((pt c (Memref.whole main_v5) (C4 m dat0 c main_v5) ∗ pt c (Memref.whole main_v2) (C4 m dat0 c main_v2)
          ∗ pt c (Memref.whole main_v6) (gathered (F := F) 40 (C4 m dat0 c main_v5) (C4 m dat0 c main_v2) (C4 m dat0 c main_v6)))
        ∗ StableHlo.held (c : Thread nD τ) (Pipeline.ucRefs τ sig \ T1) (V4 m OUT c)) := by
  rw [StableHlo.held_sub_split (c : Thread nD τ) T1_sub (V5 m OUT c), held_T1, V5_at_v5, V5_at_v2, V5_at_v6,
    StableHlo.held_congr (c : Thread nD τ) (V5_off m dat0 dat2 c)]

/-- and at the entry valuation. -/
theorem held_V4 (c : Dev nD) :
    (StableHlo.held (c : Thread nD τ) (Pipeline.ucRefs τ sig) (V4 m OUT c) : sProp 𝕄)
      = iprop((pt c (Memref.whole main_v5) (C4 m dat0 c main_v5) ∗ pt c (Memref.whole main_v2) (C4 m dat0 c main_v2)
          ∗ pt c (Memref.whole main_v6) (C4 m dat0 c main_v6))
        ∗ StableHlo.held (c : Thread nD τ) (Pipeline.ucRefs τ sig \ T1) (V4 m OUT c)) := by
  rw [StableHlo.held_sub_split (c : Thread nD τ) T1_sub (V4 m OUT c), held_T1]
  rfl

/-- The prefetched table held whole is the table's buffer at the contents the host stretch left (one core). -/
theorem prefHeld1_eq (c : Dev nD) :
    (Pipeline.prefHeld (pcfgs (F := F) 1).pre c (fun _ => fullShare) (ADM 1).1 : sProp 𝕄)
      = pt c (Memref.whole main_v5) (C4 m dat0 c main_v5) := by
  obtain rfl : c = (0 : Dev nD) := Subsingleton.elim _ _
  unfold Pipeline.prefHeld
  exact bigSep_Fin1 _

/-! ## The region as a segment -/

include Φ_eq1 owed_eq1 rec_eq1 body1 hT in
-- a library lemma stated over the pinned configuration unifies with the printed one only when unification may unfold
-- plain definitions in a metavariable's type
set_option backward.isDefEq.respectTransparency.types false in
/-- THE GATHER REGION over the thread state: entered from every buffer no kernel scopes at the valuation before it, left
    at the valuation after it. The table becomes the prefetched table; the retinal matrix, the duplicated stage, the
    generator register and the kernel's own semaphores enter the invariant; the invariant after the last point gives them
    back, the duplicated stage with every row gathered; nothing is owed. -/
def reg1 : RegionSeg (pcfgs (F := F)) ADM PD () defs₀ 𝒱₀ L lv 1 where
  win := (launch1 (F := F)).win.to₀
  block_pos := (launch1 (F := F)).block_pos
  stage_whole := (launch1 (F := F)).stage_whole
  K := Fin 128
  osem := osem1
  ho := ownSemFacts1
  hbody c := (body1 (C4 m dat0) (ADM 1) c (hT c)).loose
  hwaits := Pipeline.hwaits_of_owed_zero _ _ _ _ L lv 1 fun c t => owed_eq1 (C4 m dat0) (ADM 1) c t
  pre c := iprop(StableHlo.held (c : Thread nD τ) (Pipeline.ucRefs τ sig) (V4 m OUT c) ∗ R c)
  post c := iprop(StableHlo.held (c : Thread nD τ) (Pipeline.ucRefs τ sig) (V5 m OUT c) ∗ R c)
  X c := iprop((∃ g, prngReg c g)
    ∗ Pipeline.ownSems0 (Ix := Unit) (Name := ℕ) (U := UU) (Lvl := ℕ) (Val := Elt F) (τ := τ) osem1 c
    ∗ pt c (Memref.whole main_v2) (C4 m dat0 c main_v2) ∗ pt c (Memref.whole main_v6) (C4 m dat0 c main_v6))
  Y c := iprop((∃ g, prngReg c g) ∗ pt c (Memref.whole main_v5) (C4 m dat0 c main_v5) ∗ pt c (Memref.whole main_v2) (C4 m dat0 c main_v2)
    ∗ pt c (Memref.whole main_v6) (gathered (F := F) 40 (C4 m dat0 c main_v5) (C4 m dat0 c main_v2) (C4 m dat0 c main_v6)))
  Z c := StableHlo.held (c : Thread nD τ) (Pipeline.ucRefs τ sig \ T1) (V4 m OUT c)
  hentry c := by
    rw [held_V4 m dat0 dat2 c, prefHeld1_eq m dat0 c]
    iintro ⟨⟨⟨⟨H5, H2, H6⟩, Hrest⟩, Hp, HO⟩, Hsems, -⟩
    imodintro
    isplitr
    · unfold Pipeline.Dat.arrays; rw [bigSep_Fin0]; iempintro
    isplitl [H5]; · iexact H5
    isplitl [HO]
    · unfold Pipeline.Dat.owesAt Pipeline.owesWithin
      rw [show (PD 1 c).owed 0 = 0 from owed_eq1 (C4 m dat0) (ADM 1) c 0]
      icases HO with ⟨%W, HO⟩; iexists W; isplitr
      · ipureintro; exact fun _ _ => Or.inl ((rec_eq1 (C4 m dat0) (ADM 1) c 0).symm ▸ Set.mem_univ _)
      iexact HO
    isplitl [Hp Hsems H2 H6]
    · isplitl [Hp]; · iexact Hp
      isplitl [Hsems]; · iexact Hsems
      isplitl [H2]; · iexact H2
      iexact H6
    iexact Hrest
  hin c := by
    rw [prefHeld1_eq m dat0 c, show (PD 1 c).Φ 0 = Φ1 (C4 m dat0) c 0 from Φ_eq1 (C4 m dat0) (ADM 1) c 0]
    unfold Φ1
    rw [gathered_zero]
    iintro ⟨⟨Hp, Hsems, H2, H6⟩, H5, Hr⟩
    isplitl [Hr]; · iexact Hr
    isplitl [Hp]; · iexact Hp
    isplitl [Hsems]; · iexact Hsems
    isplitl [H5]; · iexact H5
    isplitl [H2]; · iexact H2
    iexact H6
  hout c := by
    rw [show (PD 1 c).Φ (Fin.last _) = Φ1 (C4 m dat0) c 40 from
      (Φ_eq1 (C4 m dat0) (ADM 1) c (Fin.last _)).trans (congrArg (Φ1 (C4 m dat0) c) N_1)]
    unfold Φ1
    iintro ⟨Hr, Hp, Hsems, H5, H2, H6⟩
    isplitl [Hp H5 H2 H6]
    · isplitl [Hp]; · iexact Hp
      isplitl [H5]; · iexact H5
      isplitl [H2]; · iexact H2
      iexact H6
    isplitl [Hsems]; · iexact Hsems
    iexact Hr
  hexit c := by
    rw [held_V5 m dat0 dat2 c]
    iintro ⟨-, HO, ⟨Hp, H5, H2, H6⟩, Hrest⟩
    imodintro
    isplitl [H5 H2 H6 Hrest]
    · isplitl [H5 H2 H6]
      · isplitl [H5]; · iexact H5
        isplitl [H2]; · iexact H2
        iexact H6
      iexact Hrest
    isplitl [Hp]; · iexact Hp
    unfold Pipeline.Dat.owesAt Pipeline.owesWithin
    rw [show (PD 1 c).owed (Fin.last _) = 0 from owed_eq1 (C4 m dat0) (ADM 1) c _]
    icases HO with ⟨%W, -, HO⟩; iexists W
    iexact HO

end Run

end Cert.KernelIdeal.Hand

end
-- ==== Proof.KiReg2.lean ====
/-
  The matrix-product region as a segment of @main: entered from every buffer no kernel scopes held at the valuation
  before it, left with them held at the valuation after it — the two operand arrays as they were, the result array at
  what the region's write-backs leave, every other buffer untouched —, beside the generator register and the core
  owing nothing.
-/
import proofs.«402079_j32023276159552_3_alg».proof.Proof.KiVals
import proofs.«402079_j32023276159552_3_alg».proof.Proof.KiLaunchMain
import Idealize.ShloMosaic.Lib.Pipeline.RegionsLoop

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

section Run

variable (m : (ℓ : Loc nD τ sig) → Buf (Elt F) ℓ) (ρ : Dev nD → PrngReg)

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (rec_eq0 : ∀ (V : Contents F) (c : Dev nD) (t : Fin (cfg0.N + 1)), (dat0 V c).recorded t = Set.univ)
  (body0 : ∀ (V : Contents F) (c : Dev nD), BodyObligation (dat0 V c) (defs₀ (F := F)) Variants.none () Set.univ)

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (rec_eq1 : ∀ (V : Contents F) (a : (pcfg1 (F := F)).Adm) (c : Dev nD) (t : Fin ((cfg1 a).N + 1)), (dat1 V a c).recorded t = Set.univ)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (rec_eq2 : ∀ (V : Contents F) (c : Dev nD) (t : Fin (cfg2.N + 1)), (dat2 V c).recorded t = Set.univ)
  (body2 : ∀ (V : Contents F) (c : Dev nD), BodyObligation (dat2 V c) (defs₀ (F := F)) Variants.none () Set.univ)

local notation "OUT" => outsC m dat0 dat2
local notation "ADM" => adm m dat0
local notation "PD" => pdats m dat0 dat1 dat2

/-! ## Region 2: what it leaves is the next valuation -/

include A_eq2 in
/-- Each of the region's arrays ends at the next valuation's contents: an operand array is never written, and the
    next valuation is the entry valuation there; the result array's contents after the write-backs are by definition
    what the next valuation holds for it. -/
theorem hF2 (c : Dev nD) (w : Fin cfg2.W) : (dat2 (C6 m dat0) c).arrAt w cfg2.N = V7 m OUT c (Pipeline.arrRef spec2 w) := by
  have hin : ∀ (w : Fin cfg2.W) (b : Ref sig .tc), (cfg2.win w).isOut = false → Pipeline.arrRef spec2 w = b →
      b ∉ ([main_v16] : List (Ref sig .tc)) → (dat2 (C6 m dat0) c).arrAt w cfg2.N = V7 m OUT c (Pipeline.arrRef spec2 w) := by
    intro w b hw hb hn
    subst hb
    rw [(dat2 (C6 m dat0) c).arrAt_in w hw _, A_eq2, V7_of m OUT c _ hn]
    exact congrFun (V6_outsC m dat0 dat2 c).symm _
  match w with
  | ⟨0, _⟩ => exact hin 0 main_v15 rfl rfl (by decide)
  | ⟨1, _⟩ => exact hin 1 main_v3 rfl rfl (by decide)
  | ⟨2, _⟩ =>
    have h1 : V7 m OUT c main_v16 = U7 m dat0 dat2 c (Proc.devRef .tc main_v16) := by
      show Function.update (V6 m OUT c) (Proc.devRef .tc main_v16) (OUT 7 main_v16 c) (Proc.devRef .tc main_v16) = _
      rw [Function.update_self]
      rfl
    exact ((Pipeline.withArrays_arr spec2 (launch2 (F := F)).win.arr_inj c _ _ 2).symm.trans h1.symm)

/-- Off the region's arrays the next valuation is the entry valuation: the region may change the result array only. -/
theorem hrest2 (c : Dev nD) : ∀ b : Ref sig .tc, b ∉ Finset.univ.image (Pipeline.arrRef spec2) → V7 m OUT c b = V6 m OUT c b := by
  intro b hb
  refine V7_of m OUT c b ?_
  intro hmem
  rcases List.mem_cons.mp hmem with rfl | hmem
  · exact hb (Finset.mem_image.mpr ⟨2, Finset.mem_univ _, rfl⟩)
  · exact absurd hmem (List.not_mem_nil)

/-! ## Region 2 as a segment -/

include A_eq2 Φ_eq2 owed_eq2 q_eq2 rec_eq2 body2 in
set_option backward.isDefEq.respectTransparency.types false in
/-- The region over the thread state: entered from every buffer no kernel scopes at the valuation before it, left at
    the valuation after it. Its arrays are split out of those buffers at entry and put back at the exit contents; the
    generator register goes into the region's invariant and comes back; nothing is owed; the kernel has no semaphore
    of its own. -/
def reg2 : RegionSeg (pcfgs (F := F)) ADM PD () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body2 (C6 m dat0) c).loose
  hwaits := Pipeline.hwaits_of_owed_zero _ _ _ _ L lv 2 fun c t => owed_eq2 (C6 m dat0) c t
  pre c := iprop(StableHlo.held (c : Thread nD τ) (Pipeline.ucRefs τ sig) (V6 m OUT c) ∗ R c)
  post c := iprop(StableHlo.held (c : Thread nD τ) (Pipeline.ucRefs τ sig) (V7 m OUT c) ∗ R c)
  X c := iprop(∃ r, prngReg c r)
  Y c := iprop(∃ r, prngReg c r)
  Z c := Pipeline.unscopedRest (Ix := Unit) (Name := ℕ) (U := UU) (Lvl := ℕ) (Val := Elt F) spec2 c (C6 (F := F) m dat0 c)
  hentry c := by
    rw [Pipeline.ownSems0_none]
    have hsplit := Pipeline.arrays_of_unscopedBufs (p := 2) (pcfgs (F := F)) ADM PD (launch2 (F := F)).win (launch2 (F := F)).arr_whole c
      ((PD 2 c).share_full fun w => q_eq2 (C6 m dat0) c w) (C6 m dat0 c) fun w => A_eq2 (C6 m dat0) c w
    rw [Pipeline.unscopedBufs_held] at hsplit
    rw [V6_outsC m dat0 dat2 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (PD 2 c).owed 0 = 0 from owed_eq2 (C6 m dat0) c 0]
      icases HO with ⟨%W, HO⟩; iexists W; isplitr; · ipureintro; exact fun _ _ => Or.inl ((rec_eq2 (C6 m dat0) c 0).symm ▸ Set.mem_univ _)
      iexact HO
    isplitl [Hp]; · iexact Hp
    iexact Hrest
  hin c := by
    rw [show (PD 2 c).Φ 0 = Pipeline.ΦA spec2 c from Φ_eq2 (C6 m dat0) c 0]; unfold Pipeline.ΦA
    iintro ⟨Hp, -, Hr⟩
    isplitl [Hr]; · iexact Hr
    iexact Hp
  hout c := by
    rw [Pipeline.ownSems0_none, show (PD 2 c).Φ (Fin.last _) = Pipeline.ΦA spec2 c from Φ_eq2 (C6 m dat0) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) ADM (Ix := Unit) (Name := ℕ) (U := UU) (Lvl := ℕ)
      (launch2 (F := F)).win (launch2 (F := F)).arr_whole c PD ((PD 2 c).share_full fun w => q_eq2 (C6 m dat0) c w)
      (C6 m dat0 c) (fun b : Ref sig .tc => V7 m OUT c b) ((PD 2 c).arrAt · cfg2.N) (hF2 m dat0 dat2 A_eq2 c) (hrest2 m dat0 dat2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (PD 2 c).owed (Fin.last _) = 0 from owed_eq2 (C6 m dat0) c (Fin.last _)]
    icases HO with ⟨%W, -, HO⟩; iexists W; iexact HO

end Run

end Cert.KernelIdeal.Hand

end
-- ==== Proof.Spec.lean ====
/-
  The three results as functions of the five inputs, index by index, on the extended reals.

  With x : [128,128], act_on, act_off : [1024,128,128], conn : [4096,5120], idx : [3072] (32-bit words):
  * the retinal stage r : [2048,16384]: row n < 1024 is x ⊙ act_on[n], row n ≥ 1024 is (1 − x) ⊙ act_off[n − 1024],
    each 128×128 image flattened row-major (pixel p = 128·row + col);
  * the duplicated stage l : [5120,16384]: rows 0..2047 are r's, row 2048 + t is row (idx t) of r, the index read as
    a signed integer and clamped into 0..2047;
  * the cortical stage v : [4096,16384]: v = conn · l, a sum over the 5120 rows of l.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![128, 128]⟩
abbrev SA : Shape := ⟨3, ![1024, 128, 128]⟩
abbrev SC : Shape := ⟨2, ![4096, 5120]⟩
abbrev SI : Shape := ⟨1, ![3072]⟩
abbrev SR : Shape := ⟨2, ![2048, 16384]⟩
abbrev SL : Shape := ⟨2, ![5120, 16384]⟩
abbrev SV : Shape := ⟨2, ![4096, 16384]⟩

/-- The float literal 1.0 as both programs carry it (never evaluated: the same word on both sides). -/
abbrev one : Ideal .f32 := Ideal.ofBits .f32 0x3F800000#32

/-- Pixel `p` of a flattened 128×128 image: its row and column. -/
abbrev pix (p : Fin 16384) : SX.Idx := ix2 (⟨p.val / 128, by omega⟩ : Fin 128) (⟨p.val % 128, by omega⟩ : Fin 128)

/-- Row `t` of the index input as a row of r: read signed, clamped into 0..2047. -/
def rowOf (idx : IVec SI 32) (t : Fin 3072) : Fin 2048 := ⟨min (idx (ix1 t)).toInt.toNat 2047, by omega⟩

/-- The retinal stage. -/
def specR (x : FVec Ideal SX .f32) (aon aoff : FVec Ideal SA .f32) : FVec Ideal SR .f32 := fun i =>
  let p : Fin 16384 := ⟨(i 1).val, idx2_lt1 i⟩
  if h : (i 0).val < 1024 then
    x (pix p) * aon (ix3 (⟨(i 0).val, h⟩ : Fin 1024) (⟨p.val / 128, by omega⟩ : Fin 128) (⟨p.val % 128, by omega⟩ : Fin 128))
  else
    (one - x (pix p)) * aoff (ix3 (⟨(i 0).val - 1024, by have := idx2_lt0 i; omega⟩ : Fin 1024) (⟨p.val / 128, by omega⟩ : Fin 128) (⟨p.val % 128, by omega⟩ : Fin 128))

/-- The duplicated stage over any r. -/
def specL (r : FVec Ideal SR .f32) (idx : IVec SI 32) : FVec Ideal SL .f32 := fun i =>
  if h : (i 0).val < 2048 then r (ix2 (⟨(i 0).val, h⟩ : Fin 2048) (⟨(i 1).val, idx2_lt1 i⟩ : Fin 16384))
  else r (ix2 (rowOf idx ⟨(i 0).val - 2048, by have := idx2_lt0 i; omega⟩) (⟨(i 1).val, idx2_lt1 i⟩ : Fin 16384))

/-- The cortical stage over any l. -/
def specV (conn : FVec Ideal SC .f32) (l : FVec Ideal SL .f32) : FVec Ideal SV .f32 := fun i =>
  ∑ q : Fin 5120, conn (ix2 (⟨(i 0).val, idx2_lt0 i⟩ : Fin 4096) q) * l (ix2 q (⟨(i 1).val, idx2_lt1 i⟩ : Fin 16384))

end Cert.Spec

end
-- ==== Proof.KiR0.lean ====
/-
  Region 0, the retinal stage: 32 grid points, each filling one block of 64 images. The first 16 points store
  x ⊙ act_on's block, the last 16 store (1 − x) ⊙ act_off's block; every point writes its block back, so after the
  region the output array holds, image by image, the specification's retinal stage.
-/
import proofs.«402079_j32023276159552_3_alg».proof.Proof.KiBase
import proofs.«402079_j32023276159552_3_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Tactic Idealize.SL.BI.Laws Idealize.SL.ProofMode
open Idealize.ShloMosaic.Pipeline (Dat Cfg Window BodyObligation cellOf)

variable {F : FTy → Type} [FloatOps F]

local notation "𝕄" => MM F

variable (V : Contents F)

/-! ## The control: which half a grid point belongs to -/

/-- At every grid point exactly one of the body's two conditions holds. -/
theorem cond0_excl : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1) := by decide +kernel

/-- The first condition holds at the first 16 points. -/
theorem cond0_1_iff : ∀ t : Fin grid0.N, k0_cond1 (grid0.coords t) = 1#1 ↔ t.val < 16 := by decide +kernel

/-- No point is idle for the outputs: one of the two conditions holds. -/
theorem idle0_3 : ∀ t : Fin cfg0.N, idle0 3 (grid0.coords t) = false :=
  (by decide +kernel : ∀ t : Fin grid0.N, idle0 3 (grid0.coords t) = false)
theorem idle0_4 : ∀ t : Fin cfg0.N, idle0 4 (grid0.coords t) = false :=
  (by decide +kernel : ∀ t : Fin grid0.N, idle0 4 (grid0.coords t) = false)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: unfetched, the block
    index has not moved. For any proof data whose array is the entry contents and whose body leaves the block. -/
theorem before0_0_of {c : Dev nD} (dat : Dat τ (Elt F) Unit ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S128x128 := Rect.unit (s := S128x128) ![0, 0] S128x128.size inb_S128x128_S128x128_0_0
abbrev rB0 : Rect S64x128x128 := Rect.unit (s := S64x128x128) ![0, 0, 0] S64x128x128.size inb_S64x128x128_S64x128x128_0_0_0

/-! ## What the body leaves in each output buffer -/

/-- The f32 output's buffer after the body at grid coordinates `i`, from the inputs' blocks: in the first half the
    product of the image with act_on's block, in the second of its complement with act_off's block. -/
def out0_3 (i : grid0.Coords) (x0 : Vec F S128x128 .f32) (x1 x2 : Vec F S64x128x128 .f32) : Vec F S64x128x128 .f32 :=
  if k0_cond1 i = 1#1 then View.canon [⟨rB0, k0_pay1 (View.ld x0 rX0) (View.ld x1 rB0)⟩]
  else View.canon [⟨rB0, k0_pay3 (View.ld x0 rX0) (View.ld x2 rB0)⟩]

/-- The bf16 output's buffer after the body: the same values, their format changed. -/
def out0_4 (i : grid0.Coords) (x0 : Vec F S128x128 .f32) (x1 x2 : Vec F S64x128x128 .f32) : Vec F S64x128x128 .bf16 :=
  if k0_cond1 i = 1#1 then View.canon [⟨rB0, k0_pay2 (View.ld x0 rX0) (View.ld x1 rB0)⟩]
  else View.canon [⟨rB0, k0_pay4 (View.ld x0 rX0) (View.ld x2 rB0)⟩]

/-- One store of the whole block covers it. -/
theorem cover0_B {e : EltTy} (p0 : Vec F S64x128x128 e) (y : S64x128x128.Idx) :
    ∃ pc ∈ ([⟨rB0, p0⟩] : List (View.Piece (Elt F) S64x128x128 e)), y ∈ pc.1.set :=
  View.cover_of_tiled [⟨rB0, p0⟩] S64x128x128.size (by rfl) y

/-! ## The body's triple -/

set_option maxHeartbeats 1000000 in
/-- The body at grid point `t` on whole staging memrefs, the inputs' at read contents and the outputs' at anything,
    runs to the continuation holding the inputs' as they were and each output's at its out-function of the inputs':
    of the two guarded regions exactly one runs, and stores each output's block whole. -/
theorem sound_kernel0 (c : Dev nD) (E : Set ℕ) (t : Fin grid0.N)
    (arg1 : Memref sig .tc .vmem S128x128 .f32) (harg1 : arg1.IsWhole)
    (arg2 : Memref sig .tc .vmem S64x128x128 .f32) (harg2 : arg2.IsWhole)
    (arg3 : Memref sig .tc .vmem S64x128x128 .f32) (harg3 : arg3.IsWhole)
    (arg4 : Memref sig .tc .vmem S64x128x128 .f32) (harg4 : arg4.IsWhole)
    (arg5 : Memref sig .tc .vmem S64x128x128 .bf16) (harg5 : arg5.IsWhole)
    (x0 : Vec F S128x128 .f32) (x1 x2 : Vec F S64x128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 (grid0.coords t) x0 x1 x2)
            ∗ owns (c : Thread nD τ) arg5 fullShare (out0_4 (grid0.coords t) x0 x1 x2)) -∗ K ⟨⟩))
      ⊢ wp frame (wpE (defs₀ (F := F)) Variants.none c none) E
          (cc0__rgc_kernel (grid0.coords t) arg1 harg1 arg2 harg2 arg3 harg3 arg4 harg4 arg5 harg5) K := by
  simp only [cc0__rgc_kernel_eq_skeleton]; unfold cc0__rgc_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  rcases cond0_excl t with ⟨h1, h2⟩ | ⟨h1, h2⟩
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      unfold out0_3; rw [if_pos h1]
      exact View.read_writes_eq_canon _ _ _ (cover0_B _)
    · iexists _; isplitr
      swap; · iexact H4
      ipureintro
      unfold out0_4; rw [if_pos h1]
      exact View.read_writes_eq_canon _ _ _ (cover0_B _)
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      unfold out0_3; rw [if_neg h1]
      exact View.read_writes_eq_canon _ _ _ (cover0_B _)
    · iexists _; isplitr
      swap; · iexact H4
      ipureintro
      unfold out0_4; rw [if_neg h1]
      exact View.read_writes_eq_canon _ _ _ (cover0_B _)

/-! ## The pipeline's proof data -/

/-- The proof data of the region on core `c`: the arrays as the region finds them; after the body at point `t` each
    input's buffer at its block and each output's at its out-function of the input blocks there; the invariant the
    scoped rest and the generator register, untouched; nothing owed; full shares. -/
def dat0 (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Φ_eq0 (c : Dev nD) (t : Fin (cfg0.N + 1)) : (dat0 V c).Φ t = (Pipeline.ΦA spec0 c : sProp (MM F)) := by
  dsimp only [dat0]
theorem owed_eq0 (c : Dev nD) (t : Fin (cfg0.N + 1)) : (dat0 V c).owed t = 0 := by
  dsimp only [dat0]
theorem q_eq0 (c : Dev nD) (w : Fin cfg0.W) : (dat0 V c).q w = fullShare := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) :
    (dat0 V c).after 4 t = out0_4 (grid0.coords t) (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ t _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 V c) (defs₀ (F := F)) Variants.none () Set.univ := fun t => by
  rw [bigSep_W0, bigSep_W0]
  simp only [idle0_3 t, idle0_4 t]
  exact sound_body0 V c t

/-! # The value, on the extended reals -/

section Value

open Idealize.ShloMosaic.ValueIdx

/-- One image broadcast over the 64 images of a block reads, at image `r`, the image itself. -/
theorem bcast0_apply {α : Type} (v : S1x128x128.Idx → α) (r : Fin 64) (a b : Fin 128) :
    broadcastTo S64x128x128 v broadcasts_S1x128x128_S64x128x128 (ix3 r a b) = v (ix3 (0 : Fin 1) a b) := by
  refine broadcastTo_apply v _ (ix3 r a b) (ix3 (0 : Fin 1) a b) fun ax => ?_
  match ax with
  | ⟨0, _⟩ => rfl
  | ⟨1, _⟩ => rfl
  | ⟨2, _⟩ => rfl

/-- The first half's payload at image `r`, pixel `(a, b)`: the image times act_on's block. -/
theorem pay1_apply (x0 : FVec Ideal S128x128 .f32) (x1 : FVec Ideal S64x128x128 .f32) (r : Fin 64) (a b : Fin 128) :
    k0_pay1 x0 x1 (ix3 r a b) = x0 (ix2 a b) * x1 (ix3 r a b) := by
  unfold k0_pay1
  rw [mulf_apply, bcast0_apply, shapeCast_self, shapeCast_ab_1ab_apply]

/-- The second half's payload: the image's complement times act_off's block. -/
theorem pay3_apply (x0 : FVec Ideal S128x128 .f32) (x2 : FVec Ideal S64x128x128 .f32) (r : Fin 64) (a b : Fin 128) :
    k0_pay3 x0 x2 (ix3 r a b) = (Cert.Spec.one - x0 (ix2 a b)) * x2 (ix3 r a b) := by
  unfold k0_pay3
  rw [mulf_apply, bcast0_apply, shapeCast_self, shapeCast_ab_1ab_apply, subf_apply, broadcast_apply]
  rfl

/-- The retinal stage as the region's 3-dimensional output: image `n`, row `a`, column `b`. -/
def R3 (x : FVec Ideal S128x128 .f32) (aon aoff : FVec Ideal S1024x128x128 .f32) : FVec Ideal S2048x128x128 .f32 := fun i =>
  if h : (i 0).val < 1024 then
    x (ix2 (⟨(i 1).val, (i 1).isLt⟩ : Fin 128) (⟨(i 2).val, (i 2).isLt⟩ : Fin 128))
      * aon (ix3 (⟨(i 0).val, h⟩ : Fin 1024) (⟨(i 1).val, (i 1).isLt⟩ : Fin 128) (⟨(i 2).val, (i 2).isLt⟩ : Fin 128))
  else
    (Cert.Spec.one - x (ix2 (⟨(i 1).val, (i 1).isLt⟩ : Fin 128) (⟨(i 2).val, (i 2).isLt⟩ : Fin 128)))
      * aoff (ix3 (⟨(i 0).val - 1024, by have := (i 0).isLt; change _ < 2048 at this; omega⟩ : Fin 1024) (⟨(i 1).val, (i 1).isLt⟩ : Fin 128) (⟨(i 2).val, (i 2).isLt⟩ : Fin 128))

/-- Flattened row-major, it is the specification's retinal stage. -/
theorem R3_eq_specR (x : FVec Ideal S128x128 .f32) (aon aoff : FVec Ideal S1024x128x128 .f32) (n : Fin 2048) (a b : Fin 128) :
    R3 x aon aoff (ix3 n a b) = Cert.Spec.specR x aon aoff (ix2 n (⟨128 * a.val + b.val, by omega⟩ : Fin 16384)) := by
  have hd : (128 * a.val + b.val) / 128 = a.val := by omega
  have hm : (128 * a.val + b.val) % 128 = b.val := by omega
  have ea : (⟨(128 * a.val + b.val) / 128, by omega⟩ : Fin 128) = a := Fin.ext hd
  have eb : (⟨(128 * a.val + b.val) % 128, by omega⟩ : Fin 128) = b := Fin.ext hm
  unfold R3 Cert.Spec.specR
  by_cases h : n.val < 1024
  · rw [dif_pos (show ((ix3 n a b : S2048x128x128.Idx) 0).val < 1024 from h), dif_pos (show ((ix2 n (⟨128 * a.val + b.val, by omega⟩ : Fin 16384) : Cert.Spec.SR.Idx) 0).val < 1024 from h)]
    show x (ix2 a b) * aon (ix3 (⟨n.val, h⟩ : Fin 1024) a b) = x (ix2 (⟨(128 * a.val + b.val) / 128, _⟩ : Fin 128) (⟨(128 * a.val + b.val) % 128, _⟩ : Fin 128)) * aon (ix3 (⟨n.val, h⟩ : Fin 1024) (⟨(128 * a.val + b.val) / 128, _⟩ : Fin 128) (⟨(128 * a.val + b.val) % 128, _⟩ : Fin 128))
    rw [ea, eb]
  · rw [dif_neg (show ¬ ((ix3 n a b : S2048x128x128.Idx) 0).val < 1024 from h), dif_neg (show ¬ ((ix2 n (⟨128 * a.val + b.val, by omega⟩ : Fin 16384) : Cert.Spec.SR.Idx) 0).val < 1024 from h)]
    show (Cert.Spec.one - x (ix2 a b)) * aoff (ix3 (⟨n.val - 1024, _⟩ : Fin 1024) a b) = (Cert.Spec.one - x (ix2 (⟨(128 * a.val + b.val) / 128, _⟩ : Fin 128) (⟨(128 * a.val + b.val) % 128, _⟩ : Fin 128))) * aoff (ix3 (⟨n.val - 1024, _⟩ : Fin 1024) (⟨(128 * a.val + b.val) / 128, _⟩ : Fin 128) (⟨(128 * a.val + b.val) % 128, _⟩ : Fin 128))
    rw [ea, eb]

end Value

section Value

open Idealize.ShloMosaic.ValueIdx

theorem hz0_2 : (![0, 0] : Fin 2 → Nat) = fun _ => 0 := funext fun a => by fin_cases a <;> rfl
theorem hz0_3 : (![0, 0, 0] : Fin 3 → Nat) = fun _ => 0 := funext fun a => by fin_cases a <;> rfl

/-- The printed index maps, decided over the grid: the image is always block 0; act_on's block is min(t, 15),
    act_off's is t − 16 (cut off at 0); each output's block is t. -/
theorem idx_facts0 : ∀ t : Fin cfg0.N, t.val < 32
    ∧ win0_0.index t (0 : Fin 2) = 0 ∧ win0_0.index t (1 : Fin 2) = 0
    ∧ win0_1.index t (0 : Fin 3) = min t.val 15 ∧ win0_1.index t (1 : Fin 3) = 0 ∧ win0_1.index t (2 : Fin 3) = 0
    ∧ win0_2.index t (0 : Fin 3) = t.val - 16 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point `T` leaves in the f32 output's buffer is block `T` of the retinal stage, when the input buffers hold
    the image, act_on's block `T` (in the first half) and act_off's block `T − 16` (in the second). -/
theorem out0_3_apply (i : grid0.Coords) (T : ℕ) (hT : T < 32) (hc : k0_cond1 i = 1#1 ↔ T < 16)
    (x0 : FVec Ideal S128x128 .f32) (x1 x2 : FVec Ideal S64x128x128 .f32)
    (X : FVec Ideal S128x128 .f32) (AON AOFF : FVec Ideal S1024x128x128 .f32)
    (h0 : ∀ a b : Fin 128, x0 (ix2 a b) = X (ix2 a b))
    (h1 : ∀ hlt : T < 16, ∀ (r : Fin 64) (a b : Fin 128), x1 (ix3 r a b) = AON (ix3 (⟨64 * T + r.val, by omega⟩ : Fin 1024) a b))
    (h2 : ∀ hge : 16 ≤ T, ∀ (r : Fin 64) (a b : Fin 128), x2 (ix3 r a b) = AOFF (ix3 (⟨64 * (T - 16) + r.val, by omega⟩ : Fin 1024) a b))
    (j : S64x128x128.Idx) :
    out0_3 (F := Ideal) i x0 x1 x2 j = R3 X AON AOFF (ix3 (⟨64 * T + (j 0).val, by have := (j 0).isLt; change _ < 64 at this; omega⟩ : Fin 2048)
      (⟨(j 1).val, (j 1).isLt⟩ : Fin 128) (⟨(j 2).val, (j 2).isLt⟩ : Fin 128)) := by
  obtain ⟨r, a, b, rfl⟩ : ∃ (r : Fin 64) (a b : Fin 128), j = ix3 r a b := ⟨j 0, j 1, j 2, eq_ix3 j⟩
  unfold out0_3
  by_cases hlt : T < 16
  · rw [if_pos (hc.mpr hlt), View.canon_unit_zero hz0_3, View.ld_unit_zero (S := S128x128) hz0_2,
      View.ld_unit_zero (S := S64x128x128) hz0_3, pay1_apply, h0, h1 hlt]
    unfold R3
    rw [dif_pos (show 64 * T + r.val < 1024 by omega)]
  · rw [if_neg (fun h => hlt (hc.mp h)), View.canon_unit_zero hz0_3, View.ld_unit_zero (S := S128x128) hz0_2,
      View.ld_unit_zero (S := S64x128x128) hz0_3, pay3_apply, h0, h2 (by omega)]
    unfold R3
    rw [dif_neg (show ¬ 64 * T + r.val < 1024 by omega)]
    show _ * AOFF (ix3 (⟨64 * (T - 16) + r.val, _⟩ : Fin 1024) a b) = _ * AOFF (ix3 (⟨64 * T + r.val - 1024, _⟩ : Fin 1024) a b)
    congr 3
    apply Fin.ext
    show 64 * (T - 16) + r.val = 64 * T + r.val - 1024
    omega

end Value

section Value

open Idealize.ShloMosaic.ValueIdx

variable (W : Contents Ideal)

/-- The image's buffer reads the image: its one block is the array. -/
theorem iblk0_0_apply (c : Dev nD) (t : Fin cfg0.N) (a b : Fin 128) :
    (iblk0 W c 0 t : S128x128.Idx → EReal) (ix2 a b) = (W c main_arg0 : S128x128.Idx → EReal) (ix2 a b) := by
  obtain ⟨-, e00, e01, -⟩ := idx_facts0 t
  show (W c main_arg0 : S128x128.Idx → EReal) (((cfg0.win 0).blk t).view.emb (ix2 a b)) = _
  congr 1
  funext ax; apply Fin.ext
  match ax with
  | ⟨0, _⟩ => show win0_0.index t (0 : Fin 2) * 128 + 1 * a.val = a.val; rw [e00]; omega
  | ⟨1, _⟩ => show win0_0.index t (1 : Fin 2) * 128 + 1 * b.val = b.val; rw [e01]; omega

/-- act_on's buffer at a point of the first half reads act_on's block there. -/
theorem iblk0_1_apply (c : Dev nD) (t : Fin cfg0.N) (hlt : t.val < 16) (r : Fin 64) (a b : Fin 128) :
    (iblk0 W c 1 t : S64x128x128.Idx → EReal) (ix3 r a b)
      = (W c main_arg1 : S1024x128x128.Idx → EReal) (ix3 (⟨64 * t.val + r.val, by omega⟩ : Fin 1024) a b) := by
  obtain ⟨-, -, -, e10, e11, e12, -⟩ := idx_facts0 t
  show (W c main_arg1 : S1024x128x128.Idx → EReal) (((cfg0.win 1).blk t).view.emb (ix3 r a b)) = _
  congr 1
  funext ax; apply Fin.ext
  match ax with
  | ⟨0, _⟩ => show win0_1.index t (0 : Fin 3) * 64 + 1 * r.val = 64 * t.val + r.val; rw [e10]; omega
  | ⟨1, _⟩ => show win0_1.index t (1 : Fin 3) * 128 + 1 * a.val = a.val; rw [e11]; omega
  | ⟨2, _⟩ => show win0_1.index t (2 : Fin 3) * 128 + 1 * b.val = b.val; rw [e12]; omega

/-- act_off's buffer at a point of the second half reads act_off's block there. -/
theorem iblk0_2_apply (c : Dev nD) (t : Fin cfg0.N) (hge : 16 ≤ t.val) (r : Fin 64) (a b : Fin 128) :
    (iblk0 W c 2 t : S64x128x128.Idx → EReal) (ix3 r a b)
      = (W c main_arg2 : S1024x128x128.Idx → EReal) (ix3 (⟨64 * (t.val - 16) + r.val, by have := (idx_facts0 t).1; omega⟩ : Fin 1024) a b) := by
  obtain ⟨-, -, -, -, -, -, e20, e21, e22, -⟩ := idx_facts0 t
  show (W c main_arg2 : S1024x128x128.Idx → EReal) (((cfg0.win 2).blk t).view.emb (ix3 r a b)) = _
  congr 1
  funext ax; apply Fin.ext
  match ax with
  | ⟨0, _⟩ => show win0_2.index t (0 : Fin 3) * 64 + 1 * r.val = 64 * (t.val - 16) + r.val; rw [e20]; omega
  | ⟨1, _⟩ => show win0_2.index t (1 : Fin 3) * 128 + 1 * a.val = a.val; rw [e21]; omega
  | ⟨2, _⟩ => show win0_2.index t (2 : Fin 3) * 128 + 1 * b.val = b.val; rw [e22]; omega

/-- WHAT POINT `t` WRITES BACK to the f32 output is block `t` of the retinal stage of the arguments. -/
theorem flushed0_3_eq (c : Dev nD) (t : Fin cfg0.N) :
    (dat0 W c).flushed 3 t = ((cfg0.win 3).blk t).view.read (Elt Ideal) (R3 (W c main_arg0) (W c main_arg1) (W c main_arg2)) := by
  show (cfg0.win 3).cut (grid0.coords t) ((dat0 W c).after 3 t) = _
  rw [after0_3]
  obtain ⟨hT, -, -, -, -, -, -, -, -, e30, e31, e32, -⟩ := idx_facts0 t
  funext j
  refine (out0_3_apply (grid0.coords t) t.val hT (cond0_1_iff t) _ _ _ (W c main_arg0) (W c main_arg1) (W c main_arg2)
    (iblk0_0_apply W c t) (iblk0_1_apply W c t) (iblk0_2_apply W c t) j).trans ?_
  show R3 (W c main_arg0) (W c main_arg1) (W c main_arg2) _ = R3 (W c main_arg0) (W c main_arg1) (W c main_arg2) (((cfg0.win 3).blk t).view.emb j)
  congr 1
  funext ax; apply Fin.ext
  match ax with
  | ⟨0, _⟩ => show 64 * t.val + (j 0).val = win0_3.index t (0 : Fin 3) * 64 + 1 * (j 0).val; rw [e30]; omega
  | ⟨1, _⟩ => show (j 1).val = win0_3.index t (1 : Fin 3) * 128 + 1 * (j 1).val; rw [e31]; omega
  | ⟨2, _⟩ => show (j 2).val = win0_3.index t (2 : Fin 3) * 128 + 1 * (j 2).val; rw [e32]; omega

/-- An index of the f32 output is in point `t`'s block iff each coordinate is in the block's range on its axis. -/
theorem mem_blk0_3 (t : Fin cfg0.N) (i : S2048x128x128.Idx) :
    i ∈ ((cfg0.win 3).blk t).view.set ↔ ∀ a : Fin 3, win0_3.index t a * S64x128x128.size a ≤ (i a).val ∧ (i a).val < win0_3.index t a * S64x128x128.size a + S64x128x128.size a := by
  show i ∈ ((View.whole main_v1_0).slice (win0_3.rect t)).set ↔ _
  rw [View.set_slice_whole, Rect.mem_set_unit]
  exact Iff.rfl

/-- Every image is in the block of the point numbered by its 64-image group. -/
theorem cover0_3 (i : S2048x128x128.Idx) : ∃ t : Fin cfg0.N, (cfg0.win 3).flush t = true ∧ i ∈ ((cfg0.win 3).blk t).view.set := by
  have hi0 : (i 0).val < 2048 := (i 0).isLt
  have hi1 : (i 1).val < 128 := (i 1).isLt
  have hi2 : (i 2).val < 128 := (i 2).isLt
  obtain ⟨t, ht⟩ : ∃ t : Fin cfg0.N, t.val = (i 0).val / 64 := ⟨⟨(i 0).val / 64, by rw [show cfg0.N = 32 from N_0]; omega⟩, rfl⟩
  obtain ⟨-, -, -, -, -, -, -, -, -, e30, e31, e32, -⟩ := idx_facts0 t
  refine ⟨t, flush0_3 t, ?_⟩
  rw [mem_blk0_3]
  intro a
  match a with
  | ⟨0, _⟩ => show win0_3.index t (0 : Fin 3) * 64 ≤ (i 0).val ∧ (i 0).val < win0_3.index t (0 : Fin 3) * 64 + 64; rw [e30, ht]; omega
  | ⟨1, _⟩ => show win0_3.index t (1 : Fin 3) * 128 ≤ (i 1).val ∧ (i 1).val < win0_3.index t (1 : Fin 3) * 128 + 128; rw [e31]; omega
  | ⟨2, _⟩ => show win0_3.index t (2 : Fin 3) * 128 ≤ (i 2).val ∧ (i 2).val < win0_3.index t (2 : Fin 3) * 128 + 128; rw [e32]; omega

/-- THE f32 OUTPUT after the region: the retinal stage of the arguments, as a 3-dimensional array. -/
theorem arr0_3 (c : Dev nD) : (dat0 W c).arrAt 3 cfg0.N = R3 (W c main_arg0) (W c main_arg1) (W c main_arg2) :=
  (dat0 W c).arrAt_eq_of_cover 3 _ (fun t _ => flushed0_3_eq W c t) cover0_3

end Value

section Value

open Idealize.ShloMosaic.ValueIdx

variable (W : Contents Ideal)

/-- On the extended reals a format change is the identity: the bf16 output's buffer holds the f32 output's values. -/
theorem out0_4_eq (i : grid0.Coords) (x0 : FVec Ideal S128x128 .f32) (x1 x2 : FVec Ideal S64x128x128 .f32) :
    (out0_4 (F := Ideal) i x0 x1 x2 : S64x128x128.Idx → EReal) = out0_3 (F := Ideal) i x0 x1 x2 := by
  unfold out0_4 out0_3
  by_cases h : k0_cond1 i = 1#1
  · rw [if_pos h, if_pos h, View.canon_unit_zero hz0_3, View.canon_unit_zero hz0_3]; rfl
  · rw [if_neg h, if_neg h, View.canon_unit_zero hz0_3, View.canon_unit_zero hz0_3]; rfl

/-- WHAT POINT `t` WRITES BACK to the bf16 output is block `t` of the retinal stage of the arguments. -/
theorem flushed0_4_eq (c : Dev nD) (t : Fin cfg0.N) :
    (dat0 W c).flushed 4 t = ((cfg0.win 4).blk t).view.read (Elt Ideal) (R3 (W c main_arg0) (W c main_arg1) (W c main_arg2) : S2048x128x128.Idx → EReal) := by
  show (cfg0.win 4).cut (grid0.coords t) ((dat0 W c).after 4 t) = _
  rw [after0_4]
  obtain ⟨hT, -, -, -, -, -, -, -, -, -, -, -, e40, e41, e42⟩ := idx_facts0 t
  funext j
  refine (congrFun (out0_4_eq (grid0.coords t) _ _ _) j).trans ?_
  refine (out0_3_apply (grid0.coords t) t.val hT (cond0_1_iff t) _ _ _ (W c main_arg0) (W c main_arg1) (W c main_arg2)
    (iblk0_0_apply W c t) (iblk0_1_apply W c t) (iblk0_2_apply W c t) j).trans ?_
  show R3 (W c main_arg0) (W c main_arg1) (W c main_arg2) _ = R3 (W c main_arg0) (W c main_arg1) (W c main_arg2) (((cfg0.win 4).blk t).view.emb j)
  congr 1
  funext ax; apply Fin.ext
  match ax with
  | ⟨0, _⟩ => show 64 * t.val + (j 0).val = win0_4.index t (0 : Fin 3) * 64 + 1 * (j 0).val; rw [e40]; omega
  | ⟨1, _⟩ => show (j 1).val = win0_4.index t (1 : Fin 3) * 128 + 1 * (j 1).val; rw [e41]; omega
  | ⟨2, _⟩ => show (j 2).val = win0_4.index t (2 : Fin 3) * 128 + 1 * (j 2).val; rw [e42]; omega

theorem mem_blk0_4 (t : Fin cfg0.N) (i : S2048x128x128.Idx) :
    i ∈ ((cfg0.win 4).blk t).view.set ↔ ∀ a : Fin 3, win0_4.index t a * S64x128x128.size a ≤ (i a).val ∧ (i a).val < win0_4.index t a * S64x128x128.size a + S64x128x128.size a := by
  show i ∈ ((View.whole main_v1_1).slice (win0_4.rect t)).set ↔ _
  rw [View.set_slice_whole, Rect.mem_set_unit]
  exact Iff.rfl

theorem cover0_4 (i : S2048x128x128.Idx) : ∃ t : Fin cfg0.N, (cfg0.win 4).flush t = true ∧ i ∈ ((cfg0.win 4).blk t).view.set := by
  have hi0 : (i 0).val < 2048 := (i 0).isLt
  have hi1 : (i 1).val < 128 := (i 1).isLt
  have hi2 : (i 2).val < 128 := (i 2).isLt
  obtain ⟨t, ht⟩ : ∃ t : Fin cfg0.N, t.val = (i 0).val / 64 := ⟨⟨(i 0).val / 64, by rw [show cfg0.N = 32 from N_0]; omega⟩, rfl⟩
  obtain ⟨-, -, -, -, -, -, -, -, -, -, -, -, e40, e41, e42⟩ := idx_facts0 t
  refine ⟨t, flush0_4 t, ?_⟩
  rw [mem_blk0_4]
  intro a
  match a with
  | ⟨0, _⟩ => show win0_4.index t (0 : Fin 3) * 64 ≤ (i 0).val ∧ (i 0).val < win0_4.index t (0 : Fin 3) * 64 + 64; rw [e40, ht]; omega
  | ⟨1, _⟩ => show win0_4.index t (1 : Fin 3) * 128 ≤ (i 1).val ∧ (i 1).val < win0_4.index t (1 : Fin 3) * 128 + 128; rw [e41]; omega
  | ⟨2, _⟩ => show win0_4.index t (2 : Fin 3) * 128 ≤ (i 2).val ∧ (i 2).val < win0_4.index t (2 : Fin 3) * 128 + 128; rw [e42]; omega

/-- THE bf16 OUTPUT after the region: the same values. -/
theorem arr0_4 (c : Dev nD) :
    ((dat0 W c).arrAt 4 cfg0.N : S2048x128x128.Idx → EReal) = R3 (W c main_arg0) (W c main_arg1) (W c main_arg2) :=
  (dat0 W c).arrAt_eq_of_cover 4 _ (fun t _ => flushed0_4_eq W c t) cover0_4

end Value

/-- THE VALUE: after the region the f32 output holds, image by image and pixel by pixel, the specification's retinal
    stage of the three arguments. -/
theorem final0_3 (V : Contents Ideal) (c : Dev nD) (n : Fin 2048) (a b : Fin 128) :
    ((dat0 V c).arrAt 3 cfg0.N : S2048x128x128.Idx → EReal) (ValueIdx.ix3 n a b)
      = Cert.Spec.specR (V c main_arg0) (V c main_arg1) (V c main_arg2) (ValueIdx.ix2 n ⟨128 * a.val + b.val, by omega⟩) := by
  rw [arr0_3]; exact R3_eq_specR _ _ _ n a b

/-- and so does its bf16 copy. -/
theorem final0_4 (V : Contents Ideal) (c : Dev nD) (n : Fin 2048) (a b : Fin 128) :
    ((dat0 V c).arrAt 4 cfg0.N : S2048x128x128.Idx → EReal) (ValueIdx.ix3 n a b)
      = Cert.Spec.specR (V c main_arg0) (V c main_arg1) (V c main_arg2) (ValueIdx.ix2 n ⟨128 * a.val + b.val, by omega⟩) := by
  rw [arr0_4]; exact R3_eq_specR _ _ _ n a b

end Cert.KernelIdeal.Hand

end
-- ==== Proof.KiR1Rows.lean ====
/-
  The gather region's body, vocabulary for its run: a row of l and a row of r as the body names them, a row of l held by
  its own elements, the side condition of a table word, and the notation that spells a 128-fold separating conjunction
  (one conjunct per copy of a grid point) and takes it apart.
-/
import proofs.«402079_j32023276159552_3_alg».proof.Proof.KiR1Defs

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A row of l as the body names it: the row's slice of the whole buffer, squeezed to a vector. -/
abbrev drow (off : Fin 2 → Nat) (h : ∀ a, off a + S1x16384.size a ≤ S5120x16384.size a) : Memref sig .tc .hbm S16384 .f32 :=
  ((Memref.whole main_v6).slice (Rect.unit (s := S5120x16384) off S1x16384.size h) (fun _ => rfl)).squeeze S16384 squeezes_S1x16384_S16384

/-- A row of r as the body names it. -/
abbrev srow (off : Fin 2 → Nat) (h : ∀ a, off a + S1x16384.size a ≤ S2048x16384.size a) : Memref sig .tc .hbm S16384 .f32 :=
  ((Memref.whole main_v2).slice (Rect.unit (s := S2048x16384) off S1x16384.size h) (fun _ => rfl)).squeeze S16384 squeezes_S1x16384_S16384

/-- A row of l held by its own elements, outright, at contents f: what a transfer into the row takes and hands back. -/
abbrev rowPt (c : Dev nD) (off : Fin 2 → Nat) (h : ∀ a, off a + S1x16384.size a ≤ S5120x16384.size a)
    (f : Bf (F := F) c (Memref.whole main_v6)) : sProp (MM F) :=
  (drow off h).view.loc (c : Thread nD τ) ↦[(drow off h).view.set]{fullShare} f

/-- Every word read off a table whose words are below 2048 is below 2048. -/
theorem word_lt (c : Dev nD) (T : Bf (F := F) c (Memref.whole main_v5))
    (hT : ∀ q : Fin 5120, ((T : IVec S5120 32) (ValueIdx.ix1 q)).toNat < 2048) (R : LoadRect S5120) (x : R.shape.Idx) :
    (View.readAt (Elt F) (Memref.whole main_v5).view R T x).toNat < 2048 := by
  rw [View.readAt_apply, ValueIdx.eq_ix1 (R.idx x)]
  exact hT _

/-- A word below 2048 names a row of r: the side condition the body assumes of each table word it loads. -/
theorem chk_of_lt (w : BitVec 32) (h : w.toNat < 2048) :
    ∀ a, (![w.toNat, 0] : Fin 2 → Nat) a + S1x16384.size a ≤ S2048x16384.size a := by
  intro a; fin_cases a <;> simp [S1x16384, S2048x16384] <;> omega
/-- The table word the body loads at 1-D offsets off (one element of the table). -/
abbrev wordAt (c : Dev nD) (T : Bf (F := F) c (Memref.whole main_v5)) (off : Fin 1 → Nat) (h : ∀ a, off a + S1.size a ≤ S5120.size a) : BitVec 32 :=
  View.readAt (Elt F) (Memref.whole main_v5).view (Rect.unit (s := S5120) off S1.size h).toLoadRect T
    (Shape.Idx.first (numel1_S1.symm ▸ Nat.one_pos))

/-- A row of l after its copy has landed, as the run leaves it: held by its own elements, at l with the row overwritten
    by the row of r that the table word loaded at offl names (offs: the word's offsets into r). -/
abbrev landedAt (c : Dev nD) (T : Bf (F := F) c (Memref.whole main_v5)) (r : Bf (F := F) c (Memref.whole main_v2))
    (l : Bf (F := F) c (Memref.whole main_v6)) (hT : ∀ q : Fin 5120, ((T : IVec S5120 32) (ValueIdx.ix1 q)).toNat < 2048)
    (offl : Fin 1 → Nat) (hl : ∀ a, offl a + S1.size a ≤ S5120.size a)
    (offd : Fin 2 → Nat) (hd : ∀ a, offd a + S1x16384.size a ≤ S5120x16384.size a)
    (offs : BitVec 32 → Fin 2 → Nat) (hs : ∀ w : BitVec 32, w.toNat < 2048 → ∀ a, offs w a + S1x16384.size a ≤ S2048x16384.size a) : sProp (MM F) :=
  rowPt c offd hd ((drow offd hd).view.writes (Elt F) l
    [⟨Rect.whole S16384, ReadAs.same.apply (View.read (Elt F) (srow (offs (wordAt c T offl hl)) (hs _ (word_lt c T hT _ _))).view r)⟩])

section Macros
open Lean

/-- The 128 rows of grid point t, each named as the body's start of copy b names it. -/
macro "rows128% " c:term:max t:term:max f:term:max : term => do
  let mut acc : Option (TSyntax `term) := none
  for k in [0:128] do
    let b := 127 - k
    let off := mkIdent (Name.mkSimple s!"k1_off{3*b+2}")
    let inb := mkIdent (Name.mkSimple s!"k1_off{3*b+2}_inb")
    let row ← `(rowPt $c ($off (grid1.coords $t)) ($inb (grid1.coords $t)) $f)
    acc := some (← match acc with | none => pure row | some a => `(iprop($row ∗ $a)))
  return acc.get!

/-- Φ 0 ∗ Φ 1 ∗ … ∗ Φ 127, Φ given as `x => body`: the numeral is substituted for x in the body. -/
macro "sep128% " x:ident " => " body:term : term => do
  let mut acc : Option (TSyntax `term) := none
  for k in [0:128] do
    let b := 127 - k
    let n := Syntax.mkNumLit (toString b)
    let inst : TSyntax `term := ⟨body.raw.replaceM (m := Id) fun s => if s.isIdent && s.getId == x.getId then some n.raw else none⟩
    acc := some (← match acc with | none => pure inst | some a => `(iprop($inst ∗ $a)))
  return acc.get!

/-- Take a 128-fold separating conjunction apart into hypotheses X0 … X127. -/
macro "icases128 " h:ident " with " x:ident : tactic => do
  let ids := (List.range 128).toArray.map fun b => mkIdent (x.getId.appendAfter (toString b))
  let alts ← ids.mapM fun i => `(icasesPatAlts| $i:ident)
  `(tactic| icases $h:ident with ⟨$alts,*⟩)

/-- The 128 rows of grid point t after their copies have landed, each named as the body names it. -/
macro "landed128% " c:term:max t:term:max T:term:max r:term:max l:term:max hT:term:max : term => do
  let mut acc : Option (TSyntax `term) := none
  for k in [0:128] do
    let b := 127 - k
    let offl := mkIdent (Name.mkSimple s!"k1_off{3*b+1}")
    let inbl := mkIdent (Name.mkSimple s!"k1_off{3*b+1}_inb")
    let offd := mkIdent (Name.mkSimple s!"k1_off{3*b+2}")
    let inbd := mkIdent (Name.mkSimple s!"k1_off{3*b+2}_inb")
    let offs := mkIdent (Name.mkSimple s!"k1_off{3*b+3}")
    let row ← `(landedAt $c $T $r $l $hT ($offl (grid1.coords $t)) ($inbl (grid1.coords $t)) ($offd (grid1.coords $t)) ($inbd (grid1.coords $t)) $offs (fun w hw => chk_of_lt w hw))
    acc := some (← match acc with | none => pure row | some a => `(iprop($row ∗ $a)))
  return acc.get!

/-- Close a 128-fold separating conjunction by hypotheses X0 … X127, conjunct by conjunct. -/
macro "iexact128 " x:ident : tactic => do
  let ids := (List.range 128).toArray.map fun b => mkIdent (x.getId.appendAfter (toString b))
  let mut ts : Array (TSyntax `tactic) := #[]
  for b in [0:127] do
    let i := ids[b]!
    ts := ts.push (← `(tactic| isplitl [$i]))
    ts := ts.push (← `(tactic| · iexact $i))
  let last := ids[127]!
  ts := ts.push (← `(tactic| iexact $last))
  `(tactic| ($[$ts]*))

/-- Split the goal A ∗ B giving the hypotheses X0 … X127 to A. -/
macro "isplitl128 " x:ident : tactic => do
  let ids := (List.range 128).toArray.map fun b => mkIdent (x.getId.appendAfter (toString b))
  `(tactic| isplitl [$ids*])

end Macros

end Cert.KernelIdeal.Hand

end
-- ==== Proof.KiR1Run.lean ====
/-
  One grid point of the gather region, run once: from the table, the 128 read shares of r (one per transfer semaphore),
  the point's 128 rows of l each held by its own elements, the 128 semaphores at zero and the core owing nothing, the
  body starts its 128 row transfers and awaits them all; every row comes back at l overwritten with the row of r its
  table word names, every read share whole, every semaphore at zero.
-/
import proofs.«402079_j32023276159552_3_alg».proof.Proof.KiR1Rows

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
set_option maxRecDepth 65536 in
/-- The body's run over the rows: each transfer takes its row of l whole (nothing of l is shared between two transfers:
    the destination rows are distinct), reads its row of r under the read share of its own semaphore (two transfers may
    read one row), and its wait hands both back; each table word passes the body's range check because the table's
    words are below 2048. -/
theorem kernelRun1_rows (c : Dev nD) (t : Fin grid1.N)
    (T : Bf (F := F) c (Memref.whole main_v5)) (r : Bf (F := F) c (Memref.whole main_v2)) (l : Bf (F := F) c (Memref.whole main_v6))
    (hT : ∀ q : Fin 5120, ((T : IVec S5120 32) (ValueIdx.ix1 q)).toNat < 2048)
    (W : Waits sig Unit) (Q : PUnit → sProp (MM F)) :
    iprop(pt c (Memref.whole main_v5) T
        ∗ (sep128% b => ((Memref.whole main_v2).view.loc (c : Thread nD τ) ↦{Transfers.shareTokN fullShare (9 + b)} r))
        ∗ (rows128% c t l)
        ∗ (sep128% b => semVal ((c : Thread nD τ), osem1 b) 0)
        ∗ owes (c : Thread nD τ) (0 : CellTallies nD τ sig Unit) W
        ∗ (iprop(pt c (Memref.whole main_v5) T
              ∗ (sep128% b => ((Memref.whole main_v2).view.loc (c : Thread nD τ) ↦{Transfers.shareTokN fullShare (9 + b)} r))
              ∗ (landed128% c t T r l hT)
              ∗ (sep128% b => semVal ((c : Thread nD τ), osem1 b) 0)
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q := by
  iintro ⟨HT, Ht, Hl, Hd, HO, Hk⟩
  icases128 Ht with Ht
  icases128 Hl with Hl
  icases128 Hd with Hd
  sl_exec! (disch := exact chk_of_lt _ (word_lt c T hT _ _))
  sl_step
  iapply Hk
  isplitl [HT]; · iexact HT
  isplitl128 Ht; · iexact128 Ht
  isplitl128 Hl; · iexact128 Hl
  isplitl128 Hd; · iexact128 Hd
  iexists _; iexact HO

end Cert.KernelIdeal.Hand

end
-- ==== Proof.KiR1Arith.lean ====
/-
  The gather region's index arithmetic at grid point t and lane b: the table word's offset and the destination row are
  128·t + b (no 32-bit wrap-around: 128·39 + 127 < 2³²), and the scalar load at an offset reads that word of the table.
-/
import proofs.«402079_j32023276159552_3_alg».proof.Proof.KiR1Defs

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The gather grid has 40 points. -/
theorem grid1_N : grid1.N = 40 := by decide

/-- Its one coordinate at point t is t. -/
theorem coords1_val (t : Fin grid1.N) : ((grid1.coords t) 0).val = t.val := by
  have ht : t.val < 40 := Nat.lt_of_lt_of_eq t.isLt grid1_N
  show t.val / grid1.stride 0 % 40 = t.val
  rw [show grid1.stride 0 = 1 from by decide]
  omega

/-- The 32-bit word 128·n + b, computed as the kernel does, is that number while it stays below 2³². -/
theorem word_muladd (n b : ℕ) (h : 128 * n + b < 2 ^ 32) :
    (Scalar.addi (Scalar.muli (BitVec.ofNat 32 n) 128#32) (BitVec.ofNat 32 b)).toNat = 128 * n + b := by
  simp only [Scalar.addi, Scalar.muli, IntOp.addi, IntOp.muli, BitVec.toNat_add, BitVec.toNat_mul, BitVec.toNat_ofNat,
    Nat.reducePow, Nat.reduceMod] at h ⊢
  omega

/-- The offsets of the scalar load of lane b at grid coordinates i, as the kernel computes them. -/
def ldOff (i : grid1.Coords) (b : ℕ) : Fin 1 → Nat :=
  ![(Scalar.indexCast (Scalar.addi (Scalar.muli (BitVec.ofNat 32 (i 0).val) 128#32) (BitVec.ofNat 32 b))).toNat]

example (i : grid1.Coords) : k1_off1 i = ldOff i 0 := rfl
example (i : grid1.Coords) : k1_off4 i = ldOff i 1 := rfl

/-- At grid point t and lane b the scalar load's offset is 128·t + b. -/
theorem ldOff_eq (t : Fin grid1.N) (b : ℕ) (hb : b < 128) : ldOff (grid1.coords t) b = ![128 * t.val + b] := by
  have ht : t.val < 40 := Nat.lt_of_lt_of_eq t.isLt grid1_N
  unfold ldOff
  rw [coords1_val, Scalar.indexCast, word_muladd _ _ (by omega)]

/-- At grid point t and lane b the awaited destination row is 128·t + b, from column 0. -/
theorem k1_off385_eq (t : Fin grid1.N) (b : ℕ) (hb : b < 128) :
    k1_off385 (grid1.coords t) (BitVec.ofNat 32 b) = ![128 * t.val + b, 0] := by
  have ht : t.val < 40 := Nat.lt_of_lt_of_eq t.isLt grid1_N
  unfold k1_off385
  simp only []
  rw [coords1_val, word_muladd _ _ (by omega)]

/-- The scalar load at offset o of the table held at T reads word o of T. -/
theorem tbl_read (c : Dev nD) (T : Bf (F := F) c (Memref.whole main_v5)) (off : Fin 1 → Nat)
    (h : ∀ a, off a + S1.size a ≤ S5120.size a)
    (hp : 0 < (Rect.unit (s := S5120) off S1.size h).toLoadRect.shape.numel) :
    (Memref.whole main_v5).view.readAt (Elt F) (Rect.unit (s := S5120) off S1.size h).toLoadRect T (Shape.Idx.first hp)
      = (T : IVec S5120 32) (ValueIdx.ix1 (⟨off 0, by have := h 0; change off 0 + 1 ≤ 5120 at this; omega⟩ : Fin 5120)) := by
  rw [View.readAt_apply]
  have e : ∀ X : S5120.Idx, (Memref.whole main_v5).view.read (Elt F) T X = (T : IVec S5120 32) X := fun X => rfl
  rw [e]
  congr 1
  funext a
  match a with
  | ⟨0, _⟩ =>
    refine Fin.ext ?_
    rfl

end Cert.KernelIdeal.Hand

end
-- ==== Proof.KiR1GlueL.lean ====
/-
  The gather region, l's side: the whole buffer is the 128 rows one grid point writes, each held by its own elements,
  beside the rest; and the rest (which the point leaves as it was) with the 128 rows at what the point leaves is the
  whole buffer at what the point leaves.
-/
import proofs.«402079_j32023276159552_3_alg».proof.Proof.KiR1Rows
import proofs.«402079_j32023276159552_3_alg».proof.Proof.KiR1Arith

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The offsets of row 128·i + b of l as the body computes them. -/
abbrev dOff (i : grid1.Coords) (b : ℕ) : Fin 2 → Nat := k1_off385 i (BitVec.ofNat 32 b)

/-- For b < 128 the row lies inside l. -/
theorem dOff_inb (i : grid1.Coords) (b : ℕ) (hb : b < 128) : ∀ a, dOff i b a + S1x16384.size a ≤ S5120x16384.size a :=
  k1_off385_inb i ⟨b, hb⟩

/-- The same with the row's number taken modulo 128, so that it is stated for every b. -/
theorem dOff_inb_mod (i : grid1.Coords) (b : ℕ) : ∀ a, dOff i (b % 128) a + S1x16384.size a ≤ S5120x16384.size a :=
  dOff_inb i (b % 128) (Nat.mod_lt _ (Nat.succ_pos 127))

/-- The elements of a row slice at offsets (k, 0) are the elements of row k: its first coordinate runs over k alone,
    its second over all 16384 columns. -/
theorem mem_drow_set {off : Fin 2 → Nat} {h : ∀ a, off a + S1x16384.size a ≤ S5120x16384.size a} (k : ℕ) (e : off = ![k, 0])
    (y : S5120x16384.Idx) : y ∈ (drow off h).view.set ↔ (y 0).val = k := by
  subst e
  rw [show (drow ![k, 0] h).view.set = (Rect.unit (s := S5120x16384) ![k, 0] S1x16384.size h).set from
    (View.set_reshape _ _).trans (View.set_slice_whole main_v6 _), Rect.mem_set_unit]
  constructor
  · intro hy
    have := hy 0
    simp at this
    omega
  · intro hy a
    have h1 := ValueIdx.idx2_lt1 y
    fin_cases a <;> simp <;> omega

/-! ## The element sets -/

section Sets

variable (c : Dev nD)

/-- l's buffer on core c. -/
abbrev L6 : Loc nD τ sig := (Memref.whole main_v6).view.loc (c : Thread nD τ)

/-- Row b of grid point t. -/
abbrev rowK (t : Fin grid1.N) (b : ℕ) : Finset (Idx (L6 c)) :=
  (drow (dOff (grid1.coords t) (b % 128)) (dOff_inb_mod _ b)).view.set

/-- The elements outside the point's rows 128·t … 128·t + 127. -/
def restSet (t : Fin grid1.N) : Finset (Idx (L6 c)) :=
  Finset.univ.filter fun y : S5120x16384.Idx => ¬ (128 * t.val ≤ (y 0).val ∧ (y 0).val < 128 * t.val + 128)

theorem mem_restSet (t : Fin grid1.N) (y : S5120x16384.Idx) :
    y ∈ restSet c t ↔ ¬ (128 * t.val ≤ (y 0).val ∧ (y 0).val < 128 * t.val + 128) := by
  unfold restSet; rw [Finset.mem_filter]; exact ⟨fun h => h.2, fun h => ⟨Finset.mem_univ _, h⟩⟩

theorem mem_rowK (t : Fin grid1.N) (b : ℕ) (hb : b < 128) (y : S5120x16384.Idx) :
    y ∈ rowK c t b ↔ (y 0).val = 128 * t.val + b :=
  mem_drow_set (128 * t.val + b) (by rw [Nat.mod_eq_of_lt hb]; exact k1_off385_eq t b hb) y

/-- Every element is in the rest or in exactly the row its first coordinate names. -/
theorem univ_eq_rest_union_rows (t : Fin grid1.N) :
    (Finset.univ : Finset (Idx (L6 c))) = restSet c t ∪ (Finset.range 128).biUnion (rowK c t) := by
  ext y
  simp only [Finset.mem_univ, Finset.mem_union, Finset.mem_biUnion, Finset.mem_range, true_iff]
  by_cases hy : 128 * t.val ≤ ((y : S5120x16384.Idx) 0).val ∧ ((y : S5120x16384.Idx) 0).val < 128 * t.val + 128
  · right
    refine ⟨((y : S5120x16384.Idx) 0).val - 128 * t.val, by omega, ?_⟩
    rw [mem_rowK c t _ (by omega)]; omega
  · left; exact (mem_restSet c t y).2 hy

theorem rest_disjoint_rows (t : Fin grid1.N) : Disjoint (restSet c t) ((Finset.range 128).biUnion (rowK c t)) := by
  rw [Finset.disjoint_biUnion_right]
  intro b hb
  rw [Finset.disjoint_left]
  intro y hy hy'
  rw [mem_restSet] at hy
  rw [mem_rowK c t b (Finset.mem_range.1 hb)] at hy'
  have := Finset.mem_range.1 hb
  exact hy (by omega)

theorem rows_disjoint (t : Fin grid1.N) :
    ∀ b ∈ Finset.range 128, ∀ b' ∈ Finset.range 128, b ≠ b' → Disjoint (rowK c t b) (rowK c t b') := by
  intro b hb b' hb' hne
  rw [Finset.disjoint_left]
  intro y hy hy'
  rw [mem_rowK c t b (Finset.mem_range.1 hb)] at hy
  rw [mem_rowK c t b' (Finset.mem_range.1 hb')] at hy'
  omega

end Sets

/-! ## Splitting and joining -/

/-- l less the point's 128 rows. -/
def lRest (c : Dev nD) (t : Fin grid1.N) (l : Bf (F := F) c (Memref.whole main_v6)) : sProp 𝕄 :=
  L6 c ↦[restSet c t]{fullShare} l

/-- The rows' elements held at f, row by row over the list 0 … 127, are the union of the rows held at f. -/
theorem rows_eq (c : Dev nD) (t : Fin grid1.N) (f : Bf (F := F) c (Memref.whole main_v6)) :
    (L6 c ↦[(Finset.range 128).biUnion (rowK c t)]{fullShare} f : sProp 𝕄)
      = bigSepL (List.range 128) (fun b => rowPt c (dOff (grid1.coords t) (b % 128)) (dOff_inb_mod _ b) f) := by
  rw [pointsTo_biUnion (Finset.range 128) (rowK c t) (rows_disjoint c t),
    bigSep_eq_bigSepL_of_eq (List.range 128) (List.toFinset_range 128).symm (List.nodup_range)]

/-- The whole buffer is the rest and the point's 128 rows, each held by its own elements. -/
theorem l_rows_split (c : Dev nD) (t : Fin grid1.N) (l : Bf (F := F) c (Memref.whole main_v6)) :
    pt c (Memref.whole main_v6) l
      ⊢ iprop(lRest c t l ∗ bigSepL (List.range 128) (fun b =>
          rowPt c (dOff (grid1.coords t) (b % 128)) (dOff_inb_mod _ b) l)) := by
  have h1 : (pt c (Memref.whole main_v6) l : sProp 𝕄) = (L6 c ↦[restSet c t ∪ (Finset.range 128).biUnion (rowK c t)]{fullShare} l) := by
    rw [← univ_eq_rest_union_rows c t]
  rw [h1, ← rows_eq]
  exact (pointsTo_union (rest_disjoint_rows c t)).1

/-- The rest, which the point leaves as it was, and the 128 rows at what the point leaves are the whole buffer at what
    the point leaves. -/
theorem l_rows_join (c : Dev nD) (t : Fin grid1.N) (T : Bf (F := F) c (Memref.whole main_v5)) (r : Bf (F := F) c (Memref.whole main_v2))
    (l : Bf (F := F) c (Memref.whole main_v6)) :
    iprop(lRest c t l ∗ bigSepL (List.range 128) (fun b =>
          rowPt c (dOff (grid1.coords t) (b % 128)) (dOff_inb_mod _ b) (gatherStep (F := F) t.val T r l)))
      ⊢ pt c (Memref.whole main_v6) (gatherStep (F := F) t.val T r l) := by
  have h0 : (lRest c t l : sProp 𝕄) = (L6 c ↦[restSet c t]{fullShare} (gatherStep (F := F) t.val T r l)) := by
    unfold lRest
    refine pointsTo_congr fun y hy => ?_
    rw [mem_restSet] at hy
    unfold gatherStep
    rw [if_neg (by omega)]
  have h1 : (pt c (Memref.whole main_v6) (gatherStep (F := F) t.val T r l) : sProp 𝕄)
      = (L6 c ↦[restSet c t ∪ (Finset.range 128).biUnion (rowK c t)]{fullShare} (gatherStep (F := F) t.val T r l)) := by
    rw [← univ_eq_rest_union_rows c t]
  rw [h0, h1, ← rows_eq]
  exact (pointsTo_union (rest_disjoint_rows c t)).2

end Cert.KernelIdeal.Hand

end
-- ==== Proof.KiR1GlueR.lean ====
/-
  The gather region's read-only source and its semaphores, split for 128 concurrent transfers: the whole of r is a
  remainder kept aside and one read share per transfer (the shares numbered as the semaphores are, 9 … 136), and the
  kernel's 128 semaphores at zero are a chain of 128 counters.
-/
import proofs.«402079_j32023276159552_3_alg».proof.Proof.KiR1Defs

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The numbers below 137 are the numbers below 9 and the numbers 9 + b for b below 128. -/
theorem range137_split : Finset.range 137 = Finset.range 9 ∪ (Finset.range 128).map (addLeftEmbedding 9) := by
  ext x
  simp only [Finset.mem_range, Finset.mem_union, Finset.mem_map, addLeftEmbedding_apply]
  constructor
  · intro h
    by_cases h9 : x < 9
    · exact Or.inl h9
    · exact Or.inr ⟨x - 9, by omega, by omega⟩
  · rintro (h | ⟨y, hy, rfl⟩) <;> omega

/-- The two parts share no number. -/
theorem range137_disjoint : Disjoint (Finset.range 9) ((Finset.range 128).map (addLeftEmbedding 9)) := by
  rw [Finset.disjoint_left]
  intro x hx hm
  simp only [Finset.mem_range, Finset.mem_map, addLeftEmbedding_apply] at hx hm
  obtain ⟨y, _, rfl⟩ := hm
  omega

/-- The list 0, …, 127 as a set. -/
theorem toFinset_range128 : (List.range 128).toFinset = Finset.range 128 := by
  ext x
  simp only [List.mem_toFinset, List.mem_range, Finset.mem_range]

/-- A family over the numbers below 137 is its part below 9 and the chain of its members 9 + b, b = 0, …, 127. -/
theorem bigSep_range137 (A : ℕ → sProp 𝕄) :
    bigSep (Finset.range 137) A = iprop(bigSep (Finset.range 9) A ∗ bigSepL (List.range 128) (fun b => A (9 + b))) := by
  rw [range137_split, bigSep_union range137_disjoint, bigSep_map,
    ← bigSep_eq_bigSepL (List.range 128) (List.nodup_range) (fun b => A (9 + b)), toFinset_range128]
  rfl

/-- What of r's share stays aside while the 128 read shares are out: the remainder after 137 shares are split off
    and the first nine of them. -/
def rKeep (c : Dev nD) (r : Bf (F := F) c (Memref.whole main_v2)) : sProp 𝕄 :=
  iprop(((Memref.whole main_v2).view.loc (c : Thread nD τ) ↦{Transfers.shareDrop fullShare 137} r)
    ∗ bigSep (Finset.range 9) (fun i => ((Memref.whole main_v2).view.loc (c : Thread nD τ) ↦{Transfers.shareTokN fullShare i} r)))

/-- r held whole is the part kept aside and one read share per transfer. -/
theorem r_toks_split (c : Dev nD) (r : Bf (F := F) c (Memref.whole main_v2)) :
    pt c (Memref.whole main_v2) r
      ⊢ iprop(rKeep c r ∗ bigSepL (List.range 128)
          (fun b => ((Memref.whole main_v2).view.loc (c : Thread nD τ) ↦{Transfers.shareTokN fullShare (9 + b)} r))) := by
  refine (Transfers.pointsTo_toks_range (f := r) fullShare 137).1.trans ?_
  rw [bigSep_range137]
  unfold rKeep
  iintro ⟨Hd, Hn, Ht⟩
  isplitl [Hd Hn]
  · isplitl [Hd] <;> iassumption
  · iexact Ht

/-- The part kept aside and the 128 read shares are r held whole. -/
theorem r_toks_join (c : Dev nD) (r : Bf (F := F) c (Memref.whole main_v2)) :
    iprop(rKeep c r ∗ bigSepL (List.range 128)
        (fun b => ((Memref.whole main_v2).view.loc (c : Thread nD τ) ↦{Transfers.shareTokN fullShare (9 + b)} r)))
      ⊢ pt c (Memref.whole main_v2) r := by
  refine BIBase.Entails.trans ?_ (Transfers.pointsTo_toks_range (f := r) fullShare 137).2
  rw [bigSep_range137]
  unfold rKeep
  iintro ⟨⟨Hd, Hn⟩, Ht⟩
  isplitl [Hd]
  · iexact Hd
  · isplitl [Hn] <;> iassumption

/-- The kernel's 128 semaphores at zero, one by one. -/
theorem sems_split (c : Dev nD) :
    (Pipeline.ownSems0 (Ix := Unit) (Name := ℕ) (U := UU) (Lvl := ℕ) (Val := Elt F) (τ := τ) osem1 c : sProp 𝕄)
      = bigSepL (List.finRange 128) (fun b : Fin 128 => semVal ((c : Thread nD τ), osem1 b) 0) :=
  Pipeline.ownSems0_eq_of_list c osem1 (List.finRange 128)
    (by ext x; simp only [Finset.mem_univ, List.mem_toFinset, List.mem_finRange]) (List.nodup_finRange 128)

end Cert.KernelIdeal.Hand

end
-- ==== Proof.KiR1Landed.lean ====
/-
  One landed row of the gather region: the row of l a transfer has filled from the row of r its table word names holds,
  element by element, what the grid point's step leaves there.
-/
import proofs.«402079_j32023276159552_3_alg».proof.Proof.KiR1Rows
import proofs.«402079_j32023276159552_3_alg».proof.Proof.KiR1Arith

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- Dropping the unit axis: the index of the one-row block matched with column x is (0, x). -/
theorem squeeze_idx (x : S16384.Idx) :
    Shape.reshapeEquiv squeezes_S1x16384_S16384.numel_eq x = (Fin.cons ⟨0, Nat.one_pos⟩ x : S1x16384.Idx) :=
  Shape.reshapeEquiv_cons_one _ x

/-- Column x of the row of l at offsets off is the element (off 0, off 1 + x) of l. -/
theorem drow_emb (off : Fin 2 → Nat) (h : ∀ a, off a + S1x16384.size a ≤ S5120x16384.size a) (x : S16384.Idx) :
    ((drow off h).view.emb x 0).val = off 0 ∧ ((drow off h).view.emb x 1).val = off 1 + (x 0).val := by
  have e : (drow off h).view.emb x = (Rect.unit (s := S5120x16384) off S1x16384.size h).emb (Shape.reshapeEquiv squeezes_S1x16384_S16384.numel_eq x) := rfl
  rw [e, squeeze_idx]
  constructor
  · show off 0 + 1 * 0 = off 0
    omega
  · show off 1 + 1 * (x 0).val = off 1 + (x 0).val
    omega

/-- Column x of the row of r at offsets off is the element (off 0, off 1 + x) of r. -/
theorem srow_emb (off : Fin 2 → Nat) (h : ∀ a, off a + S1x16384.size a ≤ S2048x16384.size a) (x : S16384.Idx) :
    ((srow off h).view.emb x 0).val = off 0 ∧ ((srow off h).view.emb x 1).val = off 1 + (x 0).val := by
  have e : (srow off h).view.emb x = (Rect.unit (s := S2048x16384) off S1x16384.size h).emb (Shape.reshapeEquiv squeezes_S1x16384_S16384.numel_eq x) := rfl
  rw [e, squeeze_idx]
  constructor
  · show off 0 + 1 * 0 = off 0
    omega
  · show off 1 + 1 * (x 0).val = off 1 + (x 0).val
    omega

/-- The landed row, with the table word and the two rows' offsets named: on the row 128·t + b of l, what the transfer
    wrote — the row w of r, column by column — is what the grid point's step holds there (the clamp of the table word
    does not bind below 2048). -/
theorem row_landed_core (c : Dev nD) (t : Fin grid1.N) (T : Bf (F := F) c (Memref.whole main_v5))
    (r : Bf (F := F) c (Memref.whole main_v2)) (l : Bf (F := F) c (Memref.whole main_v6))
    (b : ℕ) (hb : b < 128)
    (offd : Fin 2 → Nat) (hd : ∀ a, offd a + S1x16384.size a ≤ S5120x16384.size a) (ed : offd = ![128 * t.val + b, 0])
    (w : BitVec 32) (hw : w.toNat < 2048)
    (ew : w = (T : IVec S5120 32) (ValueIdx.ix1 (⟨128 * t.val + b, by have := Nat.lt_of_lt_of_eq t.isLt grid1_N; omega⟩ : Fin 5120)))
    (offs : Fin 2 → Nat) (hs : ∀ a, offs a + S1x16384.size a ≤ S2048x16384.size a) (es : offs = ![w.toNat, 0]) :
    rowPt c offd hd ((drow offd hd).view.writes (Elt F) l
        [⟨Rect.whole S16384, (ReadAs.same (Val := Elt F)).apply (View.read (Elt F) (srow offs hs).view r)⟩])
      ⊢ rowPt c offd hd (gatherStep (F := F) t.val T r l) := by
  refine Entails.of_eq (pointsTo_congr fun y hy => ?_)
  obtain ⟨x, -, rfl⟩ := Finset.mem_map.mp hy
  have ht : t.val < 40 := Nat.lt_of_lt_of_eq t.isLt grid1_N
  obtain ⟨d0, d1⟩ := drow_emb offd hd x
  obtain ⟨s0, s1⟩ := srow_emb offs hs x
  subst ed es
  have d0' : ((drow _ hd).view.emb x 0).val = 128 * t.val + b := d0
  have d1' : ((drow _ hd).view.emb x 1).val = (x 0).val := d1.trans (Nat.zero_add _)
  have s0' : ((srow _ hs).view.emb x 0).val = w.toNat := s0
  have s1' : ((srow _ hs).view.emb x 1).val = (x 0).val := s1.trans (Nat.zero_add _)
  -- the written contents under column x: the source row's element there
  have h1 := congrFun (View.read_writes_whole (drow _ hd).view l
    ((ReadAs.same (Val := Elt F)).apply (View.read (Elt F) (srow _ hs).view r))) x
  rw [View.read_apply] at h1
  have h2 := eq_of_heq ((cast_heq _ _).symm.trans (heq_of_eq h1))
  rw [h2, ReadAs.apply_same, View.read_apply]
  refine (eq_of_heq (cast_heq _ _)).trans ?_
  have hc : 128 * t.val ≤ ((drow _ hd).view.emb x 0).val ∧ ((drow _ hd).view.emb x 0).val < 128 * t.val + 128 := by
    rw [d0']; constructor <;> omega
  unfold gatherStep
  rw [if_pos hc]
  unfold rowFrom
  refine congrArg r (funext fun a => ?_)
  refine Fin.ext ?_
  match a with
  | ⟨0, _⟩ =>
    have hlt : 128 * t.val + b < 5120 := by omega
    have key : ∀ q : Fin 5120, q.val = 128 * t.val + b → (tblRow T q).val = w.toNat := by
      intro q hq
      have eq : q = ⟨128 * t.val + b, hlt⟩ := Fin.ext hq
      subst eq
      unfold tblRow
      show min ((T : IVec S5120 32) (ValueIdx.ix1 _)).toNat 2047 = w.toNat
      rw [← ew]
      omega
    exact s0'.trans (key _ d0').symm
  | ⟨1, _⟩ => exact s1'.trans d1'.symm

/-- One landed row as the run leaves it — the table word loaded at lane b's offsets, the source row it names, the
    destination row of lane b — holds the grid point's step on that row. -/
theorem row_landed (c : Dev nD) (t : Fin grid1.N) (T : Bf (F := F) c (Memref.whole main_v5))
    (r : Bf (F := F) c (Memref.whole main_v2)) (l : Bf (F := F) c (Memref.whole main_v6))
    (hT : ∀ q : Fin 5120, ((T : IVec S5120 32) (ValueIdx.ix1 q)).toNat < 2048) (b : ℕ) (hb : b < 128)
    (offl : Fin 1 → Nat) (hl : ∀ a, offl a + S1.size a ≤ S5120.size a) (el : offl = ldOff (grid1.coords t) b)
    (offd : Fin 2 → Nat) (hd : ∀ a, offd a + S1x16384.size a ≤ S5120x16384.size a)
    (ed : offd = k1_off385 (grid1.coords t) (BitVec.ofNat 32 b))
    (offs : BitVec 32 → Fin 2 → Nat)
    (hs : ∀ w : BitVec 32, w.toNat < 2048 → ∀ a, offs w a + S1x16384.size a ≤ S2048x16384.size a)
    (es : ∀ w, offs w = ![w.toNat, 0]) :
    landedAt c T r l hT offl hl offd hd offs hs ⊢ rowPt c offd hd (gatherStep (F := F) t.val T r l) := by
  have ht : t.val < 40 := Nat.lt_of_lt_of_eq t.isLt grid1_N
  have e0 : offl 0 = 128 * t.val + b := by rw [el, ldOff_eq t b hb]; rfl
  have ew : wordAt c T offl hl
      = (T : IVec S5120 32) (ValueIdx.ix1 (⟨128 * t.val + b, by omega⟩ : Fin 5120)) :=
    (tbl_read c T offl hl _).trans (congrArg (fun q : Fin 5120 => (T : IVec S5120 32) (ValueIdx.ix1 q)) (Fin.ext e0))
  exact row_landed_core c t T r l b hb offd hd (ed.trans (k1_off385_eq t b hb)) (wordAt c T offl hl)
    (word_lt c T hT _ _) ew (offs (wordAt c T offl hl)) (hs _ (word_lt c T hT _ _)) (es _)

-- the body's own offset functions are these, lane by lane (the first lanes and the last)
example (t : Fin grid1.N) : k1_off1 (grid1.coords t) = ldOff (grid1.coords t) 0 := rfl
example (t : Fin grid1.N) : k1_off2 (grid1.coords t) = k1_off385 (grid1.coords t) (BitVec.ofNat 32 0) := rfl
example (w : BitVec 32) : k1_off3 w = ![w.toNat, 0] := rfl
example (t : Fin grid1.N) : k1_off4 (grid1.coords t) = ldOff (grid1.coords t) 1 := rfl
example (t : Fin grid1.N) : k1_off5 (grid1.coords t) = k1_off385 (grid1.coords t) (BitVec.ofNat 32 1) := rfl
example (w : BitVec 32) : k1_off6 w = ![w.toNat, 0] := rfl
example (t : Fin grid1.N) : k1_off382 (grid1.coords t) = ldOff (grid1.coords t) 127 := rfl
example (t : Fin grid1.N) : k1_off383 (grid1.coords t) = k1_off385 (grid1.coords t) (BitVec.ofNat 32 127) := rfl
example (w : BitVec 32) : k1_off384 w = ![w.toNat, 0] := rfl

end Cert.KernelIdeal.Hand

end
-- ==== Proof.KiR1Asm.lean ====
/-
  One grid point of the gather region, assembled: the whole buffers are split into what the 128 transfers take (a read
  share of r, a row of l and a semaphore each), the run's lemma is applied, and what it hands back is joined into the
  whole buffers again, l at what the point leaves.
-/
import proofs.«402079_j32023276159552_3_alg».proof.Proof.KiR1Rows
import proofs.«402079_j32023276159552_3_alg».proof.Proof.KiR1GlueL
import proofs.«402079_j32023276159552_3_alg».proof.Proof.KiR1GlueR
import proofs.«402079_j32023276159552_3_alg».proof.Proof.KiR1Arith
import proofs.«402079_j32023276159552_3_alg».proof.Proof.KiR1Landed

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- A chain over the list 0, …, 127 is the 128-fold conjunction. -/
theorem bigSepL_range128 (Φ : ℕ → sProp 𝕄) : bigSepL (List.range 128) Φ = (sep128% b => Φ b) := rfl

section Macros
open Lean

/-- The list 0, 1, …, 127 written out. -/
macro "list128%" : term => do
  let ns := (List.range 128).toArray.map fun b => Syntax.mkNumLit (toString b)
  `([$ns,*])

/-- Row by row: each landed row is the row at what the point leaves; the 128 facts joined along the conjunction. -/
macro "landedMono% " c:term:max t:term:max T:term:max r:term:max l:term:max hT:term:max : term => do
  let mut acc : Option (TSyntax `term) := none
  for k in [0:128] do
    let b := 127 - k
    let n := Syntax.mkNumLit (toString b)
    let offl := mkIdent (Name.mkSimple s!"k1_off{3*b+1}")
    let inbl := mkIdent (Name.mkSimple s!"k1_off{3*b+1}_inb")
    let offd := mkIdent (Name.mkSimple s!"k1_off{3*b+2}")
    let inbd := mkIdent (Name.mkSimple s!"k1_off{3*b+2}_inb")
    let offs := mkIdent (Name.mkSimple s!"k1_off{3*b+3}")
    let lem ← `(row_landed $c $t $T $r $l $hT $n (by decide) ($offl (grid1.coords $t)) ($inbl (grid1.coords $t)) rfl
      ($offd (grid1.coords $t)) ($inbd (grid1.coords $t)) rfl $offs (fun w hw => chk_of_lt w hw) (fun _ => rfl))
    acc := some (← match acc with | none => pure lem | some a => `(BIClass.sep_mono $lem $a))
  return acc.get!

end Macros

/-- The 128 semaphore numbers in order, written out. -/
theorem finRange128_eq : List.finRange 128 = (list128% : List (Fin 128)) := by decide

/-- The same over the 128 semaphore numbers. -/
theorem bigSepL_finRange128 (Φ : Fin 128 → sProp 𝕄) : bigSepL (List.finRange 128) Φ = (sep128% b => Φ b) := by
  rw [finRange128_eq]
  simp only [bigSepL_cons_cons, bigSepL_singleton]
  rfl

set_option maxHeartbeats 400000 in
/-- The point's rows listed by their number are the rows as the body names them. -/
theorem rows_chain (c : Dev nD) (t : Fin grid1.N) (f : Bf (F := F) c (Memref.whole main_v6)) :
    bigSepL (List.range 128) (fun b => rowPt c (dOff (grid1.coords t) (b % 128)) (dOff_inb_mod _ b) f) = (rows128% c t f) := rfl

set_option maxHeartbeats 400000 in
/-- All 128 landed rows are the point's rows at what the point leaves (G names those contents). -/
theorem landed_rows (c : Dev nD) (t : Fin grid1.N) (T : Bf (F := F) c (Memref.whole main_v5)) (r : Bf (F := F) c (Memref.whole main_v2))
    (l : Bf (F := F) c (Memref.whole main_v6)) (hT : ∀ q : Fin 5120, ((T : IVec S5120 32) (ValueIdx.ix1 q)).toNat < 2048)
    (G : Bf (F := F) c (Memref.whole main_v6)) (hG : G = gatherStep (F := F) t.val T r l) :
    (landed128% c t T r l hT) ⊢ (rows128% c t G) := by
  subst hG
  exact landedMono% c t T r l hT

/-- One grid point of the gather region from the run of its body on the split resources. -/
theorem kernelRun1_asm (c : Dev nD) (t : Fin grid1.N) (T : Bf (F := F) c (Memref.whole main_v5)) (r : Bf (F := F) c (Memref.whole main_v2))
    (l : Bf (F := F) c (Memref.whole main_v6))
    (hT : ∀ q : Fin 5120, ((T : IVec S5120 32) (ValueIdx.ix1 q)).toNat < 2048) (W : Waits sig Unit) (Q : PUnit → sProp (MM F))
    (hrun : iprop(pt c (Memref.whole main_v5) T
        ∗ (sep128% b => ((Memref.whole main_v2).view.loc (c : Thread nD τ) ↦{Transfers.shareTokN fullShare (9 + b)} r))
        ∗ (rows128% c t l)
        ∗ (sep128% b => semVal ((c : Thread nD τ), osem1 b) 0)
        ∗ owes (c : Thread nD τ) (0 : CellTallies nD τ sig Unit) W
        ∗ (iprop(pt c (Memref.whole main_v5) T
              ∗ (sep128% b => ((Memref.whole main_v2).view.loc (c : Thread nD τ) ↦{Transfers.shareTokN fullShare (9 + b)} r))
              ∗ (landed128% c t T r l hT)
              ∗ (sep128% b => semVal ((c : Thread nD τ), osem1 b) 0)
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q) :
    iprop(pt c (Memref.whole main_v5) T ∗ pt c (Memref.whole main_v2) r ∗ pt c (Memref.whole main_v6) l
        ∗ Pipeline.ownSems0 (Ix := Unit) (Name := ℕ) (U := UU) (Lvl := ℕ) (Val := Elt F) (τ := τ) osem1 c
        ∗ owes (c : Thread nD τ) (0 : CellTallies nD τ sig Unit) W
        ∗ (iprop(pt c (Memref.whole main_v5) T ∗ pt c (Memref.whole main_v2) r
              ∗ pt c (Memref.whole main_v6) (gatherStep (F := F) t.val T r l)
              ∗ Pipeline.ownSems0 (Ix := Unit) (Name := ℕ) (U := UU) (Lvl := ℕ) (Val := Elt F) (τ := τ) osem1 c
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q := by
  have hmono := landed_rows c t T r l hT _ rfl
  have hrs := r_toks_split c r
  have hrj := r_toks_join c r
  rw [bigSepL_range128] at hrs hrj
  have hls := l_rows_split c t l
  have hlj := l_rows_join c t T r l
  rw [rows_chain] at hls hlj
  have hss : (Pipeline.ownSems0 (Ix := Unit) (Name := ℕ) (U := UU) (Lvl := ℕ) (Val := Elt F) (τ := τ) osem1 c : sProp 𝕄)
      = (sep128% b => semVal ((c : Thread nD τ), osem1 b) 0) := (sems_split c).trans (bigSepL_finRange128 _)
  rw [hss]
  iintro ⟨HT, Hr, Hl, Hs, HO, Hk⟩
  ihave Hr2 := hrs $$ Hr
  icases Hr2 with ⟨Hkeep, Htoks⟩
  ihave Hl2 := hls $$ Hl
  icases Hl2 with ⟨Hrest, Hrows⟩
  iapply hrun
  isplitl [HT]; · iexact HT
  isplitl [Htoks]; · iexact Htoks
  isplitl [Hrows]; · iexact Hrows
  isplitl [Hs]; · iexact Hs
  isplitl [HO]; · iexact HO
  iintro ⟨HT, Htoks, Hland, Hs, HO⟩
  iapply Hk
  isplitl [HT]; · iexact HT
  isplitl [Hkeep Htoks]
  · iapply hrj
    isplitl [Hkeep]; · iexact Hkeep
    iexact Htoks
  isplitl [Hrest Hland]
  · iapply hlj
    isplitl [Hrest]; · iexact Hrest
    iapply hmono $$ Hland
  isplitl [Hs]; · iexact Hs
  iexact HO

end Cert.KernelIdeal.Hand

end
-- ==== Proof.KiR1Body.lean ====
/-
  One grid point of the gather region: 128 row transfers from r into l, each on a semaphore of its own, all started and
  then all awaited.
-/
import proofs.«402079_j32023276159552_3_alg».proof.Proof.KiR1Run
import proofs.«402079_j32023276159552_3_alg».proof.Proof.KiR1Asm

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- From the table, r and l held whole, the 128 semaphores at zero and the core owing nothing, the body at grid point t
    runs to its return with the table and r as they were, l with the point's 128 rows taken from r through the table,
    the semaphores back at zero and the core owing nothing. The table's words are row numbers of r.
    The body's run is over l's 128 rows each held by itself and r's 128 read shares (the run's lemma); l and r are taken
    apart so before it and put together after it, each landed row's contents being the final contents on that row. -/
theorem kernelRun1 (c : Dev nD) (t : Fin grid1.N)
    (T : Bf (F := F) c (Memref.whole main_v5)) (r : Bf (F := F) c (Memref.whole main_v2)) (l : Bf (F := F) c (Memref.whole main_v6))
    (hT : ∀ q : Fin 5120, ((T : IVec S5120 32) (ValueIdx.ix1 q)).toNat < 2048)
    (W : Waits sig Unit) (Q : PUnit → sProp (MM F)) :
    iprop(pt c (Memref.whole main_v5) T ∗ pt c (Memref.whole main_v2) r ∗ pt c (Memref.whole main_v6) l
        ∗ Pipeline.ownSems0 (Ix := Unit) (Name := ℕ) (U := UU) (Lvl := ℕ) (Val := Elt F) (τ := τ) osem1 c
        ∗ owes (c : Thread nD τ) (0 : CellTallies nD τ sig Unit) W
        ∗ (iprop(pt c (Memref.whole main_v5) T ∗ pt c (Memref.whole main_v2) r
              ∗ pt c (Memref.whole main_v6) (gatherStep (F := F) t.val T r l)
              ∗ Pipeline.ownSems0 (Ix := Unit) (Name := ℕ) (U := UU) (Lvl := ℕ) (Val := Elt F) (τ := τ) osem1 c
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q :=
  kernelRun1_asm c t T r l hT W Q (kernelRun1_rows c t T r l hT W Q)

end Cert.KernelIdeal.Hand

end
-- ==== Proof.KiR1.lean ====
/-
  The gather region's proof data over its invariant (the table and r held as they were, l with the rows of the points
  already run taken from r through the table): one grid point's effect iterated gives the closed form, and the body
  at point t carries the invariant at t to the invariant at t + 1.
-/
import proofs.«402079_j32023276159552_3_alg».proof.Proof.KiR1Body
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : Contents F)

/-- The region's proof data on core c: no windows, everything in the invariant. -/
def dat1 (a : (pcfg1 (F := F)).Adm) (c : Dev nD) : Dat τ (Elt F) Unit ℕ UU ℕ (cfg1 a) c where
  A w := w.elim0
  after w := w.elim0
  Φ t := Φ1 V c t.val
  q w := w.elim0
  owed _ := 0

theorem Φ_eq1 (a : (pcfg1 (F := F)).Adm) (c : Dev nD) (t : Fin ((cfg1 a).N + 1)) : (dat1 V a c).Φ t = Φ1 V c t.val := rfl

theorem owed_eq1 (a : (pcfg1 (F := F)).Adm) (c : Dev nD) (t : Fin ((cfg1 a).N + 1)) : (dat1 V a c).owed t = 0 := rfl

/-- One more grid point on top of the first n: the rows below 128·n and the rows 128·n … 128·n + 127 together are the
    rows below 128·(n + 1). -/
theorem gatherStep_gathered (n : ℕ) (T : IVec S5120 32) (r : FVec F S2048x16384 .f32) (l₀ : FVec F S5120x16384 .f32) :
    gatherStep n T r (gathered n T r l₀) = gathered (n + 1) T r l₀ := by
  funext y
  unfold gatherStep gathered
  split_ifs <;> first | rfl | (exfalso; omega)

/-- After all 40 grid points every row of l is taken from r: 128·40 = 5120 is the number of rows. -/
theorem gathered_all (T : IVec S5120 32) (r : FVec F S2048x16384 .f32) (l₀ : FVec F S5120x16384 .f32) (y : S5120x16384.Idx) :
    gathered 40 T r l₀ y = rowFrom T r y := by
  unfold gathered
  rw [if_pos (by have := ValueIdx.idx2_lt0 y; omega)]

/-- No windows: the conjunction over them is empty. -/
theorem bigSep_W1 {M : Type} [URA M] (Φ : Fin 0 → sProp M) : bigSep Finset.univ Φ = (BI.emp : sProp M) := by
  rw [show (Finset.univ : Finset (Fin 0)) = ∅ from rfl, BI.bigSep_empty]

/-- The body obligation: at point t the invariant holds l with the rows below 128·t gathered; the body gathers the
    rows 128·t … 128·t + 127 and leaves everything else, which is the invariant at t + 1. -/
theorem body_obligation1 (a : (pcfg1 (F := F)).Adm) (c : Dev nD)
    (hT : ∀ q : Fin 5120, ((V c main_v5 : IVec S5120 32) (ValueIdx.ix1 q)).toNat < 2048) :
    BodyObligation (dat1 V a c) (defs₀ (F := F)) Variants.none () Set.univ := fun t => by
  rw [bigSep_W1, bigSep_W1]
  rw [show (dat1 V a c).Φ t.castSucc = Φ1 V c t.val from rfl, show (dat1 V a c).Φ t.succ = Φ1 V c (t.val + 1) from rfl]
  unfold Φ1 Dat.owesAt Pipeline.owesWithin
  rw [show (dat1 V a c).owed t.castSucc = 0 from rfl, show (dat1 V a c).owed t.succ = 0 from rfl]
  iintro ⟨⟨Hsr, Hpr, Hsems, H5, H2, H6⟩, ⟨%W, %hW, HO⟩, -⟩
  iapply (kernelRun1 c t (V c main_v5) (V c main_v2) (gathered t.val (V c main_v5) (V c main_v2) (V c main_v6)) hT W _)
  isplitl [H5]; · iexact H5
  isplitl [H2]; · iexact H2
  isplitl [H6]; · iexact H6
  isplitl [Hsems]; · iexact Hsems
  isplitl [HO]; · iexact HO
  iintro ⟨H5, H2, H6, Hsems, ⟨%W', HO⟩⟩
  rw [gatherStep_gathered]
  isplitl [Hsr Hpr Hsems H5 H2 H6]
  · isplitl [Hsr]; · iexact Hsr
    isplitl [Hpr]; · iexact Hpr
    isplitl [Hsems]; · iexact Hsems
    isplitl [H5]; · iexact H5
    isplitl [H2]; · iexact H2
    iexact H6
  isplitl [HO]
  · iexists W'; isplitr; · ipureintro; exact fun _ _ => Or.inl trivial
    iexact HO
  iempintro

end Cert.KernelIdeal.Hand

end
-- ==== Proof.KiR2.lean ====
/-
  The matrix-product region (the third kernel): each of its 64 grid points multiplies the whole left operand
  [4096, 2048] by one block of 256 columns of the right operand [2048, 16384] into the matching 256 columns of the
  result [4096, 16384], the sum accumulated from zero in the result's format. This module gives the region's proof
  data (what every window's buffer holds after the body at every point), the body's triple at a generic point, and,
  on the extended reals, the result array after the region as the matrix product of the two operand arrays.
-/
import proofs.«402079_j32023276159552_3_alg».proof.Proof.KiBase
import Idealize.ShloMosaic.Lib.Ring
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

section Region2

variable (V : Contents F)

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block (the whole array) at every point, fetched there or not: an
    input the body leaves in place keeps the block of the last fetch, and the block index has not moved since. -/
theorem before2_0_of {c : Dev nD} (dat : Dat τ (Elt F) Unit ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block (256 columns) at every point. -/
theorem before2_1_of {c : Dev nD} (dat : Dat τ (Elt F) Unit ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4096x2048 := Rect.unit (s := S4096x2048) ![0, 0] S4096x2048.size inb_S4096x2048_S4096x2048_0_0
abbrev r2_1 : Rect S2048x256 := Rect.unit (s := S2048x256) ![0, 0] S2048x256.size inb_S2048x256_S2048x256_0_0
abbrev r2_2 : Rect S4096x256 := Rect.unit (s := S4096x256) ![0, 0] S4096x256.size inb_S4096x256_S4096x256_0_0

/-! ## What the body leaves in the result's staging buffer -/

/-- The result's staging buffer after the body, from the two operand blocks: the one whole-buffer store of the
    product of the two loaded blocks. -/
def out2_2 (x0 : Vec F S4096x2048 .bf16) (x1 : Vec F S2048x256 .bf16) : Vec F S4096x256 .f32 :=
  View.canon [⟨r2_2, k2_pay1 (View.ld x0 r2_0) (View.ld x1 r2_1)⟩]

/-- The one store covers the buffer. -/
theorem cover2_2 (p0 : Vec F S4096x256 .f32) (y : S4096x256.Idx) :
    ∃ pc ∈ ([⟨r2_2, p0⟩] : List (View.Piece (Elt F) S4096x256 .f32)), y ∈ pc.1.set :=
  View.cover_of_tiled [⟨r2_2, p0⟩] S4096x256.size (by rfl) y

/-! ## The body's triple -/

set_option maxHeartbeats 1000000 in
/-- The body on whole staging memrefs, the operands' at contents reading x0, x1 and the result's at anything, runs to
    the continuation holding the operands' as they were and the result's at the product block. -/
theorem sound_kernel2 (c : Dev nD) (E : Set ℕ) (i : grid2.Coords) (arg1 : Memref sig .tc .vmem S4096x2048 .bf16) (harg1 : arg1.IsWhole) (arg2 : Memref sig .tc .vmem S2048x256 .bf16) (harg2 : arg2.IsWhole) (arg3 : Memref sig .tc .vmem S4096x256 .f32) (harg3 : arg3.IsWhole)
    (x0 : Vec F S4096x2048 .bf16) (x1 : Vec F S2048x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core c: the arrays as the region finds them; after the body at point t each
    operand's buffer at its block and the result's at the product of the two blocks; the invariant the scoped rest
    and the generator register, untouched; nothing owed; full shares. -/
def dat2 (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem Φ_eq2 (c : Dev nD) (t : Fin (cfg2.N + 1)) :
    (dat2 V c).Φ t = (Pipeline.ΦA spec2 c : sProp (MM F)) := by
  dsimp only [dat2]

theorem owed_eq2 (c : Dev nD) (t : Fin (cfg2.N + 1)) : (dat2 V c).owed t = 0 := by dsimp only [dat2]

theorem q_eq2 (c : Dev nD) (w : Fin cfg2.W) : (dat2 V c).q w = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each operand's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

/-! ## The value on the extended reals: the result array is the matrix product of the operand arrays -/

section Value

open Idealize.ShloMosaic.ValueIdx
open scoped BigOperators

/-! ### One element of the product block

The product's operand indices at output index (p, q) and contraction coordinate k are (p, k) on the left and (k, q)
on the right: the left operand's axis 0 and the right operand's axis 1 are free, the other two are contracted. -/

theorem lhs_mm_0 (i : S4096x256.Idx) (q : dot_S4096x2048_S2048x256_S4096x256_1_0_0_1_n_n.contr.Idx) :
    (dot_S4096x2048_S2048x256_S4096x256_1_0_0_1_n_n.lhsIdx i q 0).val = (i 0).val := by
  unfold DotDims.lhsIdx
  rw [dif_neg (show ¬(0 : Fin S4096x2048.rank) ∈ dot_S4096x2048_S2048x256_S4096x256_1_0_0_1_n_n.lhsBatch by decide), dif_pos (show (0 : Fin S4096x2048.rank) ∈ dot_S4096x2048_S2048x256_S4096x256_1_0_0_1_n_n.lhsNonContracting by decide)]
  rfl
theorem lhs_mm_1 (i : S4096x256.Idx) (q : dot_S4096x2048_S2048x256_S4096x256_1_0_0_1_n_n.contr.Idx) :
    (dot_S4096x2048_S2048x256_S4096x256_1_0_0_1_n_n.lhsIdx i q 1).val = (q ⟨0, by decide⟩).val :=
  dot_S4096x2048_S2048x256_S4096x256_1_0_0_1_n_n.lhsIdx_val_of_single rfl i q
theorem rhs_mm_0 (i : S4096x256.Idx) (q : dot_S4096x2048_S2048x256_S4096x256_1_0_0_1_n_n.contr.Idx) :
    (dot_S4096x2048_S2048x256_S4096x256_1_0_0_1_n_n.rhsIdx i q 0).val = (q ⟨0, by decide⟩).val :=
  dot_S4096x2048_S2048x256_S4096x256_1_0_0_1_n_n.rhsIdx_val_of_single rfl i q
theorem rhs_mm_1 (i : S4096x256.Idx) (q : dot_S4096x2048_S2048x256_S4096x256_1_0_0_1_n_n.contr.Idx) :
    (dot_S4096x2048_S2048x256_S4096x256_1_0_0_1_n_n.rhsIdx i q 1).val = (i 1).val := by
  unfold DotDims.rhsIdx
  rw [dif_neg (show ¬(1 : Fin S2048x256.rank) ∈ dot_S4096x2048_S2048x256_S4096x256_1_0_0_1_n_n.rhsBatch by decide), dif_pos (show (1 : Fin S2048x256.rank) ∈ dot_S4096x2048_S2048x256_S4096x256_1_0_0_1_n_n.rhsNonContracting by decide)]
  rfl

/-- On the extended reals the body's payload at (p, q) is the sum over the 2048 contracted coordinates of the products
    of the left block's row p and the right block's column q: the accumulator starts at zero, the casts of the
    operands to their own shapes are the identity, and nothing is rounded. -/
theorem k2_pay1_apply (x0 : Vec Ideal S4096x2048 .bf16) (x1 : Vec Ideal S2048x256 .bf16) (p : Fin 4096) (q : Fin 256) :
    (k2_pay1 (F := Ideal) x0 x1 : S4096x256.Idx → EReal) (ix2 p q)
      = ∑ j : Fin 2048, (x0 : S4096x2048.Idx → EReal) (ix2 p j) * (x1 : S2048x256.Idx → EReal) (ix2 j q) := by
  unfold k2_pay1
  simp only [shapeCast_self]
  refine (Ideal.matmul_constant_zero_apply (φ₁ := .bf16) (φ₂ := .bf16) dot_S4096x2048_S2048x256_S4096x256_1_0_0_1_n_n none x0 x1 (ix2 p q)).trans ?_
  rw [← Equiv.sum_comp (contrEquiv1 dot_S4096x2048_S2048x256_S4096x256_1_0_0_1_n_n 2048 rfl rfl).symm]
  refine Finset.sum_congr rfl fun k _ => ?_
  have hk := contrEquiv1_symm_val dot_S4096x2048_S2048x256_S4096x256_1_0_0_1_n_n 2048 rfl rfl k
  have el : dot_S4096x2048_S2048x256_S4096x256_1_0_0_1_n_n.lhsIdx (ix2 p q) ((contrEquiv1 dot_S4096x2048_S2048x256_S4096x256_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S4096x2048_S2048x256_S4096x256_1_0_0_1_n_n.rhsIdx (ix2 p q) ((contrEquiv1 dot_S4096x2048_S2048x256_S4096x256_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-! ### From the blocks to the array -/

/-- The matrix product of a [4096, 2048] array and a [2048, 16384] array, entry by entry. -/
def prod2 (A : S4096x2048.Idx → EReal) (B : S2048x16384.Idx → EReal) : S4096x16384.Idx → EReal := fun i =>
  ∑ j : Fin 2048, A (ix2 (⟨(i 0).val, idx2_lt0 i⟩ : Fin 4096) j) * B (ix2 j (⟨(i 1).val, idx2_lt1 i⟩ : Fin 16384))

theorem hz2 : (![0, 0] : Fin 2 → Nat) = fun _ => 0 := funext fun a => by fin_cases a <;> rfl

/-- The windows' block indices, decided over the 64 grid points: the left operand's block is always the whole array;
    the right operand's and the result's blocks at point t are column block t. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- Entry by entry: a sum of products of two blocks' entries whose factors are the arrays' entries on row (i 0) and
    column (i 1) is entry i of the product. -/
theorem prod2_of_blocks (A : S4096x2048.Idx → EReal) (B : S2048x16384.Idx → EReal)
    (x0 : S4096x2048.Idx → EReal) (x1 : S2048x256.Idx → EReal) (i : S4096x16384.Idx) (p : Fin 4096) (q : Fin 256)
    (h0 : ∀ j : Fin 2048, x0 (ix2 p j) = A (ix2 (⟨(i 0).val, idx2_lt0 i⟩ : Fin 4096) j))
    (h1 : ∀ j : Fin 2048, x1 (ix2 j q) = B (ix2 j (⟨(i 1).val, idx2_lt1 i⟩ : Fin 16384))) :
    ∑ j : Fin 2048, x0 (ix2 p j) * x1 (ix2 j q) = prod2 A B i :=
  Finset.sum_congr rfl fun j _ => by rw [h0 j, h1 j]

/-- What point t writes back is block t of the product of the two operand arrays as the region finds them: entry
    (p, q) of the block is the payload's sum over the contracted coordinate, whose factors are the operand arrays'
    entries (p, j) and (j, 256·t + q), which is entry (p, 256·t + q) of the product. -/
theorem flushed2_eq (V : Contents Ideal) (c : Dev nD) (t : Fin cfg2.N) :
    (dat2 V c).flushed 2 t = ((cfg2.win 2).blk t).view.read (Elt Ideal) (prod2 (V c main_v15) (V c main_v3)) := by
  show (cfg2.win 2).cut (grid2.coords t) ((dat2 V c).after 2 t) = _
  rw [after2_2]
  unfold out2_2
  rw [View.canon_unit_zero hz2]
  simp only [View.ld_unit_zero (S := S4096x2048) hz2, View.ld_unit_zero (S := S2048x256) hz2]
  obtain ⟨e00, e01, e10, e11, e20, e21⟩ := idx_facts2 t
  funext y
  obtain ⟨p, q, rfl⟩ : ∃ (p : Fin 4096) (q : Fin 256), y = ix2 p q := ⟨y 0, y 1, eq_ix2 y⟩
  refine (k2_pay1_apply (iblk2 V c 0 t) (iblk2 V c 1 t) p q).trans ?_
  refine (prod2_of_blocks (V c main_v15) (V c main_v3) (iblk2 V c 0 t) (iblk2 V c 1 t)
    (((cfg2.win 2).blk t).view.emb (ix2 p q)) p q (fun j => ?_) (fun j => ?_)).trans ?_
  · show V c main_v15 (((cfg2.win 0).blk t).view.emb (ix2 p j)) = V c main_v15 _
    refine congrArg (V c main_v15) ?_
    funext a; apply Fin.ext
    match a with
    | ⟨0, _⟩ => show win2_0.index t (0 : Fin 2) * 4096 + 1 * p.val = win2_2.index t (0 : Fin 2) * 4096 + 1 * p.val; omega
    | ⟨1, _⟩ => show win2_0.index t (1 : Fin 2) * 2048 + 1 * j.val = j.val; omega
  · show V c main_v3 (((cfg2.win 1).blk t).view.emb (ix2 j q)) = V c main_v3 _
    refine congrArg (V c main_v3) ?_
    funext a; apply Fin.ext
    match a with
    | ⟨0, _⟩ => show win2_1.index t (0 : Fin 2) * 2048 + 1 * j.val = j.val; omega
    | ⟨1, _⟩ => show win2_1.index t (1 : Fin 2) * 256 + 1 * q.val = win2_2.index t (1 : Fin 2) * 256 + 1 * q.val; omega
  · rfl

/-- An index of the result array is in point t's block iff each coordinate is in the block's range on its axis. -/
theorem mem_blk2_2 (t : Fin cfg2.N) (i : S4096x16384.Idx) :
    i ∈ ((cfg2.win 2).blk t).view.set ↔ ∀ a : Fin 2, win2_2.index t a * S4096x256.size a ≤ (i a).val ∧ (i a).val < win2_2.index t a * S4096x256.size a + S4096x256.size a := by
  show i ∈ ((View.whole main_v16).slice (win2_2.rect t)).set ↔ _
  rw [View.set_slice_whole, Rect.mem_set_unit]
  exact Iff.rfl

/-- The 64 column blocks cover the result array: column k is in block k / 256. -/
theorem cover2_arr (i : S4096x16384.Idx) :
    ∃ t : Fin cfg2.N, (cfg2.win 2).flush t = true ∧ i ∈ ((cfg2.win 2).blk t).view.set := by
  have hi0 : (i 0).val < 4096 := idx2_lt0 i
  have hi1 : (i 1).val < 16384 := idx2_lt1 i
  have hN : (i 1).val / 256 < cfg2.N := by show (i 1).val / 256 < 64; omega
  refine ⟨⟨(i 1).val / 256, hN⟩, flush2_2 _, ?_⟩
  obtain ⟨e00, e01, e10, e11, e20, e21⟩ := idx_facts2 ⟨(i 1).val / 256, hN⟩
  rw [mem_blk2_2]
  intro a
  match a with
  | ⟨0, _⟩ => show win2_2.index ⟨(i 1).val / 256, hN⟩ (0 : Fin 2) * 4096 ≤ (i 0).val ∧ (i 0).val < win2_2.index ⟨(i 1).val / 256, hN⟩ (0 : Fin 2) * 4096 + 4096; omega
  | ⟨1, _⟩ =>
    show win2_2.index ⟨(i 1).val / 256, hN⟩ (1 : Fin 2) * 256 ≤ (i 1).val ∧ (i 1).val < win2_2.index ⟨(i 1).val / 256, hN⟩ (1 : Fin 2) * 256 + 256
    have e : win2_2.index ⟨(i 1).val / 256, hN⟩ (1 : Fin 2) = (i 1).val / 256 := e21
    omega

/-- The result array after the region is the product of the two operand arrays. -/
theorem arr2_eq (V : Contents Ideal) (c : Dev nD) :
    (dat2 V c).arrAt 2 cfg2.N = prod2 (V c main_v15) (V c main_v3) :=
  (dat2 V c).arrAt_eq_of_cover 2 (prod2 (V c main_v15) (V c main_v3)) (fun t _ => flushed2_eq V c t) cover2_arr

/-- Entry (a, k) of the product: the sum over the 2048 contracted coordinates of the products of the left array's
    row a and the right array's column k. -/
theorem prod2_apply (A : S4096x2048.Idx → EReal) (B : S2048x16384.Idx → EReal) (a : Fin 4096) (k : Fin 16384) :
    prod2 A B (ix2 a k) = ∑ j : Fin 2048, A (ix2 a j) * B (ix2 j k) := rfl

/-- Entry (a, k) of the result array after the region: the sum over the 2048 contracted coordinates of the products of
    the left operand's row a and the right operand's column k, the operand arrays named A and B. -/
theorem final2_2 (V : Contents Ideal) (c : Dev nD) (A : S4096x2048.Idx → EReal) (B : S2048x16384.Idx → EReal)
    (hA : V c main_v15 = A) (hB : V c main_v3 = B) (a : Fin 4096) (k : Fin 16384) :
    @Eq EReal ((dat2 V c).arrAt 2 cfg2.N (ix2 a k)) (∑ j : Fin 2048, A (ix2 a j) * B (ix2 j k)) := by
  subst hA hB
  exact (congrFun (arr2_eq V c) (ix2 a k)).trans (prod2_apply _ _ a k)

end Value

end Cert.KernelIdeal.Hand

end
-- ==== Proof.KiTable.lean ====
/-
  The host's integer table. The index input idx : i32[3072] is clipped word by word into 0..2047
  (a signed maximum with 0, then a signed minimum with 2047), and the table i32[5120] is the
  identity 0..2047 followed by the clipped indices. Read as naturals, entry q of the table is q
  for q < 2048 and the clamped row of entry q − 2048 of idx otherwise; every entry is below 2048.
-/
import proofs.«402079_j32023276159552_3_alg».proof.KernelIdeal
import proofs.«402079_j32023276159552_3_alg».proof.Proof.Gen.KernelIdeal
import proofs.«402079_j32023276159552_3_alg».proof.Proof.Spec
import Idealize.ShloMosaic.Lib.ValueIdx
import Idealize.ShloMosaic.Lib.Pipeline.Value

namespace Cert.KernelIdeal.HostVal

open Cert.KernelIdeal Cert.KernelIdeal.Gen
open Idealize.ShloMosaic Idealize.ShloMosaic.ValueIdx

/-- The clipped indices: min(2047, max(0, idx)) word by word, both comparisons signed. -/
def clipIdx (idx : IVec S3072 32) : IVec S3072 32 :=
  minsi (broadcastInDim S3072 ![] bcast_S_S3072 (id (constantI S_ 32 2047#32)))
    (maxsi (broadcastInDim S3072 ![] bcast_S_S3072 (id (constantI S_ 32 0#32))) idx)

/-- The table: the identity on 0..2047, then the clipped indices. -/
def table (idx : IVec S3072 32) : IVec S5120 32 :=
  concatenate S5120 0 [⟨S2048, iotaInDim S2048 32 0⟩, ⟨S3072, clipIdx idx⟩] concatenates_S2048_S3072_S5120_d0

/-- One clipped word: a broadcast constant is that constant at every index. -/
theorem clipIdx_apply (idx : IVec S3072 32) (j : S3072.Idx) :
    clipIdx idx j = IntOp.minsi 2047#32 (IntOp.maxsi 0#32 (idx j)) := rfl

/-- The signed clip of one word, as a natural number: a negative word goes to 0 (and its signed
    value read as a natural is 0 too), a word above 2047 goes to 2047, any other is kept. -/
theorem clipWord_toNat (v : BitVec 32) :
    (IntOp.minsi 2047#32 (IntOp.maxsi 0#32 v)).toNat = min v.toInt.toNat 2047 := by
  have hv := v.isLt
  have hI := BitVec.toInt_eq_toNat_cond v
  unfold IntOp.minsi IntOp.maxsi
  by_cases h0 : v.slt 0#32 = true
  · rw [if_pos h0]
    have h0' : v.toInt < 0 := by simpa [BitVec.slt] using h0
    have : (2047#32).slt 0#32 = false := by decide
    rw [this]
    simp only [Bool.false_eq_true, if_false]
    show (0#32).toNat = _
    simp only [BitVec.toNat_ofNat]
    omega
  · rw [if_neg h0]
    have h0' : 0 ≤ v.toInt := by
      have : ¬ v.toInt < 0 := by simpa [BitVec.slt] using h0
      omega
    by_cases h1 : (2047#32).slt v = true
    · rw [if_pos h1]
      have h1' : 2047 < v.toInt := by simpa [BitVec.slt] using h1
      simp only [BitVec.toNat_ofNat]
      omega
    · rw [if_neg h1]
      have h1' : ¬ 2047 < v.toInt := by simpa [BitVec.slt] using h1
      split at hI <;> omega

/-- The clipped word is below 2048, so its signed and unsigned readings agree. -/
theorem clipWord_toInt (v : BitVec 32) :
    (IntOp.minsi 2047#32 (IntOp.maxsi 0#32 v)).toInt.toNat = min v.toInt.toNat 2047 := by
  have h := clipWord_toNat v
  have hI := BitVec.toInt_eq_toNat_cond (IntOp.minsi 2047#32 (IntOp.maxsi 0#32 v))
  split at hI <;> omega

theorem clipIdx_toNat (idx : IVec S3072 32) (t : Fin 3072) :
    (clipIdx idx (ValueIdx.ix1 t)).toNat = min (idx (ValueIdx.ix1 t)).toInt.toNat 2047 := by
  rw [clipIdx_apply]; exact clipWord_toNat _

theorem clipIdx_toInt (idx : IVec S3072 32) (t : Fin 3072) :
    (clipIdx idx (ValueIdx.ix1 t)).toInt.toNat = min (idx (ValueIdx.ix1 t)).toInt.toNat 2047 := by
  rw [clipIdx_apply]; exact clipWord_toInt _

/-- Below 2048 the table is the identity: the first piece of the concatenation, an iota. -/
theorem table_lo (idx : IVec S3072 32) (q : Fin 5120) (h : q.val < 2048) :
    table idx (ValueIdx.ix1 q) = BitVec.ofNat 32 q.val := by
  unfold table
  rw [concatenate_pair_apply_left (0 : Fin S5120.rank) (iotaInDim S2048 32 0) (clipIdx idx)
    concatenates_S2048_S3072_S5120_d0 (ValueIdx.ix1 q) rfl (ValueIdx.ix1 (⟨q.val, h⟩ : Fin 2048))
    (fun b => by match b with | ⟨0, _⟩ => rfl)]
  rfl

/-- From 2048 on the table is the clipped indices: the second piece, the first extent less. -/
theorem table_hi (idx : IVec S3072 32) (q : Fin 5120) (h : 2048 ≤ q.val) :
    table idx (ValueIdx.ix1 q) = clipIdx idx (ValueIdx.ix1 ⟨q.val - 2048, by omega⟩) := by
  unfold table
  exact concatenate_pair_apply_right (0 : Fin S5120.rank) (iotaInDim S2048 32 0) (clipIdx idx)
    concatenates_S2048_S3072_S5120_d0 (ValueIdx.ix1 q) rfl rfl (ValueIdx.ix1 (⟨q.val - 2048, by omega⟩ : Fin 3072))
    (fun b hb => by match b with | ⟨0, _⟩ => exact absurd rfl hb)
    (by show q.val - 2048 + 2048 = q.val; omega)

/-- Every entry of the table is a row number: below 2048. -/
theorem table_toNat_lt (idx : IVec S3072 32) (q : Fin 5120) : (table idx (ValueIdx.ix1 q)).toNat < 2048 := by
  by_cases h : q.val < 2048
  · rw [table_lo idx q h, BitVec.toNat_ofNat]
    have := Nat.mod_le q.val (2 ^ 32); omega
  · rw [table_hi idx q (by omega), clipIdx_toNat]; omega

/-- The table as naturals: the identity below 2048, the clamped row of the index input above. -/
theorem table_row (idx : IVec S3072 32) (q : Fin 5120) :
    (table idx (ValueIdx.ix1 q)).toNat
      = if h : q.val < 2048 then q.val else (Cert.Spec.rowOf idx ⟨q.val - 2048, by omega⟩).val := by
  by_cases h : q.val < 2048
  · rw [dif_pos h, table_lo idx q h, BitVec.toNat_ofNat]
    exact Nat.mod_eq_of_lt (by omega)
  · rw [dif_neg h, table_hi idx q (by omega), clipIdx_toNat]
    rfl

end Cert.KernelIdeal.HostVal
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.KiFold.lean ====
/-
  The effective connection matrix.

  The connection matrix conn : [4096, 5120] multiplies the duplicated stage l : [5120, 16384], whose rows 2048 + t
  repeat row (row t) of the retinal stage r : [2048, 16384]. Instead of building l, the columns 2048 + t of conn are
  added onto the columns (row t) of its first 2048 columns: eff[a, j] = conn[a, j] + Σ_{t : row t = j} conn[a, 2048 + t],
  and then conn · l = eff · r. Here eff is written as the composition of array operations that computes it (two column
  slices, transposes, and an accumulating scatter of the transposed tail along rows), read at an index, and the
  identity eff · r = conn · l is proved entrywise for real entries.
-/
import proofs.«402079_j32023276159552_3_alg».proof.KernelIdeal
import proofs.«402079_j32023276159552_3_alg».proof.Proof.Gen.KernelIdeal
import proofs.«402079_j32023276159552_3_alg».proof.Proof.Spec
import proofs.«402079_j32023276159552_3_alg».proof.Proof.LibSums
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HostVal

open Cert.KernelIdeal
open Idealize.ShloMosaic Idealize.ShloMosaic.ValueIdx
open Facts₀ Facts

variable [Cert.KernelIdeal.Facts]

/-- The effective matrix as the array operations compute it: the head columns of conn, plus the transposed tail columns
    scattered with accumulation along the rows the clipped indices name (onto zeros), transposed back; the final
    format change keeps every value. -/
def connEff {F : FTy → Type} [FloatOps F] (conn : FVec F S4096x5120 .f32) (cl : IVec S3072 32) : FVec F S4096x2048 .bf16 :=
  truncf .bf16
    (addf (extractStridedSlice S4096x2048 ![0, 0] conn slices_S4096x5120_S4096x2048_0_0)
      (transpose S4096x2048 [1, 0]
        (Host.scatterAdd scatter_S2048x4096_S3072x1_S3072x4096_1_0_0_1
          (broadcastInDim S2048x4096 ![] bcast_S_S2048x4096 (constant S_ .f32 0x00000000#32))
          (broadcastInDim S3072x1 ![0] bcast_S3072_S3072x1_0 cl)
          (transpose S3072x4096 [1, 0] (extractStridedSlice S4096x3072 ![0, 2048] conn slices_S4096x5120_S4096x3072_0_2048)
            transposes_S4096x3072_S3072x4096_1_0))
        transposes_S2048x4096_S4096x2048_1_0))
    bitsLt_bf16_f32

/-- The scatter's dimension numbers: rows of the operand are named by the indices, one per update row; the update's
    second axis is the window, running along the operand's columns. -/
abbrev foldDims := scatter_S2048x4096_S3072x1_S3072x4096_1_0_0_1

/-- On the row axis the window of update `u` starts at the index its row names, read signed. -/
private theorem start0 (ci : IVec S3072x1 32) (u : S3072x4096.Idx) :
    foldDims.start u ci 0 = (ci (ix2 (u 0) (0 : Fin 1))).toInt := by
  unfold ScatterDims.start
  rw [dif_pos (show (0 : Fin 2) ∈ foldDims.scatterDimsToOperandDims from List.mem_singleton.mpr rfl)]
  have hsi : foldDims.siIdx u ⟨List.idxOf (0 : Fin 2) foldDims.scatterDimsToOperandDims,
      List.idxOf_lt_length_iff.2 (List.mem_singleton.mpr rfl)⟩ = ix2 (u 0) (0 : Fin 1) := by
    funext b; refine Fin.ext ?_
    match b with
    | ⟨0, _⟩ => rfl
    | ⟨1, _⟩ => rfl
  rw [hsi]
  rfl

/-- On the column axis it starts at 0. -/
private theorem start1 (ci : IVec S3072x1 32) (u : S3072x4096.Idx) : foldDims.start u ci 1 = 0 := rfl

/-- The window has one row … -/
private theorem window0 (u : S3072x4096.Idx) : foldDims.window u 0 = 0 := rfl

/-- … and the update's column is the operand's. -/
private theorem window1 (u : S3072x4096.Idx) : foldDims.window u 1 = (u 1).val := rfl

/-- Where an update lands: update `u` lands on operand element `i` exactly when the index its row names, read signed,
    is `i`'s row and its column is `i`'s column; an index outside the rows lands nowhere. -/
theorem resultIdx_eq_some_iff (ci : IVec S3072x1 32) (u : S3072x4096.Idx) (i : S2048x4096.Idx) :
    foldDims.resultIdx? u ci = some i ↔ (ci (ix2 (u 0) (0 : Fin 1))).toInt = ((i 0).val : ℤ) ∧ (u 1).val = (i 1).val := by
  unfold ScatterDims.resultIdx?
  split
  · rename_i h
    have h0 := h 0
    rw [start0, window0] at h0
    rw [Option.some.injEq]
    constructor
    · intro hf
      have e0 := congrArg (fun g => (g 0).val) hf
      have e1 := congrArg (fun g => (g 1).val) hf
      simp only [start0, start1, window0, window1] at e0 e1
      constructor <;> omega
    · rintro ⟨e0, e1⟩
      funext a
      refine Fin.ext ?_
      match a with
      | ⟨0, _⟩ =>
        show (foldDims.start u ci 0 + ↑(foldDims.window u 0)).toNat = (i 0).val
        rw [start0, window0]; omega
      | ⟨1, _⟩ =>
        show (foldDims.start u ci 1 + ↑(foldDims.window u 1)).toNat = (i 1).val
        rw [start1, window1]; omega
  · rename_i h
    constructor
    · intro hn; exact absurd hn (by simp)
    · rintro ⟨e0, e1⟩
      exfalso; apply h
      intro a
      match a with
      | ⟨0, _⟩ =>
        show 0 ≤ foldDims.start u ci 0 + ↑(foldDims.window u 0) ∧ foldDims.start u ci 0 + ↑(foldDims.window u 0) < ↑(S2048x4096.size 0)
        rw [start0, window0]; have := (i 0).isLt; omega
      | ⟨1, _⟩ =>
        show 0 ≤ foldDims.start u ci 1 + ↑(foldDims.window u 1) ∧ foldDims.start u ci 1 + ↑(foldDims.window u 1) < ↑(S2048x4096.size 1)
        rw [start1, window1]; have := (i 1).isLt; omega

/-- The accumulating scatter at the extended reals, read at `(j, a)`: the operand there plus the updates `(t, a)` of
    the rows `t` whose index, read signed, is `j`. -/
theorem scatterAdd_apply (x : FVec Ideal S2048x4096 .f32) (ci : IVec S3072x1 32) (upd : FVec Ideal S3072x4096 .f32)
    (j : Fin 2048) (a : Fin 4096) :
    Host.scatterAdd foldDims x ci upd (ix2 j a)
      = x (ix2 j a) + ∑ t ∈ Finset.univ.filter (fun t : Fin 3072 => (ci (ix2 t (0 : Fin 1))).toInt = (j.val : ℤ)),
          upd (ix2 t a) := by
  unfold Host.scatterAdd
  rw [Ideal.hostScatterAdd_def]
  unfold Ideal.hostScatterAdd
  congr 1
  rw [Finset.sum_filter, Finset.sum_filter, LibSums.sum_idx2']
  refine Finset.sum_congr rfl fun t _ => ?_
  simp only [resultIdx_eq_some_iff]
  show (∑ b : Fin 4096, if (ci (ix2 t (0 : Fin 1))).toInt = (j.val : ℤ) ∧ b.val = a.val then upd (ix2 t b) else 0) = _
  by_cases hz : (ci (ix2 t (0 : Fin 1))).toInt = (j.val : ℤ)
  · rw [if_pos hz, Finset.sum_eq_single a]
    · rw [if_pos ⟨hz, rfl⟩]
    · intro b _ hb
      rw [if_neg fun h => hb (Fin.ext h.2)]
    · intro ha; exact absurd (Finset.mem_univ a) ha
  · rw [if_neg hz]
    refine Finset.sum_eq_zero fun b _ => ?_
    rw [if_neg fun h => hz h.1]

/-- The index array as a column: entry `(t, 0)` is entry `t`. -/
private theorem column_apply (cl : IVec S3072 32) (t : Fin 3072) :
    broadcastInDim S3072x1 ![0] bcast_S3072_S3072x1_0 cl (ix2 t (0 : Fin 1)) = cl (ValueIdx.ix1 t) :=
  broadcastInDim_apply _ _ _ _ _ fun b => by
    match b with
    | ⟨0, _⟩ => rfl

/-- The array of zeros reads 0 everywhere. -/
private theorem zeros_apply (i : S2048x4096.Idx) :
    broadcastInDim S2048x4096 ![] bcast_S_S2048x4096 (constant (F := Ideal) S_ .f32 0x00000000#32) i = 0 := by
  show Ideal.ofBits .f32 0x00000000#32 = 0
  exact Ideal.ofBits_zero_f32

/-- THE EFFECTIVE MATRIX AT `(a, j)`: the head entry plus the tail entries `(a, 2048 + t)` of the `t` whose index, read
    signed, is `j`. -/
theorem connEff_apply (conn : FVec Ideal S4096x5120 .f32) (cl : IVec S3072 32) (a : Fin 4096) (j : Fin 2048) :
    connEff (F := Ideal) conn cl (ValueIdx.ix2 a j)
      = conn (ValueIdx.ix2 a ⟨j.val, by omega⟩)
        + ∑ t ∈ Finset.univ.filter (fun t : Fin 3072 => (cl (ValueIdx.ix1 t)).toInt = (j.val : ℤ)),
            conn (ValueIdx.ix2 a ⟨2048 + t.val, by omega⟩) := by
  unfold connEff
  rw [truncf_apply, addf_apply, transpose_ix2_apply, scatterAdd_apply, zeros_apply, zero_add,
    slice2_axis1_apply 0 conn slices_S4096x5120_S4096x2048_0_0 a j ⟨j.val, by omega⟩ (Nat.zero_add _).symm]
  congr 1
  refine Finset.sum_congr (Finset.filter_congr fun t _ => by rw [column_apply]) fun t _ => ?_
  rw [transpose_ix2_apply, slice2_axis1_eq]

/-- The regrouping over the reals: multiplying the folded row by `r` and summing over its places is the head's sum plus
    the sum over the folded entries, each against the place it was folded onto. Every folded entry is counted once,
    at its own place (the places' fibres partition the entries). -/
private theorem fold_core {J T : Type*} [Fintype J] [Fintype T] [DecidableEq J] (c r : J → ℝ) (d : T → ℝ) (ρ : T → J) :
    ∑ j, (c j + ∑ t ∈ Finset.univ.filter (fun t => ρ t = j), d t) * r j
      = ∑ j, c j * r j + ∑ t, d t * r (ρ t) := by
  simp only [add_mul, Finset.sum_add_distrib, Finset.sum_mul]
  congr 1
  rw [← Finset.sum_fiberwise (s := Finset.univ) (g := ρ) (f := fun t => d t * r (ρ t))]
  refine Finset.sum_congr rfl fun j _ => Finset.sum_congr rfl fun t ht => ?_
  rw [(Finset.mem_filter.1 ht).2]

/-- The duplicated stage on its first 2048 rows is the retinal stage. -/
private theorem specL_head (r : FVec Ideal Cert.Spec.SR .f32) (idx : IVec Cert.Spec.SI 32) (j : Fin 2048) (k : Fin 16384) :
    Cert.Spec.specL r idx (ValueIdx.ix2 (⟨j.val, by omega⟩ : Fin 5120) k) = r (ValueIdx.ix2 j k) := by
  unfold Cert.Spec.specL
  rw [dif_pos (show ((ValueIdx.ix2 (⟨j.val, by omega⟩ : Fin 5120) k) 0).val < 2048 from j.isLt)]

/-- Its row `2048 + t` is the row of the retinal stage that index `t` names. -/
private theorem specL_tail (r : FVec Ideal Cert.Spec.SR .f32) (idx : IVec Cert.Spec.SI 32) (t : Fin 3072) (k : Fin 16384) :
    Cert.Spec.specL r idx (ValueIdx.ix2 (⟨2048 + t.val, by omega⟩ : Fin 5120) k)
      = r (ValueIdx.ix2 (Cert.Spec.rowOf idx t) k) := by
  unfold Cert.Spec.specL
  rw [dif_neg (show ¬((ValueIdx.ix2 (⟨2048 + t.val, by omega⟩ : Fin 5120) k) 0).val < 2048 from
    Nat.not_lt.2 (Nat.le_add_right _ _))]
  have e : ∀ h, (⟨2048 + t.val - 2048, h⟩ : Fin 3072) = t := fun _ => Fin.ext (Nat.add_sub_cancel_left _ _)
  show r (ValueIdx.ix2 (Cert.Spec.rowOf idx ⟨2048 + t.val - 2048, _⟩) _) = _
  rw [e]

/-- A sum over the first `m + n` naturals is the sum over the first `m` plus the sum over the `n` after them. -/
private theorem sum_fin_split {M : Type*} [AddCommMonoid M] (m n N : ℕ) (h : m + n = N) (f : Fin N → M) :
    ∑ q : Fin N, f q = ∑ j : Fin m, f ⟨j.val, by omega⟩ + ∑ t : Fin n, f ⟨m + t.val, by omega⟩ := by
  subst h
  exact Fin.sum_univ_add f

/-- THE FOLD: the effective matrix against the retinal stage is the connection matrix against the duplicated stage,
    entry by entry, when every entry is real (distributivity is used, which fails at the infinities) and the clipped
    indices name the rows the specification names. Σ_j (c[a,j] + Σ_{t : row t = j} c[a,2048+t]) · r[j,k]
    = Σ_{j<2048} c[a,j] · r[j,k] + Σ_{t<3072} c[a,2048+t] · r[row t,k] = Σ_{q<5120} c[a,q] · l[q,k]. -/
theorem fold_eq (conn : FVec Ideal S4096x5120 .f32) (idx cl : IVec S3072 32) (r : FVec Ideal S2048x16384 .f32)
    (hcl : ∀ t : Fin 3072, (cl (ValueIdx.ix1 t)).toInt.toNat = min (idx (ValueIdx.ix1 t)).toInt.toNat 2047
      ∧ 0 ≤ (cl (ValueIdx.ix1 t)).toInt ∧ (cl (ValueIdx.ix1 t)).toInt < 2048)
    (hconn : ∀ i, ∃ v : ℝ, conn i = (v : EReal)) (hr : ∀ i, ∃ v : ℝ, r i = (v : EReal)) (a : Fin 4096) (k : Fin 16384) :
    ∑ j : Fin 2048, connEff (F := Ideal) conn cl (ValueIdx.ix2 a j) * r (ValueIdx.ix2 j k)
      = Cert.Spec.specV conn (Cert.Spec.specL r idx) (ValueIdx.ix2 a k) := by
  choose cR hcR using hconn
  choose rR hrR using hr
  -- the clipped index, read signed, is `j` exactly when the specification's row is `j`
  have hrow : ∀ (t : Fin 3072) (j : Fin 2048),
      (cl (ValueIdx.ix1 t)).toInt = (j.val : ℤ) ↔ Cert.Spec.rowOf idx t = j := by
    intro t j
    obtain ⟨h1, h2, h3⟩ := hcl t
    unfold Cert.Spec.rowOf
    rw [Fin.ext_iff]
    show _ ↔ min (idx (ValueIdx.ix1 t)).toInt.toNat 2047 = j.val
    rw [← h1]
    omega
  -- the left side, over the reals
  have hL : ∀ j : Fin 2048, connEff (F := Ideal) conn cl (ValueIdx.ix2 a j) * r (ValueIdx.ix2 j k)
      = (((cR (ValueIdx.ix2 a ⟨j.val, by omega⟩)
          + ∑ t ∈ Finset.univ.filter (fun t : Fin 3072 => Cert.Spec.rowOf idx t = j),
              cR (ValueIdx.ix2 a ⟨2048 + t.val, by omega⟩))
          * rR (ValueIdx.ix2 j k) : ℝ) : EReal) := by
    intro j
    rw [connEff_apply, EReal.coe_mul, EReal.coe_add, ← LibSums.sum_coe, hcR (ValueIdx.ix2 a ⟨j.val, _⟩), hrR]
    congr 2
    exact Finset.sum_congr (Finset.filter_congr fun t _ => hrow t j) fun t _ => hcR _
  -- the right side, over the reals: the 5120 rows are the first 2048 and the 3072 after them
  have hR : Cert.Spec.specV conn (Cert.Spec.specL r idx) (ValueIdx.ix2 a k)
      = ((∑ j : Fin 2048, cR (ValueIdx.ix2 a ⟨j.val, by omega⟩) * rR (ValueIdx.ix2 j k)
          + ∑ t : Fin 3072, cR (ValueIdx.ix2 a ⟨2048 + t.val, by omega⟩)
              * rR (ValueIdx.ix2 (Cert.Spec.rowOf idx t) k) : ℝ) : EReal) := by
    have hs := sum_fin_split 2048 3072 5120 (by norm_num)
      (fun q : Fin 5120 => conn (ValueIdx.ix2 a q) * Cert.Spec.specL r idx (ValueIdx.ix2 q k))
    refine hs.trans ?_
    rw [EReal.coe_add]
    refine congrArg₂ (· + ·) ?_ ?_
    · refine Eq.trans ?_ (LibSums.sum_coe _ _)
      refine Finset.sum_congr rfl fun j _ => ?_
      rw [EReal.coe_mul, ← hcR, ← hrR]
      show conn (ValueIdx.ix2 a ⟨j.val, _⟩) * Cert.Spec.specL r idx (ValueIdx.ix2 ⟨j.val, _⟩ k) = _
      rw [specL_head]
    · refine Eq.trans ?_ (LibSums.sum_coe _ _)
      refine Finset.sum_congr rfl fun t _ => ?_
      rw [EReal.coe_mul, ← hcR, ← hrR]
      show conn (ValueIdx.ix2 a ⟨2048 + t.val, _⟩) * Cert.Spec.specL r idx (ValueIdx.ix2 ⟨2048 + t.val, _⟩ k) = _
      rw [specL_tail]
  rw [Finset.sum_congr rfl fun j _ => hL j, LibSums.sum_coe, hR, fold_core]

end Cert.KernelIdeal.HostVal

end
-- ==== Proof.KiHost.lean ====
/-
  What the host's operations leave in the buffers between the kernels: the clipped indices, the
  row table, the two retinal stages flattened to matrices, and the effective connection matrix,
  each as a function of the launch contents and of what the kernels before it left.
-/
import proofs.«402079_j32023276159552_3_alg».proof.Proof.KiRegions
import proofs.«402079_j32023276159552_3_alg».proof.Proof.KiTable
import proofs.«402079_j32023276159552_3_alg».proof.Proof.KiFold

noncomputable section

namespace Cert.KernelIdeal.Hand

open Cert.KernelIdeal Cert.KernelIdeal.Gen Cert.KernelIdeal.GenP Cert.KernelIdeal.HostVal
open Idealize.ShloMosaic Idealize.ShloMosaic.TcCoe
open Idealize.SL.Sem

variable {F : FTy → Type} [FloatOps F] (m : (ℓ : Loc nD τ sig) → Buf (Elt F) ℓ) (outs : Outs (F := F)) (c : Dev nD)

/-- After the two constants and the clip, the clipped indices: min(2047, max(0, idx)). -/
theorem V2_main_v0 : (V2 m c main_v0 : IVec S3072 32) = clipIdx (m ((c : Thread nD τ).loc main_arg4)) := by
  show StableHlo.after hostOps0_1 _ (Proc.devRef .tc main_v0) = _
  after_results
  rfl

/-- The clipped indices are still there after the first kernel, which may change only its own two results. -/
theorem V3_main_v0 : (V3 m outs c main_v0 : IVec S3072 32) = clipIdx (m ((c : Thread nD τ).loc main_arg4)) :=
  (V3_of m outs c main_v0 (by decide)).trans (V2_main_v0 m c)

/-- The prefetched table: the identity on 0..2047, then the clipped indices. -/
theorem V4_main_v5 : (V4 m outs c main_v5 : IVec S5120 32) = table (m ((c : Thread nD τ).loc main_arg4)) := by
  have e : (V4 m outs c main_v5 : IVec S5120 32)
      = concatenate S5120 0 [⟨S2048, iotaInDim S2048 32 0⟩, ⟨S3072, (V3 m outs c main_v0 : IVec S3072 32)⟩]
          concatenates_S2048_S3072_S5120_d0 := by
    show StableHlo.after hostOps1 _ (Proc.devRef .tc main_v5) = _
    after_results
  rw [e, V3_main_v0]
  rfl

/-- The first retinal stage as a matrix: the first kernel's f32 result, each image flattened. -/
theorem V4_main_v2 : (V4 m outs c main_v2 : FVec F S2048x16384 .f32)
    = shapeCast S2048x16384 (outs 3 main_v1_0 c : FVec F S2048x128x128 .f32) shapeCasts_S2048x128x128_S2048x16384 := by
  show StableHlo.after hostOps1 _ (Proc.devRef .tc main_v2) = _
  after_results
  rfl

/-- Flattening each 128×128 image row-major: entry (n, p) of the matrix is entry (n, p / 128, p % 128) of the
    stack of images, whatever the entries are. -/
theorem flat_apply {α : Type} (x : S2048x128x128.Idx → α) (n : Fin 2048) (p : Fin 16384) :
    shapeCast S2048x16384 x shapeCasts_S2048x128x128_S2048x16384 (ValueIdx.ix2 n p)
      = x (ValueIdx.ix3 n (⟨p.val / 128, by omega⟩ : Fin 128) (⟨p.val % 128, by omega⟩ : Fin 128)) :=
  shapeCast_apply x _ _ _ (by
    rw [Shape.rowMajor_val_three, Shape.rowMajor_val_two]
    show (n.val * 128 + p.val / 128) * 128 + p.val % 128 = n.val * 16384 + p.val
    omega)

/-- The first retinal stage as a matrix, at an index. -/
theorem V4_main_v2_apply (n : Fin 2048) (p : Fin 16384) :
    (V4 m outs c main_v2 : FVec F S2048x16384 .f32) (ValueIdx.ix2 n p)
      = (outs 3 main_v1_0 c : FVec F S2048x128x128 .f32)
          (ValueIdx.ix3 n (⟨p.val / 128, by omega⟩ : Fin 128) (⟨p.val % 128, by omega⟩ : Fin 128)) := by
  rw [V4_main_v2]; exact flat_apply _ n p

/-- The second retinal stage (the first kernel's 16-bit result) as a matrix. -/
theorem V4_main_v3 : (V4 m outs c main_v3 : FVec F S2048x16384 .bf16)
    = shapeCast S2048x16384 (outs 3 main_v1_1 c : FVec F S2048x128x128 .bf16) shapeCasts_S2048x128x128_S2048x16384 := by
  show StableHlo.after hostOps1 _ (Proc.devRef .tc main_v3) = _
  after_results
  rfl

/-- The second retinal stage as a matrix, at an index. -/
theorem V4_main_v3_apply (n : Fin 2048) (p : Fin 16384) :
    (V4 m outs c main_v3 : FVec F S2048x16384 .bf16) (ValueIdx.ix2 n p)
      = (outs 3 main_v1_1 c : FVec F S2048x128x128 .bf16)
          (ValueIdx.ix3 n (⟨p.val / 128, by omega⟩ : Fin 128) (⟨p.val % 128, by omega⟩ : Fin 128)) := by
  rw [V4_main_v3]; exact flat_apply _ n p

/-! ## What the later items leave untouched -/

/-- The 16-bit matrix is untouched by the second kernel and by the host operations after it. -/
theorem V6_main_v3 : V6 m outs c main_v3 = V4 m outs c main_v3 :=
  (V6_of m outs c main_v3 (by decide)).trans (V5_of m outs c main_v3 (by decide))

/-- What the second kernel left in its first operand's buffer … -/
theorem V5_main_v2 : V5 m outs c main_v2 = outs 5 main_v2 c := by
  show Function.update (Function.update (V4 m outs c) (Proc.devRef .tc main_v2) (outs 5 main_v2 c))
    (Proc.devRef .tc main_v6) (outs 5 main_v6 c) (Proc.devRef .tc main_v2) = _
  rw [Function.update_of_ne (StableHlo.devRef_ne_of_ne (by decide : main_v2 ≠ main_v6)), Function.update_self]

/-- … and in its result. -/
theorem V5_main_v6 : V5 m outs c main_v6 = outs 5 main_v6 c := by
  show Function.update (Function.update (V4 m outs c) (Proc.devRef .tc main_v2) (outs 5 main_v2 c))
    (Proc.devRef .tc main_v6) (outs 5 main_v6 c) (Proc.devRef .tc main_v6) = _
  rw [Function.update_self]

theorem V6_main_v2 : V6 m outs c main_v2 = outs 5 main_v2 c :=
  (V6_of m outs c main_v2 (by decide)).trans (V5_main_v2 m outs c)

theorem V6_main_v6 : V6 m outs c main_v6 = outs 5 main_v6 c :=
  (V6_of m outs c main_v6 (by decide)).trans (V5_main_v6 m outs c)

theorem V7_main_v2 : V7 m outs c main_v2 = outs 5 main_v2 c :=
  (V7_of m outs c main_v2 (by decide)).trans (V6_main_v2 m outs c)

theorem V7_main_v6 : V7 m outs c main_v6 = outs 5 main_v6 c :=
  (V7_of m outs c main_v6 (by decide)).trans (V6_main_v6 m outs c)

/-- What the third kernel left in its result. -/
theorem V7_main_v16 : V7 m outs c main_v16 = outs 7 main_v16 c := by
  show Function.update (V6 m outs c) (Proc.devRef .tc main_v16) (outs 7 main_v16 c) (Proc.devRef .tc main_v16) = _
  rw [Function.update_self]

/-- The connection matrix and the clipped indices reach the last host operations as they were. -/
theorem V5_main_arg3 : V5 m outs c main_arg3 = m ((c : Thread nD τ).loc main_arg3) :=
  (V5_of m outs c main_arg3 (by decide)).trans <| (V4_of m outs c main_arg3 (by decide)).trans <|
    (V3_of m outs c main_arg3 (by decide)).trans <| (V2_of m c main_arg3 (by decide)).trans <|
    (V1_of m c main_arg3 (by decide)).trans rfl

theorem V5_main_v0 : (V5 m outs c main_v0 : IVec S3072 32) = clipIdx (m ((c : Thread nD τ).loc main_arg4)) :=
  (V5_of m outs c main_v0 (by decide)).trans <| (V4_of m outs c main_v0 (by decide)).trans (V3_main_v0 m outs c)

/-- The last host operations build the effective connection matrix from the connection matrix and the clipped
    indices: its head columns plus its tail columns accumulated onto the rows the indices name, in 16 bits. -/
theorem V6_main_v15 : (V6 m outs c main_v15 : FVec F S4096x2048 .bf16)
    = connEff (m ((c : Thread nD τ).loc main_arg3)) (clipIdx (m ((c : Thread nD τ).loc main_arg4))) := by
  have e : (V6 m outs c main_v15 : FVec F S4096x2048 .bf16)
      = connEff (V5 m outs c main_arg3 : FVec F S4096x5120 .f32) (V5 m outs c main_v0 : IVec S3072 32) := by
    show StableHlo.after hostOps2 _ (Proc.devRef .tc main_v15) = _
    after_results
    rfl
  rw [e, V5_main_arg3, V5_main_v0]

end Cert.KernelIdeal.Hand
-- ==== Proof.KiMain.lean ====
/-
  The kernel program's run and frame: the launch over the three regions' segments at the regions' own proof data. Every
  weakly fair execution of @main terminates; the final memory holds, at every buffer no kernel scopes, what the last
  valuation computes (`run_main`); in particular the five arguments end as launched (`frame`).
-/
import proofs.«402079_j32023276159552_3_alg».proof.Proof.KiRun
import proofs.«402079_j32023276159552_3_alg».proof.Proof.KiReg1
import proofs.«402079_j32023276159552_3_alg».proof.Proof.KiReg2
import proofs.«402079_j32023276159552_3_alg».proof.Proof.KiR0
import proofs.«402079_j32023276159552_3_alg».proof.Proof.KiR1
import proofs.«402079_j32023276159552_3_alg».proof.Proof.KiR2
import proofs.«402079_j32023276159552_3_alg».proof.Proof.KiHost
import proofs.«402079_j32023276159552_3_alg».proof.Proof.KiTable

noncomputable section

namespace Cert.KernelIdeal.Hand

open Cert.KernelIdeal Cert.KernelIdeal.Gen Cert.KernelIdeal.GenP Cert.KernelIdeal.HostVal
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ) (ρ : Dev nD → PrngReg)

/-- What the three regions leave, at their own proof data. -/
abbrev outsM : Outs (F := F) := outsC m (dat0 (F := F)) (dat2 (F := F))

/-- The index table's words are row numbers of r: below 2048 they are the row's own number, above it the clipped index. -/
theorem table_rows (c : Dev nD) (q : Fin 5120) :
    ((C4 m (dat0 (F := F)) c main_v5 : IVec S5120 32) (ValueIdx.ix1 q)).toNat < 2048 := by
  have h : (C4 m (dat0 (F := F)) c main_v5 : IVec S5120 32) = table (m ((c : Thread nD τ).loc main_arg4)) :=
    V4_main_v5 m (outsA m (dat0 (F := F))) c
  rw [h]
  exact table_toNat_lt _ q

/-- THE RUN: every weakly fair execution of @main from `m` with zero counters terminates, nothing faulting, and every
    buffer no kernel scopes ends at what the last valuation computes. -/
theorem run_main : θ_run defs (onTc (τ := τ) (main (F := F))) ⟨m, fun _ => 0, ρ⟩ (fun r => ∀ c : Dev nD,
    ∀ b ∈ Pipeline.ucRefs τ sig, r.2.mem ((c : Thread nD τ).1, b) = V7 m (outsM m) c b) :=
  run_of_regions m ρ (outsM m) (adm m (dat0 (F := F))) (pdats m (dat0 (F := F)) (dat1 (F := F)) (dat2 (F := F)))
    (reg0 m dat0 A_eq0 Φ_eq0 owed_eq0 q_eq0 (fun _ _ _ => rfl) body_obligation0 dat1 dat2) (fun _ => .rfl) (fun _ => .rfl)
    (reg1 m dat0 dat1 Φ_eq1 owed_eq1 (fun _ _ _ _ => rfl) body_obligation1 dat2 (table_rows m)) (fun _ => .rfl) (fun _ => .rfl)
    (reg2 m dat0 dat1 dat2 A_eq2 Φ_eq2 owed_eq2 q_eq2 (fun _ _ _ => rfl) body_obligation2) (fun _ => .rfl) (fun _ => .rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the run, read at the five arguments: no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V7_main_arg0 m (outsM m) c),
     (h c _ (mem_uc main_arg1 (by decide))).trans (V7_main_arg1 m (outsM m) c),
     (h c _ (mem_uc main_arg2 (by decide))).trans (V7_main_arg2 m (outsM m) c),
     (h c _ (mem_uc main_arg3 (by decide))).trans (V7_main_arg3 m (outsM m) c),
     (h c _ (mem_uc main_arg4 (by decide))).trans (V7_main_arg4 m (outsM m) c)⟩) (run_main m ρ)

end Cert.KernelIdeal.Hand

end
-- ==== Proof.KbBase.lean ====
/-
  Common vocabulary of the three kernel regions' proofs: the resource algebra (the pipeline library's, beside the
  counters a body's own transfers take their tokens from), and a buffer held whole at given contents.
-/
import proofs.«402079_j32023276159552_3_alg».proof.Proof.Gen.Kernel.Skeleton
import proofs.«402079_j32023276159552_3_alg».proof.Proof.Gen.Kernel.Points
import proofs.«402079_j32023276159552_3_alg».proof.Proof.KbRegions
import Idealize.ShloMosaic.Lib.Tactic
import Idealize.ShloMosaic.Lib.Transfers
import Idealize.ShloMosaic.Lib.Pipeline.Kit
import Idealize.ShloMosaic.Lib.Pipeline.Frame
import Idealize.ShloMosaic.Lib.Pipeline.FrameBody
import Idealize.ShloMosaic.Lib.Pipeline.FrameSuffix
import Idealize.ShloMosaic.Lib.Pipeline.Regions

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The resource algebra of the whole program: the pipeline library's copy beside the transfers' counters. -/
abbrev UU : Type := Pipeline.UD sig nD τ

/-- The separation logic's model at that algebra. -/
abbrev MM (F : FTy → Type) [FloatOps F] : Type := MT nD τ sig Unit (Elt F) ℕ UU ℕ

/-- The pipeline library's algebra is the left component. -/
abbrev EP : Emb (UR sig nD τ) (MM F) := embL

/-- Memref `M`'s buffer on core `c`: its contents type, -/
abbrev Bf (c : Dev nD) {sp : Space} {S : Shape} {e : EltTy} (M : Memref sig .tc sp S e) : Type :=
  Buf (Elt F) (M.view.loc (c : Thread nD τ))
/-- and the buffer held whole, outright, at `f`. -/
abbrev pt (c : Dev nD) {sp : Space} {S : Shape} {e : EltTy} (M : Memref sig .tc sp S e) (f : Bf (F := F) c M) : sProp (MM F) :=
  M.view.loc (c : Thread nD τ) ↦{fullShare} f

/-- The TensorCore's buffer contents when a region is entered: what every region's proof data are stated at. -/
abbrev Contents (F : FTy → Type) [FloatOps F] : Type :=
  (c : Dev nD) → (b : Ref sig .tc) → Buf (Elt F) ((c : Thread nD τ).loc b)

end Cert.Kernel.Hand

end
-- ==== Proof.KbR1Defs.lean ====
/-
  The gather region (the second kernel): each of its 40 grid points copies 128 rows of r into 128 consecutive rows of l,
  row 128·t + b of l from the row of r that word 128·t + b of the index table names. This module fixes the vocabulary:
  the kernel's own 128 transfer semaphores, a table word read as a row of r, what one grid point does to l
  (`gatherStep`), and l after the first n points in closed form (`gathered`).
-/
import proofs.«402079_j32023276159552_3_alg».proof.Proof.KbBase
import Idealize.ShloMosaic.Lib.ValueIdx

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The gather kernel's own semaphores: transfer b of a grid point completes on semaphore b of its scratch array,
    which is the program's DMA semaphore 9 + b. -/
abbrev osem1 : Fin 128 → SemLoc sig := fun b => .dma ⟨9 + b.val, by have := b.isLt; change 9 + b.val < 142; omega⟩

/-- Word q of the table as a row of r (the clamp never binds on a table whose words are below 2048). -/
def tblRow (T : IVec S5120 32) (q : Fin 5120) : Fin 2048 := ⟨min (T (ValueIdx.ix1 q)).toNat 2047, by omega⟩

/-- Row q of l taken from r through the table. -/
def rowFrom (T : IVec S5120 32) (r : FVec F S2048x16384 .f32) (y : S5120x16384.Idx) : F .f32 :=
  r (ValueIdx.ix2 (tblRow T ⟨(y 0).val, ValueIdx.idx2_lt0 y⟩) (⟨(y 1).val, ValueIdx.idx2_lt1 y⟩ : Fin 16384))

/-- What grid point t leaves in l: rows 128·t … 128·t + 127 taken from r through the table, every other row as it was. -/
def gatherStep (t : ℕ) (T : IVec S5120 32) (r : FVec F S2048x16384 .f32) (l : FVec F S5120x16384 .f32) :
    FVec F S5120x16384 .f32 :=
  fun y => if 128 * t ≤ (y 0).val ∧ (y 0).val < 128 * t + 128 then rowFrom T r y else l y

/-- l after the first n grid points, from its contents l₀ at the region's entry: the rows below 128·n taken from r. -/
def gathered (n : ℕ) (T : IVec S5120 32) (r : FVec F S2048x16384 .f32) (l₀ : FVec F S5120x16384 .f32) :
    FVec F S5120x16384 .f32 :=
  fun y => if (y 0).val < 128 * n then rowFrom T r y else l₀ y

/-- The gather region's invariant before grid point n (and after point n − 1), at the region-entry contents V: the scoped
    buffers no window stages at some contents, the generator register at some state, the kernel's 128 semaphores at zero,
    and the three buffers the body touches held whole — the table and r as entered, l with its first 128·n rows gathered. -/
def Φ1 (V : Contents F) (c : Dev nD) (n : ℕ) : sProp (MM F) :=
  iprop(Pipeline.scopedRest (Ix := Unit) (Name := ℕ) (U := UU) (Lvl := ℕ) (Val := Elt F) spec1 c
    ∗ (∃ g, prngReg c g)
    ∗ Pipeline.ownSems0 (Ix := Unit) (Name := ℕ) (U := UU) (Lvl := ℕ) (Val := Elt F) (τ := τ) osem1 c
    ∗ pt c (Memref.whole main_v5) (V c main_v5)
    ∗ pt c (Memref.whole main_v2) (V c main_v2)
    ∗ pt c (Memref.whole main_v6) (gathered (F := F) n (V c main_v5) (V c main_v2) (V c main_v6)))

end Cert.Kernel.Hand

end
-- ==== Proof.KbRunCond.lean ====
/-
  The kernel program's run over its seven items (four host stretches, three kernel regions), conditional on a segment
  record per region: the same launch as the argument-frame of this program, with the final memory read at EVERY buffer
  no kernel scopes, so that the results can be read off the last valuation as well as the arguments.
-/
import proofs.«402079_j32023276159552_3_alg».proof.Proof.KbRegions

noncomputable section

namespace Cert.Kernel.GenP

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE RUN, GIVEN THE REGIONS' RECORDS. For any user algebra, level assignment, launch dues and ghost resources, any rest
    states `E` the launch makes on every core at once (`hE0`) and that end owing nothing (`hE3`), any contents the regions
    leave (`outs`) and any proof data: given, per region, a segment record entered from the thread state before it and left
    at the one after it, every weakly fair execution of @main from memory `m` with zero counters terminates and every final
    memory holds, at every buffer no kernel scopes, what the last valuation `V7 m outs` computes. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, hpre0 c, hpost0 c, hpre1 c, hpost1 c, hpre2 c, (hpost2 c).trans (sep_mono .rfl (hE3 c))⟩)
    (hinit := ?_) (QY := fun c s => ∀ b ∈ Pipeline.ucRefs τ sig, s.mem ((c : Thread nD τ).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact h
    · iexact HSI

end Cert.Kernel.GenP

end
-- ==== Proof.KbVals.lean ====
/-
  The kernel program's buffers between its seven items (four host stretches, three kernel regions), as valuations: what
  each region is entered at and what it leaves, in three stages (each region's entry contents read only the results of the
  regions before it), the index table's contents as the gather region's admissible table, and the proof data family of the
  three pipelines — all over each region's proof data, taken as given.
-/
import proofs.«402079_j32023276159552_3_alg».proof.Proof.KbBase
import proofs.«402079_j32023276159552_3_alg».proof.Proof.KbR1Defs
import proofs.«402079_j32023276159552_3_alg».proof.Proof.KbRunCond

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

section Run

variable (m : (ℓ : Loc nD τ sig) → Buf (Elt F) ℓ) (ρ : Dev nD → PrngReg)

/-! ## The regions' proof data, as given -/

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (body0 : ∀ (V : Contents F) (c : Dev nD), BodyObligation (dat0 V c) (defs₀ (F := F)) Variants.none () Set.univ)

/-! ## The buffers' contents at the boundaries -/

/-- The contents region 0 is entered at. -/
abbrev C2 : Contents F := fun c b => V2 m c b

/-- What region 0 leaves: its arrays at what the pipeline computes, every other buffer as entered. -/
def U3 (c : Dev nD) : Valuation τ sig (Elt F) :=
  Pipeline.withArrays spec0 c (V2 m c) fun w => (dat0 (C2 m) c).arrAt w cfg0.N

/-- The regions' results, first stage: region 0's only. -/
def outsA : Outs (F := F) := fun _ r c => U3 m dat0 c (Proc.devRef .tc r)

/-! ## The other two regions' proof data, as given -/

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (body2 : ∀ (V : Contents F) (c : Dev nD), BodyObligation (dat2 V c) (defs₀ (F := F)) Variants.none () Set.univ)

/-- The contents region 1 is entered at (they read region 0's results only). -/
abbrev C4 : Contents F := fun c b => V4 m (outsA m dat0) c b

/-- What region 1 leaves: l with all its 5120 rows gathered, every other buffer as entered. -/
def U5 (c : Dev nD) : Valuation τ sig (Elt F) :=
  Function.update (V4 m (outsA m dat0) c) (Proc.devRef .tc main_v6)
    (gathered (F := F) 40 (C4 m dat0 c main_v5) (C4 m dat0 c main_v2) (C4 m dat0 c main_v6))

/-- The regions' results, second stage: regions 0 and 1. -/
def outsB : Outs (F := F) := fun J r c => if J = 3 then U3 m dat0 c (Proc.devRef .tc r) else U5 m dat0 c (Proc.devRef .tc r)

/-- The contents region 2 is entered at. -/
abbrev C6 : Contents F := fun c b => V6 m (outsB m dat0) c b

/-- What region 2 leaves: its arrays at what the pipeline computes, every other buffer as entered. -/
def U7 (c : Dev nD) : Valuation τ sig (Elt F) :=
  Pipeline.withArrays spec2 c (V6 m (outsB m dat0) c) fun w => (dat2 (C6 m dat0) c).arrAt w cfg2.N

/-- The regions' results. -/
def outsC : Outs (F := F) := fun J r c =>
  if J = 3 then U3 m dat0 c (Proc.devRef .tc r) else if J = 5 then U5 m dat0 c (Proc.devRef .tc r) else U7 m dat0 dat2 c (Proc.devRef .tc r)

theorem V4_outsC (c : Dev nD) : V4 m (outsC m dat0 dat2) c = V4 m (outsA m dat0) c := rfl
theorem V6_outsC (c : Dev nD) : V6 m (outsC m dat0 dat2) c = V6 m (outsB m dat0) c := rfl

/-! ## The tables' admissible contents and the proof data family -/

/-- The prefetched tables' admissible contents: regions 0 and 2 have no table; region 1's is the index table as the host
    stretch before it leaves it (the program runs on one core). -/
def adm : (p : Fin 3) → (pcfgs (F := F) p).Adm
  | ⟨0, _⟩ => cfg0.toPCfg_adm
  | ⟨1, _⟩ => ⟨fun k => C4 m dat0 (0 : Dev nD) (pre1.ref k), trivial⟩
  | ⟨2, _⟩ => cfg2.toPCfg_adm
  | ⟨_ + 3, h⟩ => absurd h (Nat.not_lt.2 (Nat.le_add_left _ _))

/-- Every pipeline's proof data, each at its region's entry contents — a literal match. -/
def pdats : (p : Fin 3) → (c : Dev nD) → Dat τ (Elt F) Unit ℕ UU ℕ (Pipeline.pin (pcfgs (F := F)) (adm m dat0) p) c
  | ⟨0, _⟩ => fun c => dat0 (C2 m) c
  | ⟨1, _⟩ => fun c => dat1 (C4 m dat0) (adm m dat0 1) c
  | ⟨2, _⟩ => fun c => dat2 (C6 m dat0) c
  | ⟨_ + 3, h⟩ => absurd h (Nat.not_lt.2 (Nat.le_add_left _ _))

end Run

end Cert.Kernel.Hand

end
-- ==== Proof.KbLaunchMain.lean ====
/-
  The launch around the conditional run: at the program's resource algebra (the pipeline library's copy beside the
  transfers' counters) the launch element is split, its left half handed to the pipeline library; no core owes another
  anything; beside the buffers every segment carries the core's generator register at some state and its dues at zero.
  What is left are the three kernel regions' segment records.
-/
import proofs.«402079_j32023276159552_3_alg».proof.Proof.KbRunCond
import proofs.«402079_j32023276159552_3_alg».proof.Proof.KbBase

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.SL.BI.Laws Idealize.SL.ProofMode
open Idealize.ShloMosaic.Pipeline (Dat Seg HostSeg RegionSeg)

variable {F : FTy → Type} [FloatOps F]

/-- No kernel body is entered under a variant. -/
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state, and its dues
    at zero. -/
abbrev R (c : Dev nD) : sProp (MM F) := iprop((∃ r, prngReg c r) ∗ ∃ W, owes (c : Thread nD τ) (0 : CellTallies nD τ sig Unit) W)

-- the conditional run's implicit arguments are found by unifying its conclusion with this one, which takes unfolding
-- plain definitions in a metavariable's type
set_option backward.isDefEq.respectTransparency.types false in
/-- THE RUN, GIVEN THE REGIONS' RECORDS: from any memory with zero counters every weakly fair execution of @main
    terminates, and every final memory holds, at every buffer no kernel scopes, what the last valuation computes —
    given, per kernel region, a segment record entered from the buffers at the valuation before it beside `R` and left
    at the valuation after it beside `R`. -/
theorem run_of_regions (m : (ℓ : Loc nD τ sig) → Buf (Elt F) ℓ) (ρ : Dev nD → PrngReg) (outs : Outs (F := F))
    (a : (p : Fin 3) → (pcfgs (F := F) p).Adm)
    (pdats : (p : Fin 3) → (c : Dev nD) → Dat τ (Elt F) Unit ℕ UU ℕ (Pipeline.pin (pcfgs (F := F)) a p) c)
    (R0 : RegionSeg (pcfgs (F := F)) a pdats () defs₀ 𝒱₀ L lv 0)
    (hpre0 : ∀ c : Dev nD, iprop(StableHlo.held (c : Thread nD τ) (Pipeline.ucRefs τ sig) (V2 m c) ∗ R c) ⊢ R0.pre c)
    (hpost0 : ∀ c : Dev nD, R0.post c ⊢ iprop(StableHlo.held (c : Thread nD τ) (Pipeline.ucRefs τ sig) (V3 m outs c) ∗ R c))
    (R1 : RegionSeg (pcfgs (F := F)) a pdats () defs₀ 𝒱₀ L lv 1)
    (hpre1 : ∀ c : Dev nD, iprop(StableHlo.held (c : Thread nD τ) (Pipeline.ucRefs τ sig) (V4 m outs c) ∗ R c) ⊢ R1.pre c)
    (hpost1 : ∀ c : Dev nD, R1.post c ⊢ iprop(StableHlo.held (c : Thread nD τ) (Pipeline.ucRefs τ sig) (V5 m outs c) ∗ R c))
    (R2 : RegionSeg (pcfgs (F := F)) a pdats () defs₀ 𝒱₀ L lv 2)
    (hpre2 : ∀ c : Dev nD, iprop(StableHlo.held (c : Thread nD τ) (Pipeline.ucRefs τ sig) (V6 m outs c) ∗ R c) ⊢ R2.pre c)
    (hpost2 : ∀ c : Dev nD, R2.post c ⊢ iprop(StableHlo.held (c : Thread nD τ) (Pipeline.ucRefs τ sig) (V7 m outs c) ∗ R c)) :
    θ_run defs (onTc (τ := τ) (main (F := F))) ⟨m, fun _ => 0, ρ⟩ (fun r => ∀ c : Dev nD,
      ∀ b ∈ Pipeline.ucRefs τ sig, r.2.mem ((c : Thread nD τ).1, b) = V7 m outs c b) :=
  run_cond m EP () 𝒱₀ L lv (fun _ _ => rfl) ρ outs a pdats (O₀ := 0) (G := fun _ => iprop(emp))
    (u₀ := (initOf (Pipeline.cells (Pipeline.pin (pcfgs (F := F)) a) (cellOf_inj a)) (Pipeline.launchToks (Pipeline.pin (pcfgs (F := F)) a) (cellOf_inj a)), 1))
    (hu₀ := by
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by
      iintro ⟨-, HO⟩
      iexact HO)
    R0 hpre0 hpost0 R1 hpre1 hpost1 R2 hpre2 hpost2

end Cert.Kernel.Hand

end
-- ==== Proof.KbRun.lean ====
/-
  The kernel program's run, region by region. @main is: two short host stretches (two constants; the clip of the index
  input), the retinal kernel, a host stretch (two reshapes, an iota, the index table), the gather kernel, a host stretch
  (the effective connectivity matrix), the matrix-product kernel. Given each kernel region's proof data — what its body
  leaves at every grid point, and that it does — each region is a segment between two thread states (every buffer no
  kernel scopes held at the boundary's valuation, beside the generator register and the core owing nothing), and the
  launch over the seven segments gives: every weakly fair execution terminates and the final memory holds, at every such
  buffer, what the last valuation computes.
-/
import proofs.«402079_j32023276159552_3_alg».proof.Proof.KbVals
import proofs.«402079_j32023276159552_3_alg».proof.Proof.KbLaunchMain
import Idealize.ShloMosaic.Lib.Pipeline.RegionsLoop

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

section Run

variable (m : (ℓ : Loc nD τ sig) → Buf (Elt F) ℓ) (ρ : Dev nD → PrngReg)

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (rec_eq0 : ∀ (V : Contents F) (c : Dev nD) (t : Fin (cfg0.N + 1)), (dat0 V c).recorded t = Set.univ)
  (body0 : ∀ (V : Contents F) (c : Dev nD), BodyObligation (dat0 V c) (defs₀ (F := F)) Variants.none () Set.univ)

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (rec_eq1 : ∀ (V : Contents F) (a : (pcfg1 (F := F)).Adm) (c : Dev nD) (t : Fin ((cfg1 a).N + 1)), (dat1 V a c).recorded t = Set.univ)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (rec_eq2 : ∀ (V : Contents F) (c : Dev nD) (t : Fin (cfg2.N + 1)), (dat2 V c).recorded t = Set.univ)
  (body2 : ∀ (V : Contents F) (c : Dev nD), BodyObligation (dat2 V c) (defs₀ (F := F)) Variants.none () Set.univ)

local notation "OUT" => outsC m dat0 dat2
local notation "ADM" => adm m dat0
local notation "PD" => pdats m dat0 dat1 dat2

/-! ## Region 0: what it leaves is the next valuation -/

include A_eq0 in
theorem hF0 (c : Dev nD) (w : Fin cfg0.W) : (dat0 (C2 m) c).arrAt w cfg0.N = V3 m OUT c (Pipeline.arrRef spec0 w) := by
  have hin : ∀ (w : Fin cfg0.W), (cfg0.win w).isOut = false →
      Pipeline.arrRef spec0 w ∉ ([main_v1_0, main_v1_1] : List (Ref sig .tc)) → (dat0 (C2 m) c).arrAt w cfg0.N = V3 m OUT c (Pipeline.arrRef spec0 w) := by
    intro w hw hn
    rw [(dat0 (C2 m) c).arrAt_in w hw _, A_eq0]
    exact (V3_of m OUT c _ hn).symm
  match w with
  | ⟨0, _⟩ => exact hin 0 rfl (by decide)
  | ⟨1, _⟩ => exact hin 1 rfl (by decide)
  | ⟨2, _⟩ => exact hin 2 rfl (by decide)
  | ⟨3, _⟩ =>
    have h1 : V3 m OUT c main_v1_0 = U3 m dat0 c (Proc.devRef .tc main_v1_0) := by
      show Function.update (Function.update (V2 m c) (Proc.devRef .tc main_v1_0) (OUT 3 main_v1_0 c))
        (Proc.devRef .tc main_v1_1) (OUT 3 main_v1_1 c) (Proc.devRef .tc main_v1_0) = _
      rw [Function.update_of_ne (StableHlo.devRef_ne_of_ne (by decide : main_v1_0 ≠ main_v1_1)), Function.update_self]
      rfl
    exact ((Pipeline.withArrays_arr spec0 (launch0 (F := F)).win.arr_inj c _ _ 3).symm.trans h1.symm)
  | ⟨4, _⟩ =>
    have h1 : V3 m OUT c main_v1_1 = U3 m dat0 c (Proc.devRef .tc main_v1_1) := by
      show Function.update (Function.update (V2 m c) (Proc.devRef .tc main_v1_0) (OUT 3 main_v1_0 c))
        (Proc.devRef .tc main_v1_1) (OUT 3 main_v1_1 c) (Proc.devRef .tc main_v1_1) = _
      rw [Function.update_self]
      rfl
    exact ((Pipeline.withArrays_arr spec0 (launch0 (F := F)).win.arr_inj c _ _ 4).symm.trans h1.symm)

theorem hrest0 (c : Dev nD) : ∀ b : Ref sig .tc, b ∉ Finset.univ.image (Pipeline.arrRef spec0) → V3 m OUT c b = V2 m c b := by
  intro b hb
  refine V3_of m OUT c b ?_
  intro hmem
  rcases List.mem_cons.mp hmem with rfl | hmem
  · exact hb (Finset.mem_image.mpr ⟨3, Finset.mem_univ _, rfl⟩)
  · rcases List.mem_cons.mp hmem with rfl | hmem
    · exact hb (Finset.mem_image.mpr ⟨4, Finset.mem_univ _, rfl⟩)
    · exact absurd hmem (List.not_mem_nil)

/-! ## The regions as segments -/

-- a library lemma stated over the pinned configuration unifies with the printed one only when unification may unfold
-- plain definitions in a metavariable's type
set_option backward.isDefEq.respectTransparency.types false in
/-- REGION 0 (the retinal kernel) over the thread state: entered from every unscoped buffer at `V2`, left at `V3`. Its
    arrays are split out of the unscoped buffers and put back at what the pipeline leaves; the generator register goes
    into the region's invariant and comes back; nothing is owed; the kernel has no semaphore of its own. -/
def reg0 : RegionSeg (pcfgs (F := F)) ADM PD () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body0 (C2 m) c).loose
  hwaits := Pipeline.hwaits_of_owed_zero _ _ _ _ L lv 0 fun c t => owed_eq0 (C2 m) c t
  pre c := iprop(StableHlo.held (c : Thread nD τ) (Pipeline.ucRefs τ sig) (V2 m c) ∗ R c)
  post c := iprop(StableHlo.held (c : Thread nD τ) (Pipeline.ucRefs τ sig) (V3 m OUT c) ∗ R c)
  X c := iprop(∃ r, prngReg c r)
  Y c := iprop(∃ r, prngReg c r)
  Z c := Pipeline.unscopedRest (Ix := Unit) (Name := ℕ) (U := UU) (Lvl := ℕ) spec0 c (C2 m c)
  hentry c := by
    rw [Pipeline.ownSems0_none]
    have hsplit := Pipeline.arrays_of_unscopedBufs (p := 0) (pcfgs (F := F)) ADM PD (launch0 (F := F)).win (launch0 (F := F)).arr_whole c
      ((PD 0 c).share_full fun w => q_eq0 (C2 m) c w) (C2 m c) fun w => A_eq0 (C2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((rec_eq0 (C2 m) c 0).symm ▸ Set.mem_univ _)
      rw [show (PD 0 c).owed 0 = 0 from owed_eq0 (C2 m) c 0]
      iexact HO
    isplitl [Hp]; · iexact Hp
    iexact Hrest
  hin c := by
    rw [show (PD 0 c).Φ 0 = (Pipeline.ΦA spec0 c : sProp 𝕄) from Φ_eq0 (C2 m) c 0]; unfold Pipeline.ΦA
    iintro ⟨Hp, -, Hr⟩
    isplitl [Hr]; · iexact Hr
    iexact Hp
  hout c := by
    rw [Pipeline.ownSems0_none, show (PD 0 c).Φ (Fin.last _) = (Pipeline.ΦA spec0 c : sProp 𝕄) from Φ_eq0 (C2 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) ADM (Ix := Unit) (Name := ℕ) (U := UU) (Lvl := ℕ)
      (launch0 (F := F)).win (launch0 (F := F)).arr_whole c PD ((PD 0 c).share_full fun w => q_eq0 (C2 m) c w)
      (C2 m c) (fun b => V3 m OUT c b) ((PD 0 c).arrAt · cfg0.N) (hF0 m dat0 A_eq0 dat2 c) (hrest0 m dat0 dat2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (PD 0 c).owed (Fin.last _) = 0 from owed_eq0 (C2 m) c _]
    iexact HO

end Run

end Cert.Kernel.Hand

end
-- ==== Proof.KbReg1.lean ====
/-
  The gather region as a segment of @main: entered from every buffer no kernel scopes held at the valuation before it,
  left with them held at the valuation after it. The region stages nothing through windows: the index table enters as
  the prefetched table, the retinal matrix and the duplicated stage enter the region's invariant beside the kernel's own
  128 transfer semaphores, and after the 40 grid points they come back, the duplicated stage with all its rows gathered —
  which is what the next valuation holds for it; every other buffer bypasses the region untouched.
-/
import proofs.«402079_j32023276159552_3_alg».proof.Proof.KbRun

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

/-! ## The three buffers the body touches -/

/-- The index table, the retinal matrix and the duplicated stage, as device buffers. -/
abbrev T1 : Finset (DevRef τ sig) := {Proc.devRef .tc main_v5, Proc.devRef .tc main_v2, Proc.devRef .tc main_v6}

/-- No kernel scopes them. -/
theorem T1_sub : T1 ⊆ Pipeline.ucRefs τ sig := by
  intro b hb
  rcases Finset.mem_insert.mp hb with rfl | hb
  · exact Finset.mem_filter.mpr ⟨StableHlo.devRef_mem_tcRefs main_v5, by decide⟩
  rcases Finset.mem_insert.mp hb with rfl | hb
  · exact Finset.mem_filter.mpr ⟨StableHlo.devRef_mem_tcRefs main_v2, by decide⟩
  · rw [Finset.mem_singleton.mp hb]
    exact Finset.mem_filter.mpr ⟨StableHlo.devRef_mem_tcRefs main_v6, by decide⟩

/-- The three held at a valuation are each held whole at its contents there. -/
theorem held_T1 (c : Dev nD) (V : Valuation τ sig (Elt F)) :
    (StableHlo.held (c : Thread nD τ) T1 V : sProp 𝕄)
      = iprop(pt c (Memref.whole main_v5) (V main_v5) ∗ pt c (Memref.whole main_v2) (V main_v2) ∗ pt c (Memref.whole main_v6) (V main_v6)) := by
  unfold StableHlo.held T1
  rw [bigSep_insert (by decide), bigSep_insert (by decide), bigSep_singleton]
  rfl

/-- The kernel's 128 semaphores are scoped, distinct, and none is a staging semaphore (the region has no window). -/
theorem ownSemFacts1 : Pipeline.OwnSemFacts (pcfgs (F := F) 1).spec osem1 :=
  ⟨(by decide +kernel : ∀ k : Fin 128, (osem1 k).isScoped .tc = true),
   (by decide +kernel : Function.Injective osem1),
   fun k w => w.elim0⟩

/-- Before the first grid point no row is gathered. -/
theorem gathered_zero (T : IVec S5120 32) (r : FVec F S2048x16384 .f32) (l₀ : FVec F S5120x16384 .f32) :
    gathered 0 T r l₀ = l₀ := by
  funext y
  unfold gathered
  rw [if_neg (by omega)]

/-- A conjunction over no window is empty; over the one table it is the table's conjunct. -/
theorem bigSep_Fin0 {M : Type} [URA M] (Φ : Fin 0 → sProp M) : bigSep Finset.univ Φ = (BI.emp : sProp M) := by
  rw [show (Finset.univ : Finset (Fin 0)) = ∅ from rfl, BI.bigSep_empty]
theorem bigSep_Fin1 {M : Type} [URA M] (Φ : Fin 1 → sProp M) : bigSep Finset.univ Φ = Φ 0 := by
  rw [show (Finset.univ : Finset (Fin 1)) = {0} from rfl, bigSep_singleton]

section Run

variable (m : (ℓ : Loc nD τ sig) → Buf (Elt F) ℓ) (ρ : Dev nD → PrngReg)

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (rec_eq0 : ∀ (V : Contents F) (c : Dev nD) (t : Fin (cfg0.N + 1)), (dat0 V c).recorded t = Set.univ)
  (body0 : ∀ (V : Contents F) (c : Dev nD), BodyObligation (dat0 V c) (defs₀ (F := F)) Variants.none () Set.univ)

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (rec_eq1 : ∀ (V : Contents F) (a : (pcfg1 (F := F)).Adm) (c : Dev nD) (t : Fin ((cfg1 a).N + 1)), (dat1 V a c).recorded t = Set.univ)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (rec_eq2 : ∀ (V : Contents F) (c : Dev nD) (t : Fin (cfg2.N + 1)), (dat2 V c).recorded t = Set.univ)
  (body2 : ∀ (V : Contents F) (c : Dev nD), BodyObligation (dat2 V c) (defs₀ (F := F)) Variants.none () Set.univ)

variable (hT : ∀ (c : Dev nD) (q : Fin 5120), ((C4 m dat0 c main_v5 : IVec S5120 32) (ValueIdx.ix1 q)).toNat < 2048)

local notation "OUT" => outsC m dat0 dat2
local notation "ADM" => adm m dat0
local notation "PD" => pdats m dat0 dat1 dat2

/-! ## What the next valuation holds -/

/-- The table is untouched by the region; -/
theorem V5_at_v5 (c : Dev nD) : V5 m OUT c main_v5 = C4 m dat0 c main_v5 :=
  V5_of m OUT c main_v5 (by decide)

/-- the retinal matrix is given back as it was; -/
theorem V5_at_v2 (c : Dev nD) : V5 m OUT c main_v2 = C4 m dat0 c main_v2 := by
  show Function.update (Function.update (V4 m OUT c) (Proc.devRef .tc main_v2) (OUT 5 main_v2 c))
    (Proc.devRef .tc main_v6) (OUT 5 main_v6 c) (Proc.devRef .tc main_v2) = _
  rw [Function.update_of_ne (StableHlo.devRef_ne_of_ne (by decide : main_v2 ≠ main_v6)), Function.update_self]
  show (if (5 : ℕ) = 3 then U3 m dat0 c (Proc.devRef .tc main_v2) else if (5 : ℕ) = 5 then U5 m dat0 c (Proc.devRef .tc main_v2) else U7 m dat0 dat2 c (Proc.devRef .tc main_v2)) = _
  rw [if_neg (by decide), if_pos rfl]
  unfold U5
  rw [Function.update_of_ne (StableHlo.devRef_ne_of_ne (by decide : main_v2 ≠ main_v6))]

/-- the duplicated stage has all its rows gathered. -/
theorem V5_at_v6 (c : Dev nD) :
    V5 m OUT c main_v6 = gathered (F := F) 40 (C4 m dat0 c main_v5) (C4 m dat0 c main_v2) (C4 m dat0 c main_v6) := by
  show Function.update (Function.update (V4 m OUT c) (Proc.devRef .tc main_v2) (OUT 5 main_v2 c))
    (Proc.devRef .tc main_v6) (OUT 5 main_v6 c) (Proc.devRef .tc main_v6) = _
  rw [Function.update_self]
  show (if (5 : ℕ) = 3 then U3 m dat0 c (Proc.devRef .tc main_v6) else if (5 : ℕ) = 5 then U5 m dat0 c (Proc.devRef .tc main_v6) else U7 m dat0 dat2 c (Proc.devRef .tc main_v6)) = _
  rw [if_neg (by decide), if_pos rfl]
  unfold U5
  rw [Function.update_self]

/-- Off the three buffers the next valuation is the entry valuation. -/
theorem V5_off (c : Dev nD) (b : DevRef τ sig) (hb : b ∈ Pipeline.ucRefs τ sig \ T1) : V5 m OUT c b = V4 m OUT c b := by
  have hb' := (Finset.mem_sdiff.mp hb).2
  have h2 : b ≠ Proc.devRef .tc main_v2 := fun e => hb' (e ▸ Finset.mem_insert_of_mem (Finset.mem_insert_self _ _))
  have h6 : b ≠ Proc.devRef .tc main_v6 := fun e => hb' (e ▸ Finset.mem_insert_of_mem (Finset.mem_insert_of_mem (Finset.mem_singleton_self _)))
  show Function.update (Function.update (V4 m OUT c) (Proc.devRef .tc main_v2) (OUT 5 main_v2 c))
    (Proc.devRef .tc main_v6) (OUT 5 main_v6 c) b = _
  rw [Function.update_of_ne h6, Function.update_of_ne h2]

/-- Every buffer no kernel scopes, held at the next valuation: the three at what the region gives back, the rest as
    entered. -/
theorem held_V5 (c : Dev nD) :
    (StableHlo.held (c : Thread nD τ) (Pipeline.ucRefs τ sig) (V5 m OUT c) : sProp 𝕄)
      = iprop((pt c (Memref.whole main_v5) (C4 m dat0 c main_v5) ∗ pt c (Memref.whole main_v2) (C4 m dat0 c main_v2)
          ∗ pt c (Memref.whole main_v6) (gathered (F := F) 40 (C4 m dat0 c main_v5) (C4 m dat0 c main_v2) (C4 m dat0 c main_v6)))
        ∗ StableHlo.held (c : Thread nD τ) (Pipeline.ucRefs τ sig \ T1) (V4 m OUT c)) := by
  rw [StableHlo.held_sub_split (c : Thread nD τ) T1_sub (V5 m OUT c), held_T1, V5_at_v5, V5_at_v2, V5_at_v6,
    StableHlo.held_congr (c : Thread nD τ) (V5_off m dat0 dat2 c)]

/-- and at the entry valuation. -/
theorem held_V4 (c : Dev nD) :
    (StableHlo.held (c : Thread nD τ) (Pipeline.ucRefs τ sig) (V4 m OUT c) : sProp 𝕄)
      = iprop((pt c (Memref.whole main_v5) (C4 m dat0 c main_v5) ∗ pt c (Memref.whole main_v2) (C4 m dat0 c main_v2)
          ∗ pt c (Memref.whole main_v6) (C4 m dat0 c main_v6))
        ∗ StableHlo.held (c : Thread nD τ) (Pipeline.ucRefs τ sig \ T1) (V4 m OUT c)) := by
  rw [StableHlo.held_sub_split (c : Thread nD τ) T1_sub (V4 m OUT c), held_T1]
  rfl

/-- The prefetched table held whole is the table's buffer at the contents the host stretch left (one core). -/
theorem prefHeld1_eq (c : Dev nD) :
    (Pipeline.prefHeld (pcfgs (F := F) 1).pre c (fun _ => fullShare) (ADM 1).1 : sProp 𝕄)
      = pt c (Memref.whole main_v5) (C4 m dat0 c main_v5) := by
  obtain rfl : c = (0 : Dev nD) := Subsingleton.elim _ _
  unfold Pipeline.prefHeld
  exact bigSep_Fin1 _

/-! ## The region as a segment -/

include Φ_eq1 owed_eq1 rec_eq1 body1 hT in
-- a library lemma stated over the pinned configuration unifies with the printed one only when unification may unfold
-- plain definitions in a metavariable's type
set_option backward.isDefEq.respectTransparency.types false in
/-- THE GATHER REGION over the thread state: entered from every buffer no kernel scopes at the valuation before it, left
    at the valuation after it. The table becomes the prefetched table; the retinal matrix, the duplicated stage, the
    generator register and the kernel's own semaphores enter the invariant; the invariant after the last point gives them
    back, the duplicated stage with every row gathered; nothing is owed. -/
def reg1 : RegionSeg (pcfgs (F := F)) ADM PD () defs₀ 𝒱₀ L lv 1 where
  win := (launch1 (F := F)).win.to₀
  block_pos := (launch1 (F := F)).block_pos
  stage_whole := (launch1 (F := F)).stage_whole
  K := Fin 128
  osem := osem1
  ho := ownSemFacts1
  hbody c := (body1 (C4 m dat0) (ADM 1) c (hT c)).loose
  hwaits := Pipeline.hwaits_of_owed_zero _ _ _ _ L lv 1 fun c t => owed_eq1 (C4 m dat0) (ADM 1) c t
  pre c := iprop(StableHlo.held (c : Thread nD τ) (Pipeline.ucRefs τ sig) (V4 m OUT c) ∗ R c)
  post c := iprop(StableHlo.held (c : Thread nD τ) (Pipeline.ucRefs τ sig) (V5 m OUT c) ∗ R c)
  X c := iprop((∃ g, prngReg c g)
    ∗ Pipeline.ownSems0 (Ix := Unit) (Name := ℕ) (U := UU) (Lvl := ℕ) (Val := Elt F) (τ := τ) osem1 c
    ∗ pt c (Memref.whole main_v2) (C4 m dat0 c main_v2) ∗ pt c (Memref.whole main_v6) (C4 m dat0 c main_v6))
  Y c := iprop((∃ g, prngReg c g) ∗ pt c (Memref.whole main_v5) (C4 m dat0 c main_v5) ∗ pt c (Memref.whole main_v2) (C4 m dat0 c main_v2)
    ∗ pt c (Memref.whole main_v6) (gathered (F := F) 40 (C4 m dat0 c main_v5) (C4 m dat0 c main_v2) (C4 m dat0 c main_v6)))
  Z c := StableHlo.held (c : Thread nD τ) (Pipeline.ucRefs τ sig \ T1) (V4 m OUT c)
  hentry c := by
    rw [held_V4 m dat0 dat2 c, prefHeld1_eq m dat0 c]
    iintro ⟨⟨⟨⟨H5, H2, H6⟩, Hrest⟩, Hp, HO⟩, Hsems, -⟩
    imodintro
    isplitr
    · unfold Pipeline.Dat.arrays; rw [bigSep_Fin0]; iempintro
    isplitl [H5]; · iexact H5
    isplitl [HO]
    · unfold Pipeline.Dat.owesAt Pipeline.owesWithin
      rw [show (PD 1 c).owed 0 = 0 from owed_eq1 (C4 m dat0) (ADM 1) c 0]
      icases HO with ⟨%W, HO⟩; iexists W; isplitr
      · ipureintro; exact fun _ _ => Or.inl ((rec_eq1 (C4 m dat0) (ADM 1) c 0).symm ▸ Set.mem_univ _)
      iexact HO
    isplitl [Hp Hsems H2 H6]
    · isplitl [Hp]; · iexact Hp
      isplitl [Hsems]; · iexact Hsems
      isplitl [H2]; · iexact H2
      iexact H6
    iexact Hrest
  hin c := by
    rw [prefHeld1_eq m dat0 c, show (PD 1 c).Φ 0 = Φ1 (C4 m dat0) c 0 from Φ_eq1 (C4 m dat0) (ADM 1) c 0]
    unfold Φ1
    rw [gathered_zero]
    iintro ⟨⟨Hp, Hsems, H2, H6⟩, H5, Hr⟩
    isplitl [Hr]; · iexact Hr
    isplitl [Hp]; · iexact Hp
    isplitl [Hsems]; · iexact Hsems
    isplitl [H5]; · iexact H5
    isplitl [H2]; · iexact H2
    iexact H6
  hout c := by
    rw [show (PD 1 c).Φ (Fin.last _) = Φ1 (C4 m dat0) c 40 from
      (Φ_eq1 (C4 m dat0) (ADM 1) c (Fin.last _)).trans (congrArg (Φ1 (C4 m dat0) c) N_1)]
    unfold Φ1
    iintro ⟨Hr, Hp, Hsems, H5, H2, H6⟩
    isplitl [Hp H5 H2 H6]
    · isplitl [Hp]; · iexact Hp
      isplitl [H5]; · iexact H5
      isplitl [H2]; · iexact H2
      iexact H6
    isplitl [Hsems]; · iexact Hsems
    iexact Hr
  hexit c := by
    rw [held_V5 m dat0 dat2 c]
    iintro ⟨-, HO, ⟨Hp, H5, H2, H6⟩, Hrest⟩
    imodintro
    isplitl [H5 H2 H6 Hrest]
    · isplitl [H5 H2 H6]
      · isplitl [H5]; · iexact H5
        isplitl [H2]; · iexact H2
        iexact H6
      iexact Hrest
    isplitl [Hp]; · iexact Hp
    unfold Pipeline.Dat.owesAt Pipeline.owesWithin
    rw [show (PD 1 c).owed (Fin.last _) = 0 from owed_eq1 (C4 m dat0) (ADM 1) c _]
    icases HO with ⟨%W, -, HO⟩; iexists W
    iexact HO

end Run

end Cert.Kernel.Hand

end
-- ==== Proof.KbReg2.lean ====
/-
  The matrix-product region as a segment of @main: entered from every buffer no kernel scopes held at the valuation
  before it, left with them held at the valuation after it — the two operand arrays as they were, the result array at
  what the region's write-backs leave, every other buffer untouched —, beside the generator register and the core
  owing nothing.
-/
import proofs.«402079_j32023276159552_3_alg».proof.Proof.KbVals
import proofs.«402079_j32023276159552_3_alg».proof.Proof.KbLaunchMain
import Idealize.ShloMosaic.Lib.Pipeline.RegionsLoop

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MM F

section Run

variable (m : (ℓ : Loc nD τ sig) → Buf (Elt F) ℓ) (ρ : Dev nD → PrngReg)

variable (dat0 : Contents F → (c : Dev nD) → Dat τ (Elt F) Unit ℕ UU ℕ cfg0 c)
  (A_eq0 : ∀ (V : Contents F) (c : Dev nD) (w : Fin cfg0.W), (dat0 V c).A w = V c (Pipeline.arrRef spec0 w))
  (Φ_eq0 : ∀ (V : Contents F) (c : Dev nD) (t : Fin (cfg0.N + 1)), (dat0 V c).Φ t = (Pipeline.ΦA spec0 c : sProp (MM F)))
  (owed_eq0 : ∀ (V : Contents F) (c : Dev nD) (t : Fin (cfg0.N + 1)), (dat0 V c).owed t = 0)
  (q_eq0 : ∀ (V : Contents F) (c : Dev nD) (w : Fin cfg0.W), (dat0 V c).q w = fullShare)
  (rec_eq0 : ∀ (V : Contents F) (c : Dev nD) (t : Fin (cfg0.N + 1)), (dat0 V c).recorded t = Set.univ)
  (body0 : ∀ (V : Contents F) (c : Dev nD), BodyObligation (dat0 V c) (defs₀ (F := F)) Variants.none () Set.univ)

variable (dat1 : Contents F → (a : (pcfg1 (F := F)).Adm) → (c : Dev nD) → Dat τ (Elt F) Unit ℕ UU ℕ (cfg1 a) c)
  (Φ_eq1 : ∀ (V : Contents F) (a : (pcfg1 (F := F)).Adm) (c : Dev nD) (t : Fin ((cfg1 a).N + 1)), (dat1 V a c).Φ t = Φ1 V c t.val)
  (owed_eq1 : ∀ (V : Contents F) (a : (pcfg1 (F := F)).Adm) (c : Dev nD) (t : Fin ((cfg1 a).N + 1)), (dat1 V a c).owed t = 0)
  (rec_eq1 : ∀ (V : Contents F) (a : (pcfg1 (F := F)).Adm) (c : Dev nD) (t : Fin ((cfg1 a).N + 1)), (dat1 V a c).recorded t = Set.univ)
  (body1 : ∀ (V : Contents F) (a : (pcfg1 (F := F)).Adm) (c : Dev nD),
    (∀ q : Fin 5120, ((V c main_v5 : IVec S5120 32) (ValueIdx.ix1 q)).toNat < 2048) →
      BodyObligation (dat1 V a c) (defs₀ (F := F)) Variants.none () Set.univ)

variable (dat2 : Contents F → (c : Dev nD) → Dat τ (Elt F) Unit ℕ UU ℕ cfg2 c)
  (A_eq2 : ∀ (V : Contents F) (c : Dev nD) (w : Fin cfg2.W), (dat2 V c).A w = V c (Pipeline.arrRef spec2 w))
  (Φ_eq2 : ∀ (V : Contents F) (c : Dev nD) (t : Fin (cfg2.N + 1)), (dat2 V c).Φ t = (Pipeline.ΦA spec2 c : sProp (MM F)))
  (owed_eq2 : ∀ (V : Contents F) (c : Dev nD) (t : Fin (cfg2.N + 1)), (dat2 V c).owed t = 0)
  (q_eq2 : ∀ (V : Contents F) (c : Dev nD) (w : Fin cfg2.W), (dat2 V c).q w = fullShare)
  (rec_eq2 : ∀ (V : Contents F) (c : Dev nD) (t : Fin (cfg2.N + 1)), (dat2 V c).recorded t = Set.univ)
  (body2 : ∀ (V : Contents F) (c : Dev nD), BodyObligation (dat2 V c) (defs₀ (F := F)) Variants.none () Set.univ)

local notation "OUT" => outsC m dat0 dat2
local notation "ADM" => adm m dat0
local notation "PD" => pdats m dat0 dat1 dat2

/-! ## Region 2: what it leaves is the next valuation -/

include A_eq2 in
/-- Each of the region's arrays ends at the next valuation's contents: an operand array is never written, and the
    next valuation is the entry valuation there; the result array's contents after the write-backs are by definition
    what the next valuation holds for it. -/
theorem hF2 (c : Dev nD) (w : Fin cfg2.W) : (dat2 (C6 m dat0) c).arrAt w cfg2.N = V7 m OUT c (Pipeline.arrRef spec2 w) := by
  have hin : ∀ (w : Fin cfg2.W) (b : Ref sig .tc), (cfg2.win w).isOut = false → Pipeline.arrRef spec2 w = b →
      b ∉ ([main_v16] : List (Ref sig .tc)) → (dat2 (C6 m dat0) c).arrAt w cfg2.N = V7 m OUT c (Pipeline.arrRef spec2 w) := by
    intro w b hw hb hn
    subst hb
    rw [(dat2 (C6 m dat0) c).arrAt_in w hw _, A_eq2, V7_of m OUT c _ hn]
    exact congrFun (V6_outsC m dat0 dat2 c).symm _
  match w with
  | ⟨0, _⟩ => exact hin 0 main_v15 rfl rfl (by decide)
  | ⟨1, _⟩ => exact hin 1 main_v3 rfl rfl (by decide)
  | ⟨2, _⟩ =>
    have h1 : V7 m OUT c main_v16 = U7 m dat0 dat2 c (Proc.devRef .tc main_v16) := by
      show Function.update (V6 m OUT c) (Proc.devRef .tc main_v16) (OUT 7 main_v16 c) (Proc.devRef .tc main_v16) = _
      rw [Function.update_self]
      rfl
    exact ((Pipeline.withArrays_arr spec2 (launch2 (F := F)).win.arr_inj c _ _ 2).symm.trans h1.symm)

/-- Off the region's arrays the next valuation is the entry valuation: the region may change the result array only. -/
theorem hrest2 (c : Dev nD) : ∀ b : Ref sig .tc, b ∉ Finset.univ.image (Pipeline.arrRef spec2) → V7 m OUT c b = V6 m OUT c b := by
  intro b hb
  refine V7_of m OUT c b ?_
  intro hmem
  rcases List.mem_cons.mp hmem with rfl | hmem
  · exact hb (Finset.mem_image.mpr ⟨2, Finset.mem_univ _, rfl⟩)
  · exact absurd hmem (List.not_mem_nil)

/-! ## Region 2 as a segment -/

include A_eq2 Φ_eq2 owed_eq2 q_eq2 rec_eq2 body2 in
set_option backward.isDefEq.respectTransparency.types false in
/-- The region over the thread state: entered from every buffer no kernel scopes at the valuation before it, left at
    the valuation after it. Its arrays are split out of those buffers at entry and put back at the exit contents; the
    generator register goes into the region's invariant and comes back; nothing is owed; the kernel has no semaphore
    of its own. -/
def reg2 : RegionSeg (pcfgs (F := F)) ADM PD () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body2 (C6 m dat0) c).loose
  hwaits := Pipeline.hwaits_of_owed_zero _ _ _ _ L lv 2 fun c t => owed_eq2 (C6 m dat0) c t
  pre c := iprop(StableHlo.held (c : Thread nD τ) (Pipeline.ucRefs τ sig) (V6 m OUT c) ∗ R c)
  post c := iprop(StableHlo.held (c : Thread nD τ) (Pipeline.ucRefs τ sig) (V7 m OUT c) ∗ R c)
  X c := iprop(∃ r, prngReg c r)
  Y c := iprop(∃ r, prngReg c r)
  Z c := Pipeline.unscopedRest (Ix := Unit) (Name := ℕ) (U := UU) (Lvl := ℕ) (Val := Elt F) spec2 c (C6 (F := F) m dat0 c)
  hentry c := by
    rw [Pipeline.ownSems0_none]
    have hsplit := Pipeline.arrays_of_unscopedBufs (p := 2) (pcfgs (F := F)) ADM PD (launch2 (F := F)).win (launch2 (F := F)).arr_whole c
      ((PD 2 c).share_full fun w => q_eq2 (C6 m dat0) c w) (C6 m dat0 c) fun w => A_eq2 (C6 m dat0) c w
    rw [Pipeline.unscopedBufs_held] at hsplit
    rw [V6_outsC m dat0 dat2 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (PD 2 c).owed 0 = 0 from owed_eq2 (C6 m dat0) c 0]
      icases HO with ⟨%W, HO⟩; iexists W; isplitr; · ipureintro; exact fun _ _ => Or.inl ((rec_eq2 (C6 m dat0) c 0).symm ▸ Set.mem_univ _)
      iexact HO
    isplitl [Hp]; · iexact Hp
    iexact Hrest
  hin c := by
    rw [show (PD 2 c).Φ 0 = Pipeline.ΦA spec2 c from Φ_eq2 (C6 m dat0) c 0]; unfold Pipeline.ΦA
    iintro ⟨Hp, -, Hr⟩
    isplitl [Hr]; · iexact Hr
    iexact Hp
  hout c := by
    rw [Pipeline.ownSems0_none, show (PD 2 c).Φ (Fin.last _) = Pipeline.ΦA spec2 c from Φ_eq2 (C6 m dat0) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) ADM (Ix := Unit) (Name := ℕ) (U := UU) (Lvl := ℕ)
      (launch2 (F := F)).win (launch2 (F := F)).arr_whole c PD ((PD 2 c).share_full fun w => q_eq2 (C6 m dat0) c w)
      (C6 m dat0 c) (fun b : Ref sig .tc => V7 m OUT c b) ((PD 2 c).arrAt · cfg2.N) (hF2 m dat0 dat2 A_eq2 c) (hrest2 m dat0 dat2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (PD 2 c).owed (Fin.last _) = 0 from owed_eq2 (C6 m dat0) c (Fin.last _)]
    icases HO with ⟨%W, -, HO⟩; iexists W; iexact HO

end Run

end Cert.Kernel.Hand

end
-- ==== Proof.KbR0.lean ====
/-
  Region 0, the retinal stage: 32 grid points, each filling one block of 64 images. The first 16 points store
  x ⊙ act_on's block, the last 16 store (1 − x) ⊙ act_off's block; every point writes its block back, so after the
  region the output array holds, image by image, the specification's retinal stage.
-/
import proofs.«402079_j32023276159552_3_alg».proof.Proof.KbBase
import proofs.«402079_j32023276159552_3_alg».proof.Proof.Spec
import Idealize.ShloMosaic.Lib.ValueIdx
import Idealize.ShloMosaic.Lib.ValueLayout
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Tactic Idealize.SL.BI.Laws Idealize.SL.ProofMode
open Idealize.ShloMosaic.Pipeline (Dat Cfg Window BodyObligation cellOf)

variable {F : FTy → Type} [FloatOps F]

local notation "𝕄" => MM F

variable (V : Contents F)

/-! ## The control: which half a grid point belongs to -/

/-- At every grid point exactly one of the body's two conditions holds. -/
theorem cond0_excl : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1) := by decide +kernel

/-- The first condition holds at the first 16 points. -/
theorem cond0_1_iff : ∀ t : Fin grid0.N, k0_cond1 (grid0.coords t) = 1#1 ↔ t.val < 16 := by decide +kernel

/-- No point is idle for the outputs: one of the two conditions holds. -/
theorem idle0_3 : ∀ t : Fin cfg0.N, idle0 3 (grid0.coords t) = false :=
  (by decide +kernel : ∀ t : Fin grid0.N, idle0 3 (grid0.coords t) = false)
theorem idle0_4 : ∀ t : Fin cfg0.N, idle0 4 (grid0.coords t) = false :=
  (by decide +kernel : ∀ t : Fin grid0.N, idle0 4 (grid0.coords t) = false)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: unfetched, the block
    index has not moved. For any proof data whose array is the entry contents and whose body leaves the block. -/
theorem before0_0_of {c : Dev nD} (dat : Dat τ (Elt F) Unit ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S128x128 := Rect.unit (s := S128x128) ![0, 0] S128x128.size inb_S128x128_S128x128_0_0
abbrev rB0 : Rect S64x128x128 := Rect.unit (s := S64x128x128) ![0, 0, 0] S64x128x128.size inb_S64x128x128_S64x128x128_0_0_0

/-! ## What the body leaves in each output buffer -/

/-- The f32 output's buffer after the body at grid coordinates `i`, from the inputs' blocks: in the first half the
    product of the image with act_on's block, in the second of its complement with act_off's block. -/
def out0_3 (i : grid0.Coords) (x0 : Vec F S128x128 .f32) (x1 x2 : Vec F S64x128x128 .f32) : Vec F S64x128x128 .f32 :=
  if k0_cond1 i = 1#1 then View.canon [⟨rB0, k0_pay1 (View.ld x0 rX0) (View.ld x1 rB0)⟩]
  else View.canon [⟨rB0, k0_pay3 (View.ld x0 rX0) (View.ld x2 rB0)⟩]

/-- The bf16 output's buffer after the body: the same values, their format changed. -/
def out0_4 (i : grid0.Coords) (x0 : Vec F S128x128 .f32) (x1 x2 : Vec F S64x128x128 .f32) : Vec F S64x128x128 .bf16 :=
  if k0_cond1 i = 1#1 then View.canon [⟨rB0, k0_pay2 (View.ld x0 rX0) (View.ld x1 rB0)⟩]
  else View.canon [⟨rB0, k0_pay4 (View.ld x0 rX0) (View.ld x2 rB0)⟩]

/-- One store of the whole block covers it. -/
theorem cover0_B {e : EltTy} (p0 : Vec F S64x128x128 e) (y : S64x128x128.Idx) :
    ∃ pc ∈ ([⟨rB0, p0⟩] : List (View.Piece (Elt F) S64x128x128 e)), y ∈ pc.1.set :=
  View.cover_of_tiled [⟨rB0, p0⟩] S64x128x128.size (by rfl) y

/-! ## The body's triple -/

set_option maxHeartbeats 1000000 in
/-- The body at grid point `t` on whole staging memrefs, the inputs' at read contents and the outputs' at anything,
    runs to the continuation holding the inputs' as they were and each output's at its out-function of the inputs':
    of the two guarded regions exactly one runs, and stores each output's block whole. -/
theorem sound_kernel0 (c : Dev nD) (E : Set ℕ) (t : Fin grid0.N)
    (arg1 : Memref sig .tc .vmem S128x128 .f32) (harg1 : arg1.IsWhole)
    (arg2 : Memref sig .tc .vmem S64x128x128 .f32) (harg2 : arg2.IsWhole)
    (arg3 : Memref sig .tc .vmem S64x128x128 .f32) (harg3 : arg3.IsWhole)
    (arg4 : Memref sig .tc .vmem S64x128x128 .f32) (harg4 : arg4.IsWhole)
    (arg5 : Memref sig .tc .vmem S64x128x128 .bf16) (harg5 : arg5.IsWhole)
    (x0 : Vec F S128x128 .f32) (x1 x2 : Vec F S64x128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 (grid0.coords t) x0 x1 x2)
            ∗ owns (c : Thread nD τ) arg5 fullShare (out0_4 (grid0.coords t) x0 x1 x2)) -∗ K ⟨⟩))
      ⊢ wp frame (wpE (defs₀ (F := F)) Variants.none c none) E
          (cc0__rgc_kernel (grid0.coords t) arg1 harg1 arg2 harg2 arg3 harg3 arg4 harg4 arg5 harg5) K := by
  simp only [cc0__rgc_kernel_eq_skeleton]; unfold cc0__rgc_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  rcases cond0_excl t with ⟨h1, h2⟩ | ⟨h1, h2⟩
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      unfold out0_3; rw [if_pos h1]
      exact View.read_writes_eq_canon _ _ _ (cover0_B _)
    · iexists _; isplitr
      swap; · iexact H4
      ipureintro
      unfold out0_4; rw [if_pos h1]
      exact View.read_writes_eq_canon _ _ _ (cover0_B _)
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      unfold out0_3; rw [if_neg h1]
      exact View.read_writes_eq_canon _ _ _ (cover0_B _)
    · iexists _; isplitr
      swap; · iexact H4
      ipureintro
      unfold out0_4; rw [if_neg h1]
      exact View.read_writes_eq_canon _ _ _ (cover0_B _)

/-! ## The pipeline's proof data -/

/-- The proof data of the region on core `c`: the arrays as the region finds them; after the body at point `t` each
    input's buffer at its block and each output's at its out-function of the input blocks there; the invariant the
    scoped rest and the generator register, untouched; nothing owed; full shares. -/
def dat0 (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Φ_eq0 (c : Dev nD) (t : Fin (cfg0.N + 1)) : (dat0 V c).Φ t = (Pipeline.ΦA spec0 c : sProp (MM F)) := by
  dsimp only [dat0]
theorem owed_eq0 (c : Dev nD) (t : Fin (cfg0.N + 1)) : (dat0 V c).owed t = 0 := by
  dsimp only [dat0]
theorem q_eq0 (c : Dev nD) (w : Fin cfg0.W) : (dat0 V c).q w = fullShare := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (grid0.coords t) (iblk0 V c 0 t) (iblk0 V c 1 t) (iblk0 V c 2 t) := by dsimp only [dat0]
theorem after0_4 (c : Dev nD) (t : Fin cfg0.N) :
    (dat0 V c).after 4 t = out0_4 (grid0.coords t) (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ t _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 V c) (defs₀ (F := F)) Variants.none () Set.univ := fun t => by
  rw [bigSep_W0, bigSep_W0]
  simp only [idle0_3 t, idle0_4 t]
  exact sound_body0 V c t

/-! # The value, on the extended reals -/

section Value

open Idealize.ShloMosaic.ValueIdx

/-- One image broadcast over the 64 images of a block reads, at image `r`, the image itself. -/
theorem bcast0_apply {α : Type} (v : S1x128x128.Idx → α) (r : Fin 64) (a b : Fin 128) :
    broadcastTo S64x128x128 v broadcasts_S1x128x128_S64x128x128 (ix3 r a b) = v (ix3 (0 : Fin 1) a b) := by
  refine broadcastTo_apply v _ (ix3 r a b) (ix3 (0 : Fin 1) a b) fun ax => ?_
  match ax with
  | ⟨0, _⟩ => rfl
  | ⟨1, _⟩ => rfl
  | ⟨2, _⟩ => rfl

/-- The first half's payload at image `r`, pixel `(a, b)`: the image times act_on's block. -/
theorem pay1_apply (x0 : FVec Ideal S128x128 .f32) (x1 : FVec Ideal S64x128x128 .f32) (r : Fin 64) (a b : Fin 128) :
    k0_pay1 x0 x1 (ix3 r a b) = x0 (ix2 a b) * x1 (ix3 r a b) := by
  unfold k0_pay1
  rw [mulf_apply, bcast0_apply, shapeCast_self, shapeCast_ab_1ab_apply]

/-- The second half's payload: the image's complement times act_off's block. -/
theorem pay3_apply (x0 : FVec Ideal S128x128 .f32) (x2 : FVec Ideal S64x128x128 .f32) (r : Fin 64) (a b : Fin 128) :
    k0_pay3 x0 x2 (ix3 r a b) = (Cert.Spec.one - x0 (ix2 a b)) * x2 (ix3 r a b) := by
  unfold k0_pay3
  rw [mulf_apply, bcast0_apply, shapeCast_self, shapeCast_ab_1ab_apply, subf_apply, broadcast_apply]
  rfl

/-- The retinal stage as the region's 3-dimensional output: image `n`, row `a`, column `b`. -/
def R3 (x : FVec Ideal S128x128 .f32) (aon aoff : FVec Ideal S1024x128x128 .f32) : FVec Ideal S2048x128x128 .f32 := fun i =>
  if h : (i 0).val < 1024 then
    x (ix2 (⟨(i 1).val, (i 1).isLt⟩ : Fin 128) (⟨(i 2).val, (i 2).isLt⟩ : Fin 128))
      * aon (ix3 (⟨(i 0).val, h⟩ : Fin 1024) (⟨(i 1).val, (i 1).isLt⟩ : Fin 128) (⟨(i 2).val, (i 2).isLt⟩ : Fin 128))
  else
    (Cert.Spec.one - x (ix2 (⟨(i 1).val, (i 1).isLt⟩ : Fin 128) (⟨(i 2).val, (i 2).isLt⟩ : Fin 128)))
      * aoff (ix3 (⟨(i 0).val - 1024, by have := (i 0).isLt; change _ < 2048 at this; omega⟩ : Fin 1024) (⟨(i 1).val, (i 1).isLt⟩ : Fin 128) (⟨(i 2).val, (i 2).isLt⟩ : Fin 128))

/-- Flattened row-major, it is the specification's retinal stage. -/
theorem R3_eq_specR (x : FVec Ideal S128x128 .f32) (aon aoff : FVec Ideal S1024x128x128 .f32) (n : Fin 2048) (a b : Fin 128) :
    R3 x aon aoff (ix3 n a b) = Cert.Spec.specR x aon aoff (ix2 n (⟨128 * a.val + b.val, by omega⟩ : Fin 16384)) := by
  have hd : (128 * a.val + b.val) / 128 = a.val := by omega
  have hm : (128 * a.val + b.val) % 128 = b.val := by omega
  have ea : (⟨(128 * a.val + b.val) / 128, by omega⟩ : Fin 128) = a := Fin.ext hd
  have eb : (⟨(128 * a.val + b.val) % 128, by omega⟩ : Fin 128) = b := Fin.ext hm
  unfold R3 Cert.Spec.specR
  by_cases h : n.val < 1024
  · rw [dif_pos (show ((ix3 n a b : S2048x128x128.Idx) 0).val < 1024 from h), dif_pos (show ((ix2 n (⟨128 * a.val + b.val, by omega⟩ : Fin 16384) : Cert.Spec.SR.Idx) 0).val < 1024 from h)]
    show x (ix2 a b) * aon (ix3 (⟨n.val, h⟩ : Fin 1024) a b) = x (ix2 (⟨(128 * a.val + b.val) / 128, _⟩ : Fin 128) (⟨(128 * a.val + b.val) % 128, _⟩ : Fin 128)) * aon (ix3 (⟨n.val, h⟩ : Fin 1024) (⟨(128 * a.val + b.val) / 128, _⟩ : Fin 128) (⟨(128 * a.val + b.val) % 128, _⟩ : Fin 128))
    rw [ea, eb]
  · rw [dif_neg (show ¬ ((ix3 n a b : S2048x128x128.Idx) 0).val < 1024 from h), dif_neg (show ¬ ((ix2 n (⟨128 * a.val + b.val, by omega⟩ : Fin 16384) : Cert.Spec.SR.Idx) 0).val < 1024 from h)]
    show (Cert.Spec.one - x (ix2 a b)) * aoff (ix3 (⟨n.val - 1024, _⟩ : Fin 1024) a b) = (Cert.Spec.one - x (ix2 (⟨(128 * a.val + b.val) / 128, _⟩ : Fin 128) (⟨(128 * a.val + b.val) % 128, _⟩ : Fin 128))) * aoff (ix3 (⟨n.val - 1024, _⟩ : Fin 1024) (⟨(128 * a.val + b.val) / 128, _⟩ : Fin 128) (⟨(128 * a.val + b.val) % 128, _⟩ : Fin 128))
    rw [ea, eb]

end Value

section Value

open Idealize.ShloMosaic.ValueIdx

theorem hz0_2 : (![0, 0] : Fin 2 → Nat) = fun _ => 0 := funext fun a => by fin_cases a <;> rfl
theorem hz0_3 : (![0, 0, 0] : Fin 3 → Nat) = fun _ => 0 := funext fun a => by fin_cases a <;> rfl

/-- The printed index maps, decided over the grid: the image is always block 0; act_on's block is min(t, 15),
    act_off's is t − 16 (cut off at 0); each output's block is t. -/
theorem idx_facts0 : ∀ t : Fin cfg0.N, t.val < 32
    ∧ win0_0.index t (0 : Fin 2) = 0 ∧ win0_0.index t (1 : Fin 2) = 0
    ∧ win0_1.index t (0 : Fin 3) = min t.val 15 ∧ win0_1.index t (1 : Fin 3) = 0 ∧ win0_1.index t (2 : Fin 3) = 0
    ∧ win0_2.index t (0 : Fin 3) = t.val - 16 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point `T` leaves in the f32 output's buffer is block `T` of the retinal stage, when the input buffers hold
    the image, act_on's block `T` (in the first half) and act_off's block `T − 16` (in the second). -/
theorem out0_3_apply (i : grid0.Coords) (T : ℕ) (hT : T < 32) (hc : k0_cond1 i = 1#1 ↔ T < 16)
    (x0 : FVec Ideal S128x128 .f32) (x1 x2 : FVec Ideal S64x128x128 .f32)
    (X : FVec Ideal S128x128 .f32) (AON AOFF : FVec Ideal S1024x128x128 .f32)
    (h0 : ∀ a b : Fin 128, x0 (ix2 a b) = X (ix2 a b))
    (h1 : ∀ hlt : T < 16, ∀ (r : Fin 64) (a b : Fin 128), x1 (ix3 r a b) = AON (ix3 (⟨64 * T + r.val, by omega⟩ : Fin 1024) a b))
    (h2 : ∀ hge : 16 ≤ T, ∀ (r : Fin 64) (a b : Fin 128), x2 (ix3 r a b) = AOFF (ix3 (⟨64 * (T - 16) + r.val, by omega⟩ : Fin 1024) a b))
    (j : S64x128x128.Idx) :
    out0_3 (F := Ideal) i x0 x1 x2 j = R3 X AON AOFF (ix3 (⟨64 * T + (j 0).val, by have := (j 0).isLt; change _ < 64 at this; omega⟩ : Fin 2048)
      (⟨(j 1).val, (j 1).isLt⟩ : Fin 128) (⟨(j 2).val, (j 2).isLt⟩ : Fin 128)) := by
  obtain ⟨r, a, b, rfl⟩ : ∃ (r : Fin 64) (a b : Fin 128), j = ix3 r a b := ⟨j 0, j 1, j 2, eq_ix3 j⟩
  unfold out0_3
  by_cases hlt : T < 16
  · rw [if_pos (hc.mpr hlt), View.canon_unit_zero hz0_3, View.ld_unit_zero (S := S128x128) hz0_2,
      View.ld_unit_zero (S := S64x128x128) hz0_3, pay1_apply, h0, h1 hlt]
    unfold R3
    rw [dif_pos (show 64 * T + r.val < 1024 by omega)]
  · rw [if_neg (fun h => hlt (hc.mp h)), View.canon_unit_zero hz0_3, View.ld_unit_zero (S := S128x128) hz0_2,
      View.ld_unit_zero (S := S64x128x128) hz0_3, pay3_apply, h0, h2 (by omega)]
    unfold R3
    rw [dif_neg (show ¬ 64 * T + r.val < 1024 by omega)]
    show _ * AOFF (ix3 (⟨64 * (T - 16) + r.val, _⟩ : Fin 1024) a b) = _ * AOFF (ix3 (⟨64 * T + r.val - 1024, _⟩ : Fin 1024) a b)
    congr 3
    apply Fin.ext
    show 64 * (T - 16) + r.val = 64 * T + r.val - 1024
    omega

end Value

section Value

open Idealize.ShloMosaic.ValueIdx

variable (W : Contents Ideal)

/-- The image's buffer reads the image: its one block is the array. -/
theorem iblk0_0_apply (c : Dev nD) (t : Fin cfg0.N) (a b : Fin 128) :
    (iblk0 W c 0 t : S128x128.Idx → EReal) (ix2 a b) = (W c main_arg0 : S128x128.Idx → EReal) (ix2 a b) := by
  obtain ⟨-, e00, e01, -⟩ := idx_facts0 t
  show (W c main_arg0 : S128x128.Idx → EReal) (((cfg0.win 0).blk t).view.emb (ix2 a b)) = _
  congr 1
  funext ax; apply Fin.ext
  match ax with
  | ⟨0, _⟩ => show win0_0.index t (0 : Fin 2) * 128 + 1 * a.val = a.val; rw [e00]; omega
  | ⟨1, _⟩ => show win0_0.index t (1 : Fin 2) * 128 + 1 * b.val = b.val; rw [e01]; omega

/-- act_on's buffer at a point of the first half reads act_on's block there. -/
theorem iblk0_1_apply (c : Dev nD) (t : Fin cfg0.N) (hlt : t.val < 16) (r : Fin 64) (a b : Fin 128) :
    (iblk0 W c 1 t : S64x128x128.Idx → EReal) (ix3 r a b)
      = (W c main_arg1 : S1024x128x128.Idx → EReal) (ix3 (⟨64 * t.val + r.val, by omega⟩ : Fin 1024) a b) := by
  obtain ⟨-, -, -, e10, e11, e12, -⟩ := idx_facts0 t
  show (W c main_arg1 : S1024x128x128.Idx → EReal) (((cfg0.win 1).blk t).view.emb (ix3 r a b)) = _
  congr 1
  funext ax; apply Fin.ext
  match ax with
  | ⟨0, _⟩ => show win0_1.index t (0 : Fin 3) * 64 + 1 * r.val = 64 * t.val + r.val; rw [e10]; omega
  | ⟨1, _⟩ => show win0_1.index t (1 : Fin 3) * 128 + 1 * a.val = a.val; rw [e11]; omega
  | ⟨2, _⟩ => show win0_1.index t (2 : Fin 3) * 128 + 1 * b.val = b.val; rw [e12]; omega

/-- act_off's buffer at a point of the second half reads act_off's block there. -/
theorem iblk0_2_apply (c : Dev nD) (t : Fin cfg0.N) (hge : 16 ≤ t.val) (r : Fin 64) (a b : Fin 128) :
    (iblk0 W c 2 t : S64x128x128.Idx → EReal) (ix3 r a b)
      = (W c main_arg2 : S1024x128x128.Idx → EReal) (ix3 (⟨64 * (t.val - 16) + r.val, by have := (idx_facts0 t).1; omega⟩ : Fin 1024) a b) := by
  obtain ⟨-, -, -, -, -, -, e20, e21, e22, -⟩ := idx_facts0 t
  show (W c main_arg2 : S1024x128x128.Idx → EReal) (((cfg0.win 2).blk t).view.emb (ix3 r a b)) = _
  congr 1
  funext ax; apply Fin.ext
  match ax with
  | ⟨0, _⟩ => show win0_2.index t (0 : Fin 3) * 64 + 1 * r.val = 64 * (t.val - 16) + r.val; rw [e20]; omega
  | ⟨1, _⟩ => show win0_2.index t (1 : Fin 3) * 128 + 1 * a.val = a.val; rw [e21]; omega
  | ⟨2, _⟩ => show win0_2.index t (2 : Fin 3) * 128 + 1 * b.val = b.val; rw [e22]; omega

/-- WHAT POINT `t` WRITES BACK to the f32 output is block `t` of the retinal stage of the arguments. -/
theorem flushed0_3_eq (c : Dev nD) (t : Fin cfg0.N) :
    (dat0 W c).flushed 3 t = ((cfg0.win 3).blk t).view.read (Elt Ideal) (R3 (W c main_arg0) (W c main_arg1) (W c main_arg2)) := by
  show (cfg0.win 3).cut (grid0.coords t) ((dat0 W c).after 3 t) = _
  rw [after0_3]
  obtain ⟨hT, -, -, -, -, -, -, -, -, e30, e31, e32, -⟩ := idx_facts0 t
  funext j
  refine (out0_3_apply (grid0.coords t) t.val hT (cond0_1_iff t) _ _ _ (W c main_arg0) (W c main_arg1) (W c main_arg2)
    (iblk0_0_apply W c t) (iblk0_1_apply W c t) (iblk0_2_apply W c t) j).trans ?_
  show R3 (W c main_arg0) (W c main_arg1) (W c main_arg2) _ = R3 (W c main_arg0) (W c main_arg1) (W c main_arg2) (((cfg0.win 3).blk t).view.emb j)
  congr 1
  funext ax; apply Fin.ext
  match ax with
  | ⟨0, _⟩ => show 64 * t.val + (j 0).val = win0_3.index t (0 : Fin 3) * 64 + 1 * (j 0).val; rw [e30]; omega
  | ⟨1, _⟩ => show (j 1).val = win0_3.index t (1 : Fin 3) * 128 + 1 * (j 1).val; rw [e31]; omega
  | ⟨2, _⟩ => show (j 2).val = win0_3.index t (2 : Fin 3) * 128 + 1 * (j 2).val; rw [e32]; omega

/-- An index of the f32 output is in point `t`'s block iff each coordinate is in the block's range on its axis. -/
theorem mem_blk0_3 (t : Fin cfg0.N) (i : S2048x128x128.Idx) :
    i ∈ ((cfg0.win 3).blk t).view.set ↔ ∀ a : Fin 3, win0_3.index t a * S64x128x128.size a ≤ (i a).val ∧ (i a).val < win0_3.index t a * S64x128x128.size a + S64x128x128.size a := by
  show i ∈ ((View.whole main_v1_0).slice (win0_3.rect t)).set ↔ _
  rw [View.set_slice_whole, Rect.mem_set_unit]
  exact Iff.rfl

/-- Every image is in the block of the point numbered by its 64-image group. -/
theorem cover0_3 (i : S2048x128x128.Idx) : ∃ t : Fin cfg0.N, (cfg0.win 3).flush t = true ∧ i ∈ ((cfg0.win 3).blk t).view.set := by
  have hi0 : (i 0).val < 2048 := (i 0).isLt
  have hi1 : (i 1).val < 128 := (i 1).isLt
  have hi2 : (i 2).val < 128 := (i 2).isLt
  obtain ⟨t, ht⟩ : ∃ t : Fin cfg0.N, t.val = (i 0).val / 64 := ⟨⟨(i 0).val / 64, by rw [show cfg0.N = 32 from N_0]; omega⟩, rfl⟩
  obtain ⟨-, -, -, -, -, -, -, -, -, e30, e31, e32, -⟩ := idx_facts0 t
  refine ⟨t, flush0_3 t, ?_⟩
  rw [mem_blk0_3]
  intro a
  match a with
  | ⟨0, _⟩ => show win0_3.index t (0 : Fin 3) * 64 ≤ (i 0).val ∧ (i 0).val < win0_3.index t (0 : Fin 3) * 64 + 64; rw [e30, ht]; omega
  | ⟨1, _⟩ => show win0_3.index t (1 : Fin 3) * 128 ≤ (i 1).val ∧ (i 1).val < win0_3.index t (1 : Fin 3) * 128 + 128; rw [e31]; omega
  | ⟨2, _⟩ => show win0_3.index t (2 : Fin 3) * 128 ≤ (i 2).val ∧ (i 2).val < win0_3.index t (2 : Fin 3) * 128 + 128; rw [e32]; omega

/-- THE f32 OUTPUT after the region: the retinal stage of the arguments, as a 3-dimensional array. -/
theorem arr0_3 (c : Dev nD) : (dat0 W c).arrAt 3 cfg0.N = R3 (W c main_arg0) (W c main_arg1) (W c main_arg2) :=
  (dat0 W c).arrAt_eq_of_cover 3 _ (fun t _ => flushed0_3_eq W c t) cover0_3

end Value

section Value

open Idealize.ShloMosaic.ValueIdx

variable (W : Contents Ideal)

/-- On the extended reals a format change is the identity: the bf16 output's buffer holds the f32 output's values. -/
theorem out0_4_eq (i : grid0.Coords) (x0 : FVec Ideal S128x128 .f32) (x1 x2 : FVec Ideal S64x128x128 .f32) :
    (out0_4 (F := Ideal) i x0 x1 x2 : S64x128x128.Idx → EReal) = out0_3 (F := Ideal) i x0 x1 x2 := by
  unfold out0_4 out0_3
  by_cases h : k0_cond1 i = 1#1
  · rw [if_pos h, if_pos h, View.canon_unit_zero hz0_3, View.canon_unit_zero hz0_3]; rfl
  · rw [if_neg h, if_neg h, View.canon_unit_zero hz0_3, View.canon_unit_zero hz0_3]; rfl

/-- WHAT POINT `t` WRITES BACK to the bf16 output is block `t` of the retinal stage of the arguments. -/
theorem flushed0_4_eq (c : Dev nD) (t : Fin cfg0.N) :
    (dat0 W c).flushed 4 t = ((cfg0.win 4).blk t).view.read (Elt Ideal) (R3 (W c main_arg0) (W c main_arg1) (W c main_arg2) : S2048x128x128.Idx → EReal) := by
  show (cfg0.win 4).cut (grid0.coords t) ((dat0 W c).after 4 t) = _
  rw [after0_4]
  obtain ⟨hT, -, -, -, -, -, -, -, -, -, -, -, e40, e41, e42⟩ := idx_facts0 t
  funext j
  refine (congrFun (out0_4_eq (grid0.coords t) _ _ _) j).trans ?_
  refine (out0_3_apply (grid0.coords t) t.val hT (cond0_1_iff t) _ _ _ (W c main_arg0) (W c main_arg1) (W c main_arg2)
    (iblk0_0_apply W c t) (iblk0_1_apply W c t) (iblk0_2_apply W c t) j).trans ?_
  show R3 (W c main_arg0) (W c main_arg1) (W c main_arg2) _ = R3 (W c main_arg0) (W c main_arg1) (W c main_arg2) (((cfg0.win 4).blk t).view.emb j)
  congr 1
  funext ax; apply Fin.ext
  match ax with
  | ⟨0, _⟩ => show 64 * t.val + (j 0).val = win0_4.index t (0 : Fin 3) * 64 + 1 * (j 0).val; rw [e40]; omega
  | ⟨1, _⟩ => show (j 1).val = win0_4.index t (1 : Fin 3) * 128 + 1 * (j 1).val; rw [e41]; omega
  | ⟨2, _⟩ => show (j 2).val = win0_4.index t (2 : Fin 3) * 128 + 1 * (j 2).val; rw [e42]; omega

theorem mem_blk0_4 (t : Fin cfg0.N) (i : S2048x128x128.Idx) :
    i ∈ ((cfg0.win 4).blk t).view.set ↔ ∀ a : Fin 3, win0_4.index t a * S64x128x128.size a ≤ (i a).val ∧ (i a).val < win0_4.index t a * S64x128x128.size a + S64x128x128.size a := by
  show i ∈ ((View.whole main_v1_1).slice (win0_4.rect t)).set ↔ _
  rw [View.set_slice_whole, Rect.mem_set_unit]
  exact Iff.rfl

theorem cover0_4 (i : S2048x128x128.Idx) : ∃ t : Fin cfg0.N, (cfg0.win 4).flush t = true ∧ i ∈ ((cfg0.win 4).blk t).view.set := by
  have hi0 : (i 0).val < 2048 := (i 0).isLt
  have hi1 : (i 1).val < 128 := (i 1).isLt
  have hi2 : (i 2).val < 128 := (i 2).isLt
  obtain ⟨t, ht⟩ : ∃ t : Fin cfg0.N, t.val = (i 0).val / 64 := ⟨⟨(i 0).val / 64, by rw [show cfg0.N = 32 from N_0]; omega⟩, rfl⟩
  obtain ⟨-, -, -, -, -, -, -, -, -, -, -, -, e40, e41, e42⟩ := idx_facts0 t
  refine ⟨t, flush0_4 t, ?_⟩
  rw [mem_blk0_4]
  intro a
  match a with
  | ⟨0, _⟩ => show win0_4.index t (0 : Fin 3) * 64 ≤ (i 0).val ∧ (i 0).val < win0_4.index t (0 : Fin 3) * 64 + 64; rw [e40, ht]; omega
  | ⟨1, _⟩ => show win0_4.index t (1 : Fin 3) * 128 ≤ (i 1).val ∧ (i 1).val < win0_4.index t (1 : Fin 3) * 128 + 128; rw [e41]; omega
  | ⟨2, _⟩ => show win0_4.index t (2 : Fin 3) * 128 ≤ (i 2).val ∧ (i 2).val < win0_4.index t (2 : Fin 3) * 128 + 128; rw [e42]; omega

/-- THE bf16 OUTPUT after the region: the same values. -/
theorem arr0_4 (c : Dev nD) :
    ((dat0 W c).arrAt 4 cfg0.N : S2048x128x128.Idx → EReal) = R3 (W c main_arg0) (W c main_arg1) (W c main_arg2) :=
  (dat0 W c).arrAt_eq_of_cover 4 _ (fun t _ => flushed0_4_eq W c t) cover0_4

end Value

/-- THE VALUE: after the region the f32 output holds, image by image and pixel by pixel, the specification's retinal
    stage of the three arguments. -/
theorem final0_3 (V : Contents Ideal) (c : Dev nD) (n : Fin 2048) (a b : Fin 128) :
    ((dat0 V c).arrAt 3 cfg0.N : S2048x128x128.Idx → EReal) (ValueIdx.ix3 n a b)
      = Cert.Spec.specR (V c main_arg0) (V c main_arg1) (V c main_arg2) (ValueIdx.ix2 n ⟨128 * a.val + b.val, by omega⟩) := by
  rw [arr0_3]; exact R3_eq_specR _ _ _ n a b

/-- and so does its bf16 copy. -/
theorem final0_4 (V : Contents Ideal) (c : Dev nD) (n : Fin 2048) (a b : Fin 128) :
    ((dat0 V c).arrAt 4 cfg0.N : S2048x128x128.Idx → EReal) (ValueIdx.ix3 n a b)
      = Cert.Spec.specR (V c main_arg0) (V c main_arg1) (V c main_arg2) (ValueIdx.ix2 n ⟨128 * a.val + b.val, by omega⟩) := by
  rw [arr0_4]; exact R3_eq_specR _ _ _ n a b

end Cert.Kernel.Hand

end
-- ==== Proof.KbR1Rows.lean ====
/-
  The gather region's body, vocabulary for its run: a row of l and a row of r as the body names them, a row of l held by
  its own elements, the side condition of a table word, and the notation that spells a 128-fold separating conjunction
  (one conjunct per copy of a grid point) and takes it apart.
-/
import proofs.«402079_j32023276159552_3_alg».proof.Proof.KbR1Defs

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A row of l as the body names it: the row's slice of the whole buffer, squeezed to a vector. -/
abbrev drow (off : Fin 2 → Nat) (h : ∀ a, off a + S1x16384.size a ≤ S5120x16384.size a) : Memref sig .tc .hbm S16384 .f32 :=
  ((Memref.whole main_v6).slice (Rect.unit (s := S5120x16384) off S1x16384.size h) (fun _ => rfl)).squeeze S16384 squeezes_S1x16384_S16384

/-- A row of r as the body names it. -/
abbrev srow (off : Fin 2 → Nat) (h : ∀ a, off a + S1x16384.size a ≤ S2048x16384.size a) : Memref sig .tc .hbm S16384 .f32 :=
  ((Memref.whole main_v2).slice (Rect.unit (s := S2048x16384) off S1x16384.size h) (fun _ => rfl)).squeeze S16384 squeezes_S1x16384_S16384

/-- A row of l held by its own elements, outright, at contents f: what a transfer into the row takes and hands back. -/
abbrev rowPt (c : Dev nD) (off : Fin 2 → Nat) (h : ∀ a, off a + S1x16384.size a ≤ S5120x16384.size a)
    (f : Bf (F := F) c (Memref.whole main_v6)) : sProp (MM F) :=
  (drow off h).view.loc (c : Thread nD τ) ↦[(drow off h).view.set]{fullShare} f

/-- Every word read off a table whose words are below 2048 is below 2048. -/
theorem word_lt (c : Dev nD) (T : Bf (F := F) c (Memref.whole main_v5))
    (hT : ∀ q : Fin 5120, ((T : IVec S5120 32) (ValueIdx.ix1 q)).toNat < 2048) (R : LoadRect S5120) (x : R.shape.Idx) :
    (View.readAt (Elt F) (Memref.whole main_v5).view R T x).toNat < 2048 := by
  rw [View.readAt_apply, ValueIdx.eq_ix1 (R.idx x)]
  exact hT _

/-- A word below 2048 names a row of r: the side condition the body assumes of each table word it loads. -/
theorem chk_of_lt (w : BitVec 32) (h : w.toNat < 2048) :
    ∀ a, (![w.toNat, 0] : Fin 2 → Nat) a + S1x16384.size a ≤ S2048x16384.size a := by
  intro a; fin_cases a <;> simp [S1x16384, S2048x16384] <;> omega
/-- The table word the body loads at 1-D offsets off (one element of the table). -/
abbrev wordAt (c : Dev nD) (T : Bf (F := F) c (Memref.whole main_v5)) (off : Fin 1 → Nat) (h : ∀ a, off a + S1.size a ≤ S5120.size a) : BitVec 32 :=
  View.readAt (Elt F) (Memref.whole main_v5).view (Rect.unit (s := S5120) off S1.size h).toLoadRect T
    (Shape.Idx.first (numel1_S1.symm ▸ Nat.one_pos))

/-- A row of l after its copy has landed, as the run leaves it: held by its own elements, at l with the row overwritten
    by the row of r that the table word loaded at offl names (offs: the word's offsets into r). -/
abbrev landedAt (c : Dev nD) (T : Bf (F := F) c (Memref.whole main_v5)) (r : Bf (F := F) c (Memref.whole main_v2))
    (l : Bf (F := F) c (Memref.whole main_v6)) (hT : ∀ q : Fin 5120, ((T : IVec S5120 32) (ValueIdx.ix1 q)).toNat < 2048)
    (offl : Fin 1 → Nat) (hl : ∀ a, offl a + S1.size a ≤ S5120.size a)
    (offd : Fin 2 → Nat) (hd : ∀ a, offd a + S1x16384.size a ≤ S5120x16384.size a)
    (offs : BitVec 32 → Fin 2 → Nat) (hs : ∀ w : BitVec 32, w.toNat < 2048 → ∀ a, offs w a + S1x16384.size a ≤ S2048x16384.size a) : sProp (MM F) :=
  rowPt c offd hd ((drow offd hd).view.writes (Elt F) l
    [⟨Rect.whole S16384, ReadAs.same.apply (View.read (Elt F) (srow (offs (wordAt c T offl hl)) (hs _ (word_lt c T hT _ _))).view r)⟩])

section Macros
open Lean

/-- The 128 rows of grid point t, each named as the body's start of copy b names it. -/
macro "rows128% " c:term:max t:term:max f:term:max : term => do
  let mut acc : Option (TSyntax `term) := none
  for k in [0:128] do
    let b := 127 - k
    let off := mkIdent (Name.mkSimple s!"k1_off{3*b+2}")
    let inb := mkIdent (Name.mkSimple s!"k1_off{3*b+2}_inb")
    let row ← `(rowPt $c ($off (grid1.coords $t)) ($inb (grid1.coords $t)) $f)
    acc := some (← match acc with | none => pure row | some a => `(iprop($row ∗ $a)))
  return acc.get!

/-- Φ 0 ∗ Φ 1 ∗ … ∗ Φ 127, Φ given as `x => body`: the numeral is substituted for x in the body. -/
macro "sep128% " x:ident " => " body:term : term => do
  let mut acc : Option (TSyntax `term) := none
  for k in [0:128] do
    let b := 127 - k
    let n := Syntax.mkNumLit (toString b)
    let inst : TSyntax `term := ⟨body.raw.replaceM (m := Id) fun s => if s.isIdent && s.getId == x.getId then some n.raw else none⟩
    acc := some (← match acc with | none => pure inst | some a => `(iprop($inst ∗ $a)))
  return acc.get!

/-- Take a 128-fold separating conjunction apart into hypotheses X0 … X127. -/
macro "icases128 " h:ident " with " x:ident : tactic => do
  let ids := (List.range 128).toArray.map fun b => mkIdent (x.getId.appendAfter (toString b))
  let alts ← ids.mapM fun i => `(icasesPatAlts| $i:ident)
  `(tactic| icases $h:ident with ⟨$alts,*⟩)

/-- The 128 rows of grid point t after their copies have landed, each named as the body names it. -/
macro "landed128% " c:term:max t:term:max T:term:max r:term:max l:term:max hT:term:max : term => do
  let mut acc : Option (TSyntax `term) := none
  for k in [0:128] do
    let b := 127 - k
    let offl := mkIdent (Name.mkSimple s!"k1_off{3*b+1}")
    let inbl := mkIdent (Name.mkSimple s!"k1_off{3*b+1}_inb")
    let offd := mkIdent (Name.mkSimple s!"k1_off{3*b+2}")
    let inbd := mkIdent (Name.mkSimple s!"k1_off{3*b+2}_inb")
    let offs := mkIdent (Name.mkSimple s!"k1_off{3*b+3}")
    let row ← `(landedAt $c $T $r $l $hT ($offl (grid1.coords $t)) ($inbl (grid1.coords $t)) ($offd (grid1.coords $t)) ($inbd (grid1.coords $t)) $offs (fun w hw => chk_of_lt w hw))
    acc := some (← match acc with | none => pure row | some a => `(iprop($row ∗ $a)))
  return acc.get!

/-- Close a 128-fold separating conjunction by hypotheses X0 … X127, conjunct by conjunct. -/
macro "iexact128 " x:ident : tactic => do
  let ids := (List.range 128).toArray.map fun b => mkIdent (x.getId.appendAfter (toString b))
  let mut ts : Array (TSyntax `tactic) := #[]
  for b in [0:127] do
    let i := ids[b]!
    ts := ts.push (← `(tactic| isplitl [$i]))
    ts := ts.push (← `(tactic| · iexact $i))
  let last := ids[127]!
  ts := ts.push (← `(tactic| iexact $last))
  `(tactic| ($[$ts]*))

/-- Split the goal A ∗ B giving the hypotheses X0 … X127 to A. -/
macro "isplitl128 " x:ident : tactic => do
  let ids := (List.range 128).toArray.map fun b => mkIdent (x.getId.appendAfter (toString b))
  `(tactic| isplitl [$ids*])

end Macros

end Cert.Kernel.Hand

end
-- ==== Proof.KbR1Run.lean ====
/-
  One grid point of the gather region, run once: from the table, the 128 read shares of r (one per transfer semaphore),
  the point's 128 rows of l each held by its own elements, the 128 semaphores at zero and the core owing nothing, the
  body starts its 128 row transfers and awaits them all; every row comes back at l overwritten with the row of r its
  table word names, every read share whole, every semaphore at zero.
-/
import proofs.«402079_j32023276159552_3_alg».proof.Proof.KbR1Rows

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
set_option maxRecDepth 65536 in
/-- The body's run over the rows: each transfer takes its row of l whole (nothing of l is shared between two transfers:
    the destination rows are distinct), reads its row of r under the read share of its own semaphore (two transfers may
    read one row), and its wait hands both back; each table word passes the body's range check because the table's
    words are below 2048. -/
theorem kernelRun1_rows (c : Dev nD) (t : Fin grid1.N)
    (T : Bf (F := F) c (Memref.whole main_v5)) (r : Bf (F := F) c (Memref.whole main_v2)) (l : Bf (F := F) c (Memref.whole main_v6))
    (hT : ∀ q : Fin 5120, ((T : IVec S5120 32) (ValueIdx.ix1 q)).toNat < 2048)
    (W : Waits sig Unit) (Q : PUnit → sProp (MM F)) :
    iprop(pt c (Memref.whole main_v5) T
        ∗ (sep128% b => ((Memref.whole main_v2).view.loc (c : Thread nD τ) ↦{Transfers.shareTokN fullShare (9 + b)} r))
        ∗ (rows128% c t l)
        ∗ (sep128% b => semVal ((c : Thread nD τ), osem1 b) 0)
        ∗ owes (c : Thread nD τ) (0 : CellTallies nD τ sig Unit) W
        ∗ (iprop(pt c (Memref.whole main_v5) T
              ∗ (sep128% b => ((Memref.whole main_v2).view.loc (c : Thread nD τ) ↦{Transfers.shareTokN fullShare (9 + b)} r))
              ∗ (landed128% c t T r l hT)
              ∗ (sep128% b => semVal ((c : Thread nD τ), osem1 b) 0)
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q := by
  iintro ⟨HT, Ht, Hl, Hd, HO, Hk⟩
  icases128 Ht with Ht
  icases128 Hl with Hl
  icases128 Hd with Hd
  sl_exec! (disch := exact chk_of_lt _ (word_lt c T hT _ _))
  sl_step
  iapply Hk
  isplitl [HT]; · iexact HT
  isplitl128 Ht; · iexact128 Ht
  isplitl128 Hl; · iexact128 Hl
  isplitl128 Hd; · iexact128 Hd
  iexists _; iexact HO

end Cert.Kernel.Hand

end
-- ==== Proof.KbR1Arith.lean ====
/-
  The gather region's index arithmetic at grid point t and lane b: the table word's offset and the destination row are
  128·t + b (no 32-bit wrap-around: 128·39 + 127 < 2³²), and the scalar load at an offset reads that word of the table.
-/
import proofs.«402079_j32023276159552_3_alg».proof.Proof.KbR1Defs

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The gather grid has 40 points. -/
theorem grid1_N : grid1.N = 40 := by decide

/-- Its one coordinate at point t is t. -/
theorem coords1_val (t : Fin grid1.N) : ((grid1.coords t) 0).val = t.val := by
  have ht : t.val < 40 := Nat.lt_of_lt_of_eq t.isLt grid1_N
  show t.val / grid1.stride 0 % 40 = t.val
  rw [show grid1.stride 0 = 1 from by decide]
  omega

/-- The 32-bit word 128·n + b, computed as the kernel does, is that number while it stays below 2³². -/
theorem word_muladd (n b : ℕ) (h : 128 * n + b < 2 ^ 32) :
    (Scalar.addi (Scalar.muli (BitVec.ofNat 32 n) 128#32) (BitVec.ofNat 32 b)).toNat = 128 * n + b := by
  simp only [Scalar.addi, Scalar.muli, IntOp.addi, IntOp.muli, BitVec.toNat_add, BitVec.toNat_mul, BitVec.toNat_ofNat,
    Nat.reducePow, Nat.reduceMod] at h ⊢
  omega

/-- The offsets of the scalar load of lane b at grid coordinates i, as the kernel computes them. -/
def ldOff (i : grid1.Coords) (b : ℕ) : Fin 1 → Nat :=
  ![(Scalar.indexCast (Scalar.addi (Scalar.muli (BitVec.ofNat 32 (i 0).val) 128#32) (BitVec.ofNat 32 b))).toNat]

example (i : grid1.Coords) : k1_off1 i = ldOff i 0 := rfl
example (i : grid1.Coords) : k1_off4 i = ldOff i 1 := rfl

/-- At grid point t and lane b the scalar load's offset is 128·t + b. -/
theorem ldOff_eq (t : Fin grid1.N) (b : ℕ) (hb : b < 128) : ldOff (grid1.coords t) b = ![128 * t.val + b] := by
  have ht : t.val < 40 := Nat.lt_of_lt_of_eq t.isLt grid1_N
  unfold ldOff
  rw [coords1_val, Scalar.indexCast, word_muladd _ _ (by omega)]

/-- At grid point t and lane b the awaited destination row is 128·t + b, from column 0. -/
theorem k1_off385_eq (t : Fin grid1.N) (b : ℕ) (hb : b < 128) :
    k1_off385 (grid1.coords t) (BitVec.ofNat 32 b) = ![128 * t.val + b, 0] := by
  have ht : t.val < 40 := Nat.lt_of_lt_of_eq t.isLt grid1_N
  unfold k1_off385
  simp only []
  rw [coords1_val, word_muladd _ _ (by omega)]

/-- The scalar load at offset o of the table held at T reads word o of T. -/
theorem tbl_read (c : Dev nD) (T : Bf (F := F) c (Memref.whole main_v5)) (off : Fin 1 → Nat)
    (h : ∀ a, off a + S1.size a ≤ S5120.size a)
    (hp : 0 < (Rect.unit (s := S5120) off S1.size h).toLoadRect.shape.numel) :
    (Memref.whole main_v5).view.readAt (Elt F) (Rect.unit (s := S5120) off S1.size h).toLoadRect T (Shape.Idx.first hp)
      = (T : IVec S5120 32) (ValueIdx.ix1 (⟨off 0, by have := h 0; change off 0 + 1 ≤ 5120 at this; omega⟩ : Fin 5120)) := by
  rw [View.readAt_apply]
  have e : ∀ X : S5120.Idx, (Memref.whole main_v5).view.read (Elt F) T X = (T : IVec S5120 32) X := fun X => rfl
  rw [e]
  congr 1
  funext a
  match a with
  | ⟨0, _⟩ =>
    refine Fin.ext ?_
    rfl

end Cert.Kernel.Hand

end
-- ==== Proof.KbR1GlueL.lean ====
/-
  The gather region, l's side: the whole buffer is the 128 rows one grid point writes, each held by its own elements,
  beside the rest; and the rest (which the point leaves as it was) with the 128 rows at what the point leaves is the
  whole buffer at what the point leaves.
-/
import proofs.«402079_j32023276159552_3_alg».proof.Proof.KbR1Rows
import proofs.«402079_j32023276159552_3_alg».proof.Proof.KbR1Arith

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The offsets of row 128·i + b of l as the body computes them. -/
abbrev dOff (i : grid1.Coords) (b : ℕ) : Fin 2 → Nat := k1_off385 i (BitVec.ofNat 32 b)

/-- For b < 128 the row lies inside l. -/
theorem dOff_inb (i : grid1.Coords) (b : ℕ) (hb : b < 128) : ∀ a, dOff i b a + S1x16384.size a ≤ S5120x16384.size a :=
  k1_off385_inb i ⟨b, hb⟩

/-- The same with the row's number taken modulo 128, so that it is stated for every b. -/
theorem dOff_inb_mod (i : grid1.Coords) (b : ℕ) : ∀ a, dOff i (b % 128) a + S1x16384.size a ≤ S5120x16384.size a :=
  dOff_inb i (b % 128) (Nat.mod_lt _ (Nat.succ_pos 127))

/-- The elements of a row slice at offsets (k, 0) are the elements of row k: its first coordinate runs over k alone,
    its second over all 16384 columns. -/
theorem mem_drow_set {off : Fin 2 → Nat} {h : ∀ a, off a + S1x16384.size a ≤ S5120x16384.size a} (k : ℕ) (e : off = ![k, 0])
    (y : S5120x16384.Idx) : y ∈ (drow off h).view.set ↔ (y 0).val = k := by
  subst e
  rw [show (drow ![k, 0] h).view.set = (Rect.unit (s := S5120x16384) ![k, 0] S1x16384.size h).set from
    (View.set_reshape _ _).trans (View.set_slice_whole main_v6 _), Rect.mem_set_unit]
  constructor
  · intro hy
    have := hy 0
    simp at this
    omega
  · intro hy a
    have h1 := ValueIdx.idx2_lt1 y
    fin_cases a <;> simp <;> omega

/-! ## The element sets -/

section Sets

variable (c : Dev nD)

/-- l's buffer on core c. -/
abbrev L6 : Loc nD τ sig := (Memref.whole main_v6).view.loc (c : Thread nD τ)

/-- Row b of grid point t. -/
abbrev rowK (t : Fin grid1.N) (b : ℕ) : Finset (Idx (L6 c)) :=
  (drow (dOff (grid1.coords t) (b % 128)) (dOff_inb_mod _ b)).view.set

/-- The elements outside the point's rows 128·t … 128·t + 127. -/
def restSet (t : Fin grid1.N) : Finset (Idx (L6 c)) :=
  Finset.univ.filter fun y : S5120x16384.Idx => ¬ (128 * t.val ≤ (y 0).val ∧ (y 0).val < 128 * t.val + 128)

theorem mem_restSet (t : Fin grid1.N) (y : S5120x16384.Idx) :
    y ∈ restSet c t ↔ ¬ (128 * t.val ≤ (y 0).val ∧ (y 0).val < 128 * t.val + 128) := by
  unfold restSet; rw [Finset.mem_filter]; exact ⟨fun h => h.2, fun h => ⟨Finset.mem_univ _, h⟩⟩

theorem mem_rowK (t : Fin grid1.N) (b : ℕ) (hb : b < 128) (y : S5120x16384.Idx) :
    y ∈ rowK c t b ↔ (y 0).val = 128 * t.val + b :=
  mem_drow_set (128 * t.val + b) (by rw [Nat.mod_eq_of_lt hb]; exact k1_off385_eq t b hb) y

/-- Every element is in the rest or in exactly the row its first coordinate names. -/
theorem univ_eq_rest_union_rows (t : Fin grid1.N) :
    (Finset.univ : Finset (Idx (L6 c))) = restSet c t ∪ (Finset.range 128).biUnion (rowK c t) := by
  ext y
  simp only [Finset.mem_univ, Finset.mem_union, Finset.mem_biUnion, Finset.mem_range, true_iff]
  by_cases hy : 128 * t.val ≤ ((y : S5120x16384.Idx) 0).val ∧ ((y : S5120x16384.Idx) 0).val < 128 * t.val + 128
  · right
    refine ⟨((y : S5120x16384.Idx) 0).val - 128 * t.val, by omega, ?_⟩
    rw [mem_rowK c t _ (by omega)]; omega
  · left; exact (mem_restSet c t y).2 hy

theorem rest_disjoint_rows (t : Fin grid1.N) : Disjoint (restSet c t) ((Finset.range 128).biUnion (rowK c t)) := by
  rw [Finset.disjoint_biUnion_right]
  intro b hb
  rw [Finset.disjoint_left]
  intro y hy hy'
  rw [mem_restSet] at hy
  rw [mem_rowK c t b (Finset.mem_range.1 hb)] at hy'
  have := Finset.mem_range.1 hb
  exact hy (by omega)

theorem rows_disjoint (t : Fin grid1.N) :
    ∀ b ∈ Finset.range 128, ∀ b' ∈ Finset.range 128, b ≠ b' → Disjoint (rowK c t b) (rowK c t b') := by
  intro b hb b' hb' hne
  rw [Finset.disjoint_left]
  intro y hy hy'
  rw [mem_rowK c t b (Finset.mem_range.1 hb)] at hy
  rw [mem_rowK c t b' (Finset.mem_range.1 hb')] at hy'
  omega

end Sets

/-! ## Splitting and joining -/

/-- l less the point's 128 rows. -/
def lRest (c : Dev nD) (t : Fin grid1.N) (l : Bf (F := F) c (Memref.whole main_v6)) : sProp 𝕄 :=
  L6 c ↦[restSet c t]{fullShare} l

/-- The rows' elements held at f, row by row over the list 0 … 127, are the union of the rows held at f. -/
theorem rows_eq (c : Dev nD) (t : Fin grid1.N) (f : Bf (F := F) c (Memref.whole main_v6)) :
    (L6 c ↦[(Finset.range 128).biUnion (rowK c t)]{fullShare} f : sProp 𝕄)
      = bigSepL (List.range 128) (fun b => rowPt c (dOff (grid1.coords t) (b % 128)) (dOff_inb_mod _ b) f) := by
  rw [pointsTo_biUnion (Finset.range 128) (rowK c t) (rows_disjoint c t),
    bigSep_eq_bigSepL_of_eq (List.range 128) (List.toFinset_range 128).symm (List.nodup_range)]

/-- The whole buffer is the rest and the point's 128 rows, each held by its own elements. -/
theorem l_rows_split (c : Dev nD) (t : Fin grid1.N) (l : Bf (F := F) c (Memref.whole main_v6)) :
    pt c (Memref.whole main_v6) l
      ⊢ iprop(lRest c t l ∗ bigSepL (List.range 128) (fun b =>
          rowPt c (dOff (grid1.coords t) (b % 128)) (dOff_inb_mod _ b) l)) := by
  have h1 : (pt c (Memref.whole main_v6) l : sProp 𝕄) = (L6 c ↦[restSet c t ∪ (Finset.range 128).biUnion (rowK c t)]{fullShare} l) := by
    rw [← univ_eq_rest_union_rows c t]
  rw [h1, ← rows_eq]
  exact (pointsTo_union (rest_disjoint_rows c t)).1

/-- The rest, which the point leaves as it was, and the 128 rows at what the point leaves are the whole buffer at what
    the point leaves. -/
theorem l_rows_join (c : Dev nD) (t : Fin grid1.N) (T : Bf (F := F) c (Memref.whole main_v5)) (r : Bf (F := F) c (Memref.whole main_v2))
    (l : Bf (F := F) c (Memref.whole main_v6)) :
    iprop(lRest c t l ∗ bigSepL (List.range 128) (fun b =>
          rowPt c (dOff (grid1.coords t) (b % 128)) (dOff_inb_mod _ b) (gatherStep (F := F) t.val T r l)))
      ⊢ pt c (Memref.whole main_v6) (gatherStep (F := F) t.val T r l) := by
  have h0 : (lRest c t l : sProp 𝕄) = (L6 c ↦[restSet c t]{fullShare} (gatherStep (F := F) t.val T r l)) := by
    unfold lRest
    refine pointsTo_congr fun y hy => ?_
    rw [mem_restSet] at hy
    unfold gatherStep
    rw [if_neg (by omega)]
  have h1 : (pt c (Memref.whole main_v6) (gatherStep (F := F) t.val T r l) : sProp 𝕄)
      = (L6 c ↦[restSet c t ∪ (Finset.range 128).biUnion (rowK c t)]{fullShare} (gatherStep (F := F) t.val T r l)) := by
    rw [← univ_eq_rest_union_rows c t]
  rw [h0, h1, ← rows_eq]
  exact (pointsTo_union (rest_disjoint_rows c t)).2

end Cert.Kernel.Hand

end
-- ==== Proof.KbR1GlueR.lean ====
/-
  The gather region's read-only source and its semaphores, split for 128 concurrent transfers: the whole of r is a
  remainder kept aside and one read share per transfer (the shares numbered as the semaphores are, 9 … 136), and the
  kernel's 128 semaphores at zero are a chain of 128 counters.
-/
import proofs.«402079_j32023276159552_3_alg».proof.Proof.KbR1Defs

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The numbers below 137 are the numbers below 9 and the numbers 9 + b for b below 128. -/
theorem range137_split : Finset.range 137 = Finset.range 9 ∪ (Finset.range 128).map (addLeftEmbedding 9) := by
  ext x
  simp only [Finset.mem_range, Finset.mem_union, Finset.mem_map, addLeftEmbedding_apply]
  constructor
  · intro h
    by_cases h9 : x < 9
    · exact Or.inl h9
    · exact Or.inr ⟨x - 9, by omega, by omega⟩
  · rintro (h | ⟨y, hy, rfl⟩) <;> omega

/-- The two parts share no number. -/
theorem range137_disjoint : Disjoint (Finset.range 9) ((Finset.range 128).map (addLeftEmbedding 9)) := by
  rw [Finset.disjoint_left]
  intro x hx hm
  simp only [Finset.mem_range, Finset.mem_map, addLeftEmbedding_apply] at hx hm
  obtain ⟨y, _, rfl⟩ := hm
  omega

/-- The list 0, …, 127 as a set. -/
theorem toFinset_range128 : (List.range 128).toFinset = Finset.range 128 := by
  ext x
  simp only [List.mem_toFinset, List.mem_range, Finset.mem_range]

/-- A family over the numbers below 137 is its part below 9 and the chain of its members 9 + b, b = 0, …, 127. -/
theorem bigSep_range137 (A : ℕ → sProp 𝕄) :
    bigSep (Finset.range 137) A = iprop(bigSep (Finset.range 9) A ∗ bigSepL (List.range 128) (fun b => A (9 + b))) := by
  rw [range137_split, bigSep_union range137_disjoint, bigSep_map,
    ← bigSep_eq_bigSepL (List.range 128) (List.nodup_range) (fun b => A (9 + b)), toFinset_range128]
  rfl

/-- What of r's share stays aside while the 128 read shares are out: the remainder after 137 shares are split off
    and the first nine of them. -/
def rKeep (c : Dev nD) (r : Bf (F := F) c (Memref.whole main_v2)) : sProp 𝕄 :=
  iprop(((Memref.whole main_v2).view.loc (c : Thread nD τ) ↦{Transfers.shareDrop fullShare 137} r)
    ∗ bigSep (Finset.range 9) (fun i => ((Memref.whole main_v2).view.loc (c : Thread nD τ) ↦{Transfers.shareTokN fullShare i} r)))

/-- r held whole is the part kept aside and one read share per transfer. -/
theorem r_toks_split (c : Dev nD) (r : Bf (F := F) c (Memref.whole main_v2)) :
    pt c (Memref.whole main_v2) r
      ⊢ iprop(rKeep c r ∗ bigSepL (List.range 128)
          (fun b => ((Memref.whole main_v2).view.loc (c : Thread nD τ) ↦{Transfers.shareTokN fullShare (9 + b)} r))) := by
  refine (Transfers.pointsTo_toks_range (f := r) fullShare 137).1.trans ?_
  rw [bigSep_range137]
  unfold rKeep
  iintro ⟨Hd, Hn, Ht⟩
  isplitl [Hd Hn]
  · isplitl [Hd] <;> iassumption
  · iexact Ht

/-- The part kept aside and the 128 read shares are r held whole. -/
theorem r_toks_join (c : Dev nD) (r : Bf (F := F) c (Memref.whole main_v2)) :
    iprop(rKeep c r ∗ bigSepL (List.range 128)
        (fun b => ((Memref.whole main_v2).view.loc (c : Thread nD τ) ↦{Transfers.shareTokN fullShare (9 + b)} r)))
      ⊢ pt c (Memref.whole main_v2) r := by
  refine BIBase.Entails.trans ?_ (Transfers.pointsTo_toks_range (f := r) fullShare 137).2
  rw [bigSep_range137]
  unfold rKeep
  iintro ⟨⟨Hd, Hn⟩, Ht⟩
  isplitl [Hd]
  · iexact Hd
  · isplitl [Hn] <;> iassumption

/-- The kernel's 128 semaphores at zero, one by one. -/
theorem sems_split (c : Dev nD) :
    (Pipeline.ownSems0 (Ix := Unit) (Name := ℕ) (U := UU) (Lvl := ℕ) (Val := Elt F) (τ := τ) osem1 c : sProp 𝕄)
      = bigSepL (List.finRange 128) (fun b : Fin 128 => semVal ((c : Thread nD τ), osem1 b) 0) :=
  Pipeline.ownSems0_eq_of_list c osem1 (List.finRange 128)
    (by ext x; simp only [Finset.mem_univ, List.mem_toFinset, List.mem_finRange]) (List.nodup_finRange 128)

end Cert.Kernel.Hand

end
-- ==== Proof.KbR1Landed.lean ====
/-
  One landed row of the gather region: the row of l a transfer has filled from the row of r its table word names holds,
  element by element, what the grid point's step leaves there.
-/
import proofs.«402079_j32023276159552_3_alg».proof.Proof.KbR1Rows
import proofs.«402079_j32023276159552_3_alg».proof.Proof.KbR1Arith

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- Dropping the unit axis: the index of the one-row block matched with column x is (0, x). -/
theorem squeeze_idx (x : S16384.Idx) :
    Shape.reshapeEquiv squeezes_S1x16384_S16384.numel_eq x = (Fin.cons ⟨0, Nat.one_pos⟩ x : S1x16384.Idx) :=
  Shape.reshapeEquiv_cons_one _ x

/-- Column x of the row of l at offsets off is the element (off 0, off 1 + x) of l. -/
theorem drow_emb (off : Fin 2 → Nat) (h : ∀ a, off a + S1x16384.size a ≤ S5120x16384.size a) (x : S16384.Idx) :
    ((drow off h).view.emb x 0).val = off 0 ∧ ((drow off h).view.emb x 1).val = off 1 + (x 0).val := by
  have e : (drow off h).view.emb x = (Rect.unit (s := S5120x16384) off S1x16384.size h).emb (Shape.reshapeEquiv squeezes_S1x16384_S16384.numel_eq x) := rfl
  rw [e, squeeze_idx]
  constructor
  · show off 0 + 1 * 0 = off 0
    omega
  · show off 1 + 1 * (x 0).val = off 1 + (x 0).val
    omega

/-- Column x of the row of r at offsets off is the element (off 0, off 1 + x) of r. -/
theorem srow_emb (off : Fin 2 → Nat) (h : ∀ a, off a + S1x16384.size a ≤ S2048x16384.size a) (x : S16384.Idx) :
    ((srow off h).view.emb x 0).val = off 0 ∧ ((srow off h).view.emb x 1).val = off 1 + (x 0).val := by
  have e : (srow off h).view.emb x = (Rect.unit (s := S2048x16384) off S1x16384.size h).emb (Shape.reshapeEquiv squeezes_S1x16384_S16384.numel_eq x) := rfl
  rw [e, squeeze_idx]
  constructor
  · show off 0 + 1 * 0 = off 0
    omega
  · show off 1 + 1 * (x 0).val = off 1 + (x 0).val
    omega

/-- The landed row, with the table word and the two rows' offsets named: on the row 128·t + b of l, what the transfer
    wrote — the row w of r, column by column — is what the grid point's step holds there (the clamp of the table word
    does not bind below 2048). -/
theorem row_landed_core (c : Dev nD) (t : Fin grid1.N) (T : Bf (F := F) c (Memref.whole main_v5))
    (r : Bf (F := F) c (Memref.whole main_v2)) (l : Bf (F := F) c (Memref.whole main_v6))
    (b : ℕ) (hb : b < 128)
    (offd : Fin 2 → Nat) (hd : ∀ a, offd a + S1x16384.size a ≤ S5120x16384.size a) (ed : offd = ![128 * t.val + b, 0])
    (w : BitVec 32) (hw : w.toNat < 2048)
    (ew : w = (T : IVec S5120 32) (ValueIdx.ix1 (⟨128 * t.val + b, by have := Nat.lt_of_lt_of_eq t.isLt grid1_N; omega⟩ : Fin 5120)))
    (offs : Fin 2 → Nat) (hs : ∀ a, offs a + S1x16384.size a ≤ S2048x16384.size a) (es : offs = ![w.toNat, 0]) :
    rowPt c offd hd ((drow offd hd).view.writes (Elt F) l
        [⟨Rect.whole S16384, (ReadAs.same (Val := Elt F)).apply (View.read (Elt F) (srow offs hs).view r)⟩])
      ⊢ rowPt c offd hd (gatherStep (F := F) t.val T r l) := by
  refine Entails.of_eq (pointsTo_congr fun y hy => ?_)
  obtain ⟨x, -, rfl⟩ := Finset.mem_map.mp hy
  have ht : t.val < 40 := Nat.lt_of_lt_of_eq t.isLt grid1_N
  obtain ⟨d0, d1⟩ := drow_emb offd hd x
  obtain ⟨s0, s1⟩ := srow_emb offs hs x
  subst ed es
  have d0' : ((drow _ hd).view.emb x 0).val = 128 * t.val + b := d0
  have d1' : ((drow _ hd).view.emb x 1).val = (x 0).val := d1.trans (Nat.zero_add _)
  have s0' : ((srow _ hs).view.emb x 0).val = w.toNat := s0
  have s1' : ((srow _ hs).view.emb x 1).val = (x 0).val := s1.trans (Nat.zero_add _)
  -- the written contents under column x: the source row's element there
  have h1 := congrFun (View.read_writes_whole (drow _ hd).view l
    ((ReadAs.same (Val := Elt F)).apply (View.read (Elt F) (srow _ hs).view r))) x
  rw [View.read_apply] at h1
  have h2 := eq_of_heq ((cast_heq _ _).symm.trans (heq_of_eq h1))
  rw [h2, ReadAs.apply_same, View.read_apply]
  refine (eq_of_heq (cast_heq _ _)).trans ?_
  have hc : 128 * t.val ≤ ((drow _ hd).view.emb x 0).val ∧ ((drow _ hd).view.emb x 0).val < 128 * t.val + 128 := by
    rw [d0']; constructor <;> omega
  unfold gatherStep
  rw [if_pos hc]
  unfold rowFrom
  refine congrArg r (funext fun a => ?_)
  refine Fin.ext ?_
  match a with
  | ⟨0, _⟩ =>
    have hlt : 128 * t.val + b < 5120 := by omega
    have key : ∀ q : Fin 5120, q.val = 128 * t.val + b → (tblRow T q).val = w.toNat := by
      intro q hq
      have eq : q = ⟨128 * t.val + b, hlt⟩ := Fin.ext hq
      subst eq
      unfold tblRow
      show min ((T : IVec S5120 32) (ValueIdx.ix1 _)).toNat 2047 = w.toNat
      rw [← ew]
      omega
    exact s0'.trans (key _ d0').symm
  | ⟨1, _⟩ => exact s1'.trans d1'.symm

/-- One landed row as the run leaves it — the table word loaded at lane b's offsets, the source row it names, the
    destination row of lane b — holds the grid point's step on that row. -/
theorem row_landed (c : Dev nD) (t : Fin grid1.N) (T : Bf (F := F) c (Memref.whole main_v5))
    (r : Bf (F := F) c (Memref.whole main_v2)) (l : Bf (F := F) c (Memref.whole main_v6))
    (hT : ∀ q : Fin 5120, ((T : IVec S5120 32) (ValueIdx.ix1 q)).toNat < 2048) (b : ℕ) (hb : b < 128)
    (offl : Fin 1 → Nat) (hl : ∀ a, offl a + S1.size a ≤ S5120.size a) (el : offl = ldOff (grid1.coords t) b)
    (offd : Fin 2 → Nat) (hd : ∀ a, offd a + S1x16384.size a ≤ S5120x16384.size a)
    (ed : offd = k1_off385 (grid1.coords t) (BitVec.ofNat 32 b))
    (offs : BitVec 32 → Fin 2 → Nat)
    (hs : ∀ w : BitVec 32, w.toNat < 2048 → ∀ a, offs w a + S1x16384.size a ≤ S2048x16384.size a)
    (es : ∀ w, offs w = ![w.toNat, 0]) :
    landedAt c T r l hT offl hl offd hd offs hs ⊢ rowPt c offd hd (gatherStep (F := F) t.val T r l) := by
  have ht : t.val < 40 := Nat.lt_of_lt_of_eq t.isLt grid1_N
  have e0 : offl 0 = 128 * t.val + b := by rw [el, ldOff_eq t b hb]; rfl
  have ew : wordAt c T offl hl
      = (T : IVec S5120 32) (ValueIdx.ix1 (⟨128 * t.val + b, by omega⟩ : Fin 5120)) :=
    (tbl_read c T offl hl _).trans (congrArg (fun q : Fin 5120 => (T : IVec S5120 32) (ValueIdx.ix1 q)) (Fin.ext e0))
  exact row_landed_core c t T r l b hb offd hd (ed.trans (k1_off385_eq t b hb)) (wordAt c T offl hl)
    (word_lt c T hT _ _) ew (offs (wordAt c T offl hl)) (hs _ (word_lt c T hT _ _)) (es _)

-- the body's own offset functions are these, lane by lane (the first lanes and the last)
example (t : Fin grid1.N) : k1_off1 (grid1.coords t) = ldOff (grid1.coords t) 0 := rfl
example (t : Fin grid1.N) : k1_off2 (grid1.coords t) = k1_off385 (grid1.coords t) (BitVec.ofNat 32 0) := rfl
example (w : BitVec 32) : k1_off3 w = ![w.toNat, 0] := rfl
example (t : Fin grid1.N) : k1_off4 (grid1.coords t) = ldOff (grid1.coords t) 1 := rfl
example (t : Fin grid1.N) : k1_off5 (grid1.coords t) = k1_off385 (grid1.coords t) (BitVec.ofNat 32 1) := rfl
example (w : BitVec 32) : k1_off6 w = ![w.toNat, 0] := rfl
example (t : Fin grid1.N) : k1_off382 (grid1.coords t) = ldOff (grid1.coords t) 127 := rfl
example (t : Fin grid1.N) : k1_off383 (grid1.coords t) = k1_off385 (grid1.coords t) (BitVec.ofNat 32 127) := rfl
example (w : BitVec 32) : k1_off384 w = ![w.toNat, 0] := rfl

end Cert.Kernel.Hand

end
-- ==== Proof.KbR1Asm.lean ====
/-
  One grid point of the gather region, assembled: the whole buffers are split into what the 128 transfers take (a read
  share of r, a row of l and a semaphore each), the run's lemma is applied, and what it hands back is joined into the
  whole buffers again, l at what the point leaves.
-/
import proofs.«402079_j32023276159552_3_alg».proof.Proof.KbR1Rows
import proofs.«402079_j32023276159552_3_alg».proof.Proof.KbR1GlueL
import proofs.«402079_j32023276159552_3_alg».proof.Proof.KbR1GlueR
import proofs.«402079_j32023276159552_3_alg».proof.Proof.KbR1Arith
import proofs.«402079_j32023276159552_3_alg».proof.Proof.KbR1Landed

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- A chain over the list 0, …, 127 is the 128-fold conjunction. -/
theorem bigSepL_range128 (Φ : ℕ → sProp 𝕄) : bigSepL (List.range 128) Φ = (sep128% b => Φ b) := rfl

section Macros
open Lean

/-- The list 0, 1, …, 127 written out. -/
macro "list128%" : term => do
  let ns := (List.range 128).toArray.map fun b => Syntax.mkNumLit (toString b)
  `([$ns,*])

/-- Row by row: each landed row is the row at what the point leaves; the 128 facts joined along the conjunction. -/
macro "landedMono% " c:term:max t:term:max T:term:max r:term:max l:term:max hT:term:max : term => do
  let mut acc : Option (TSyntax `term) := none
  for k in [0:128] do
    let b := 127 - k
    let n := Syntax.mkNumLit (toString b)
    let offl := mkIdent (Name.mkSimple s!"k1_off{3*b+1}")
    let inbl := mkIdent (Name.mkSimple s!"k1_off{3*b+1}_inb")
    let offd := mkIdent (Name.mkSimple s!"k1_off{3*b+2}")
    let inbd := mkIdent (Name.mkSimple s!"k1_off{3*b+2}_inb")
    let offs := mkIdent (Name.mkSimple s!"k1_off{3*b+3}")
    let lem ← `(row_landed $c $t $T $r $l $hT $n (by decide) ($offl (grid1.coords $t)) ($inbl (grid1.coords $t)) rfl
      ($offd (grid1.coords $t)) ($inbd (grid1.coords $t)) rfl $offs (fun w hw => chk_of_lt w hw) (fun _ => rfl))
    acc := some (← match acc with | none => pure lem | some a => `(BIClass.sep_mono $lem $a))
  return acc.get!

end Macros

/-- The 128 semaphore numbers in order, written out. -/
theorem finRange128_eq : List.finRange 128 = (list128% : List (Fin 128)) := by decide

/-- The same over the 128 semaphore numbers. -/
theorem bigSepL_finRange128 (Φ : Fin 128 → sProp 𝕄) : bigSepL (List.finRange 128) Φ = (sep128% b => Φ b) := by
  rw [finRange128_eq]
  simp only [bigSepL_cons_cons, bigSepL_singleton]
  rfl

set_option maxHeartbeats 400000 in
/-- The point's rows listed by their number are the rows as the body names them. -/
theorem rows_chain (c : Dev nD) (t : Fin grid1.N) (f : Bf (F := F) c (Memref.whole main_v6)) :
    bigSepL (List.range 128) (fun b => rowPt c (dOff (grid1.coords t) (b % 128)) (dOff_inb_mod _ b) f) = (rows128% c t f) := rfl

set_option maxHeartbeats 400000 in
/-- All 128 landed rows are the point's rows at what the point leaves (G names those contents). -/
theorem landed_rows (c : Dev nD) (t : Fin grid1.N) (T : Bf (F := F) c (Memref.whole main_v5)) (r : Bf (F := F) c (Memref.whole main_v2))
    (l : Bf (F := F) c (Memref.whole main_v6)) (hT : ∀ q : Fin 5120, ((T : IVec S5120 32) (ValueIdx.ix1 q)).toNat < 2048)
    (G : Bf (F := F) c (Memref.whole main_v6)) (hG : G = gatherStep (F := F) t.val T r l) :
    (landed128% c t T r l hT) ⊢ (rows128% c t G) := by
  subst hG
  exact landedMono% c t T r l hT

/-- One grid point of the gather region from the run of its body on the split resources. -/
theorem kernelRun1_asm (c : Dev nD) (t : Fin grid1.N) (T : Bf (F := F) c (Memref.whole main_v5)) (r : Bf (F := F) c (Memref.whole main_v2))
    (l : Bf (F := F) c (Memref.whole main_v6))
    (hT : ∀ q : Fin 5120, ((T : IVec S5120 32) (ValueIdx.ix1 q)).toNat < 2048) (W : Waits sig Unit) (Q : PUnit → sProp (MM F))
    (hrun : iprop(pt c (Memref.whole main_v5) T
        ∗ (sep128% b => ((Memref.whole main_v2).view.loc (c : Thread nD τ) ↦{Transfers.shareTokN fullShare (9 + b)} r))
        ∗ (rows128% c t l)
        ∗ (sep128% b => semVal ((c : Thread nD τ), osem1 b) 0)
        ∗ owes (c : Thread nD τ) (0 : CellTallies nD τ sig Unit) W
        ∗ (iprop(pt c (Memref.whole main_v5) T
              ∗ (sep128% b => ((Memref.whole main_v2).view.loc (c : Thread nD τ) ↦{Transfers.shareTokN fullShare (9 + b)} r))
              ∗ (landed128% c t T r l hT)
              ∗ (sep128% b => semVal ((c : Thread nD τ), osem1 b) 0)
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q) :
    iprop(pt c (Memref.whole main_v5) T ∗ pt c (Memref.whole main_v2) r ∗ pt c (Memref.whole main_v6) l
        ∗ Pipeline.ownSems0 (Ix := Unit) (Name := ℕ) (U := UU) (Lvl := ℕ) (Val := Elt F) (τ := τ) osem1 c
        ∗ owes (c : Thread nD τ) (0 : CellTallies nD τ sig Unit) W
        ∗ (iprop(pt c (Memref.whole main_v5) T ∗ pt c (Memref.whole main_v2) r
              ∗ pt c (Memref.whole main_v6) (gatherStep (F := F) t.val T r l)
              ∗ Pipeline.ownSems0 (Ix := Unit) (Name := ℕ) (U := UU) (Lvl := ℕ) (Val := Elt F) (τ := τ) osem1 c
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q := by
  have hmono := landed_rows c t T r l hT _ rfl
  have hrs := r_toks_split c r
  have hrj := r_toks_join c r
  rw [bigSepL_range128] at hrs hrj
  have hls := l_rows_split c t l
  have hlj := l_rows_join c t T r l
  rw [rows_chain] at hls hlj
  have hss : (Pipeline.ownSems0 (Ix := Unit) (Name := ℕ) (U := UU) (Lvl := ℕ) (Val := Elt F) (τ := τ) osem1 c : sProp 𝕄)
      = (sep128% b => semVal ((c : Thread nD τ), osem1 b) 0) := (sems_split c).trans (bigSepL_finRange128 _)
  rw [hss]
  iintro ⟨HT, Hr, Hl, Hs, HO, Hk⟩
  ihave Hr2 := hrs $$ Hr
  icases Hr2 with ⟨Hkeep, Htoks⟩
  ihave Hl2 := hls $$ Hl
  icases Hl2 with ⟨Hrest, Hrows⟩
  iapply hrun
  isplitl [HT]; · iexact HT
  isplitl [Htoks]; · iexact Htoks
  isplitl [Hrows]; · iexact Hrows
  isplitl [Hs]; · iexact Hs
  isplitl [HO]; · iexact HO
  iintro ⟨HT, Htoks, Hland, Hs, HO⟩
  iapply Hk
  isplitl [HT]; · iexact HT
  isplitl [Hkeep Htoks]
  · iapply hrj
    isplitl [Hkeep]; · iexact Hkeep
    iexact Htoks
  isplitl [Hrest Hland]
  · iapply hlj
    isplitl [Hrest]; · iexact Hrest
    iapply hmono $$ Hland
  isplitl [Hs]; · iexact Hs
  iexact HO

end Cert.Kernel.Hand

end
-- ==== Proof.KbR1Body.lean ====
/-
  One grid point of the gather region: 128 row transfers from r into l, each on a semaphore of its own, all started and
  then all awaited.
-/
import proofs.«402079_j32023276159552_3_alg».proof.Proof.KbR1Run
import proofs.«402079_j32023276159552_3_alg».proof.Proof.KbR1Asm

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- From the table, r and l held whole, the 128 semaphores at zero and the core owing nothing, the body at grid point t
    runs to its return with the table and r as they were, l with the point's 128 rows taken from r through the table,
    the semaphores back at zero and the core owing nothing. The table's words are row numbers of r.
    The body's run is over l's 128 rows each held by itself and r's 128 read shares (the run's lemma); l and r are taken
    apart so before it and put together after it, each landed row's contents being the final contents on that row. -/
theorem kernelRun1 (c : Dev nD) (t : Fin grid1.N)
    (T : Bf (F := F) c (Memref.whole main_v5)) (r : Bf (F := F) c (Memref.whole main_v2)) (l : Bf (F := F) c (Memref.whole main_v6))
    (hT : ∀ q : Fin 5120, ((T : IVec S5120 32) (ValueIdx.ix1 q)).toNat < 2048)
    (W : Waits sig Unit) (Q : PUnit → sProp (MM F)) :
    iprop(pt c (Memref.whole main_v5) T ∗ pt c (Memref.whole main_v2) r ∗ pt c (Memref.whole main_v6) l
        ∗ Pipeline.ownSems0 (Ix := Unit) (Name := ℕ) (U := UU) (Lvl := ℕ) (Val := Elt F) (τ := τ) osem1 c
        ∗ owes (c : Thread nD τ) (0 : CellTallies nD τ sig Unit) W
        ∗ (iprop(pt c (Memref.whole main_v5) T ∗ pt c (Memref.whole main_v2) r
              ∗ pt c (Memref.whole main_v6) (gatherStep (F := F) t.val T r l)
              ∗ Pipeline.ownSems0 (Ix := Unit) (Name := ℕ) (U := UU) (Lvl := ℕ) (Val := Elt F) (τ := τ) osem1 c
              ∗ ∃ W', owes (c : Thread nD τ) (0 : CellTallies nD τ sig Unit) W') -∗ Q ⟨⟩))
      ⊢ wp frame (wpE (defs₀ (F := F)) Variants.none c none) Set.univ
          (cc1__gather_kernel (grid1.coords t) (Memref.whole main_v5) (Memref.isWhole_whole _) (Memref.whole main_v2) (Memref.isWhole_whole _)
            (Memref.whole main_v6) (Memref.isWhole_whole _) cc1_scratch0) Q :=
  kernelRun1_asm c t T r l hT W Q (kernelRun1_rows c t T r l hT W Q)

end Cert.Kernel.Hand

end
-- ==== Proof.KbR1.lean ====
/-
  The gather region's proof data over its invariant (the table and r held as they were, l with the rows of the points
  already run taken from r through the table): one grid point's effect iterated gives the closed form, and the body
  at point t carries the invariant at t to the invariant at t + 1.
-/
import proofs.«402079_j32023276159552_3_alg».proof.Proof.KbR1Body
import Idealize.ShloMosaic.Lib.ValueIdx

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : Contents F)

/-- The region's proof data on core c: no windows, everything in the invariant. -/
def dat1 (a : (pcfg1 (F := F)).Adm) (c : Dev nD) : Dat τ (Elt F) Unit ℕ UU ℕ (cfg1 a) c where
  A w := w.elim0
  after w := w.elim0
  Φ t := Φ1 V c t.val
  q w := w.elim0
  owed _ := 0

theorem Φ_eq1 (a : (pcfg1 (F := F)).Adm) (c : Dev nD) (t : Fin ((cfg1 a).N + 1)) : (dat1 V a c).Φ t = Φ1 V c t.val := rfl

theorem owed_eq1 (a : (pcfg1 (F := F)).Adm) (c : Dev nD) (t : Fin ((cfg1 a).N + 1)) : (dat1 V a c).owed t = 0 := rfl

/-- One more grid point on top of the first n: the rows below 128·n and the rows 128·n … 128·n + 127 together are the
    rows below 128·(n + 1). -/
theorem gatherStep_gathered (n : ℕ) (T : IVec S5120 32) (r : FVec F S2048x16384 .f32) (l₀ : FVec F S5120x16384 .f32) :
    gatherStep n T r (gathered n T r l₀) = gathered (n + 1) T r l₀ := by
  funext y
  unfold gatherStep gathered
  split_ifs <;> first | rfl | (exfalso; omega)

/-- After all 40 grid points every row of l is taken from r: 128·40 = 5120 is the number of rows. -/
theorem gathered_all (T : IVec S5120 32) (r : FVec F S2048x16384 .f32) (l₀ : FVec F S5120x16384 .f32) (y : S5120x16384.Idx) :
    gathered 40 T r l₀ y = rowFrom T r y := by
  unfold gathered
  rw [if_pos (by have := ValueIdx.idx2_lt0 y; omega)]

/-- No windows: the conjunction over them is empty. -/
theorem bigSep_W1 {M : Type} [URA M] (Φ : Fin 0 → sProp M) : bigSep Finset.univ Φ = (BI.emp : sProp M) := by
  rw [show (Finset.univ : Finset (Fin 0)) = ∅ from rfl, BI.bigSep_empty]

/-- The body obligation: at point t the invariant holds l with the rows below 128·t gathered; the body gathers the
    rows 128·t … 128·t + 127 and leaves everything else, which is the invariant at t + 1. -/
theorem body_obligation1 (a : (pcfg1 (F := F)).Adm) (c : Dev nD)
    (hT : ∀ q : Fin 5120, ((V c main_v5 : IVec S5120 32) (ValueIdx.ix1 q)).toNat < 2048) :
    BodyObligation (dat1 V a c) (defs₀ (F := F)) Variants.none () Set.univ := fun t => by
  rw [bigSep_W1, bigSep_W1]
  rw [show (dat1 V a c).Φ t.castSucc = Φ1 V c t.val from rfl, show (dat1 V a c).Φ t.succ = Φ1 V c (t.val + 1) from rfl]
  unfold Φ1 Dat.owesAt Pipeline.owesWithin
  rw [show (dat1 V a c).owed t.castSucc = 0 from rfl, show (dat1 V a c).owed t.succ = 0 from rfl]
  iintro ⟨⟨Hsr, Hpr, Hsems, H5, H2, H6⟩, ⟨%W, %hW, HO⟩, -⟩
  iapply (kernelRun1 c t (V c main_v5) (V c main_v2) (gathered t.val (V c main_v5) (V c main_v2) (V c main_v6)) hT W _)
  isplitl [H5]; · iexact H5
  isplitl [H2]; · iexact H2
  isplitl [H6]; · iexact H6
  isplitl [Hsems]; · iexact Hsems
  isplitl [HO]; · iexact HO
  iintro ⟨H5, H2, H6, Hsems, ⟨%W', HO⟩⟩
  rw [gatherStep_gathered]
  isplitl [Hsr Hpr Hsems H5 H2 H6]
  · isplitl [Hsr]; · iexact Hsr
    isplitl [Hpr]; · iexact Hpr
    isplitl [Hsems]; · iexact Hsems
    isplitl [H5]; · iexact H5
    isplitl [H2]; · iexact H2
    iexact H6
  isplitl [HO]
  · iexists W'; isplitr; · ipureintro; exact fun _ _ => Or.inl trivial
    iexact HO
  iempintro

end Cert.Kernel.Hand

end
-- ==== Proof.KbR2.lean ====
/-
  The matrix-product region (the third kernel): each of its 64 grid points multiplies the whole left operand
  [4096, 2048] by one block of 256 columns of the right operand [2048, 16384] into the matching 256 columns of the
  result [4096, 16384], the sum accumulated from zero in the result's format. This module gives the region's proof
  data (what every window's buffer holds after the body at every point), the body's triple at a generic point, and,
  on the extended reals, the result array after the region as the matrix product of the two operand arrays.
-/
import proofs.«402079_j32023276159552_3_alg».proof.Proof.KbBase
import Idealize.ShloMosaic.Lib.Ring
import Idealize.ShloMosaic.PureOps.Ideal.Laws
import Idealize.ShloMosaic.Lib.ValueIdx
import Idealize.ShloMosaic.Lib.Pipeline.Value

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

section Region2

variable (V : Contents F)

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block (the whole array) at every point, fetched there or not: an
    input the body leaves in place keeps the block of the last fetch, and the block index has not moved since. -/
theorem before2_0_of {c : Dev nD} (dat : Dat τ (Elt F) Unit ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block (256 columns) at every point. -/
theorem before2_1_of {c : Dev nD} (dat : Dat τ (Elt F) Unit ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4096x2048 := Rect.unit (s := S4096x2048) ![0, 0] S4096x2048.size inb_S4096x2048_S4096x2048_0_0
abbrev r2_1 : Rect S2048x256 := Rect.unit (s := S2048x256) ![0, 0] S2048x256.size inb_S2048x256_S2048x256_0_0
abbrev r2_2 : Rect S4096x256 := Rect.unit (s := S4096x256) ![0, 0] S4096x256.size inb_S4096x256_S4096x256_0_0

/-! ## What the body leaves in the result's staging buffer -/

/-- The result's staging buffer after the body, from the two operand blocks: the one whole-buffer store of the
    product of the two loaded blocks. -/
def out2_2 (x0 : Vec F S4096x2048 .bf16) (x1 : Vec F S2048x256 .bf16) : Vec F S4096x256 .f32 :=
  View.canon [⟨r2_2, k2_pay1 (View.ld x0 r2_0) (View.ld x1 r2_1)⟩]

/-- The one store covers the buffer. -/
theorem cover2_2 (p0 : Vec F S4096x256 .f32) (y : S4096x256.Idx) :
    ∃ pc ∈ ([⟨r2_2, p0⟩] : List (View.Piece (Elt F) S4096x256 .f32)), y ∈ pc.1.set :=
  View.cover_of_tiled [⟨r2_2, p0⟩] S4096x256.size (by rfl) y

/-! ## The body's triple -/

set_option maxHeartbeats 1000000 in
/-- The body on whole staging memrefs, the operands' at contents reading x0, x1 and the result's at anything, runs to
    the continuation holding the operands' as they were and the result's at the product block. -/
theorem sound_kernel2 (c : Dev nD) (E : Set ℕ) (i : grid2.Coords) (arg1 : Memref sig .tc .vmem S4096x2048 .bf16) (harg1 : arg1.IsWhole) (arg2 : Memref sig .tc .vmem S2048x256 .bf16) (harg2 : arg2.IsWhole) (arg3 : Memref sig .tc .vmem S4096x256 .f32) (harg3 : arg3.IsWhole)
    (x0 : Vec F S4096x2048 .bf16) (x1 : Vec F S2048x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core c: the arrays as the region finds them; after the body at point t each
    operand's buffer at its block and the result's at the product of the two blocks; the invariant the scoped rest
    and the generator register, untouched; nothing owed; full shares. -/
def dat2 (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem Φ_eq2 (c : Dev nD) (t : Fin (cfg2.N + 1)) :
    (dat2 V c).Φ t = (Pipeline.ΦA spec2 c : sProp (MM F)) := by
  dsimp only [dat2]

theorem owed_eq2 (c : Dev nD) (t : Fin (cfg2.N + 1)) : (dat2 V c).owed t = 0 := by dsimp only [dat2]

theorem q_eq2 (c : Dev nD) (w : Fin cfg2.W) : (dat2 V c).q w = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each operand's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

/-! ## The value on the extended reals: the result array is the matrix product of the operand arrays -/

section Value

open Idealize.ShloMosaic.ValueIdx
open scoped BigOperators

/-! ### One element of the product block

The product's operand indices at output index (p, q) and contraction coordinate k are (p, k) on the left and (k, q)
on the right: the left operand's axis 0 and the right operand's axis 1 are free, the other two are contracted. -/

theorem lhs_mm_0 (i : S4096x256.Idx) (q : dot_S4096x2048_S2048x256_S4096x256_1_0_0_1_n_n.contr.Idx) :
    (dot_S4096x2048_S2048x256_S4096x256_1_0_0_1_n_n.lhsIdx i q 0).val = (i 0).val := by
  unfold DotDims.lhsIdx
  rw [dif_neg (show ¬(0 : Fin S4096x2048.rank) ∈ dot_S4096x2048_S2048x256_S4096x256_1_0_0_1_n_n.lhsBatch by decide), dif_pos (show (0 : Fin S4096x2048.rank) ∈ dot_S4096x2048_S2048x256_S4096x256_1_0_0_1_n_n.lhsNonContracting by decide)]
  rfl
theorem lhs_mm_1 (i : S4096x256.Idx) (q : dot_S4096x2048_S2048x256_S4096x256_1_0_0_1_n_n.contr.Idx) :
    (dot_S4096x2048_S2048x256_S4096x256_1_0_0_1_n_n.lhsIdx i q 1).val = (q ⟨0, by decide⟩).val :=
  dot_S4096x2048_S2048x256_S4096x256_1_0_0_1_n_n.lhsIdx_val_of_single rfl i q
theorem rhs_mm_0 (i : S4096x256.Idx) (q : dot_S4096x2048_S2048x256_S4096x256_1_0_0_1_n_n.contr.Idx) :
    (dot_S4096x2048_S2048x256_S4096x256_1_0_0_1_n_n.rhsIdx i q 0).val = (q ⟨0, by decide⟩).val :=
  dot_S4096x2048_S2048x256_S4096x256_1_0_0_1_n_n.rhsIdx_val_of_single rfl i q
theorem rhs_mm_1 (i : S4096x256.Idx) (q : dot_S4096x2048_S2048x256_S4096x256_1_0_0_1_n_n.contr.Idx) :
    (dot_S4096x2048_S2048x256_S4096x256_1_0_0_1_n_n.rhsIdx i q 1).val = (i 1).val := by
  unfold DotDims.rhsIdx
  rw [dif_neg (show ¬(1 : Fin S2048x256.rank) ∈ dot_S4096x2048_S2048x256_S4096x256_1_0_0_1_n_n.rhsBatch by decide), dif_pos (show (1 : Fin S2048x256.rank) ∈ dot_S4096x2048_S2048x256_S4096x256_1_0_0_1_n_n.rhsNonContracting by decide)]
  rfl

/-- On the extended reals the body's payload at (p, q) is the sum over the 2048 contracted coordinates of the products
    of the left block's row p and the right block's column q: the accumulator starts at zero, the casts of the
    operands to their own shapes are the identity, and nothing is rounded. -/
theorem k2_pay1_apply (x0 : Vec Ideal S4096x2048 .bf16) (x1 : Vec Ideal S2048x256 .bf16) (p : Fin 4096) (q : Fin 256) :
    (k2_pay1 (F := Ideal) x0 x1 : S4096x256.Idx → EReal) (ix2 p q)
      = ∑ j : Fin 2048, (x0 : S4096x2048.Idx → EReal) (ix2 p j) * (x1 : S2048x256.Idx → EReal) (ix2 j q) := by
  unfold k2_pay1
  simp only [shapeCast_self]
  refine (Ideal.matmul_constant_zero_apply (φ₁ := .bf16) (φ₂ := .bf16) dot_S4096x2048_S2048x256_S4096x256_1_0_0_1_n_n none x0 x1 (ix2 p q)).trans ?_
  rw [← Equiv.sum_comp (contrEquiv1 dot_S4096x2048_S2048x256_S4096x256_1_0_0_1_n_n 2048 rfl rfl).symm]
  refine Finset.sum_congr rfl fun k _ => ?_
  have hk := contrEquiv1_symm_val dot_S4096x2048_S2048x256_S4096x256_1_0_0_1_n_n 2048 rfl rfl k
  have el : dot_S4096x2048_S2048x256_S4096x256_1_0_0_1_n_n.lhsIdx (ix2 p q) ((contrEquiv1 dot_S4096x2048_S2048x256_S4096x256_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S4096x2048_S2048x256_S4096x256_1_0_0_1_n_n.rhsIdx (ix2 p q) ((contrEquiv1 dot_S4096x2048_S2048x256_S4096x256_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-! ### From the blocks to the array -/

/-- The matrix product of a [4096, 2048] array and a [2048, 16384] array, entry by entry. -/
def prod2 (A : S4096x2048.Idx → EReal) (B : S2048x16384.Idx → EReal) : S4096x16384.Idx → EReal := fun i =>
  ∑ j : Fin 2048, A (ix2 (⟨(i 0).val, idx2_lt0 i⟩ : Fin 4096) j) * B (ix2 j (⟨(i 1).val, idx2_lt1 i⟩ : Fin 16384))

theorem hz2 : (![0, 0] : Fin 2 → Nat) = fun _ => 0 := funext fun a => by fin_cases a <;> rfl

/-- The windows' block indices, decided over the 64 grid points: the left operand's block is always the whole array;
    the right operand's and the result's blocks at point t are column block t. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- Entry by entry: a sum of products of two blocks' entries whose factors are the arrays' entries on row (i 0) and
    column (i 1) is entry i of the product. -/
theorem prod2_of_blocks (A : S4096x2048.Idx → EReal) (B : S2048x16384.Idx → EReal)
    (x0 : S4096x2048.Idx → EReal) (x1 : S2048x256.Idx → EReal) (i : S4096x16384.Idx) (p : Fin 4096) (q : Fin 256)
    (h0 : ∀ j : Fin 2048, x0 (ix2 p j) = A (ix2 (⟨(i 0).val, idx2_lt0 i⟩ : Fin 4096) j))
    (h1 : ∀ j : Fin 2048, x1 (ix2 j q) = B (ix2 j (⟨(i 1).val, idx2_lt1 i⟩ : Fin 16384))) :
    ∑ j : Fin 2048, x0 (ix2 p j) * x1 (ix2 j q) = prod2 A B i :=
  Finset.sum_congr rfl fun j _ => by rw [h0 j, h1 j]

/-- What point t writes back is block t of the product of the two operand arrays as the region finds them: entry
    (p, q) of the block is the payload's sum over the contracted coordinate, whose factors are the operand arrays'
    entries (p, j) and (j, 256·t + q), which is entry (p, 256·t + q) of the product. -/
theorem flushed2_eq (V : Contents Ideal) (c : Dev nD) (t : Fin cfg2.N) :
    (dat2 V c).flushed 2 t = ((cfg2.win 2).blk t).view.read (Elt Ideal) (prod2 (V c main_v15) (V c main_v3)) := by
  show (cfg2.win 2).cut (grid2.coords t) ((dat2 V c).after 2 t) = _
  rw [after2_2]
  unfold out2_2
  rw [View.canon_unit_zero hz2]
  simp only [View.ld_unit_zero (S := S4096x2048) hz2, View.ld_unit_zero (S := S2048x256) hz2]
  obtain ⟨e00, e01, e10, e11, e20, e21⟩ := idx_facts2 t
  funext y
  obtain ⟨p, q, rfl⟩ : ∃ (p : Fin 4096) (q : Fin 256), y = ix2 p q := ⟨y 0, y 1, eq_ix2 y⟩
  refine (k2_pay1_apply (iblk2 V c 0 t) (iblk2 V c 1 t) p q).trans ?_
  refine (prod2_of_blocks (V c main_v15) (V c main_v3) (iblk2 V c 0 t) (iblk2 V c 1 t)
    (((cfg2.win 2).blk t).view.emb (ix2 p q)) p q (fun j => ?_) (fun j => ?_)).trans ?_
  · show V c main_v15 (((cfg2.win 0).blk t).view.emb (ix2 p j)) = V c main_v15 _
    refine congrArg (V c main_v15) ?_
    funext a; apply Fin.ext
    match a with
    | ⟨0, _⟩ => show win2_0.index t (0 : Fin 2) * 4096 + 1 * p.val = win2_2.index t (0 : Fin 2) * 4096 + 1 * p.val; omega
    | ⟨1, _⟩ => show win2_0.index t (1 : Fin 2) * 2048 + 1 * j.val = j.val; omega
  · show V c main_v3 (((cfg2.win 1).blk t).view.emb (ix2 j q)) = V c main_v3 _
    refine congrArg (V c main_v3) ?_
    funext a; apply Fin.ext
    match a with
    | ⟨0, _⟩ => show win2_1.index t (0 : Fin 2) * 2048 + 1 * j.val = j.val; omega
    | ⟨1, _⟩ => show win2_1.index t (1 : Fin 2) * 256 + 1 * q.val = win2_2.index t (1 : Fin 2) * 256 + 1 * q.val; omega
  · rfl

/-- An index of the result array is in point t's block iff each coordinate is in the block's range on its axis. -/
theorem mem_blk2_2 (t : Fin cfg2.N) (i : S4096x16384.Idx) :
    i ∈ ((cfg2.win 2).blk t).view.set ↔ ∀ a : Fin 2, win2_2.index t a * S4096x256.size a ≤ (i a).val ∧ (i a).val < win2_2.index t a * S4096x256.size a + S4096x256.size a := by
  show i ∈ ((View.whole main_v16).slice (win2_2.rect t)).set ↔ _
  rw [View.set_slice_whole, Rect.mem_set_unit]
  exact Iff.rfl

/-- The 64 column blocks cover the result array: column k is in block k / 256. -/
theorem cover2_arr (i : S4096x16384.Idx) :
    ∃ t : Fin cfg2.N, (cfg2.win 2).flush t = true ∧ i ∈ ((cfg2.win 2).blk t).view.set := by
  have hi0 : (i 0).val < 4096 := idx2_lt0 i
  have hi1 : (i 1).val < 16384 := idx2_lt1 i
  have hN : (i 1).val / 256 < cfg2.N := by show (i 1).val / 256 < 64; omega
  refine ⟨⟨(i 1).val / 256, hN⟩, flush2_2 _, ?_⟩
  obtain ⟨e00, e01, e10, e11, e20, e21⟩ := idx_facts2 ⟨(i 1).val / 256, hN⟩
  rw [mem_blk2_2]
  intro a
  match a with
  | ⟨0, _⟩ => show win2_2.index ⟨(i 1).val / 256, hN⟩ (0 : Fin 2) * 4096 ≤ (i 0).val ∧ (i 0).val < win2_2.index ⟨(i 1).val / 256, hN⟩ (0 : Fin 2) * 4096 + 4096; omega
  | ⟨1, _⟩ =>
    show win2_2.index ⟨(i 1).val / 256, hN⟩ (1 : Fin 2) * 256 ≤ (i 1).val ∧ (i 1).val < win2_2.index ⟨(i 1).val / 256, hN⟩ (1 : Fin 2) * 256 + 256
    have e : win2_2.index ⟨(i 1).val / 256, hN⟩ (1 : Fin 2) = (i 1).val / 256 := e21
    omega

/-- The result array after the region is the product of the two operand arrays. -/
theorem arr2_eq (V : Contents Ideal) (c : Dev nD) :
    (dat2 V c).arrAt 2 cfg2.N = prod2 (V c main_v15) (V c main_v3) :=
  (dat2 V c).arrAt_eq_of_cover 2 (prod2 (V c main_v15) (V c main_v3)) (fun t _ => flushed2_eq V c t) cover2_arr

/-- Entry (a, k) of the product: the sum over the 2048 contracted coordinates of the products of the left array's
    row a and the right array's column k. -/
theorem prod2_apply (A : S4096x2048.Idx → EReal) (B : S2048x16384.Idx → EReal) (a : Fin 4096) (k : Fin 16384) :
    prod2 A B (ix2 a k) = ∑ j : Fin 2048, A (ix2 a j) * B (ix2 j k) := rfl

/-- Entry (a, k) of the result array after the region: the sum over the 2048 contracted coordinates of the products of
    the left operand's row a and the right operand's column k, the operand arrays named A and B. -/
theorem final2_2 (V : Contents Ideal) (c : Dev nD) (A : S4096x2048.Idx → EReal) (B : S2048x16384.Idx → EReal)
    (hA : V c main_v15 = A) (hB : V c main_v3 = B) (a : Fin 4096) (k : Fin 16384) :
    @Eq EReal ((dat2 V c).arrAt 2 cfg2.N (ix2 a k)) (∑ j : Fin 2048, A (ix2 a j) * B (ix2 j k)) := by
  subst hA hB
  exact (congrFun (arr2_eq V c) (ix2 a k)).trans (prod2_apply _ _ a k)

end Value

end Cert.Kernel.Hand

end
-- ==== Proof.KbTable.lean ====
/-
  The host's integer table. The index input idx : i32[3072] is clipped word by word into 0..2047
  (a signed maximum with 0, then a signed minimum with 2047), and the table i32[5120] is the
  identity 0..2047 followed by the clipped indices. Read as naturals, entry q of the table is q
  for q < 2048 and the clamped row of entry q − 2048 of idx otherwise; every entry is below 2048.
-/
import proofs.«402079_j32023276159552_3_alg».proof.Kernel
import proofs.«402079_j32023276159552_3_alg».proof.Proof.Gen.Kernel
import proofs.«402079_j32023276159552_3_alg».proof.Proof.Spec
import Idealize.ShloMosaic.Lib.ValueIdx
import Idealize.ShloMosaic.Lib.Pipeline.Value

namespace Cert.Kernel.HostVal

open Cert.Kernel Cert.Kernel.Gen
open Idealize.ShloMosaic Idealize.ShloMosaic.ValueIdx

/-- The clipped indices: min(2047, max(0, idx)) word by word, both comparisons signed. -/
def clipIdx (idx : IVec S3072 32) : IVec S3072 32 :=
  minsi (broadcastInDim S3072 ![] bcast_S_S3072 (id (constantI S_ 32 2047#32)))
    (maxsi (broadcastInDim S3072 ![] bcast_S_S3072 (id (constantI S_ 32 0#32))) idx)

/-- The table: the identity on 0..2047, then the clipped indices. -/
def table (idx : IVec S3072 32) : IVec S5120 32 :=
  concatenate S5120 0 [⟨S2048, iotaInDim S2048 32 0⟩, ⟨S3072, clipIdx idx⟩] concatenates_S2048_S3072_S5120_d0

/-- One clipped word: a broadcast constant is that constant at every index. -/
theorem clipIdx_apply (idx : IVec S3072 32) (j : S3072.Idx) :
    clipIdx idx j = IntOp.minsi 2047#32 (IntOp.maxsi 0#32 (idx j)) := rfl

/-- The signed clip of one word, as a natural number: a negative word goes to 0 (and its signed
    value read as a natural is 0 too), a word above 2047 goes to 2047, any other is kept. -/
theorem clipWord_toNat (v : BitVec 32) :
    (IntOp.minsi 2047#32 (IntOp.maxsi 0#32 v)).toNat = min v.toInt.toNat 2047 := by
  have hv := v.isLt
  have hI := BitVec.toInt_eq_toNat_cond v
  unfold IntOp.minsi IntOp.maxsi
  by_cases h0 : v.slt 0#32 = true
  · rw [if_pos h0]
    have h0' : v.toInt < 0 := by simpa [BitVec.slt] using h0
    have : (2047#32).slt 0#32 = false := by decide
    rw [this]
    simp only [Bool.false_eq_true, if_false]
    show (0#32).toNat = _
    simp only [BitVec.toNat_ofNat]
    omega
  · rw [if_neg h0]
    have h0' : 0 ≤ v.toInt := by
      have : ¬ v.toInt < 0 := by simpa [BitVec.slt] using h0
      omega
    by_cases h1 : (2047#32).slt v = true
    · rw [if_pos h1]
      have h1' : 2047 < v.toInt := by simpa [BitVec.slt] using h1
      simp only [BitVec.toNat_ofNat]
      omega
    · rw [if_neg h1]
      have h1' : ¬ 2047 < v.toInt := by simpa [BitVec.slt] using h1
      split at hI <;> omega

/-- The clipped word is below 2048, so its signed and unsigned readings agree. -/
theorem clipWord_toInt (v : BitVec 32) :
    (IntOp.minsi 2047#32 (IntOp.maxsi 0#32 v)).toInt.toNat = min v.toInt.toNat 2047 := by
  have h := clipWord_toNat v
  have hI := BitVec.toInt_eq_toNat_cond (IntOp.minsi 2047#32 (IntOp.maxsi 0#32 v))
  split at hI <;> omega

theorem clipIdx_toNat (idx : IVec S3072 32) (t : Fin 3072) :
    (clipIdx idx (ValueIdx.ix1 t)).toNat = min (idx (ValueIdx.ix1 t)).toInt.toNat 2047 := by
  rw [clipIdx_apply]; exact clipWord_toNat _

theorem clipIdx_toInt (idx : IVec S3072 32) (t : Fin 3072) :
    (clipIdx idx (ValueIdx.ix1 t)).toInt.toNat = min (idx (ValueIdx.ix1 t)).toInt.toNat 2047 := by
  rw [clipIdx_apply]; exact clipWord_toInt _

/-- Below 2048 the table is the identity: the first piece of the concatenation, an iota. -/
theorem table_lo (idx : IVec S3072 32) (q : Fin 5120) (h : q.val < 2048) :
    table idx (ValueIdx.ix1 q) = BitVec.ofNat 32 q.val := by
  unfold table
  rw [concatenate_pair_apply_left (0 : Fin S5120.rank) (iotaInDim S2048 32 0) (clipIdx idx)
    concatenates_S2048_S3072_S5120_d0 (ValueIdx.ix1 q) rfl (ValueIdx.ix1 (⟨q.val, h⟩ : Fin 2048))
    (fun b => by match b with | ⟨0, _⟩ => rfl)]
  rfl

/-- From 2048 on the table is the clipped indices: the second piece, the first extent less. -/
theorem table_hi (idx : IVec S3072 32) (q : Fin 5120) (h : 2048 ≤ q.val) :
    table idx (ValueIdx.ix1 q) = clipIdx idx (ValueIdx.ix1 ⟨q.val - 2048, by omega⟩) := by
  unfold table
  exact concatenate_pair_apply_right (0 : Fin S5120.rank) (iotaInDim S2048 32 0) (clipIdx idx)
    concatenates_S2048_S3072_S5120_d0 (ValueIdx.ix1 q) rfl rfl (ValueIdx.ix1 (⟨q.val - 2048, by omega⟩ : Fin 3072))
    (fun b hb => by match b with | ⟨0, _⟩ => exact absurd rfl hb)
    (by show q.val - 2048 + 2048 = q.val; omega)

/-- Every entry of the table is a row number: below 2048. -/
theorem table_toNat_lt (idx : IVec S3072 32) (q : Fin 5120) : (table idx (ValueIdx.ix1 q)).toNat < 2048 := by
  by_cases h : q.val < 2048
  · rw [table_lo idx q h, BitVec.toNat_ofNat]
    have := Nat.mod_le q.val (2 ^ 32); omega
  · rw [table_hi idx q (by omega), clipIdx_toNat]; omega

/-- The table as naturals: the identity below 2048, the clamped row of the index input above. -/
theorem table_row (idx : IVec S3072 32) (q : Fin 5120) :
    (table idx (ValueIdx.ix1 q)).toNat
      = if h : q.val < 2048 then q.val else (Cert.Spec.rowOf idx ⟨q.val - 2048, by omega⟩).val := by
  by_cases h : q.val < 2048
  · rw [dif_pos h, table_lo idx q h, BitVec.toNat_ofNat]
    exact Nat.mod_eq_of_lt (by omega)
  · rw [dif_neg h, table_hi idx q (by omega), clipIdx_toNat]
    rfl

end Cert.Kernel.HostVal
-- ==== Proof.KbFold.lean ====
/-
  The effective connection matrix.

  The connection matrix conn : [4096, 5120] multiplies the duplicated stage l : [5120, 16384], whose rows 2048 + t
  repeat row (row t) of the retinal stage r : [2048, 16384]. Instead of building l, the columns 2048 + t of conn are
  added onto the columns (row t) of its first 2048 columns: eff[a, j] = conn[a, j] + Σ_{t : row t = j} conn[a, 2048 + t],
  and then conn · l = eff · r. Here eff is written as the composition of array operations that computes it (two column
  slices, transposes, and an accumulating scatter of the transposed tail along rows), read at an index, and the
  identity eff · r = conn · l is proved entrywise for real entries.
-/
import proofs.«402079_j32023276159552_3_alg».proof.Kernel
import proofs.«402079_j32023276159552_3_alg».proof.Proof.Gen.Kernel
import proofs.«402079_j32023276159552_3_alg».proof.Proof.Spec
import proofs.«402079_j32023276159552_3_alg».proof.Proof.LibSums
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Kernel.HostVal

open Cert.Kernel
open Idealize.ShloMosaic Idealize.ShloMosaic.ValueIdx
open Facts₀ Facts

variable [Cert.Kernel.Facts]

/-- The effective matrix as the array operations compute it: the head columns of conn, plus the transposed tail columns
    scattered with accumulation along the rows the clipped indices name (onto zeros), transposed back; the final
    format change keeps every value. -/
def connEff {F : FTy → Type} [FloatOps F] (conn : FVec F S4096x5120 .f32) (cl : IVec S3072 32) : FVec F S4096x2048 .bf16 :=
  truncf .bf16
    (addf (extractStridedSlice S4096x2048 ![0, 0] conn slices_S4096x5120_S4096x2048_0_0)
      (transpose S4096x2048 [1, 0]
        (Host.scatterAdd scatter_S2048x4096_S3072x1_S3072x4096_1_0_0_1
          (broadcastInDim S2048x4096 ![] bcast_S_S2048x4096 (constant S_ .f32 0x00000000#32))
          (broadcastInDim S3072x1 ![0] bcast_S3072_S3072x1_0 cl)
          (transpose S3072x4096 [1, 0] (extractStridedSlice S4096x3072 ![0, 2048] conn slices_S4096x5120_S4096x3072_0_2048)
            transposes_S4096x3072_S3072x4096_1_0))
        transposes_S2048x4096_S4096x2048_1_0))
    bitsLt_bf16_f32

/-- The scatter's dimension numbers: rows of the operand are named by the indices, one per update row; the update's
    second axis is the window, running along the operand's columns. -/
abbrev foldDims := scatter_S2048x4096_S3072x1_S3072x4096_1_0_0_1

/-- On the row axis the window of update `u` starts at the index its row names, read signed. -/
private theorem start0 (ci : IVec S3072x1 32) (u : S3072x4096.Idx) :
    foldDims.start u ci 0 = (ci (ix2 (u 0) (0 : Fin 1))).toInt := by
  unfold ScatterDims.start
  rw [dif_pos (show (0 : Fin 2) ∈ foldDims.scatterDimsToOperandDims from List.mem_singleton.mpr rfl)]
  have hsi : foldDims.siIdx u ⟨List.idxOf (0 : Fin 2) foldDims.scatterDimsToOperandDims,
      List.idxOf_lt_length_iff.2 (List.mem_singleton.mpr rfl)⟩ = ix2 (u 0) (0 : Fin 1) := by
    funext b; refine Fin.ext ?_
    match b with
    | ⟨0, _⟩ => rfl
    | ⟨1, _⟩ => rfl
  rw [hsi]
  rfl

/-- On the column axis it starts at 0. -/
private theorem start1 (ci : IVec S3072x1 32) (u : S3072x4096.Idx) : foldDims.start u ci 1 = 0 := rfl

/-- The window has one row … -/
private theorem window0 (u : S3072x4096.Idx) : foldDims.window u 0 = 0 := rfl

/-- … and the update's column is the operand's. -/
private theorem window1 (u : S3072x4096.Idx) : foldDims.window u 1 = (u 1).val := rfl

/-- Where an update lands: update `u` lands on operand element `i` exactly when the index its row names, read signed,
    is `i`'s row and its column is `i`'s column; an index outside the rows lands nowhere. -/
theorem resultIdx_eq_some_iff (ci : IVec S3072x1 32) (u : S3072x4096.Idx) (i : S2048x4096.Idx) :
    foldDims.resultIdx? u ci = some i ↔ (ci (ix2 (u 0) (0 : Fin 1))).toInt = ((i 0).val : ℤ) ∧ (u 1).val = (i 1).val := by
  unfold ScatterDims.resultIdx?
  split
  · rename_i h
    have h0 := h 0
    rw [start0, window0] at h0
    rw [Option.some.injEq]
    constructor
    · intro hf
      have e0 := congrArg (fun g => (g 0).val) hf
      have e1 := congrArg (fun g => (g 1).val) hf
      simp only [start0, start1, window0, window1] at e0 e1
      constructor <;> omega
    · rintro ⟨e0, e1⟩
      funext a
      refine Fin.ext ?_
      match a with
      | ⟨0, _⟩ =>
        show (foldDims.start u ci 0 + ↑(foldDims.window u 0)).toNat = (i 0).val
        rw [start0, window0]; omega
      | ⟨1, _⟩ =>
        show (foldDims.start u ci 1 + ↑(foldDims.window u 1)).toNat = (i 1).val
        rw [start1, window1]; omega
  · rename_i h
    constructor
    · intro hn; exact absurd hn (by simp)
    · rintro ⟨e0, e1⟩
      exfalso; apply h
      intro a
      match a with
      | ⟨0, _⟩ =>
        show 0 ≤ foldDims.start u ci 0 + ↑(foldDims.window u 0) ∧ foldDims.start u ci 0 + ↑(foldDims.window u 0) < ↑(S2048x4096.size 0)
        rw [start0, window0]; have := (i 0).isLt; omega
      | ⟨1, _⟩ =>
        show 0 ≤ foldDims.start u ci 1 + ↑(foldDims.window u 1) ∧ foldDims.start u ci 1 + ↑(foldDims.window u 1) < ↑(S2048x4096.size 1)
        rw [start1, window1]; have := (i 1).isLt; omega

/-- The accumulating scatter at the extended reals, read at `(j, a)`: the operand there plus the updates `(t, a)` of
    the rows `t` whose index, read signed, is `j`. -/
theorem scatterAdd_apply (x : FVec Ideal S2048x4096 .f32) (ci : IVec S3072x1 32) (upd : FVec Ideal S3072x4096 .f32)
    (j : Fin 2048) (a : Fin 4096) :
    Host.scatterAdd foldDims x ci upd (ix2 j a)
      = x (ix2 j a) + ∑ t ∈ Finset.univ.filter (fun t : Fin 3072 => (ci (ix2 t (0 : Fin 1))).toInt = (j.val : ℤ)),
          upd (ix2 t a) := by
  unfold Host.scatterAdd
  rw [Ideal.hostScatterAdd_def]
  unfold Ideal.hostScatterAdd
  congr 1
  rw [Finset.sum_filter, Finset.sum_filter, LibSums.sum_idx2']
  refine Finset.sum_congr rfl fun t _ => ?_
  simp only [resultIdx_eq_some_iff]
  show (∑ b : Fin 4096, if (ci (ix2 t (0 : Fin 1))).toInt = (j.val : ℤ) ∧ b.val = a.val then upd (ix2 t b) else 0) = _
  by_cases hz : (ci (ix2 t (0 : Fin 1))).toInt = (j.val : ℤ)
  · rw [if_pos hz, Finset.sum_eq_single a]
    · rw [if_pos ⟨hz, rfl⟩]
    · intro b _ hb
      rw [if_neg fun h => hb (Fin.ext h.2)]
    · intro ha; exact absurd (Finset.mem_univ a) ha
  · rw [if_neg hz]
    refine Finset.sum_eq_zero fun b _ => ?_
    rw [if_neg fun h => hz h.1]

/-- The index array as a column: entry `(t, 0)` is entry `t`. -/
private theorem column_apply (cl : IVec S3072 32) (t : Fin 3072) :
    broadcastInDim S3072x1 ![0] bcast_S3072_S3072x1_0 cl (ix2 t (0 : Fin 1)) = cl (ValueIdx.ix1 t) :=
  broadcastInDim_apply _ _ _ _ _ fun b => by
    match b with
    | ⟨0, _⟩ => rfl

/-- The array of zeros reads 0 everywhere. -/
private theorem zeros_apply (i : S2048x4096.Idx) :
    broadcastInDim S2048x4096 ![] bcast_S_S2048x4096 (constant (F := Ideal) S_ .f32 0x00000000#32) i = 0 := by
  show Ideal.ofBits .f32 0x00000000#32 = 0
  exact Ideal.ofBits_zero_f32

/-- THE EFFECTIVE MATRIX AT `(a, j)`: the head entry plus the tail entries `(a, 2048 + t)` of the `t` whose index, read
    signed, is `j`. -/
theorem connEff_apply (conn : FVec Ideal S4096x5120 .f32) (cl : IVec S3072 32) (a : Fin 4096) (j : Fin 2048) :
    connEff (F := Ideal) conn cl (ValueIdx.ix2 a j)
      = conn (ValueIdx.ix2 a ⟨j.val, by omega⟩)
        + ∑ t ∈ Finset.univ.filter (fun t : Fin 3072 => (cl (ValueIdx.ix1 t)).toInt = (j.val : ℤ)),
            conn (ValueIdx.ix2 a ⟨2048 + t.val, by omega⟩) := by
  unfold connEff
  rw [truncf_apply, addf_apply, transpose_ix2_apply, scatterAdd_apply, zeros_apply, zero_add,
    slice2_axis1_apply 0 conn slices_S4096x5120_S4096x2048_0_0 a j ⟨j.val, by omega⟩ (Nat.zero_add _).symm]
  congr 1
  refine Finset.sum_congr (Finset.filter_congr fun t _ => by rw [column_apply]) fun t _ => ?_
  rw [transpose_ix2_apply, slice2_axis1_eq]

/-- The regrouping over the reals: multiplying the folded row by `r` and summing over its places is the head's sum plus
    the sum over the folded entries, each against the place it was folded onto. Every folded entry is counted once,
    at its own place (the places' fibres partition the entries). -/
private theorem fold_core {J T : Type*} [Fintype J] [Fintype T] [DecidableEq J] (c r : J → ℝ) (d : T → ℝ) (ρ : T → J) :
    ∑ j, (c j + ∑ t ∈ Finset.univ.filter (fun t => ρ t = j), d t) * r j
      = ∑ j, c j * r j + ∑ t, d t * r (ρ t) := by
  simp only [add_mul, Finset.sum_add_distrib, Finset.sum_mul]
  congr 1
  rw [← Finset.sum_fiberwise (s := Finset.univ) (g := ρ) (f := fun t => d t * r (ρ t))]
  refine Finset.sum_congr rfl fun j _ => Finset.sum_congr rfl fun t ht => ?_
  rw [(Finset.mem_filter.1 ht).2]

/-- The duplicated stage on its first 2048 rows is the retinal stage. -/
private theorem specL_head (r : FVec Ideal Cert.Spec.SR .f32) (idx : IVec Cert.Spec.SI 32) (j : Fin 2048) (k : Fin 16384) :
    Cert.Spec.specL r idx (ValueIdx.ix2 (⟨j.val, by omega⟩ : Fin 5120) k) = r (ValueIdx.ix2 j k) := by
  unfold Cert.Spec.specL
  rw [dif_pos (show ((ValueIdx.ix2 (⟨j.val, by omega⟩ : Fin 5120) k) 0).val < 2048 from j.isLt)]

/-- Its row `2048 + t` is the row of the retinal stage that index `t` names. -/
private theorem specL_tail (r : FVec Ideal Cert.Spec.SR .f32) (idx : IVec Cert.Spec.SI 32) (t : Fin 3072) (k : Fin 16384) :
    Cert.Spec.specL r idx (ValueIdx.ix2 (⟨2048 + t.val, by omega⟩ : Fin 5120) k)
      = r (ValueIdx.ix2 (Cert.Spec.rowOf idx t) k) := by
  unfold Cert.Spec.specL
  rw [dif_neg (show ¬((ValueIdx.ix2 (⟨2048 + t.val, by omega⟩ : Fin 5120) k) 0).val < 2048 from
    Nat.not_lt.2 (Nat.le_add_right _ _))]
  have e : ∀ h, (⟨2048 + t.val - 2048, h⟩ : Fin 3072) = t := fun _ => Fin.ext (Nat.add_sub_cancel_left _ _)
  show r (ValueIdx.ix2 (Cert.Spec.rowOf idx ⟨2048 + t.val - 2048, _⟩) _) = _
  rw [e]

/-- A sum over the first `m + n` naturals is the sum over the first `m` plus the sum over the `n` after them. -/
private theorem sum_fin_split {M : Type*} [AddCommMonoid M] (m n N : ℕ) (h : m + n = N) (f : Fin N → M) :
    ∑ q : Fin N, f q = ∑ j : Fin m, f ⟨j.val, by omega⟩ + ∑ t : Fin n, f ⟨m + t.val, by omega⟩ := by
  subst h
  exact Fin.sum_univ_add f

/-- THE FOLD: the effective matrix against the retinal stage is the connection matrix against the duplicated stage,
    entry by entry, when every entry is real (distributivity is used, which fails at the infinities) and the clipped
    indices name the rows the specification names. Σ_j (c[a,j] + Σ_{t : row t = j} c[a,2048+t]) · r[j,k]
    = Σ_{j<2048} c[a,j] · r[j,k] + Σ_{t<3072} c[a,2048+t] · r[row t,k] = Σ_{q<5120} c[a,q] · l[q,k]. -/
theorem fold_eq (conn : FVec Ideal S4096x5120 .f32) (idx cl : IVec S3072 32) (r : FVec Ideal S2048x16384 .f32)
    (hcl : ∀ t : Fin 3072, (cl (ValueIdx.ix1 t)).toInt.toNat = min (idx (ValueIdx.ix1 t)).toInt.toNat 2047
      ∧ 0 ≤ (cl (ValueIdx.ix1 t)).toInt ∧ (cl (ValueIdx.ix1 t)).toInt < 2048)
    (hconn : ∀ i, ∃ v : ℝ, conn i = (v : EReal)) (hr : ∀ i, ∃ v : ℝ, r i = (v : EReal)) (a : Fin 4096) (k : Fin 16384) :
    ∑ j : Fin 2048, connEff (F := Ideal) conn cl (ValueIdx.ix2 a j) * r (ValueIdx.ix2 j k)
      = Cert.Spec.specV conn (Cert.Spec.specL r idx) (ValueIdx.ix2 a k) := by
  choose cR hcR using hconn
  choose rR hrR using hr
  -- the clipped index, read signed, is `j` exactly when the specification's row is `j`
  have hrow : ∀ (t : Fin 3072) (j : Fin 2048),
      (cl (ValueIdx.ix1 t)).toInt = (j.val : ℤ) ↔ Cert.Spec.rowOf idx t = j := by
    intro t j
    obtain ⟨h1, h2, h3⟩ := hcl t
    unfold Cert.Spec.rowOf
    rw [Fin.ext_iff]
    show _ ↔ min (idx (ValueIdx.ix1 t)).toInt.toNat 2047 = j.val
    rw [← h1]
    omega
  -- the left side, over the reals
  have hL : ∀ j : Fin 2048, connEff (F := Ideal) conn cl (ValueIdx.ix2 a j) * r (ValueIdx.ix2 j k)
      = (((cR (ValueIdx.ix2 a ⟨j.val, by omega⟩)
          + ∑ t ∈ Finset.univ.filter (fun t : Fin 3072 => Cert.Spec.rowOf idx t = j),
              cR (ValueIdx.ix2 a ⟨2048 + t.val, by omega⟩))
          * rR (ValueIdx.ix2 j k) : ℝ) : EReal) := by
    intro j
    rw [connEff_apply, EReal.coe_mul, EReal.coe_add, ← LibSums.sum_coe, hcR (ValueIdx.ix2 a ⟨j.val, _⟩), hrR]
    congr 2
    exact Finset.sum_congr (Finset.filter_congr fun t _ => hrow t j) fun t _ => hcR _
  -- the right side, over the reals: the 5120 rows are the first 2048 and the 3072 after them
  have hR : Cert.Spec.specV conn (Cert.Spec.specL r idx) (ValueIdx.ix2 a k)
      = ((∑ j : Fin 2048, cR (ValueIdx.ix2 a ⟨j.val, by omega⟩) * rR (ValueIdx.ix2 j k)
          + ∑ t : Fin 3072, cR (ValueIdx.ix2 a ⟨2048 + t.val, by omega⟩)
              * rR (ValueIdx.ix2 (Cert.Spec.rowOf idx t) k) : ℝ) : EReal) := by
    have hs := sum_fin_split 2048 3072 5120 (by norm_num)
      (fun q : Fin 5120 => conn (ValueIdx.ix2 a q) * Cert.Spec.specL r idx (ValueIdx.ix2 q k))
    refine hs.trans ?_
    rw [EReal.coe_add]
    refine congrArg₂ (· + ·) ?_ ?_
    · refine Eq.trans ?_ (LibSums.sum_coe _ _)
      refine Finset.sum_congr rfl fun j _ => ?_
      rw [EReal.coe_mul, ← hcR, ← hrR]
      show conn (ValueIdx.ix2 a ⟨j.val, _⟩) * Cert.Spec.specL r idx (ValueIdx.ix2 ⟨j.val, _⟩ k) = _
      rw [specL_head]
    · refine Eq.trans ?_ (LibSums.sum_coe _ _)
      refine Finset.sum_congr rfl fun t _ => ?_
      rw [EReal.coe_mul, ← hcR, ← hrR]
      show conn (ValueIdx.ix2 a ⟨2048 + t.val, _⟩) * Cert.Spec.specL r idx (ValueIdx.ix2 ⟨2048 + t.val, _⟩ k) = _
      rw [specL_tail]
  rw [Finset.sum_congr rfl fun j _ => hL j, LibSums.sum_coe, hR, fold_core]

end Cert.Kernel.HostVal

end
-- ==== Proof.KbHost.lean ====
/-
  What the host's operations leave in the buffers between the kernels: the clipped indices, the
  row table, the two retinal stages flattened to matrices, and the effective connection matrix,
  each as a function of the launch contents and of what the kernels before it left.
-/
import proofs.«402079_j32023276159552_3_alg».proof.Proof.KbRegions
import proofs.«402079_j32023276159552_3_alg».proof.Proof.KbTable
import proofs.«402079_j32023276159552_3_alg».proof.Proof.KbFold

noncomputable section

namespace Cert.Kernel.Hand

open Cert.Kernel Cert.Kernel.Gen Cert.Kernel.GenP Cert.Kernel.HostVal
open Idealize.ShloMosaic Idealize.ShloMosaic.TcCoe
open Idealize.SL.Sem

variable {F : FTy → Type} [FloatOps F] (m : (ℓ : Loc nD τ sig) → Buf (Elt F) ℓ) (outs : Outs (F := F)) (c : Dev nD)

/-- After the two constants and the clip, the clipped indices: min(2047, max(0, idx)). -/
theorem V2_main_v0 : (V2 m c main_v0 : IVec S3072 32) = clipIdx (m ((c : Thread nD τ).loc main_arg4)) := by
  show StableHlo.after hostOps0_1 _ (Proc.devRef .tc main_v0) = _
  after_results
  rfl

/-- The clipped indices are still there after the first kernel, which may change only its own two results. -/
theorem V3_main_v0 : (V3 m outs c main_v0 : IVec S3072 32) = clipIdx (m ((c : Thread nD τ).loc main_arg4)) :=
  (V3_of m outs c main_v0 (by decide)).trans (V2_main_v0 m c)

/-- The prefetched table: the identity on 0..2047, then the clipped indices. -/
theorem V4_main_v5 : (V4 m outs c main_v5 : IVec S5120 32) = table (m ((c : Thread nD τ).loc main_arg4)) := by
  have e : (V4 m outs c main_v5 : IVec S5120 32)
      = concatenate S5120 0 [⟨S2048, iotaInDim S2048 32 0⟩, ⟨S3072, (V3 m outs c main_v0 : IVec S3072 32)⟩]
          concatenates_S2048_S3072_S5120_d0 := by
    show StableHlo.after hostOps1 _ (Proc.devRef .tc main_v5) = _
    after_results
  rw [e, V3_main_v0]
  rfl

/-- The first retinal stage as a matrix: the first kernel's f32 result, each image flattened. -/
theorem V4_main_v2 : (V4 m outs c main_v2 : FVec F S2048x16384 .f32)
    = shapeCast S2048x16384 (outs 3 main_v1_0 c : FVec F S2048x128x128 .f32) shapeCasts_S2048x128x128_S2048x16384 := by
  show StableHlo.after hostOps1 _ (Proc.devRef .tc main_v2) = _
  after_results
  rfl

/-- Flattening each 128×128 image row-major: entry (n, p) of the matrix is entry (n, p / 128, p % 128) of the
    stack of images, whatever the entries are. -/
theorem flat_apply {α : Type} (x : S2048x128x128.Idx → α) (n : Fin 2048) (p : Fin 16384) :
    shapeCast S2048x16384 x shapeCasts_S2048x128x128_S2048x16384 (ValueIdx.ix2 n p)
      = x (ValueIdx.ix3 n (⟨p.val / 128, by omega⟩ : Fin 128) (⟨p.val % 128, by omega⟩ : Fin 128)) :=
  shapeCast_apply x _ _ _ (by
    rw [Shape.rowMajor_val_three, Shape.rowMajor_val_two]
    show (n.val * 128 + p.val / 128) * 128 + p.val % 128 = n.val * 16384 + p.val
    omega)

/-- The first retinal stage as a matrix, at an index. -/
theorem V4_main_v2_apply (n : Fin 2048) (p : Fin 16384) :
    (V4 m outs c main_v2 : FVec F S2048x16384 .f32) (ValueIdx.ix2 n p)
      = (outs 3 main_v1_0 c : FVec F S2048x128x128 .f32)
          (ValueIdx.ix3 n (⟨p.val / 128, by omega⟩ : Fin 128) (⟨p.val % 128, by omega⟩ : Fin 128)) := by
  rw [V4_main_v2]; exact flat_apply _ n p

/-- The second retinal stage (the first kernel's 16-bit result) as a matrix. -/
theorem V4_main_v3 : (V4 m outs c main_v3 : FVec F S2048x16384 .bf16)
    = shapeCast S2048x16384 (outs 3 main_v1_1 c : FVec F S2048x128x128 .bf16) shapeCasts_S2048x128x128_S2048x16384 := by
  show StableHlo.after hostOps1 _ (Proc.devRef .tc main_v3) = _
  after_results
  rfl

/-- The second retinal stage as a matrix, at an index. -/
theorem V4_main_v3_apply (n : Fin 2048) (p : Fin 16384) :
    (V4 m outs c main_v3 : FVec F S2048x16384 .bf16) (ValueIdx.ix2 n p)
      = (outs 3 main_v1_1 c : FVec F S2048x128x128 .bf16)
          (ValueIdx.ix3 n (⟨p.val / 128, by omega⟩ : Fin 128) (⟨p.val % 128, by omega⟩ : Fin 128)) := by
  rw [V4_main_v3]; exact flat_apply _ n p

/-! ## What the later items leave untouched -/

/-- The 16-bit matrix is untouched by the second kernel and by the host operations after it. -/
theorem V6_main_v3 : V6 m outs c main_v3 = V4 m outs c main_v3 :=
  (V6_of m outs c main_v3 (by decide)).trans (V5_of m outs c main_v3 (by decide))

/-- What the second kernel left in its first operand's buffer … -/
theorem V5_main_v2 : V5 m outs c main_v2 = outs 5 main_v2 c := by
  show Function.update (Function.update (V4 m outs c) (Proc.devRef .tc main_v2) (outs 5 main_v2 c))
    (Proc.devRef .tc main_v6) (outs 5 main_v6 c) (Proc.devRef .tc main_v2) = _
  rw [Function.update_of_ne (StableHlo.devRef_ne_of_ne (by decide : main_v2 ≠ main_v6)), Function.update_self]

/-- … and in its result. -/
theorem V5_main_v6 : V5 m outs c main_v6 = outs 5 main_v6 c := by
  show Function.update (Function.update (V4 m outs c) (Proc.devRef .tc main_v2) (outs 5 main_v2 c))
    (Proc.devRef .tc main_v6) (outs 5 main_v6 c) (Proc.devRef .tc main_v6) = _
  rw [Function.update_self]

theorem V6_main_v2 : V6 m outs c main_v2 = outs 5 main_v2 c :=
  (V6_of m outs c main_v2 (by decide)).trans (V5_main_v2 m outs c)

theorem V6_main_v6 : V6 m outs c main_v6 = outs 5 main_v6 c :=
  (V6_of m outs c main_v6 (by decide)).trans (V5_main_v6 m outs c)

theorem V7_main_v2 : V7 m outs c main_v2 = outs 5 main_v2 c :=
  (V7_of m outs c main_v2 (by decide)).trans (V6_main_v2 m outs c)

theorem V7_main_v6 : V7 m outs c main_v6 = outs 5 main_v6 c :=
  (V7_of m outs c main_v6 (by decide)).trans (V6_main_v6 m outs c)

/-- What the third kernel left in its result. -/
theorem V7_main_v16 : V7 m outs c main_v16 = outs 7 main_v16 c := by
  show Function.update (V6 m outs c) (Proc.devRef .tc main_v16) (outs 7 main_v16 c) (Proc.devRef .tc main_v16) = _
  rw [Function.update_self]

/-- The connection matrix and the clipped indices reach the last host operations as they were. -/
theorem V5_main_arg3 : V5 m outs c main_arg3 = m ((c : Thread nD τ).loc main_arg3) :=
  (V5_of m outs c main_arg3 (by decide)).trans <| (V4_of m outs c main_arg3 (by decide)).trans <|
    (V3_of m outs c main_arg3 (by decide)).trans <| (V2_of m c main_arg3 (by decide)).trans <|
    (V1_of m c main_arg3 (by decide)).trans rfl

theorem V5_main_v0 : (V5 m outs c main_v0 : IVec S3072 32) = clipIdx (m ((c : Thread nD τ).loc main_arg4)) :=
  (V5_of m outs c main_v0 (by decide)).trans <| (V4_of m outs c main_v0 (by decide)).trans (V3_main_v0 m outs c)

/-- The last host operations build the effective connection matrix from the connection matrix and the clipped
    indices: its head columns plus its tail columns accumulated onto the rows the indices name, in 16 bits. -/
theorem V6_main_v15 : (V6 m outs c main_v15 : FVec F S4096x2048 .bf16)
    = connEff (m ((c : Thread nD τ).loc main_arg3)) (clipIdx (m ((c : Thread nD τ).loc main_arg4))) := by
  have e : (V6 m outs c main_v15 : FVec F S4096x2048 .bf16)
      = connEff (V5 m outs c main_arg3 : FVec F S4096x5120 .f32) (V5 m outs c main_v0 : IVec S3072 32) := by
    show StableHlo.after hostOps2 _ (Proc.devRef .tc main_v15) = _
    after_results
    rfl
  rw [e, V5_main_arg3, V5_main_v0]

end Cert.Kernel.Hand
-- ==== Proof.KbMain.lean ====
/-
  The kernel program's run and frame: the launch over the three regions' segments at the regions' own proof data. Every
  weakly fair execution of @main terminates; the final memory holds, at every buffer no kernel scopes, what the last
  valuation computes (`run_main`); in particular the five arguments end as launched (`frame`).
-/
import proofs.«402079_j32023276159552_3_alg».proof.Proof.KbRun
import proofs.«402079_j32023276159552_3_alg».proof.Proof.KbReg1
import proofs.«402079_j32023276159552_3_alg».proof.Proof.KbReg2
import proofs.«402079_j32023276159552_3_alg».proof.Proof.KbR0
import proofs.«402079_j32023276159552_3_alg».proof.Proof.KbR1
import proofs.«402079_j32023276159552_3_alg».proof.Proof.KbR2
import proofs.«402079_j32023276159552_3_alg».proof.Proof.KbHost
import proofs.«402079_j32023276159552_3_alg».proof.Proof.KbTable

noncomputable section

namespace Cert.Kernel.Hand

open Cert.Kernel Cert.Kernel.Gen Cert.Kernel.GenP Cert.Kernel.HostVal
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Seg HostSeg RegionSeg BodyObligation)

variable {F : FTy → Type} [FloatOps F]

variable (m : (ℓ : Loc nD τ sig) → Buf (Elt F) ℓ) (ρ : Dev nD → PrngReg)

/-- What the three regions leave, at their own proof data. -/
abbrev outsM : Outs (F := F) := outsC m (dat0 (F := F)) (dat2 (F := F))

/-- The index table's words are row numbers of r: below 2048 they are the row's own number, above it the clipped index. -/
theorem table_rows (c : Dev nD) (q : Fin 5120) :
    ((C4 m (dat0 (F := F)) c main_v5 : IVec S5120 32) (ValueIdx.ix1 q)).toNat < 2048 := by
  have h : (C4 m (dat0 (F := F)) c main_v5 : IVec S5120 32) = table (m ((c : Thread nD τ).loc main_arg4)) :=
    V4_main_v5 m (outsA m (dat0 (F := F))) c
  rw [h]
  exact table_toNat_lt _ q

/-- THE RUN: every weakly fair execution of @main from `m` with zero counters terminates, nothing faulting, and every
    buffer no kernel scopes ends at what the last valuation computes. -/
theorem run_main : θ_run defs (onTc (τ := τ) (main (F := F))) ⟨m, fun _ => 0, ρ⟩ (fun r => ∀ c : Dev nD,
    ∀ b ∈ Pipeline.ucRefs τ sig, r.2.mem ((c : Thread nD τ).1, b) = V7 m (outsM m) c b) :=
  run_of_regions m ρ (outsM m) (adm m (dat0 (F := F))) (pdats m (dat0 (F := F)) (dat1 (F := F)) (dat2 (F := F)))
    (reg0 m dat0 A_eq0 Φ_eq0 owed_eq0 q_eq0 (fun _ _ _ => rfl) body_obligation0 dat1 dat2) (fun _ => .rfl) (fun _ => .rfl)
    (reg1 m dat0 dat1 Φ_eq1 owed_eq1 (fun _ _ _ _ => rfl) body_obligation1 dat2 (table_rows m)) (fun _ => .rfl) (fun _ => .rfl)
    (reg2 m dat0 dat1 dat2 A_eq2 Φ_eq2 owed_eq2 q_eq2 (fun _ _ _ => rfl) body_obligation2) (fun _ => .rfl) (fun _ => .rfl)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the run, read at the five arguments: no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V7_main_arg0 m (outsM m) c),
     (h c _ (mem_uc main_arg1 (by decide))).trans (V7_main_arg1 m (outsM m) c),
     (h c _ (mem_uc main_arg2 (by decide))).trans (V7_main_arg2 m (outsM m) c),
     (h c _ (mem_uc main_arg3 (by decide))).trans (V7_main_arg3 m (outsM m) c),
     (h c _ (mem_uc main_arg4 (by decide))).trans (V7_main_arg4 m (outsM m) c)⟩) (run_main m ρ)

end Cert.Kernel.Hand

end
-- ==== Proof.KiValue.lean ====
/-
  The kernel program's three results are the specification's three stages, on the extended reals.

  The first kernel region leaves the retinal stage r (window by window x ⊙ act_on[n] or (1 − x) ⊙ act_off[n − 1024]) and
  a 16-bit copy of it holding the same extended reals; the host flattens each 128×128 image row-major, and a pixel's row
  and column put back together are the pixel. The second region gathers the 5120 rows of the duplicated stage l from r
  through a table of 5120 words: word q is q below 2048 and, above, the index input's word q − 2048 clipped into
  0..2047, which is the row the specification names, so no clamp binds. The third region multiplies the effective
  connection matrix eff (the head columns of conn plus its tail columns folded onto the rows the clipped indices name)
  by the copy of r, and eff · r = conn · l entry by entry when every entry is real; every entry of r is real when the
  inputs are, being a product of reals or of one minus a real with a real.
-/
import proofs.«402079_j32023276159552_3_alg».proof.Proof.KiVals
import proofs.«402079_j32023276159552_3_alg».proof.Proof.KiHost
import proofs.«402079_j32023276159552_3_alg».proof.Proof.KiR0
import proofs.«402079_j32023276159552_3_alg».proof.Proof.KiR1
import proofs.«402079_j32023276159552_3_alg».proof.Proof.KiR2
import proofs.«402079_j32023276159552_3_alg».proof.Proof.KiTable
import proofs.«402079_j32023276159552_3_alg».proof.Proof.KiFold
import proofs.«402079_j32023276159552_3_alg».proof.Proof.Spec
import Idealize.ShloMosaic.Lib.IdealHost

noncomputable section

open scoped BigOperators

namespace Cert.KernelIdeal.Hand

open Cert.KernelIdeal Cert.KernelIdeal.Gen Cert.KernelIdeal.GenP Cert.KernelIdeal.HostVal
open Idealize.ShloMosaic Idealize.ShloMosaic.TcCoe
open Idealize.SL.Sem

/-! ## Every entry of the retinal stage is real when the inputs are -/

/-- The literal 1.0 is the real number 1. -/
theorem specOne_real : Cert.Spec.one = ((1 : ℝ) : EReal) := by
  show Ideal.ofBits .f32 0x3F800000#32 = _
  rw [Ideal.ofBits_one_f32, EReal.coe_one]

/-- A product of reals, or of one minus a real with a real, is real. -/
theorem specR_real (x : FVec Ideal Cert.Spec.SX .f32) (aon aoff : FVec Ideal Cert.Spec.SA .f32)
    (hx : ∀ i, ∃ v : ℝ, x i = (v : EReal)) (haon : ∀ i, ∃ v : ℝ, aon i = (v : EReal))
    (haoff : ∀ i, ∃ v : ℝ, aoff i = (v : EReal)) (i : Cert.Spec.SR.Idx) :
    ∃ v : ℝ, Cert.Spec.specR x aon aoff i = (v : EReal) := by
  unfold Cert.Spec.specR
  dsimp only
  split
  · obtain ⟨u, hu⟩ := hx (Cert.Spec.pix ⟨(i 1).val, ValueIdx.idx2_lt1 i⟩)
    obtain ⟨w, hw⟩ := haon _
    exact ⟨u * w, by rw [hu, hw, EReal.coe_mul]⟩
  · obtain ⟨u, hu⟩ := hx (Cert.Spec.pix ⟨(i 1).val, ValueIdx.idx2_lt1 i⟩)
    obtain ⟨w, hw⟩ := haoff _
    exact ⟨(1 - u) * w, by rw [hu, hw, specOne_real, ← EReal.coe_sub, EReal.coe_mul]⟩

/-! ## The clipped indices name the specification's rows -/

/-- The clipped index, read signed, is the clamped row and lies among the rows. -/
private theorem clip_rows (idx : IVec S3072 32) (t : Fin 3072) :
    (clipIdx idx (ValueIdx.ix1 t)).toInt.toNat = min (idx (ValueIdx.ix1 t)).toInt.toNat 2047
      ∧ 0 ≤ (clipIdx idx (ValueIdx.ix1 t)).toInt ∧ (clipIdx idx (ValueIdx.ix1 t)).toInt < 2048 := by
  have h1 := clipIdx_toInt idx t
  have h2 := clipIdx_toNat idx t
  have hI := BitVec.toInt_eq_toNat_cond (clipIdx idx (ValueIdx.ix1 t))
  refine ⟨h1, ?_, ?_⟩ <;> (split at hI <;> omega)

/-- A word of the table read as a row: itself below 2048, the specification's row above. -/
private theorem tblRow_table (idx : IVec S3072 32) (q : Fin 5120) :
    tblRow (table idx) q = if h : q.val < 2048 then (⟨q.val, h⟩ : Fin 2048) else Cert.Spec.rowOf idx ⟨q.val - 2048, by omega⟩ := by
  refine Fin.ext ?_
  have hlt := table_toNat_lt idx q
  have hrow := table_row idx q
  show min (table idx (ValueIdx.ix1 q)).toNat 2047 = _
  rw [Nat.min_eq_left (by omega), hrow]
  split <;> rfl

/-! ## The regions' results, read off the staged valuations -/

section Staged

variable (m : (ℓ : Loc nD τ sig) → Buf (Elt Ideal) ℓ) (c : Dev nD)
variable (d0 : Contents Ideal → (c : Dev nD) → Pipeline.Dat τ (Elt Ideal) Unit ℕ UU ℕ cfg0 c)
variable (d2 : Contents Ideal → (c : Dev nD) → Pipeline.Dat τ (Elt Ideal) Unit ℕ UU ℕ cfg2 c)

/-- The arguments reach the first region as launched. -/
private theorem C2_arg0 : C2 m c main_arg0 = m ((c : Thread nD τ).loc main_arg0) :=
  (V2_of m c main_arg0 (by decide)).trans ((V1_of m c main_arg0 (by decide)).trans rfl)
private theorem C2_arg1 : C2 m c main_arg1 = m ((c : Thread nD τ).loc main_arg1) :=
  (V2_of m c main_arg1 (by decide)).trans ((V1_of m c main_arg1 (by decide)).trans rfl)
private theorem C2_arg2 : C2 m c main_arg2 = m ((c : Thread nD τ).loc main_arg2) :=
  (V2_of m c main_arg2 (by decide)).trans ((V1_of m c main_arg2 (by decide)).trans rfl)

/-- The first region's f32 result is its window 3's array at the end of the grid. -/
private theorem outsA_v1_0 : outsA m d0 3 main_v1_0 c = (d0 (C2 m) c).arrAt 3 cfg0.N := by
  show U3 m d0 c (Proc.devRef .tc main_v1_0) = _
  unfold U3
  exact Pipeline.withArrays_arr spec0 winFacts0.arr_inj c (V2 m c) (fun w => (d0 (C2 m) c).arrAt w cfg0.N) 3

/-- Its 16-bit result is window 4's. -/
private theorem outsB_v1_1 : outsB m d0 3 main_v1_1 c = (d0 (C2 m) c).arrAt 4 cfg0.N := by
  show U3 m d0 c (Proc.devRef .tc main_v1_1) = _
  unfold U3
  exact Pipeline.withArrays_arr spec0 winFacts0.arr_inj c (V2 m c) (fun w => (d0 (C2 m) c).arrAt w cfg0.N) 4

/-- The second region leaves its operand r as it found it. -/
private theorem outsC_v2 : outsC m d0 d2 5 main_v2 c = V4 m (outsA m d0) c main_v2 := by
  show U5 m d0 c (Proc.devRef .tc main_v2) = _
  unfold U5
  rw [Function.update_of_ne (StableHlo.devRef_ne_of_ne (by decide : main_v2 ≠ main_v6))]

/-- The second region leaves in l the 5120 rows gathered. -/
private theorem outsC_v6 : outsC m d0 d2 5 main_v6 c
    = gathered (F := Ideal) 40 (C4 m d0 c main_v5) (C4 m d0 c main_v2) (C4 m d0 c main_v6) := by
  show U5 m d0 c (Proc.devRef .tc main_v6) = _
  unfold U5
  rw [Function.update_self]

/-- The third region's result is its window 2's array at the end of the grid. -/
private theorem outsC_v16 : outsC m d0 d2 7 main_v16 c = (d2 (C6 m d0) c).arrAt 2 cfg2.N := by
  show U7 m d0 d2 c (Proc.devRef .tc main_v16) = _
  unfold U7
  exact Pipeline.withArrays_arr spec2 winFacts2.arr_inj c (V6 m (outsB m d0) c) (fun w => (d2 (C6 m d0) c).arrAt w cfg2.N) 2

end Staged

/-! ## The three results -/

section Results

open Idealize.ShloMosaic.ValueIdx

variable (m : (ℓ : Loc nD τ sig) → Buf (Elt Ideal) ℓ) (c : Dev nD)
variable (d2 : Contents Ideal → (c : Dev nD) → Pipeline.Dat τ (Elt Ideal) Unit ℕ UU ℕ cfg2 c)

/-- The five arguments as the launch memory holds them. -/
abbrev argX : FVec Ideal Cert.Spec.SX .f32 := m ((c : Thread nD τ).loc main_arg0)
abbrev argOn : FVec Ideal Cert.Spec.SA .f32 := m ((c : Thread nD τ).loc main_arg1)
abbrev argOff : FVec Ideal Cert.Spec.SA .f32 := m ((c : Thread nD τ).loc main_arg2)
abbrev argConn : FVec Ideal Cert.Spec.SC .f32 := m ((c : Thread nD τ).loc main_arg3)
abbrev argIdx : IVec Cert.Spec.SI 32 := m ((c : Thread nD τ).loc main_arg4)

/-- The first region's f32 result, flattened, is the retinal stage: entry by entry (a pixel's row and column put
    back together are the pixel), -/
theorem V4_v2_apply (n : Fin 2048) (p : Fin 16384) :
    (V4 m (outsA m (dat0 (F := Ideal))) c main_v2 : S2048x16384.Idx → EReal) (ix2 n p)
      = Cert.Spec.specR (argX m c) (argOn m c) (argOff m c) (ix2 n p) := by
  refine (V4_main_v2_apply m (outsA m (dat0 (F := Ideal))) c n p).trans ?_
  refine (congrFun (outsA_v1_0 m c (dat0 (F := Ideal))) _).trans ?_
  refine (final0_3 (C2 m) c n _ _).trans ?_
  rw [C2_arg0, C2_arg1, C2_arg2]
  exact congrArg (fun q : Fin 16384 => Cert.Spec.specR (argX m c) (argOn m c) (argOff m c) (ix2 n q))
    (Fin.ext (Nat.div_add_mod p.val 128))

/-- and as arrays. -/
theorem V4_v2_eq : (V4 m (outsA m (dat0 (F := Ideal))) c main_v2 : S2048x16384.Idx → EReal)
    = Cert.Spec.specR (argX m c) (argOn m c) (argOff m c) := by
  refine funext fun (i : S2048x16384.Idx) => ?_
  rw [eq_ix2 i]
  exact V4_v2_apply m c _ _

/-- So is its 16-bit copy: the same extended reals. -/
theorem V4_v3_apply (n : Fin 2048) (p : Fin 16384) :
    (V4 m (outsB m (dat0 (F := Ideal))) c main_v3 : S2048x16384.Idx → EReal) (ix2 n p)
      = Cert.Spec.specR (argX m c) (argOn m c) (argOff m c) (ix2 n p) := by
  refine (V4_main_v3_apply m (outsB m (dat0 (F := Ideal))) c n p).trans ?_
  refine (congrFun (outsB_v1_1 m c (dat0 (F := Ideal))) _).trans ?_
  refine (final0_4 (C2 m) c n _ _).trans ?_
  rw [C2_arg0, C2_arg1, C2_arg2]
  exact congrArg (fun q : Fin 16384 => Cert.Spec.specR (argX m c) (argOn m c) (argOff m c) (ix2 n q))
    (Fin.ext (Nat.div_add_mod p.val 128))

theorem V4_v3_eq : (V4 m (outsB m (dat0 (F := Ideal))) c main_v3 : S2048x16384.Idx → EReal)
    = Cert.Spec.specR (argX m c) (argOn m c) (argOff m c) := by
  refine funext fun (i : S2048x16384.Idx) => ?_
  rw [eq_ix2 i]
  exact V4_v3_apply m c _ _

end Results

section Results2

open Idealize.ShloMosaic.ValueIdx

variable (m : (ℓ : Loc nD τ sig) → Buf (Elt Ideal) ℓ) (c : Dev nD)
variable (d2 : Contents Ideal → (c : Dev nD) → Pipeline.Dat τ (Elt Ideal) Unit ℕ UU ℕ cfg2 c)

/-- THE RETINAL STAGE: the second region's operand, untouched by it, at the end. -/
theorem res_r_of : (V7 m (outsC m (dat0 (F := Ideal)) d2) c main_v2 : S2048x16384.Idx → EReal)
    = Cert.Spec.specR (argX m c) (argOn m c) (argOff m c) := by
  refine Eq.trans ?_ (V4_v2_eq m c)
  exact (V7_main_v2 m (outsC m (dat0 (F := Ideal)) d2) c).trans (outsC_v2 m c (dat0 (F := Ideal)) d2)

/-- Row q of the gathered array is the row of the retinal stage that the table's word q names: row q itself below
    2048, the specification's row above. -/
theorem res_l_apply (q : Fin 5120) (k : Fin 16384) :
    (V7 m (outsC m (dat0 (F := Ideal)) d2) c main_v6 : S5120x16384.Idx → EReal) (ix2 q k)
      = Cert.Spec.specL (Cert.Spec.specR (argX m c) (argOn m c) (argOff m c)) (argIdx m c) (ix2 q k) := by
  refine (congrFun ((V7_main_v6 m (outsC m (dat0 (F := Ideal)) d2) c).trans
    (outsC_v6 m c (dat0 (F := Ideal)) d2)) (ix2 q k)).trans ?_
  rw [gathered_all]
  have hT : (C4 m (dat0 (F := Ideal)) c main_v5 : IVec S5120 32) = table (argIdx m c) :=
    V4_main_v5 m (outsA m (dat0 (F := Ideal))) c
  have hr : (C4 m (dat0 (F := Ideal)) c main_v2 : S2048x16384.Idx → EReal)
      = Cert.Spec.specR (argX m c) (argOn m c) (argOff m c) := V4_v2_eq m c
  show (C4 m (dat0 (F := Ideal)) c main_v2 : S2048x16384.Idx → EReal)
    (ix2 (tblRow (C4 m (dat0 (F := Ideal)) c main_v5 : IVec S5120 32) q) k) = _
  rw [hT, hr, tblRow_table]
  show _ = if h : q.val < 2048 then Cert.Spec.specR (argX m c) (argOn m c) (argOff m c) (ix2 (⟨q.val, h⟩ : Fin 2048) k)
    else Cert.Spec.specR (argX m c) (argOn m c) (argOff m c) (ix2 (Cert.Spec.rowOf (argIdx m c) ⟨q.val - 2048, by omega⟩) k)
  by_cases h : q.val < 2048
  · rw [dif_pos h, dif_pos h]
  · rw [dif_neg h, dif_neg h]

/-- THE DUPLICATED STAGE. -/
theorem res_l_of : (V7 m (outsC m (dat0 (F := Ideal)) d2) c main_v6 : S5120x16384.Idx → EReal)
    = Cert.Spec.specL (Cert.Spec.specR (argX m c) (argOn m c) (argOff m c)) (argIdx m c) := by
  refine funext fun (i : S5120x16384.Idx) => ?_
  rw [eq_ix2 i]
  exact res_l_apply m c d2 _ _

end Results2

section Results3

open Idealize.ShloMosaic.ValueIdx

variable (m : (ℓ : Loc nD τ sig) → Buf (Elt Ideal) ℓ) (c : Dev nD)

/-- THE CORTICAL STAGE: the third region multiplies the effective matrix by the 16-bit copy of the retinal stage (the
    same extended reals), which is the connection matrix against the duplicated stage when every input is real. -/
theorem res_v_of (hx : ∀ i, ∃ v : ℝ, argX m c i = (v : EReal)) (haon : ∀ i, ∃ v : ℝ, argOn m c i = (v : EReal))
    (haoff : ∀ i, ∃ v : ℝ, argOff m c i = (v : EReal)) (hconn : ∀ i, ∃ v : ℝ, argConn m c i = (v : EReal)) :
    (V7 m (outsC m (dat0 (F := Ideal)) (dat2 (F := Ideal))) c main_v16 : S4096x16384.Idx → EReal)
      = Cert.Spec.specV (argConn m c)
          (Cert.Spec.specL (Cert.Spec.specR (argX m c) (argOn m c) (argOff m c)) (argIdx m c)) := by
  refine funext fun (i : S4096x16384.Idx) => ?_
  rw [eq_ix2 i]
  refine (congrFun ((V7_main_v16 m (outsC m (dat0 (F := Ideal)) (dat2 (F := Ideal))) c).trans
    (outsC_v16 m c (dat0 (F := Ideal)) (dat2 (F := Ideal)))) _).trans ?_
  refine (final2_2 (C6 m (dat0 (F := Ideal))) c
    (connEff (F := Ideal) (argConn m c) (clipIdx (argIdx m c)))
    (Cert.Spec.specR (argX m c) (argOn m c) (argOff m c))
    (V6_main_v15 m (outsB m (dat0 (F := Ideal))) c)
    ((V6_main_v3 m (outsB m (dat0 (F := Ideal))) c).trans (V4_v3_eq m c)) (i 0) (i 1)).trans ?_
  exact fold_eq (argConn m c) (argIdx m c) (clipIdx (argIdx m c))
    (Cert.Spec.specR (argX m c) (argOn m c) (argOff m c)) (clip_rows _) hconn
    (specR_real _ _ _ hx haon haoff) (i 0) (i 1)

end Results3

/-! ## The statements at the program's own proof data -/

section Final

variable (m : (ℓ : Loc nD τ sig) → Buf (Elt Ideal) ℓ) (c : Dev nD)

/-- The regions' results at the three regions' proof data. -/
abbrev outsK : Outs (F := Ideal) := outsC m (dat0 (F := Ideal)) (dat2 (F := Ideal))

/-- The first result is the retinal stage. -/
theorem res_r : (V7 m (outsK m) c main_v2 : S2048x16384.Idx → EReal)
    = Cert.Spec.specR (argX m c) (argOn m c) (argOff m c) :=
  res_r_of m c (dat2 (F := Ideal))

/-- The second result is the duplicated stage. -/
theorem res_l : (V7 m (outsK m) c main_v6 : S5120x16384.Idx → EReal)
    = Cert.Spec.specL (Cert.Spec.specR (argX m c) (argOn m c) (argOff m c)) (argIdx m c) :=
  res_l_of m c (dat2 (F := Ideal))

/-- The third result is the cortical stage, when every float input is real. -/
theorem res_v (hx : ∀ i, ∃ v : ℝ, argX m c i = (v : EReal)) (haon : ∀ i, ∃ v : ℝ, argOn m c i = (v : EReal))
    (haoff : ∀ i, ∃ v : ℝ, argOff m c i = (v : EReal)) (hconn : ∀ i, ∃ v : ℝ, argConn m c i = (v : EReal)) :
    (V7 m (outsK m) c main_v16 : S4096x16384.Idx → EReal)
      = Cert.Spec.specV (argConn m c)
          (Cert.Spec.specL (Cert.Spec.specR (argX m c) (argOn m c) (argOff m c)) (argIdx m c)) :=
  res_v_of m c hx haon haoff hconn

end Final

end Cert.KernelIdeal.Hand

end
-- ==== Proof.RefValue.lean ====
/-
  The reference's three results are the specification's functions of its arguments.
-/
import proofs.«402079_j32023276159552_3_alg».proof.Proof.Gen.ReferenceIdeal.Run
import proofs.«402079_j32023276159552_3_alg».proof.Proof.Gen.ReferenceIdeal.Read
import proofs.«402079_j32023276159552_3_alg».proof.Proof.Spec

noncomputable section

open scoped BigOperators

namespace Cert.RefValue

open Cert.Spec Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-- Broadcasting a 128×128 image to one leading unit axis and then along 1024 copies reads, at image a and pixel
    (b, c), the image at (b, c). -/
theorem bcast_on (a : Fin 1024) (b c : Fin 128) : idx_main_v0 (idx_main_v1 (ix3 a b c)) = ix2 b c := by
  funext d
  match d with
  | ⟨0, _⟩ => rfl
  | ⟨1, _⟩ => rfl

/-- The same for the second pair of broadcasts (of 1 − x). -/
theorem bcast_off (a : Fin 1024) (b c : Fin 128) : idx_main_v5 (idx_main_v6 (ix3 a b c)) = ix2 b c := by
  funext d
  match d with
  | ⟨0, _⟩ => rfl
  | ⟨1, _⟩ => rfl

/-- The retinal stage: row n of the reshaped concatenation is image n of the first piece (x ⊙ act_on) when n < 1024 and
    image n − 1024 of the second ((1 − x) ⊙ act_off) otherwise; the reshape keeps the row and splits the pixel p into
    (p / 128, p % 128); the two broadcasts of x (and of 1 − x) read x at that pixel. -/
theorem ref_r (x : FVec Ideal SX .f32) (aon aoff : FVec Ideal SA .f32) :
    val_main_v9 (F := Ideal) x aon aoff = specR x aon aoff := by
  funext i
  have h0 : (i 0).val < 2048 := idx2_lt0 i
  have h1 : (i 1).val < 16384 := idx2_lt1 i
  rw [val_main_v9_apply]
  unfold val_main_v8 specR
  by_cases h : (i 0).val < 1024
  · rw [dif_pos h]
    rw [concatenate_pair_apply_left (t := S2048x128x128) (s₁ := S1024x128x128) (s₂ := S1024x128x128) (0 : Fin 3) _ _ _ (idx_main_v9 i) rfl
      (ix3 (⟨(i 0).val, h⟩ : Fin 1024) (⟨(i 1).val / 128, by omega⟩ : Fin 128) (⟨(i 1).val % 128, by omega⟩ : Fin 128))
      (fun b => by
        match b with
        | ⟨0, _⟩ => show (i 0).val = ((i 0).val * 16384 + (i 1).val) / 16384; omega
        | ⟨1, _⟩ => show (i 1).val / 128 = ((i 0).val * 16384 + (i 1).val) / 128 % 128; omega
        | ⟨2, _⟩ => show (i 1).val % 128 = ((i 0).val * 16384 + (i 1).val) % 128; omega)]
    rw [val_main_v2_apply, val_main_v1_apply, val_main_v0_apply, bcast_on]
    rfl
  · rw [dif_neg h]
    rw [concatenate_pair_apply_right (t := S2048x128x128) (s₁ := S1024x128x128) (s₂ := S1024x128x128) (0 : Fin 3) _ _ _ (idx_main_v9 i) rfl rfl
      (ix3 (⟨(i 0).val - 1024, by omega⟩ : Fin 1024) (⟨(i 1).val / 128, by omega⟩ : Fin 128) (⟨(i 1).val % 128, by omega⟩ : Fin 128))
      (fun b hb => by
        match b with
        | ⟨0, _⟩ => exact absurd rfl hb
        | ⟨1, _⟩ => show (i 1).val / 128 = ((i 0).val * 16384 + (i 1).val) / 128 % 128; omega
        | ⟨2, _⟩ => show (i 1).val % 128 = ((i 0).val * 16384 + (i 1).val) % 128; omega)
      (by show (i 0).val - 1024 + 1024 = ((i 0).val * 16384 + (i 1).val) / 16384; omega)]
    rw [val_main_v7_apply, val_main_v6_apply, val_main_v5_apply, bcast_off, val_main_v4_apply, val_main_v3_apply, val_main_cst_apply]
    rfl

/-- A signed comparison "a < 0" of a word whose signed value is non-negative is the bit 0. -/
theorem slt_zero_of_nonneg (a : BitVec 32) (h : 0 ≤ a.toInt) : IntOp.cmpi .slt a 0#32 = 0#1 := by
  have hs : a.slt 0#32 = false := by
    simp only [BitVec.slt, BitVec.toInt_zero, decide_eq_false_iff_not, not_lt]
    exact h
  unfold IntOp.cmpi
  simp only [hs]
  rfl

/-- The start indices the gather reads: with every index non-negative the select keeps the index itself, and the
    broadcast to a trailing unit axis reads it at row t. -/
theorem start_idx (idx : IVec SI 32) (hidx : ∀ t : Fin 3072, 0 ≤ (idx (ix1 t)).toInt) (t : Fin 3072) :
    val_main_v15 (F := Ideal) idx (ix2 t (0 : Fin 1)) = idx (ix1 t) := by
  have e : idx_main_v15 (ix2 t (0 : Fin 1)) = ix1 t := by
    funext d
    match d with
    | ⟨0, _⟩ => rfl
  rw [val_main_v15_apply, e, val_main_v14_apply, val_main_v11_apply, val_main_v10_apply, val_main_c_apply,
    slt_zero_of_nonneg _ (hidx t), select_zero]

/-- The gather read at (t, b): the operand's row is the start index at (t, 0), read signed and clamped into 0..2047
    (axis 0 is the collapsed axis the start index names, so it carries no offset); its column is b (axis 1 is the
    offset axis, which the start index does not name, so its slice starts at 0). -/
theorem gather_row {α : Type} (r : S2048x16384.Idx → α) (si : IVec S3072x1 32) (t : Fin 3072) (b : Fin 16384) :
    Host.gather gather_S2048x16384_S3072x1_S3072x16384_1_0_n_n_0_1_116384 r si (ix2 t b)
      = r (ix2 (⟨min (si (ix2 t (0 : Fin 1))).toInt.toNat 2047, by omega⟩ : Fin 2048) b) := by
  unfold Host.gather
  congr 1
  funext a
  refine Fin.ext ?_
  match a with
  | ⟨0, _⟩ =>
    show gather_S2048x16384_S3072x1_S3072x16384_1_0_n_n_0_1_116384.start (ix2 t b) si 0
      + gather_S2048x16384_S3072x1_S3072x16384_1_0_n_n_0_1_116384.batchCoord (ix2 t b) 0
      + gather_S2048x16384_S3072x1_S3072x16384_1_0_n_n_0_1_116384.offCoord (ix2 t b) 0 = _
    rw [GatherDims.batchCoord_eq_zero _ _ _ (by decide), GatherDims.offCoord_eq_zero _ _ _ (by decide)]
    simp only [Nat.add_zero]
    unfold GatherDims.start
    rw [dif_pos (show (0 : Fin 2) ∈ gather_S2048x16384_S3072x1_S3072x16384_1_0_n_n_0_1_116384.startIndexMap by decide)]
    have hsi : gather_S2048x16384_S3072x1_S3072x16384_1_0_n_n_0_1_116384.siIdx (ix2 t b)
        ⟨List.idxOf (0 : Fin 2) gather_S2048x16384_S3072x1_S3072x16384_1_0_n_n_0_1_116384.startIndexMap,
          List.idxOf_lt_length_iff.2 (by decide)⟩ = ix2 t (0 : Fin 1) := by
      funext d
      refine Fin.ext ?_
      match d with
      | ⟨0, _⟩ => rfl
      | ⟨1, _⟩ => rfl
    rw [hsi]
    rfl
  | ⟨1, _⟩ =>
    show gather_S2048x16384_S3072x1_S3072x16384_1_0_n_n_0_1_116384.start (ix2 t b) si 1
      + gather_S2048x16384_S3072x1_S3072x16384_1_0_n_n_0_1_116384.batchCoord (ix2 t b) 1
      + gather_S2048x16384_S3072x1_S3072x16384_1_0_n_n_0_1_116384.offCoord (ix2 t b) 1 = b.val
    rw [GatherDims.batchCoord_eq_zero _ _ _ (by decide)]
    unfold GatherDims.start GatherDims.offCoord
    rw [dif_neg (show ¬(1 : Fin 2) ∈ gather_S2048x16384_S3072x1_S3072x16384_1_0_n_n_0_1_116384.startIndexMap by decide),
      dif_pos (show (1 : Fin 2) ∈ gather_S2048x16384_S3072x1_S3072x16384_1_0_n_n_0_1_116384.sKept by decide)]
    simp only [Nat.zero_add, Nat.add_zero]
    rfl

/-- The same, with the start index at (t, 0) named. -/
theorem gather_row_of {α : Type} (r : S2048x16384.Idx → α) (si : IVec S3072x1 32) (t : Fin 3072) (b : Fin 16384)
    (w : BitVec 32) (hw : si (ix2 t (0 : Fin 1)) = w) :
    Host.gather gather_S2048x16384_S3072x1_S3072x16384_1_0_n_n_0_1_116384 r si (ix2 t b)
      = r (ix2 (⟨min w.toInt.toNat 2047, by omega⟩ : Fin 2048) b) := by
  subst hw
  exact gather_row r si t b

/-- The duplicated stage: rows below 2048 of the concatenation are the retinal stage's; row 2048 + t is the gather's
    row t, which is the retinal stage's row at index t read signed and clamped (the select keeps a non-negative index). -/
theorem ref_l (x : FVec Ideal SX .f32) (aon aoff : FVec Ideal SA .f32) (idx : IVec SI 32)
    (hidx : ∀ t : Fin 3072, 0 ≤ (idx (ix1 t)).toInt) :
    val_main_v17 (F := Ideal) x aon aoff idx = specL (specR x aon aoff) idx := by
  funext i
  have h0 : (i 0).val < 5120 := idx2_lt0 i
  have h1 : (i 1).val < 16384 := idx2_lt1 i
  unfold val_main_v17 val_main_v16
  rw [ref_r]
  unfold specL
  by_cases h : (i 0).val < 2048
  · rw [dif_pos h]
    rw [concatenate_pair_apply_left (t := S5120x16384) (s₁ := S2048x16384) (s₂ := S3072x16384) (0 : Fin 2) _ _ _ i rfl
      (ix2 (⟨(i 0).val, h⟩ : Fin 2048) (⟨(i 1).val, h1⟩ : Fin 16384))
      (fun b => by
        match b with
        | ⟨0, _⟩ => rfl
        | ⟨1, _⟩ => rfl)]
  · rw [dif_neg h]
    rw [concatenate_pair_apply_right (t := S5120x16384) (s₁ := S2048x16384) (s₂ := S3072x16384) (0 : Fin 2) _ _ _ i rfl rfl
      (ix2 (⟨(i 0).val - 2048, by omega⟩ : Fin 3072) (⟨(i 1).val, h1⟩ : Fin 16384))
      (fun b hb => by
        match b with
        | ⟨0, _⟩ => exact absurd rfl hb
        | ⟨1, _⟩ => rfl)
      (by show (i 0).val - 2048 + 2048 = (i 0).val; omega)]
    rw [gather_row_of _ _ _ _ _ (start_idx idx hidx _)]
    rfl

/-- The cortical stage: the host's dot_general on the extended reals is the sum over the one contracted axis, the left
    operand read at (row, k) and the right at (k, column). -/
theorem ref_v (conn : FVec Ideal SC .f32) (l : FVec Ideal SL .f32) :
    Host.dotGeneral (F := Ideal) dot_S4096x5120_S5120x16384_S4096x16384_1_0_0_1_n_n none conn l = specV conn l := by
  funext i
  simp only [Host.dotGeneral]
  rw [Ideal.dotGeneral_apply, ← Equiv.sum_comp (ValueIdx.contrEquiv1 dot_S4096x5120_S5120x16384_S4096x16384_1_0_0_1_n_n 5120 rfl rfl).symm]
  unfold specV
  refine Finset.sum_congr rfl fun k _ => ?_
  have hk := ValueIdx.contrEquiv1_symm_val dot_S4096x5120_S5120x16384_S4096x16384_1_0_0_1_n_n 5120 rfl rfl k
  have el : dot_S4096x5120_S5120x16384_S4096x16384_1_0_0_1_n_n.lhsIdx i
      ((ValueIdx.contrEquiv1 dot_S4096x5120_S5120x16384_S4096x16384_1_0_0_1_n_n 5120 rfl rfl).symm k)
      = ix2 (⟨(i 0).val, idx2_lt0 i⟩ : Fin 4096) k := funext fun a => Fin.ext (by
    match a with
    | ⟨0, _⟩ => exact lhs_main_v18_0 _ _
    | ⟨1, _⟩ => exact (lhs_main_v18_1 _ _).trans hk)
  have er : dot_S4096x5120_S5120x16384_S4096x16384_1_0_0_1_n_n.rhsIdx i
      ((ValueIdx.contrEquiv1 dot_S4096x5120_S5120x16384_S4096x16384_1_0_0_1_n_n 5120 rfl rfl).symm k)
      = ix2 k (⟨(i 1).val, idx2_lt1 i⟩ : Fin 16384) := funext fun a => Fin.ext (by
    match a with
    | ⟨0, _⟩ => exact (rhs_main_v18_0 _ _).trans hk
    | ⟨1, _⟩ => exact rhs_main_v18_1 _ _)
  rw [el, er]

/-- Every weakly fair execution of the reference from memory m' ends with its three results at the specification's
    functions of the launch contents of its arguments, the arguments unchanged, when every index is non-negative. -/
theorem run (m' : (ℓ : Loc Cert.ReferenceIdeal.nD Cert.ReferenceIdeal.τ Cert.ReferenceIdeal.sig) → Buf (Elt Ideal) ℓ)
    (g' : Dev Cert.ReferenceIdeal.nD → PrngReg)
    (hidx : ∀ (c : Dev Cert.ReferenceIdeal.nD) (t : Fin 3072),
      0 ≤ ((m' ((c.tc : Thread Cert.ReferenceIdeal.nD Cert.ReferenceIdeal.τ).loc Cert.ReferenceIdeal.main_arg4)) (ValueIdx.ix1 t)).toInt) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
          r.2.mem ((c.tc : Thread Cert.ReferenceIdeal.nD Cert.ReferenceIdeal.τ).loc Cert.ReferenceIdeal.main_v9)
            = specR (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v17)
            = specL (specR (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2)))
                (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_v18)
            = specV (m' ((c.tc : Thread Cert.ReferenceIdeal.nD Cert.ReferenceIdeal.τ).loc Cert.ReferenceIdeal.main_arg3))
                (specL (specR (m' ((c.tc : Thread Cert.ReferenceIdeal.nD Cert.ReferenceIdeal.τ).loc Cert.ReferenceIdeal.main_arg0))
                  (m' ((c.tc : Thread Cert.ReferenceIdeal.nD Cert.ReferenceIdeal.τ).loc Cert.ReferenceIdeal.main_arg1))
                  (m' ((c.tc : Thread Cert.ReferenceIdeal.nD Cert.ReferenceIdeal.τ).loc Cert.ReferenceIdeal.main_arg2)))
                  (m' ((c.tc : Thread Cert.ReferenceIdeal.nD Cert.ReferenceIdeal.τ).loc Cert.ReferenceIdeal.main_arg4)))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono (fun _ h c =>
    ⟨(h c).1.trans ((val_main_v9_eq _ _ _).trans (ref_r _ _ _)),
      (h c).2.1.trans ((val_main_v17_eq _ _ _ _).trans (ref_l _ _ _ _ (hidx c))),
      (h c).2.2.1.trans ((val_main_v18_eq _ _ _ _ _).trans
        ((congrArg (Host.dotGeneral (F := Ideal) dot_S4096x5120_S5120x16384_S4096x16384_1_0_0_1_n_n none _) (ref_l _ _ _ _ (hidx c))).trans
          (ref_v _ _))),
      (h c).2.2.2⟩)
    (Cert.ReferenceIdeal.Value.run (F := Ideal) m' g')

end Cert.RefValue

end
-- ==== Proof.PreFacts.lean ====
/-
  The printed precondition, read back: every float input is a real number and every index word, read signed,
  lies in 0..2047.
-/
import proofs.«402079_j32023276159552_3_alg».proof.Proof.Gen.Pre_finite_inputs
import proofs.«402079_j32023276159552_3_alg».proof.Proof.Spec
import Idealize.ShloMosaic.Lib.ReduceAll
import Idealize.ShloMosaic.Lib.StableHlo.Predicate

noncomputable section

namespace Cert.PreFacts

open Cert.Spec Idealize.ShloMosaic Idealize.ShloMosaic.ValueIdx

/-- The shape with no axis has exactly one index. -/
instance : Subsingleton Cert.Pre_finite_inputs.S_.Idx := ⟨fun a b => funext fun d => d.elim0⟩

/-- An extended real whose absolute value max(a, −a) lies strictly below +∞ is neither +∞ nor −∞, hence a real number. -/
theorem real_of_abs_lt_top (a : Ideal .f32)
    (h : FloatOps.cmpf .olt (FloatOps.hostAbsf a) (FloatOps.ofBits (F := Ideal) .f32 0x7F800000#32) = 1#1) :
    ∃ v : ℝ, a = (v : EReal) := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  unfold Ideal.cmp at h
  have hlt : max (a : EReal) (-(a : EReal)) < ⊤ := by
    by_contra hn
    simp [hn] at h
  obtain ⟨h1, h2⟩ := max_lt_iff.1 hlt
  have hb : (a : EReal) ≠ ⊥ := by
    intro hh
    rw [hh] at h2
    simp at h2
  exact ⟨EReal.toReal a, (EReal.coe_toReal (ne_of_lt h1) hb).symm⟩

/-- Where the precondition holds — the conjunction, over the four float inputs, of "every |entry| < +∞", together with
    "every index word ≥ 0" (read signed) —, every float entry is a real number and every index word, read signed, is
    non-negative: a conjunction of bits is 1 only if each is, a reduction by "and" over all axes is 1 only if every
    element is, and a signed comparison bit is 1 exactly when the integers compare so. -/
theorem of_pre [Cert.Pre_finite_inputs.Facts] (x : FVec Ideal SX .f32) (aon aoff : FVec Ideal SA .f32) (conn : FVec Ideal SC .f32) (idx : IVec SI 32)
    (h : Cert.Pre_finite_inputs.fn (F := Ideal) x aon aoff conn idx = fun _ => 1#1) :
    (∀ i, ∃ v : ℝ, x i = (v : EReal)) ∧ (∀ i, ∃ v : ℝ, aon i = (v : EReal)) ∧ (∀ i, ∃ v : ℝ, aoff i = (v : EReal)) ∧ (∀ i, ∃ v : ℝ, conn i = (v : EReal))
    ∧ (∀ t : Fin 3072, 0 ≤ (idx (ix1 t)).toInt) := by
  have h0 := congrFun h ValueIdx.ix0
  dsimp only [Cert.Pre_finite_inputs.fn, Cert.Pre_finite_inputs.fn_part1] at h0
  obtain ⟨h4, hge⟩ := IntOp.andi_eq_one.1 h0
  obtain ⟨h3, hc⟩ := IntOp.andi_eq_one.1 h4
  obtain ⟨h2, hoff⟩ := IntOp.andi_eq_one.1 h3
  obtain ⟨hx, hon⟩ := IntOp.andi_eq_one.1 h2
  refine ⟨fun i => ?_, fun i => ?_, fun i => ?_, fun i => ?_, fun t => ?_⟩
  · exact real_of_abs_lt_top (x i) (Host.reduce_andi_all _ _ _ _ ix0 hx i)
  · exact real_of_abs_lt_top (aon i) (Host.reduce_andi_all _ _ _ _ ix0 hon i)
  · exact real_of_abs_lt_top (aoff i) (Host.reduce_andi_all _ _ _ _ ix0 hoff i)
  · exact real_of_abs_lt_top (conn i) (Host.reduce_andi_all _ _ _ _ ix0 hc i)
  · have e := Host.reduce_andi_all _ _ _ _ ix0 hge (ix1 t)
    have e' := IntOp.cmpi_sge.1 e
    exact e'

end Cert.PreFacts

end
-- ==== Proof.lean ====
/-
  The certificate's claim, assembled from the two programs' runs.

  Three results, as functions of the five inputs x : [128,128], act_on, act_off : [1024,128,128], conn : [4096,5120] and
  idx : [3072] (Proof/Spec.lean): the retinal stage r : [2048,16384], whose row n < 1024 is x ⊙ act_on[n] and whose row
  n ≥ 1024 is (1 − x) ⊙ act_off[n − 1024], each 128×128 image flattened row by row; the duplicated stage
  l : [5120,16384], the 2048 rows of r followed by the 3072 rows of r that idx names; the cortical stage
  v = conn · l : [4096,16384], a sum over the 5120 rows of l.

  The reference computes the three as written. The kernel program never forms conn · l: it folds the 3072 tail columns
  of conn onto the rows of r that they duplicate, eff = conn_head + fold : [4096,2048], and multiplies eff by r. That
  conn · l = eff · r, entry by entry, is distributivity and a regrouping of a finite sum: laws of the real numbers
  which the extended reals do not have (∞ − ∞ has no sum that distributes). So every float input must be a real number
  — the finiteness half of the precondition — and then every entry of r is one too, a product of reals or of one minus
  a real with a real. An index word is read signed; the kernel program clips it into 0..2047, the reference adds 2048 to
  a negative one and then clamps, and the two name the same row of r exactly when the word is non-negative — the other
  half of the precondition. Both programs leave their five arguments as launched. The word-level kernel program and its
  reading on the extended reals are one text: no operation was rewritten between them, and the statement that relates
  them is empty.
-/
import proofs.«402079_j32023276159552_3_alg».proof.Defs
import proofs.«402079_j32023276159552_3_alg».proof.Proof.Gen.Kernel
import proofs.«402079_j32023276159552_3_alg».proof.Proof.Gen.KernelIdeal
import proofs.«402079_j32023276159552_3_alg».proof.Proof.Gen.ReferenceIdeal
import proofs.«402079_j32023276159552_3_alg».proof.Proof.Gen.Pre_finite_inputs
import proofs.«402079_j32023276159552_3_alg».proof.Proof.KiMain
import proofs.«402079_j32023276159552_3_alg».proof.Proof.KbMain
import proofs.«402079_j32023276159552_3_alg».proof.Proof.KiValue
import proofs.«402079_j32023276159552_3_alg».proof.Proof.RefValue
import proofs.«402079_j32023276159552_3_alg».proof.Proof.PreFacts

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does the kernel program read on the extended reals: -/
theorem frame_ki : Cert.frame_KernelIdeal := fun m ρ _ => Cert.KernelIdeal.Hand.frame m ρ

/-- and the reference: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten between the word-level kernel program and its reading on the extended reals. -/
theorem preserves : Cert.preserves_Kernel_KernelIdeal := trivial

/-- On the extended reals, from memories that agree on the five arguments, every float entry a real number and every
    index word non-negative: both programs end with the retinal, the duplicated and the cortical stage of those
    arguments in their three results, and their arguments as launched. The kernel program's results are the stages by
    its regions' values (the cortical one by the fold law, which is where the entries must be real); the reference's
    by its operations read index by index (the duplicated one where the indices are non-negative). -/
theorem algebraic : Cert.algebraic_KernelIdeal_ReferenceIdeal := by
  intro m ρ m' ρ' hpre hagree
  have hfacts := fun c : Dev Cert.KernelIdeal.nD => Cert.PreFacts.of_pre
    (Cert.KernelIdeal.Hand.argX m c) (Cert.KernelIdeal.Hand.argOn m c) (Cert.KernelIdeal.Hand.argOff m c)
    (Cert.KernelIdeal.Hand.argConn m c) (Cert.KernelIdeal.Hand.argIdx m c) (hpre c)
  refine ⟨fun c => Cert.Spec.specR (Cert.KernelIdeal.Hand.argX m c) (Cert.KernelIdeal.Hand.argOn m c) (Cert.KernelIdeal.Hand.argOff m c),
    fun c => Cert.Spec.specL (Cert.Spec.specR (Cert.KernelIdeal.Hand.argX m c) (Cert.KernelIdeal.Hand.argOn m c) (Cert.KernelIdeal.Hand.argOff m c))
      (Cert.KernelIdeal.Hand.argIdx m c),
    fun c => Cert.Spec.specV (Cert.KernelIdeal.Hand.argConn m c)
      (Cert.Spec.specL (Cert.Spec.specR (Cert.KernelIdeal.Hand.argX m c) (Cert.KernelIdeal.Hand.argOn m c) (Cert.KernelIdeal.Hand.argOff m c))
        (Cert.KernelIdeal.Hand.argIdx m c)), ?_, ?_⟩
  · refine (θ_run Cert.KernelIdeal.defs _ _).mono (fun r h c => ?_) (Cert.KernelIdeal.Hand.run_main m ρ)
    obtain ⟨hx, haon, haoff, hconn, -⟩ := hfacts c
    exact ⟨(h c _ (Cert.KernelIdeal.Hand.mem_uc Cert.KernelIdeal.main_v2 (by decide))).trans (Cert.KernelIdeal.Hand.res_r m c),
      (h c _ (Cert.KernelIdeal.Hand.mem_uc Cert.KernelIdeal.main_v6 (by decide))).trans (Cert.KernelIdeal.Hand.res_l m c),
      (h c _ (Cert.KernelIdeal.Hand.mem_uc Cert.KernelIdeal.main_v16 (by decide))).trans (Cert.KernelIdeal.Hand.res_v m c hx haon haoff hconn),
      (h c _ (Cert.KernelIdeal.Hand.mem_uc Cert.KernelIdeal.main_arg0 (by decide))).trans (Cert.KernelIdeal.GenP.V7_main_arg0 m (Cert.KernelIdeal.Hand.outsM m) c),
      (h c _ (Cert.KernelIdeal.Hand.mem_uc Cert.KernelIdeal.main_arg1 (by decide))).trans (Cert.KernelIdeal.GenP.V7_main_arg1 m (Cert.KernelIdeal.Hand.outsM m) c),
      (h c _ (Cert.KernelIdeal.Hand.mem_uc Cert.KernelIdeal.main_arg2 (by decide))).trans (Cert.KernelIdeal.GenP.V7_main_arg2 m (Cert.KernelIdeal.Hand.outsM m) c),
      (h c _ (Cert.KernelIdeal.Hand.mem_uc Cert.KernelIdeal.main_arg3 (by decide))).trans (Cert.KernelIdeal.GenP.V7_main_arg3 m (Cert.KernelIdeal.Hand.outsM m) c),
      (h c _ (Cert.KernelIdeal.Hand.mem_uc Cert.KernelIdeal.main_arg4 (by decide))).trans (Cert.KernelIdeal.GenP.V7_main_arg4 m (Cert.KernelIdeal.Hand.outsM m) c)⟩
  · have hidx' : ∀ (c : Dev Cert.ReferenceIdeal.nD) (t : Fin 3072),
        0 ≤ ((m' ((c.tc : Thread Cert.ReferenceIdeal.nD Cert.ReferenceIdeal.τ).loc Cert.ReferenceIdeal.main_arg4)) (ValueIdx.ix1 t)).toInt := by
      intro c t
      rw [(hagree c).2.2.2.2]
      exact (hfacts c).2.2.2.2 t
    refine (θ_run Cert.ReferenceIdeal.defs _ _).mono (fun r h c => ?_) (Cert.RefValue.run m' ρ' hidx')
    obtain ⟨h0, h1, h2, hargs⟩ := h c
    rw [(hagree c).1, (hagree c).2.1, (hagree c).2.2.1] at h0
    rw [(hagree c).1, (hagree c).2.1, (hagree c).2.2.1, (hagree c).2.2.2.2] at h1
    rw [(hagree c).1, (hagree c).2.1, (hagree c).2.2.1, (hagree c).2.2.2.1, (hagree c).2.2.2.2] at h2
    exact ⟨h0, h1, h2, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
